-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x4096 : Shape := ⟨3, ![1, 1, 4096]⟩
abbrev S12288x4096 : Shape := ⟨2, ![12288, 4096]⟩
abbrev S12288 : Shape := ⟨1, ![12288]⟩
abbrev S50257x4096 : Shape := ⟨2, ![50257, 4096]⟩
abbrev S50257 : Shape := ⟨1, ![50257]⟩
abbrev S_ : Shape := ⟨0, ![]⟩

class Facts : Prop where
  bcast_S_S1x1x4096 : S_.BroadcastsInDim S1x1x4096 (![] : Fin 0 → Fin S1x1x4096.rank)
  reducesTo_S1x1x4096_S_d0_1_2 : S1x1x4096.ReducesTo [0, 1, 2] S_
  h_S_ : 0 < S_.numel
  bcast_S_S12288x4096 : S_.BroadcastsInDim S12288x4096 (![] : Fin 0 → Fin S12288x4096.rank)
  reducesTo_S12288x4096_S_d0_1 : S12288x4096.ReducesTo [0, 1] S_
  bcast_S_S12288 : S_.BroadcastsInDim S12288 (![] : Fin 0 → Fin S12288.rank)
  reducesTo_S12288_S_d0 : S12288.ReducesTo [0] S_
  bcast_S_S50257x4096 : S_.BroadcastsInDim S50257x4096 (![] : Fin 0 → Fin S50257x4096.rank)
  reducesTo_S50257x4096_S_d0_1 : S50257x4096.ReducesTo [0, 1] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg11 : FVec F S50257 .f32) (main_v48 : IVec S_ 1) (main_v49 : FVec F S50257x4096 .f32) (main_v50 : FVec F S50257x4096 .f32) : IVec S_ 1 :=
  let main_v51 : IVec S50257x4096 1 := cmpf .olt main_v49 main_v50
  let main_c_19 : IVec S_ 1 := constantI S_ 1 1#1
  let main_v52 : IVec S_ 1 := (fun x v => Host.reduce IntOp.andi x v reducesTo_S50257x4096_S_d0_1 h_S_) main_v51 main_c_19
  let main_v53 : IVec S_ 1 := andi main_v48 main_v52
  let main_v54 : FVec F S50257 .f32 := Host.absf main_arg11
  let main_cst_20 : FVec F S_ .f32 := constant S_ .f32 0x7F800000#32
  let main_v55 : FVec F S50257 .f32 := broadcastInDim S50257 ![] bcast_S_S50257 main_cst_20
  let main_v56 : IVec S50257 1 := cmpf .olt main_v54 main_v55
  let main_c_21 : IVec S_ 1 := constantI S_ 1 1#1
  let main_v57 : IVec S_ 1 := (fun x v => Host.reduce IntOp.andi x v reducesTo_S50257_S_d0 h_S_) main_v56 main_c_21
  let main_v58 : IVec S_ 1 := andi main_v53 main_v57
  main_v58

def fn_part2 {F : FTy → Type} [FloatOps F] (main_arg7 : FVec F S12288x4096 .f32) (main_arg8 : FVec F S12288 .f32) (main_arg9 : FVec F S12288 .f32) (main_arg10 : FVec F S50257x4096 .f32) (main_arg11 : FVec F S50257 .f32) (main_v33 : IVec S_ 1) : IVec S_ 1 :=
  let main_v34 : FVec F S12288x4096 .f32 := Host.absf main_arg7
  let main_cst_12 : FVec F S_ .f32 := constant S_ .f32 0x7F800000#32
  let main_v35 : FVec F S12288x4096 .f32 := broadcastInDim S12288x4096 ![] bcast_S_S12288x4096 main_cst_12
  let main_v36 : IVec S12288x4096 1 := cmpf .olt main_v34 main_v35
  let main_c_13 : IVec S_ 1 := constantI S_ 1 1#1
  let main_v37 : IVec S_ 1 := (fun x v => Host.reduce IntOp.andi x v reducesTo_S12288x4096_S_d0_1 h_S_) main_v36 main_c_13
  let main_v38 : IVec S_ 1 := andi main_v33 main_v37
  let main_v39 : FVec F S12288 .f32 := Host.absf main_arg8
  let main_cst_14 : FVec F S_ .f32 := constant S_ .f32 0x7F800000#32
  let main_v40 : FVec F S12288 .f32 := broadcastInDim S12288 ![] bcast_S_S12288 main_cst_14
  let main_v41 : IVec S12288 1 := cmpf .olt main_v39 main_v40
  let main_c_15 : IVec S_ 1 := constantI S_ 1 1#1
  let main_v42 : IVec S_ 1 := (fun x v => Host.reduce IntOp.andi x v reducesTo_S12288_S_d0 h_S_) main_v41 main_c_15
  let main_v43 : IVec S_ 1 := andi main_v38 main_v42
  let main_v44 : FVec F S12288 .f32 := Host.absf main_arg9
  let main_cst_16 : FVec F S_ .f32 := constant S_ .f32 0x7F800000#32
  let main_v45 : FVec F S12288 .f32 := broadcastInDim S12288 ![] bcast_S_S12288 main_cst_16
  let main_v46 : IVec S12288 1 := cmpf .olt main_v44 main_v45
  let main_c_17 : IVec S_ 1 := constantI S_ 1 1#1
  let main_v47 : IVec S_ 1 := (fun x v => Host.reduce IntOp.andi x v reducesTo_S12288_S_d0 h_S_) main_v46 main_c_17
  let main_v48 : IVec S_ 1 := andi main_v43 main_v47
  let main_v49 : FVec F S50257x4096 .f32 := Host.absf main_arg10
  let main_cst_18 : FVec F S_ .f32 := constant S_ .f32 0x7F800000#32
  let main_v50 : FVec F S50257x4096 .f32 := broadcastInDim S50257x4096 ![] bcast_S_S50257x4096 main_cst_18
  fn_part3 (F := F) main_arg11 main_v48 main_v49 main_v50

def fn_part1 {F : FTy → Type} [FloatOps F] (main_arg4 : FVec F S12288 .f32) (main_arg5 : FVec F S12288 .f32) (main_arg6 : FVec F S12288x4096 .f32) (main_arg7 : FVec F S12288x4096 .f32) (main_arg8 : FVec F S12288 .f32) (main_arg9 : FVec F S12288 .f32) (main_arg10 : FVec F S50257x4096 .f32) (main_arg11 : FVec F S50257 .f32) (main_v13 : IVec S_ 1) (main_v16 : IVec S12288x4096 1) : IVec S_ 1 :=
  let main_c_5 : IVec S_ 1 := constantI S_ 1 1#1
  let main_v17 : IVec S_ 1 := (fun x v => Host.reduce IntOp.andi x v reducesTo_S12288x4096_S_d0_1 h_S_) main_v16 main_c_5
  let main_v18 : IVec S_ 1 := andi main_v13 main_v17
  let main_v19 : FVec F S12288 .f32 := Host.absf main_arg4
  let main_cst_6 : FVec F S_ .f32 := constant S_ .f32 0x7F800000#32
  let main_v20 : FVec F S12288 .f32 := broadcastInDim S12288 ![] bcast_S_S12288 main_cst_6
  let main_v21 : IVec S12288 1 := cmpf .olt main_v19 main_v20
  let main_c_7 : IVec S_ 1 := constantI S_ 1 1#1
  let main_v22 : IVec S_ 1 := (fun x v => Host.reduce IntOp.andi x v reducesTo_S12288_S_d0 h_S_) main_v21 main_c_7
  let main_v23 : IVec S_ 1 := andi main_v18 main_v22
  let main_v24 : FVec F S12288 .f32 := Host.absf main_arg5
  let main_cst_8 : FVec F S_ .f32 := constant S_ .f32 0x7F800000#32
  let main_v25 : FVec F S12288 .f32 := broadcastInDim S12288 ![] bcast_S_S12288 main_cst_8
  let main_v26 : IVec S12288 1 := cmpf .olt main_v24 main_v25
  let main_c_9 : IVec S_ 1 := constantI S_ 1 1#1
  let main_v27 : IVec S_ 1 := (fun x v => Host.reduce IntOp.andi x v reducesTo_S12288_S_d0 h_S_) main_v26 main_c_9
  let main_v28 : IVec S_ 1 := andi main_v23 main_v27
  let main_v29 : FVec F S12288x4096 .f32 := Host.absf main_arg6
  let main_cst_10 : FVec F S_ .f32 := constant S_ .f32 0x7F800000#32
  let main_v30 : FVec F S12288x4096 .f32 := broadcastInDim S12288x4096 ![] bcast_S_S12288x4096 main_cst_10
  let main_v31 : IVec S12288x4096 1 := cmpf .olt main_v29 main_v30
  let main_c_11 : IVec S_ 1 := constantI S_ 1 1#1
  let main_v32 : IVec S_ 1 := (fun x v => Host.reduce IntOp.andi x v reducesTo_S12288x4096_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1x1x4096 .f32) (main_arg1 : FVec F S1x1x4096 .f32) (main_arg2 : FVec F S12288x4096 .f32) (main_arg3 : FVec F S12288x4096 .f32) (main_arg4 : FVec F S12288 .f32) (main_arg5 : FVec F S12288 .f32) (main_arg6 : FVec F S12288x4096 .f32) (main_arg7 : FVec F S12288x4096 .f32) (main_arg8 : FVec F S12288 .f32) (main_arg9 : FVec F S12288 .f32) (main_arg10 : FVec F S50257x4096 .f32) (main_arg11 : FVec F S50257 .f32) : IVec S_ 1 :=
  let main_v0 : FVec F S1x1x4096 .f32 := Host.absf main_arg0
  let main_cst : FVec F S_ .f32 := constant S_ .f32 0x7F800000#32
  let main_v1 : FVec F S1x1x4096 .f32 := broadcastInDim S1x1x4096 ![] bcast_S_S1x1x4096 main_cst
  let main_v2 : IVec S1x1x4096 1 := cmpf .olt main_v0 main_v1
  let main_c : IVec S_ 1 := constantI S_ 1 1#1
  let main_v3 : IVec S_ 1 := (fun x v => Host.reduce IntOp.andi x v reducesTo_S1x1x4096_S_d0_1_2 h_S_) main_v2 main_c
  let main_v4 : FVec F S1x1x4096 .f32 := Host.absf main_arg1
  let main_cst_0 : FVec F S_ .f32 := constant S_ .f32 0x7F800000#32
  let main_v5 : FVec F S1x1x4096 .f32 := broadcastInDim S1x1x4096 ![] bcast_S_S1x1x4096 main_cst_0
  let main_v6 : IVec S1x1x4096 1 := cmpf .olt main_v4 main_v5
  let main_c_1 : IVec S_ 1 := constantI S_ 1 1#1
  let main_v7 : IVec S_ 1 := (fun x v => Host.reduce IntOp.andi x v reducesTo_S1x1x4096_S_d0_1_2 h_S_) main_v6 main_c_1
  let main_v8 : IVec S_ 1 := andi main_v3 main_v7
  let main_v9 : FVec F S12288x4096 .f32 := Host.absf main_arg2
  let main_cst_2 : FVec F S_ .f32 := constant S_ .f32 0x7F800000#32
  let main_v10 : FVec F S12288x4096 .f32 := broadcastInDim S12288x4096 ![] bcast_S_S12288x4096 main_cst_2
  let main_v11 : IVec S12288x4096 1 := cmpf .olt main_v9 main_v10
  let main_c_3 : IVec S_ 1 := constantI S_ 1 1#1
  let main_v12 : IVec S_ 1 := (fun x v => Host.reduce IntOp.andi x v reducesTo_S12288x4096_S_d0_1 h_S_) main_v11 main_c_3
  let main_v13 : IVec S_ 1 := andi main_v8 main_v12
  let main_v14 : FVec F S12288x4096 .f32 := Host.absf main_arg3
  let main_cst_4 : FVec F S_ .f32 := constant S_ .f32 0x7F800000#32
  let main_v15 : FVec F S12288x4096 .f32 := broadcastInDim S12288x4096 ![] bcast_S_S12288x4096 main_cst_4
  let main_v16 : IVec S12288x4096 1 := cmpf .olt main_v14 main_v15
  fn_part1 (F := F) main_arg4 main_arg5 main_arg6 main_arg7 main_arg8 main_arg9 main_arg10 main_arg11 main_v13 main_v16
-- ==== Kernel.lean ====
abbrev S1x1x4096 : Shape := ⟨3, ![1, 1, 4096]⟩
abbrev S12288x4096 : Shape := ⟨2, ![12288, 4096]⟩
abbrev S12288 : Shape := ⟨1, ![12288]⟩
abbrev S50257x4096 : Shape := ⟨2, ![50257, 4096]⟩
abbrev S50257 : Shape := ⟨1, ![50257]⟩
abbrev S1x4096 : Shape := ⟨2, ![1, 4096]⟩
abbrev S1x12288 : Shape := ⟨2, ![1, 12288]⟩
abbrev S1x128 : Shape := ⟨2, ![1, 128]⟩
abbrev S128x4096 : Shape := ⟨2, ![128, 4096]⟩
abbrev S1x50257 : Shape := ⟨2, ![1, 50257]⟩
abbrev S512x4096 : Shape := ⟨2, ![512, 4096]⟩
abbrev S1x512 : Shape := ⟨2, ![1, 512]⟩
abbrev S_ : Shape := ⟨0, ![]⟩
abbrev S1 : Shape := ⟨1, ![1]⟩
abbrev S1x1 : Shape := ⟨2, ![1, 1]⟩

abbrev nBuf : Space → Nat
  | .hbm => 38
  | .vmem => 67
  | .smem => 0
  | _ => 0

abbrev bufTy : (tb : Table) → Fin (tcTables nBuf tb) → BufTy
  | .hbm, ⟨0, _⟩ => ⟨S1x1x4096, .f32⟩
  | .hbm, ⟨1, _⟩ => ⟨S1x1x4096, .f32⟩
  | .hbm, ⟨2, _⟩ => ⟨S12288x4096, .f32⟩
  | .hbm, ⟨3, _⟩ => ⟨S12288x4096, .f32⟩
  | .hbm, ⟨4, _⟩ => ⟨S12288, .f32⟩
  | .hbm, ⟨5, _⟩ => ⟨S12288, .f32⟩
  | .hbm, ⟨6, _⟩ => ⟨S12288x4096, .f32⟩
  | .hbm, ⟨7, _⟩ => ⟨S12288x4096, .f32⟩
  | .hbm, ⟨8, _⟩ => ⟨S12288, .f32⟩
  | .hbm, ⟨9, _⟩ => ⟨S12288, .f32⟩
  | .hbm, ⟨10, _⟩ => ⟨S50257x4096, .f32⟩
  | .hbm, ⟨11, _⟩ => ⟨S50257, .f32⟩
  | .hbm, ⟨12, _⟩ => ⟨S1x4096, .f32⟩
  | .hbm, ⟨13, _⟩ => ⟨S1x4096, .f32⟩
  | .hbm, ⟨14, _⟩ => ⟨S1x12288, .f32⟩
  | .hbm, ⟨15, _⟩ => ⟨S1x12288, .f32⟩
  | .hbm, ⟨16, _⟩ => ⟨S1x4096, .f32⟩
  | .hbm, ⟨17, _⟩ => ⟨S1x12288, .f32⟩
  | .hbm, ⟨18, _⟩ => ⟨S1x12288, .f32⟩
  | .hbm, ⟨19, _⟩ => ⟨S1x4096, .f32⟩
  | .hbm, ⟨20, _⟩ => ⟨S1x50257, .f32⟩
  | .hbm, ⟨21, _⟩ => ⟨S1x50257, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S1, .f32⟩
  | .hbm, ⟨26, _⟩ => ⟨S1, .f32⟩
  | .hbm, ⟨27, _⟩ => ⟨S1x1, .f32⟩
  | .hbm, ⟨28, _⟩ => ⟨S1x50257, .f32⟩
  | .hbm, ⟨29, _⟩ => ⟨S1x50257, .f32⟩
  | .hbm, ⟨30, _⟩ => ⟨S1x50257, .f32⟩
  | .hbm, ⟨31, _⟩ => ⟨S_, .f32⟩
  | .hbm, ⟨32, _⟩ => ⟨S1, .f32⟩
  | .hbm, ⟨33, _⟩ => ⟨S1x1, .f32⟩
  | .hbm, ⟨34, _⟩ => ⟨S1x1, .f32⟩
  | .hbm, ⟨35, _⟩ => ⟨S1x50257, .f32⟩
  | .hbm, ⟨36, _⟩ => ⟨S1x50257, .f32⟩
  | .hbm, ⟨37, _⟩ => ⟨S1x1x4096, .f32⟩
  | .local _ .vmem, ⟨0, _⟩ => ⟨S1x4096, .f32⟩
  | .local _ .vmem, ⟨1, _⟩ => ⟨S1x4096, .f32⟩
  | .local _ .vmem, ⟨2, _⟩ => ⟨S1x128, .f32⟩
  | .local _ .vmem, ⟨3, _⟩ => ⟨S1x128, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x4096, .f32⟩
  | .local _ .vmem, ⟨31, _⟩ => ⟨S1x4096, .f32⟩
  | .local _ .vmem, ⟨32, _⟩ => ⟨S1x128, .f32⟩
  | .local _ .vmem, ⟨33, _⟩ => ⟨S1x128, .f32⟩
  | .local _ .vmem, ⟨34, _⟩ => ⟨S128x4096, .f32⟩
  | .local _ .vmem, ⟨35, _⟩ => ⟨S128x4096, .f32⟩
  | .local _ .vmem, ⟨36, _⟩ => ⟨S128x4096, .f32⟩
  | .local _ .vmem, ⟨37, _⟩ => ⟨S128x4096, .f32⟩
  | .local _ .vmem, ⟨38, _⟩ => ⟨S128x4096, .f32⟩
  | .local _ .vmem, ⟨39, _⟩ => ⟨S128x4096, .f32⟩
  | .local _ .vmem, ⟨40, _⟩ => ⟨S128x4096, .f32⟩
  | .local _ .vmem, ⟨41, _⟩ => ⟨S128x4096, .f32⟩
  | .local _ .vmem, ⟨42, _⟩ => ⟨S128x4096, .f32⟩
  | .local _ .vmem, ⟨43, _⟩ => ⟨S128x4096, .f32⟩
  | .local _ .vmem, ⟨44, _⟩ => ⟨S128x4096, .f32⟩
  | .local _ .vmem, ⟨45, _⟩ => ⟨S128x4096, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S1x4096, .f32⟩
  | .local _ .vmem, ⟨61, _⟩ => ⟨S512x4096, .f32⟩
  | .local _ .vmem, ⟨62, _⟩ => ⟨S512x4096, .f32⟩
  | .local _ .vmem, ⟨63, _⟩ => ⟨S1x512, .f32⟩
  | .local _ .vmem, ⟨64, _⟩ => ⟨S1x512, .f32⟩
  | .local _ .vmem, ⟨65, _⟩ => ⟨S1x512, .f32⟩
  | .local _ .vmem, ⟨66, _⟩ => ⟨S1x512, .f32⟩
  | _, _ => ⟨S1x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_cst : Ref sig .tc := ⟨.hbm, 22, rfl⟩
abbrev main_call0_v0 : Ref sig .tc := ⟨.hbm, 23, rfl⟩
abbrev main_call0_cst_0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_cst_1 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_v10 : Ref sig .tc := ⟨.hbm, 36, rfl⟩
abbrev main_v11 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc1_stg0_0 : Ref sig .tc := ⟨.vmem, 30, rfl⟩
abbrev cc1_stg1_0 : Ref sig .tc := ⟨.vmem, 31, rfl⟩
abbrev cc1_stg2_0 : Ref sig .tc := ⟨.vmem, 32, rfl⟩
abbrev cc1_stg2_1 : Ref sig .tc := ⟨.vmem, 33, rfl⟩
abbrev cc1_stg3_0 : Ref sig .tc := ⟨.vmem, 34, rfl⟩
abbrev cc1_stg3_1 : Ref sig .tc := ⟨.vmem, 35, rfl⟩
abbrev cc1_stg4_0 : Ref sig .tc := ⟨.vmem, 36, rfl⟩
abbrev cc1_stg4_1 : Ref sig .tc := ⟨.vmem, 37, rfl⟩
abbrev cc1_stg5_0 : Ref sig .tc := ⟨.vmem, 38, rfl⟩
abbrev cc1_stg5_1 : Ref sig .tc := ⟨.vmem, 39, rfl⟩
abbrev cc1_stg6_0 : Ref sig .tc := ⟨.vmem, 40, rfl⟩
abbrev cc1_stg6_1 : Ref sig .tc := ⟨.vmem, 41, rfl⟩
abbrev cc1_stg7_0 : Ref sig .tc := ⟨.vmem, 42, rfl⟩
abbrev cc1_stg7_1 : Ref sig .tc := ⟨.vmem, 43, rfl⟩
abbrev cc1_stg8_0 : Ref sig .tc := ⟨.vmem, 44, rfl⟩
abbrev cc1_stg8_1 : Ref sig .tc := ⟨.vmem, 45, rfl⟩
abbrev cc1_stg9_0 : Ref sig .tc := ⟨.vmem, 46, rfl⟩
abbrev cc1_stg9_1 : Ref sig .tc := ⟨.vmem, 47, rfl⟩
abbrev cc1_stg10_0 : Ref sig .tc := ⟨.vmem, 48, rfl⟩
abbrev cc1_stg10_1 : Ref sig .tc := ⟨.vmem, 49, rfl⟩
abbrev cc1_stg11_0 : Ref sig .tc := ⟨.vmem, 50, rfl⟩
abbrev cc1_stg11_1 : Ref sig .tc := ⟨.vmem, 51, rfl⟩
abbrev cc1_stg12_0 : Ref sig .tc := ⟨.vmem, 52, rfl⟩
abbrev cc1_stg12_1 : Ref sig .tc := ⟨.vmem, 53, rfl⟩
abbrev cc1_stg13_0 : Ref sig .tc := ⟨.vmem, 54, rfl⟩
abbrev cc1_stg13_1 : Ref sig .tc := ⟨.vmem, 55, rfl⟩
abbrev cc1_stg14_0 : Ref sig .tc := ⟨.vmem, 56, rfl⟩
abbrev cc1_stg14_1 : Ref sig .tc := ⟨.vmem, 57, rfl⟩
abbrev cc1_stg15_0 : Ref sig .tc := ⟨.vmem, 58, rfl⟩
abbrev cc1_stg15_1 : Ref sig .tc := ⟨.vmem, 59, rfl⟩
abbrev cc2_stg0_0 : Ref sig .tc := ⟨.vmem, 60, rfl⟩
abbrev cc2_stg1_0 : Ref sig .tc := ⟨.vmem, 61, rfl⟩
abbrev cc2_stg1_1 : Ref sig .tc := ⟨.vmem, 62, rfl⟩
abbrev cc2_stg2_0 : Ref sig .tc := ⟨.vmem, 63, rfl⟩
abbrev cc2_stg2_1 : Ref sig .tc := ⟨.vmem, 64, rfl⟩
abbrev cc2_stg3_0 : Ref sig .tc := ⟨.vmem, 65, rfl⟩
abbrev cc2_stg3_1 : Ref sig .tc := ⟨.vmem, 66, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc1_sem0_0 : DmaSem sig := 30
abbrev cc1_sem1_0 : DmaSem sig := 31
abbrev cc1_sem2_0 : DmaSem sig := 32
abbrev cc1_sem2_1 : DmaSem sig := 33
abbrev cc1_sem3_0 : DmaSem sig := 34
abbrev cc1_sem3_1 : DmaSem sig := 35
abbrev cc1_sem4_0 : DmaSem sig := 36
abbrev cc1_sem4_1 : DmaSem sig := 37
abbrev cc1_sem5_0 : DmaSem sig := 38
abbrev cc1_sem5_1 : DmaSem sig := 39
abbrev cc1_sem6_0 : DmaSem sig := 40
abbrev cc1_sem6_1 : DmaSem sig := 41
abbrev cc1_sem7_0 : DmaSem sig := 42
abbrev cc1_sem7_1 : DmaSem sig := 43
abbrev cc1_sem8_0 : DmaSem sig := 44
abbrev cc1_sem8_1 : DmaSem sig := 45
abbrev cc1_sem9_0 : DmaSem sig := 46
abbrev cc1_sem9_1 : DmaSem sig := 47
abbrev cc1_sem10_0 : DmaSem sig := 48
abbrev cc1_sem10_1 : DmaSem sig := 49
abbrev cc1_sem11_0 : DmaSem sig := 50
abbrev cc1_sem11_1 : DmaSem sig := 51
abbrev cc1_sem12_0 : DmaSem sig := 52
abbrev cc1_sem12_1 : DmaSem sig := 53
abbrev cc1_sem13_0 : DmaSem sig := 54
abbrev cc1_sem13_1 : DmaSem sig := 55
abbrev cc1_sem14_0 : DmaSem sig := 56
abbrev cc1_sem14_1 : DmaSem sig := 57
abbrev cc1_sem15_0 : DmaSem sig := 58
abbrev cc1_sem15_1 : DmaSem sig := 59
abbrev cc2_sem0_0 : DmaSem sig := 60
abbrev cc2_sem1_0 : DmaSem sig := 61
abbrev cc2_sem1_1 : DmaSem sig := 62
abbrev cc2_sem2_0 : DmaSem sig := 63
abbrev cc2_sem2_1 : DmaSem sig := 64
abbrev cc2_sem3_0 : DmaSem sig := 65
abbrev cc2_sem3_1 : DmaSem sig := 66

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_13 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_4 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_7 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_10 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc1_transform_11 (i : grid1.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc1_transform_12 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_13 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc1_transform_14 (i : grid1.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x4096 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S1x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev grid2 : Pipeline.Grid := ⟨1, ![99], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S1x1x4096_S1x4096 : S1x1x4096.ShapeCasts S1x4096
  shapeCasts_S12288_S1x12288 : S12288.ShapeCasts S1x12288
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S50257_S1x50257 : S50257.ShapeCasts S1x50257
  inb_S512x4096_S512x4096_0_0 : ∀ a, (![0, 0] : Fin 2 → Nat) a + S512x4096.size a ≤ S512x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reducesTo_S1x50257_S1_d1 : S1x50257.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x50257_0_1 : S1x1.BroadcastsInDim S1x50257 (![0, 1] : Fin 2 → Fin S1x50257.rank)
  shapeCasts_S1x4096_S1x1x4096 : S1x4096.ShapeCasts S1x1x4096
  dot_S1x4096_S128x4096_S1x128_1_1_0_0_n_n_wf : DotDims.WF S1x4096 S128x4096 S1x128 [1] [1] [0] [0] [] []
  dot_S1x4096_S512x4096_S1x512_1_1_0_0_n_n_wf : DotDims.WF S1x4096 S512x4096 S1x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x4096.size a
  hwx0_2 : ∀ i : grid0.Coords, EltTy.bits .f32 = 32 ∨ (Rect.block (s := S1x4096) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S12288x4096.size a
  hwx0_3 : ∀ i : grid0.Coords, EltTy.bits .f32 = 32 ∨ (Rect.block (s := S12288x4096) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S12288x4096.size a
  hwx0_4 : ∀ i : grid0.Coords, EltTy.bits .f32 = 32 ∨ (Rect.block (s := S12288x4096) S128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S12288x4096.size a
  hwx0_5 : ∀ i : grid0.Coords, EltTy.bits .f32 = 32 ∨ (Rect.block (s := S12288x4096) S128x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x4096.size a ≤ S12288x4096.size a
  hwx0_6 : ∀ i : grid0.Coords, EltTy.bits .f32 = 32 ∨ (Rect.block (s := S12288x4096) S128x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x4096.size a ≤ S12288x4096.size a
  hwx0_7 : ∀ i : grid0.Coords, EltTy.bits .f32 = 32 ∨ (Rect.block (s := S12288x4096) S128x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x4096.size a ≤ S12288x4096.size a
  hwx0_8 : ∀ i : grid0.Coords, EltTy.bits .f32 = 32 ∨ (Rect.block (s := S12288x4096) S128x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x12288.size a
  hwx0_9 : ∀ i : grid0.Coords, EltTy.bits .f32 = 32 ∨ (Rect.block (s := S1x12288) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x12288.size a
  hwx0_10 : ∀ i : grid0.Coords, EltTy.bits .f32 = 32 ∨ (Rect.block (s := S1x12288) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x12288.size a
  hwx0_11 : ∀ i : grid0.Coords, EltTy.bits .f32 = 32 ∨ (Rect.block (s := S1x12288) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x12288.size a
  hwx0_12 : ∀ i : grid0.Coords, EltTy.bits .f32 = 32 ∨ (Rect.block (s := S1x12288) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x12288.size a
  hwx0_13 : ∀ i : grid0.Coords, EltTy.bits .f32 = 32 ∨ (Rect.block (s := S1x12288) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x12288.size a
  hwx0_14 : ∀ i : grid0.Coords, EltTy.bits .f32 = 32 ∨ (Rect.block (s := S1x12288) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x4096.size a
  hwx0_15 : ∀ i : grid0.Coords, EltTy.bits .f32 = 32 ∨ (Rect.block (s := S1x4096) S1x128.size (cc0_transform_15 i) (hinb0_15 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x4096.size a
  hwx1_0 : ∀ i : grid1.Coords, EltTy.bits .f32 = 32 ∨ (Rect.block (s := S1x4096) S1x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x4096.size a
  hwx1_2 : ∀ i : grid1.Coords, EltTy.bits .f32 = 32 ∨ (Rect.block (s := S1x4096) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S12288x4096.size a
  hwx1_3 : ∀ i : grid1.Coords, EltTy.bits .f32 = 32 ∨ (Rect.block (s := S12288x4096) S128x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x4096.size a ≤ S12288x4096.size a
  hwx1_4 : ∀ i : grid1.Coords, EltTy.bits .f32 = 32 ∨ (Rect.block (s := S12288x4096) S128x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x4096.size a ≤ S12288x4096.size a
  hwx1_5 : ∀ i : grid1.Coords, EltTy.bits .f32 = 32 ∨ (Rect.block (s := S12288x4096) S128x4096.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x4096.size a ≤ S12288x4096.size a
  hwx1_6 : ∀ i : grid1.Coords, EltTy.bits .f32 = 32 ∨ (Rect.block (s := S12288x4096) S128x4096.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x4096.size a ≤ S12288x4096.size a
  hwx1_7 : ∀ i : grid1.Coords, EltTy.bits .f32 = 32 ∨ (Rect.block (s := S12288x4096) S128x4096.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S128x4096.size a ≤ S12288x4096.size a
  hwx1_8 : ∀ i : grid1.Coords, EltTy.bits .f32 = 32 ∨ (Rect.block (s := S12288x4096) S128x4096.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x12288.size a
  hwx1_9 : ∀ i : grid1.Coords, EltTy.bits .f32 = 32 ∨ (Rect.block (s := S1x12288) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x12288.size a
  hwx1_10 : ∀ i : grid1.Coords, EltTy.bits .f32 = 32 ∨ (Rect.block (s := S1x12288) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x12288.size a
  hwx1_11 : ∀ i : grid1.Coords, EltTy.bits .f32 = 32 ∨ (Rect.block (s := S1x12288) S1x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x12288.size a
  hwx1_12 : ∀ i : grid1.Coords, EltTy.bits .f32 = 32 ∨ (Rect.block (s := S1x12288) S1x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1x128.size a ≤ S1x12288.size a
  hwx1_13 : ∀ i : grid1.Coords, EltTy.bits .f32 = 32 ∨ (Rect.block (s := S1x12288) S1x128.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S1x128.size a ≤ S1x12288.size a
  hwx1_14 : ∀ i : grid1.Coords, EltTy.bits .f32 = 32 ∨ (Rect.block (s := S1x12288) S1x128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S1x128.size a ≤ S1x4096.size a
  hwx1_15 : ∀ i : grid1.Coords, EltTy.bits .f32 = 32 ∨ (Rect.block (s := S1x4096) S1x128.size (cc1_transform_15 i) (hinb1_15 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x4096.size a ≤ S1x4096.size a
  hwx2_0 : ∀ i : grid2.Coords, EltTy.bits .f32 = 32 ∨ (Rect.block (s := S1x4096) S1x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S512x4096.size a < S50257x4096.size a
  hwx2_1 : ∀ i : grid2.Coords, EltTy.bits .f32 = 32 ∨ (Rect.unit (s := S50257x4096) (fun a => cc2_transform_1 i a * S512x4096.size a) (fun a => (Pipeline.Clip.of (cc2_transform_1 i a) (S512x4096.size a) (S50257x4096.size a)).extent (S512x4096.size a)) fun a => Pipeline.Clip.inb (Pipeline.Clip.ok_of (hstart2_1 i a))).WholeWords (EltTy.packing .f32)
  hwxs2_1 : ∀ i : grid2.Coords, EltTy.bits .f32 = 32 ∨ (Rect.unit (s := S512x4096) (fun _ => 0) (fun a => (Pipeline.Clip.of (cc2_transform_1 i a) (S512x4096.size a) (S50257x4096.size a)).extent (S512x4096.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x512.size a < S1x50257.size a
  hwx2_2 : ∀ i : grid2.Coords, EltTy.bits .f32 = 32 ∨ (Rect.unit (s := S1x50257) (fun a => cc2_transform_2 i a * S1x512.size a) (fun a => (Pipeline.Clip.of (cc2_transform_2 i a) (S1x512.size a) (S1x50257.size a)).extent (S1x512.size a)) fun a => Pipeline.Clip.inb (Pipeline.Clip.ok_of (hstart2_2 i a))).WholeWords (EltTy.packing .f32)
  hwxs2_2 : ∀ i : grid2.Coords, EltTy.bits .f32 = 32 ∨ (Rect.unit (s := S1x512) (fun _ => 0) (fun a => (Pipeline.Clip.of (cc2_transform_2 i a) (S1x512.size a) (S1x50257.size a)).extent (S1x512.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S1x512.size a < S1x50257.size a
  hwx2_3 : ∀ i : grid2.Coords, EltTy.bits .f32 = 32 ∨ (Rect.unit (s := S1x50257) (fun a => cc2_transform_3 i a * S1x512.size a) (fun a => (Pipeline.Clip.of (cc2_transform_3 i a) (S1x512.size a) (S1x50257.size a)).extent (S1x512.size a)) fun a => Pipeline.Clip.inb (Pipeline.Clip.ok_of (hstart2_3 i a))).WholeWords (EltTy.packing .f32)
  hwxs2_3 : ∀ i : grid2.Coords, EltTy.bits .f32 = 32 ∨ (Rect.unit (s := S1x512) (fun _ => 0) (fun a => (Pipeline.Clip.of (cc2_transform_3 i a) (S1x512.size a) (S1x50257.size a)).extent (S1x512.size a)) fun a => (Nat.zero_add _).trans_le (Pipeline.Clip.extent_le (Pipeline.Clip.ok_of (hstart2_3 i a)))).WholeWords (EltTy.packing .f32)

variable [Facts₀]

def dot_S1x4096_S128x4096_S1x128_1_1_0_0_n_n : DotDims S1x4096 S128x4096 S1x128 where
  lhsContracting := [1]
  rhsContracting := [1]
  lhsNonContracting := [0]
  rhsNonContracting := [0]
  lhsBatch := []
  rhsBatch := []
  wf := dot_S1x4096_S128x4096_S1x128_1_1_0_0_n_n_wf
def dot_S1x4096_S512x4096_S1x512_1_1_0_0_n_n : DotDims S1x4096 S512x4096 S1x512 where
  lhsContracting := [1]
  rhsContracting := [1]
  lhsNonContracting := [0]
  rhsNonContracting := [0]
  lhsBatch := []
  rhsBatch := []
  wf := dot_S1x4096_S512x4096_S1x512_1_1_0_0_n_n_wf

abbrev win0_0 : Pipeline.Window sig grid0 :=
  Pipeline.Window.ofSpec (Memref.whole main_v0) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S128x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S128x4096.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S128x4096.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg3) S128x4096.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v2) S1x128.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v3) S1x128.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v3) S1x128.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v3) S1x128.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v4) S1x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v4) S1x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x4096.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x4096.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128x4096.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S128x4096.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_arg7) S128x4096.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v5) S1x128.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v5) S1x128.size cc1_transform_10 reads1_10 false false 2 stage1_10 sem1_10
    hrank1 hreads1_10 hinb1_10 nbuf1_10 (Memref.isWhole_whole _) hwx1_10 hstage1_10

abbrev win1_11 : Pipeline.Window sig grid1 :=
  Pipeline.Window.ofSpec (Memref.whole main_v5) S1x128.size cc1_transform_11 reads1_11 false false 2 stage1_11 sem1_11
    hrank1 hreads1_11 hinb1_11 nbuf1_11 (Memref.isWhole_whole _) hwx1_11 hstage1_11

abbrev win1_12 : Pipeline.Window sig grid1 :=
  Pipeline.Window.ofSpec (Memref.whole main_v6) S1x128.size cc1_transform_12 reads1_12 false false 2 stage1_12 sem1_12
    hrank1 hreads1_12 hinb1_12 nbuf1_12 (Memref.isWhole_whole _) hwx1_12 hstage1_12

abbrev win1_13 : Pipeline.Window sig grid1 :=
  Pipeline.Window.ofSpec (Memref.whole main_v6) S1x128.size cc1_transform_13 reads1_13 false false 2 stage1_13 sem1_13
    hrank1 hreads1_13 hinb1_13 nbuf1_13 (Memref.isWhole_whole _) hwx1_13 hstage1_13

abbrev win1_14 : Pipeline.Window sig grid1 :=
  Pipeline.Window.ofSpec (Memref.whole main_v6) S1x128.size cc1_transform_14 reads1_14 false false 2 stage1_14 sem1_14
    hrank1 hreads1_14 hinb1_14 nbuf1_14 (Memref.isWhole_whole _) hwx1_14 hstage1_14

abbrev win1_15 : Pipeline.Window sig grid1 :=
  Pipeline.Window.ofSpec (Memref.whole main_v7) S1x128.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

abbrev win2_0 : Pipeline.Window sig grid2 :=
  Pipeline.Window.ofSpec (Memref.whole main_v7) S1x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg10) S512x4096.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v8) S1x512.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v9) S1x512.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1x1x4096 : Shape := ⟨3, ![1, 1, 4096]⟩
abbrev S12288x4096 : Shape := ⟨2, ![12288, 4096]⟩
abbrev S12288 : Shape := ⟨1, ![12288]⟩
abbrev S50257x4096 : Shape := ⟨2, ![50257, 4096]⟩
abbrev S50257 : Shape := ⟨1, ![50257]⟩
abbrev S1x4096 : Shape := ⟨2, ![1, 4096]⟩
abbrev S4096x12288 : Shape := ⟨2, ![4096, 12288]⟩
abbrev S1x12288 : Shape := ⟨2, ![1, 12288]⟩
abbrev S_ : Shape := ⟨0, ![]⟩
abbrev S4096x50257 : Shape := ⟨2, ![4096, 50257]⟩
abbrev S1x50257 : Shape := ⟨2, ![1, 50257]⟩
abbrev S1 : Shape := ⟨1, ![1]⟩
abbrev S1x1 : Shape := ⟨2, ![1, 1]⟩

abbrev nBuf : Space → Nat
  | .hbm => 119
  | .vmem => 0
  | .smem => 0
  | _ => 0

abbrev bufTy : (tb : Table) → Fin (tcTables nBuf tb) → BufTy
  | .hbm, ⟨0, _⟩ => ⟨S1x1x4096, .f32⟩
  | .hbm, ⟨1, _⟩ => ⟨S1x1x4096, .f32⟩
  | .hbm, ⟨2, _⟩ => ⟨S12288x4096, .f32⟩
  | .hbm, ⟨3, _⟩ => ⟨S12288x4096, .f32⟩
  | .hbm, ⟨4, _⟩ => ⟨S12288, .f32⟩
  | .hbm, ⟨5, _⟩ => ⟨S12288, .f32⟩
  | .hbm, ⟨6, _⟩ => ⟨S12288x4096, .f32⟩
  | .hbm, ⟨7, _⟩ => ⟨S12288x4096, .f32⟩
  | .hbm, ⟨8, _⟩ => ⟨S12288, .f32⟩
  | .hbm, ⟨9, _⟩ => ⟨S12288, .f32⟩
  | .hbm, ⟨10, _⟩ => ⟨S50257x4096, .f32⟩
  | .hbm, ⟨11, _⟩ => ⟨S50257, .f32⟩
  | .hbm, ⟨12, _⟩ => ⟨S1x4096, .f32⟩
  | .hbm, ⟨13, _⟩ => ⟨S1x4096, .f32⟩
  | .hbm, ⟨14, _⟩ => ⟨S4096x12288, .f32⟩
  | .hbm, ⟨15, _⟩ => ⟨S1x12288, .f32⟩
  | .hbm, ⟨16, _⟩ => ⟨S1x12288, .f32⟩
  | .hbm, ⟨17, _⟩ => ⟨S1x12288, .f32⟩
  | .hbm, ⟨18, _⟩ => ⟨S4096x12288, .f32⟩
  | .hbm, ⟨19, _⟩ => ⟨S1x12288, .f32⟩
  | .hbm, ⟨20, _⟩ => ⟨S1x12288, .f32⟩
  | .hbm, ⟨21, _⟩ => ⟨S1x12288, .f32⟩
  | .hbm, ⟨22, _⟩ => ⟨S1x4096, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S1x4096, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S_, .f32⟩
  | .hbm, ⟨32, _⟩ => ⟨S1x4096, .f32⟩
  | .hbm, ⟨33, _⟩ => ⟨S1x4096, .f32⟩
  | .hbm, ⟨34, _⟩ => ⟨S_, .f32⟩
  | .hbm, ⟨35, _⟩ => ⟨S1x4096, .f32⟩
  | .hbm, ⟨36, _⟩ => ⟨S1x4096, .f32⟩
  | .hbm, ⟨37, _⟩ => ⟨S1x4096, .f32⟩
  | .hbm, ⟨38, _⟩ => ⟨S1x4096, .f32⟩
  | .hbm, ⟨39, _⟩ => ⟨S1x4096, .f32⟩
  | .hbm, ⟨40, _⟩ => ⟨S_, .f32⟩
  | .hbm, ⟨41, _⟩ => ⟨S1x4096, .f32⟩
  | .hbm, ⟨42, _⟩ => ⟨S1x4096, .f32⟩
  | .hbm, ⟨43, _⟩ => ⟨S_, .f32⟩
  | .hbm, ⟨44, _⟩ => ⟨S1x4096, .f32⟩
  | .hbm, ⟨45, _⟩ => ⟨S1x4096, .f32⟩
  | .hbm, ⟨46, _⟩ => ⟨S1x4096, .f32⟩
  | .hbm, ⟨47, _⟩ => ⟨S1x4096, .f32⟩
  | .hbm, ⟨48, _⟩ => ⟨S1x4096, .f32⟩
  | .hbm, ⟨49, _⟩ => ⟨S_, .f32⟩
  | .hbm, ⟨50, _⟩ => ⟨S1x4096, .f32⟩
  | .hbm, ⟨51, _⟩ => ⟨S1x4096, .f32⟩
  | .hbm, ⟨52, _⟩ => ⟨S1x4096, .f32⟩
  | .hbm, ⟨53, _⟩ => ⟨S1x4096, .f32⟩
  | .hbm, ⟨54, _⟩ => ⟨S1x4096, .f32⟩
  | .hbm, ⟨55, _⟩ => ⟨S4096x12288, .f32⟩
  | .hbm, ⟨56, _⟩ => ⟨S1x12288, .f32⟩
  | .hbm, ⟨57, _⟩ => ⟨S1x12288, .f32⟩
  | .hbm, ⟨58, _⟩ => ⟨S1x12288, .f32⟩
  | .hbm, ⟨59, _⟩ => ⟨S4096x12288, .f32⟩
  | .hbm, ⟨60, _⟩ => ⟨S1x12288, .f32⟩
  | .hbm, ⟨61, _⟩ => ⟨S1x12288, .f32⟩
  | .hbm, ⟨62, _⟩ => ⟨S1x12288, .f32⟩
  | .hbm, ⟨63, _⟩ => ⟨S1x4096, .f32⟩
  | .hbm, ⟨64, _⟩ => ⟨S1x4096, .f32⟩
  | .hbm, ⟨65, _⟩ => ⟨S1x4096, .f32⟩
  | .hbm, ⟨66, _⟩ => ⟨S1x4096, .f32⟩
  | .hbm, ⟨67, _⟩ => ⟨S1x4096, .f32⟩
  | .hbm, ⟨68, _⟩ => ⟨S1x4096, .f32⟩
  | .hbm, ⟨69, _⟩ => ⟨S1x4096, .f32⟩
  | .hbm, ⟨70, _⟩ => ⟨S1x4096, .f32⟩
  | .hbm, ⟨71, _⟩ => ⟨S1x4096, .f32⟩
  | .hbm, ⟨72, _⟩ => ⟨S_, .f32⟩
  | .hbm, ⟨73, _⟩ => ⟨S1x4096, .f32⟩
  | .hbm, ⟨74, _⟩ => ⟨S1x4096, .f32⟩
  | .hbm, ⟨75, _⟩ => ⟨S_, .f32⟩
  | .hbm, ⟨76, _⟩ => ⟨S1x4096, .f32⟩
  | .hbm, ⟨77, _⟩ => ⟨S1x4096, .f32⟩
  | .hbm, ⟨78, _⟩ => ⟨S1x4096, .f32⟩
  | .hbm, ⟨79, _⟩ => ⟨S1x4096, .f32⟩
  | .hbm, ⟨80, _⟩ => ⟨S1x4096, .f32⟩
  | .hbm, ⟨81, _⟩ => ⟨S_, .f32⟩
  | .hbm, ⟨82, _⟩ => ⟨S1x4096, .f32⟩
  | .hbm, ⟨83, _⟩ => ⟨S1x4096, .f32⟩
  | .hbm, ⟨84, _⟩ => ⟨S_, .f32⟩
  | .hbm, ⟨85, _⟩ => ⟨S1x4096, .f32⟩
  | .hbm, ⟨86, _⟩ => ⟨S1x4096, .f32⟩
  | .hbm, ⟨87, _⟩ => ⟨S1x4096, .f32⟩
  | .hbm, ⟨88, _⟩ => ⟨S1x4096, .f32⟩
  | .hbm, ⟨89, _⟩ => ⟨S1x4096, .f32⟩
  | .hbm, ⟨90, _⟩ => ⟨S_, .f32⟩
  | .hbm, ⟨91, _⟩ => ⟨S1x4096, .f32⟩
  | .hbm, ⟨92, _⟩ => ⟨S1x4096, .f32⟩
  | .hbm, ⟨93, _⟩ => ⟨S1x4096, .f32⟩
  | .hbm, ⟨94, _⟩ => ⟨S1x4096, .f32⟩
  | .hbm, ⟨95, _⟩ => ⟨S1x4096, .f32⟩
  | .hbm, ⟨96, _⟩ => ⟨S_, .f32⟩
  | .hbm, ⟨97, _⟩ => ⟨S1x4096, .f32⟩
  | .hbm, ⟨98, _⟩ => ⟨S1x4096, .f32⟩
  | .hbm, ⟨99, _⟩ => ⟨S4096x50257, .f32⟩
  | .hbm, ⟨100, _⟩ => ⟨S1x50257, .f32⟩
  | .hbm, ⟨101, _⟩ => ⟨S1x50257, .f32⟩
  | .hbm, ⟨102, _⟩ => ⟨S1x50257, .f32⟩
  | .hbm, ⟨103, _⟩ => ⟨S_, .f32⟩
  | .hbm, ⟨104, _⟩ => ⟨S1, .f32⟩
  | .hbm, ⟨105, _⟩ => ⟨S_, .f32⟩
  | .hbm, ⟨106, _⟩ => ⟨S1, .f32⟩
  | .hbm, ⟨107, _⟩ => ⟨S1, .f32⟩
  | .hbm, ⟨108, _⟩ => ⟨S1x1, .f32⟩
  | .hbm, ⟨109, _⟩ => ⟨S1x50257, .f32⟩
  | .hbm, ⟨110, _⟩ => ⟨S1x50257, .f32⟩
  | .hbm, ⟨111, _⟩ => ⟨S1x50257, .f32⟩
  | .hbm, ⟨112, _⟩ => ⟨S_, .f32⟩
  | .hbm, ⟨113, _⟩ => ⟨S1, .f32⟩
  | .hbm, ⟨114, _⟩ => ⟨S1x1, .f32⟩
  | .hbm, ⟨115, _⟩ => ⟨S1x1, .f32⟩
  | .hbm, ⟨116, _⟩ => ⟨S1x50257, .f32⟩
  | .hbm, ⟨117, _⟩ => ⟨S1x50257, .f32⟩
  | .hbm, ⟨118, _⟩ => ⟨S1x1x4096, .f32⟩
  | _, _ => ⟨S1x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_4 : Ref sig .tc := ⟨.hbm, 72, rfl⟩
abbrev main_v55 : Ref sig .tc := ⟨.hbm, 73, rfl⟩
abbrev main_v56 : Ref sig .tc := ⟨.hbm, 74, rfl⟩
abbrev main_cst_5 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_6 : Ref sig .tc := ⟨.hbm, 81, rfl⟩
abbrev main_v62 : Ref sig .tc := ⟨.hbm, 82, rfl⟩
abbrev main_v63 : Ref sig .tc := ⟨.hbm, 83, rfl⟩
abbrev main_cst_7 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_8 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call0_cst : Ref sig .tc := ⟨.hbm, 96, rfl⟩
abbrev main_call0_v0 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_call1_cst : Ref sig .tc := ⟨.hbm, 103, rfl⟩
abbrev main_call1_v0 : Ref sig .tc := ⟨.hbm, 104, rfl⟩
abbrev main_call1_cst_0 : Ref sig .tc := ⟨.hbm, 105, rfl⟩
abbrev main_call1_v1 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_call1_v5 : Ref sig .tc := ⟨.hbm, 110, rfl⟩
abbrev main_call1_v6 : Ref sig .tc := ⟨.hbm, 111, rfl⟩
abbrev main_call1_cst_1 : Ref sig .tc := ⟨.hbm, 112, rfl⟩
abbrev main_call1_v7 : Ref sig .tc := ⟨.hbm, 113, rfl⟩
abbrev main_call1_v8 : Ref sig .tc := ⟨.hbm, 114, rfl⟩
abbrev main_call1_v9 : Ref sig .tc := ⟨.hbm, 115, rfl⟩
abbrev main_call1_v10 : Ref sig .tc := ⟨.hbm, 116, rfl⟩
abbrev main_v79 : Ref sig .tc := ⟨.hbm, 117, rfl⟩
abbrev main_v80 : Ref sig .tc := ⟨.hbm, 118, rfl⟩

abbrev nD : Nat := 1
abbrev τ : Topo := Topo.v7x

variable {F : FTy → Type} [FloatOps F]

class Facts₀ : Prop where
  shapeCasts_S1x1x4096_S1x4096 : S1x1x4096.ShapeCasts S1x4096
  transposes_S12288x4096_S4096x12288_1_0 : S12288x4096.Transposes [1, 0] S4096x12288
  bcast_S12288_S1x12288_1 : S12288.BroadcastsInDim S1x12288 (![1] : Fin 1 → Fin S1x12288.rank)
  slices_S1x12288_S1x4096_0_0 : S1x12288.Slices ![0, 0] S1x4096
  slices_S1x12288_S1x4096_0_4096 : S1x12288.Slices ![0, 4096] S1x4096
  slices_S1x12288_S1x4096_0_8192 : S1x12288.Slices ![0, 8192] S1x4096
  bcast_S_S1x4096 : S_.BroadcastsInDim S1x4096 (![] : Fin 0 → Fin S1x4096.rank)
  transposes_S50257x4096_S4096x50257_1_0 : S50257x4096.Transposes [1, 0] S4096x50257
  bcast_S50257_S1x50257_1 : S50257.BroadcastsInDim S1x50257 (![1] : Fin 1 → Fin S1x50257.rank)
  reducesTo_S1x50257_S1_d1 : S1x50257.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x50257_0_1 : S1x1.BroadcastsInDim S1x50257 (![0, 1] : Fin 2 → Fin S1x50257.rank)
  shapeCasts_S1x4096_S1x1x4096 : S1x4096.ShapeCasts S1x1x4096
  dot_S1x4096_S4096x12288_S1x12288_1_0_0_1_n_n_wf : DotDims.WF S1x4096 S4096x12288 S1x12288 [1] [0] [0] [1] [] []
  dot_S1x4096_S4096x50257_S1x50257_1_0_0_1_n_n_wf : DotDims.WF S1x4096 S4096x50257 S1x50257 [1] [0] [0] [1] [] []

variable [Facts₀]

def dot_S1x4096_S4096x12288_S1x12288_1_0_0_1_n_n : DotDims S1x4096 S4096x12288 S1x12288 where
  lhsContracting := [1]
  rhsContracting := [0]
  lhsNonContracting := [0]
  rhsNonContracting := [1]
  lhsBatch := []
  rhsBatch := []
  wf := dot_S1x4096_S4096x12288_S1x12288_1_0_0_1_n_n_wf
def dot_S1x4096_S4096x50257_S1x50257_1_0_0_1_n_n : DotDims S1x4096 S4096x50257 S1x50257 where
  lhsContracting := [1]
  rhsContracting := [0]
  lhsNonContracting := [0]
  rhsNonContracting := [1]
  lhsBatch := []
  rhsBatch := []
  wf := dot_S1x4096_S4096x50257_S1x50257_1_0_0_1_n_n_wf

class Facts : Prop extends Facts₀ where

variable [Facts]
-- ==== Proof.K.R0Defs.lean ====
/-
  A GRU cell's pipeline — kernel region 0 of @main —, at the buffer contents `V` the region is entered with.

  Grid point t (of 32) computes hidden coordinates 128·t … 128·t + 127.  It stages the whole input row and the whole state
  row (windows 0, 1), the state's 128-wide chunk (window 2), the r, z, n slices' rows 128·t …, 4096 + 128·t …,
  8192 + 128·t … of the input weights (windows 3–5) and of the state weights (6–8), the matching bias chunks
  (9–11 and 12–14), and writes the 128 new state coordinates back (window 15).  Every block lies inside its array.
  Several windows read one array (a weight matrix's three slices; a bias row's; the state row whole and in chunks).
-/
import proofs.«157188_j18528488915578_1_alg».proof.Proof.Gen.Kernel.Launch
import proofs.«157188_j18528488915578_1_alg».proof.Proof.Gen.Kernel.Skeleton
import proofs.«157188_j18528488915578_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole row, the whole weight block, the whole 128-wide chunk. -/
abbrev rRow0 : Rect S1x4096 := Rect.unit (s := S1x4096) ![0, 0] S1x4096.size inb_S1x4096_S1x4096_0_0
abbrev rWgt0 : Rect S128x4096 := Rect.unit (s := S128x4096) ![0, 0] S128x4096.size inb_S128x4096_S128x4096_0_0
abbrev rChk0 : Rect S1x128 := Rect.unit (s := S1x128) ![0, 0] S1x128.size inb_S1x128_S1x128_0_0

/-- What the body leaves in the result's staging buffer, from what the fifteen input buffers hold (`xW` window W's):
    its one whole store, the cell's combination of the six products with their biases and the state chunk. -/
def out0_15 (x0 x1 : Vec F S1x4096 .f32) (x2 : Vec F S1x128 .f32) (x3 x4 x5 x6 x7 x8 : Vec F S128x4096 .f32)
    (x9 x10 x11 x12 x13 x14 : Vec F S1x128 .f32) : Vec F S1x128 .f32 :=
  View.canon [⟨rChk0, k0_pay1 (k0_pay3 (View.ld x1 rRow0))
    (k0_pay4 (View.ld x0 rRow0) (View.ld x3 rWgt0) (View.ld x9 rChk0))
    (k0_pay5 (View.ld x0 rRow0) (View.ld x4 rWgt0) (View.ld x10 rChk0))
    (k0_pay6 (View.ld x0 rRow0) (View.ld x5 rWgt0) (View.ld x11 rChk0))
    (k0_pay7 (View.ld x1 rRow0) (View.ld x6 rWgt0) (View.ld x12 rChk0))
    (k0_pay8 (View.ld x7 rWgt0))
    (constant S1x128 .f32 0x00000000#32)
    (View.ld x13 rChk0) (View.ld x8 rWgt0) (View.ld x14 rChk0) (View.ld x2 rChk0)⟩]

/-- The one store covers the buffer. -/
theorem cover0_15 (p0 : Vec F S1x128 .f32) (y : S1x128.Idx) :
    ∃ pc ∈ ([⟨rChk0, p0⟩] : List (View.Piece (Elt F) S1x128 .f32)), y ∈ pc.1.set :=
  View.cover_of_tiled [⟨rChk0, p0⟩] S1x128.size (by rfl) y

/-- How the arrays' shares are dealt among the windows of kernel region 0: an array one window reads is held whole; two
    windows on one array take a half each; three take a half, a quarter and a quarter. -/
def q0 : Fin cfg0.W → PosShare TreeShare
  | ⟨0, _⟩ => fullShare
  | ⟨1, _⟩ => fullShare.left
  | ⟨2, _⟩ => fullShare.right
  | ⟨3, _⟩ => fullShare.left
  | ⟨4, _⟩ => fullShare.right.left
  | ⟨5, _⟩ => fullShare.right.right
  | ⟨6, _⟩ => fullShare.left
  | ⟨7, _⟩ => fullShare.right.left
  | ⟨8, _⟩ => fullShare.right.right
  | ⟨9, _⟩ => fullShare.left
  | ⟨10, _⟩ => fullShare.right.left
  | ⟨11, _⟩ => fullShare.right.right
  | ⟨12, _⟩ => fullShare.left
  | ⟨13, _⟩ => fullShare.right.left
  | ⟨14, _⟩ => fullShare.right.right
  | ⟨15, _⟩ => fullShare
  | ⟨_ + 16, h⟩ => absurd h (Nat.not_lt.2 (Nat.le_add_left _ _))

/-- The result's buffer after the body at point `t`, from the input blocks there. -/
def res0 (c : Dev nD) (t : Fin cfg0.N) : Vec F S1x128 .f32 :=
  out0_15 (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t) (iblk0 V c 11 t) (iblk0 V c 12 t) (iblk0 V c 13 t) (iblk0 V c 14 t)

/-- The pipeline's proof data: the arrays as the region finds them; after the body each input buffer at its block
    and the result's at the body's store of them; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => res0 V c t
    | ⟨_ + 16, h⟩ => absurd h (Nat.not_lt.2 (Nat.le_add_left _ _))
  Φ _ := Pipeline.ΦA spec0 c
  q := q0
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = res0 V c t := by dsimp only [dat0]

end Cert.Kernel.Hand

end
-- ==== Proof.K.R1Defs.lean ====
/-
  A GRU cell's pipeline — kernel region 1 of @main —, at the buffer contents `V` the region is entered with.

  Grid point t (of 32) computes hidden coordinates 128·t … 128·t + 127.  It stages the whole input row and the whole state
  row (windows 0, 1), the state's 128-wide chunk (window 2), the r, z, n slices' rows 128·t …, 4096 + 128·t …,
  8192 + 128·t … of the input weights (windows 3–5) and of the state weights (6–8), the matching bias chunks
  (9–11 and 12–14), and writes the 128 new state coordinates back (window 15).  Every block lies inside its array.
  Several windows read one array (a weight matrix's three slices; a bias row's; the state row whole and in chunks).
-/
import proofs.«157188_j18528488915578_1_alg».proof.Proof.Gen.Kernel.Launch
import proofs.«157188_j18528488915578_1_alg».proof.Proof.Gen.Kernel.Skeleton
import proofs.«157188_j18528488915578_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole row, the whole weight block, the whole 128-wide chunk. -/
abbrev rRow1 : Rect S1x4096 := Rect.unit (s := S1x4096) ![0, 0] S1x4096.size inb_S1x4096_S1x4096_0_0
abbrev rWgt1 : Rect S128x4096 := Rect.unit (s := S128x4096) ![0, 0] S128x4096.size inb_S128x4096_S128x4096_0_0
abbrev rChk1 : Rect S1x128 := Rect.unit (s := S1x128) ![0, 0] S1x128.size inb_S1x128_S1x128_0_0

/-- What the body leaves in the result's staging buffer, from what the fifteen input buffers hold (`xW` window W's):
    its one whole store, the cell's combination of the six products with their biases and the state chunk. -/
def out1_15 (x0 x1 : Vec F S1x4096 .f32) (x2 : Vec F S1x128 .f32) (x3 x4 x5 x6 x7 x8 : Vec F S128x4096 .f32)
    (x9 x10 x11 x12 x13 x14 : Vec F S1x128 .f32) : Vec F S1x128 .f32 :=
  View.canon [⟨rChk1, k1_pay1 (k1_pay3 (View.ld x1 rRow1))
    (k1_pay4 (View.ld x0 rRow1) (View.ld x3 rWgt1) (View.ld x9 rChk1))
    (k1_pay5 (View.ld x0 rRow1) (View.ld x4 rWgt1) (View.ld x10 rChk1))
    (k1_pay6 (View.ld x0 rRow1) (View.ld x5 rWgt1) (View.ld x11 rChk1))
    (k1_pay7 (View.ld x1 rRow1) (View.ld x6 rWgt1) (View.ld x12 rChk1))
    (k1_pay8 (View.ld x7 rWgt1))
    (constant S1x128 .f32 0x00000000#32)
    (View.ld x13 rChk1) (View.ld x8 rWgt1) (View.ld x14 rChk1) (View.ld x2 rChk1)⟩]

/-- The one store covers the buffer. -/
theorem cover1_15 (p0 : Vec F S1x128 .f32) (y : S1x128.Idx) :
    ∃ pc ∈ ([⟨rChk1, p0⟩] : List (View.Piece (Elt F) S1x128 .f32)), y ∈ pc.1.set :=
  View.cover_of_tiled [⟨rChk1, p0⟩] S1x128.size (by rfl) y

/-- How the arrays' shares are dealt among the windows of kernel region 1: an array one window reads is held whole; two
    windows on one array take a half each; three take a half, a quarter and a quarter. -/
def q1 : Fin cfg1.W → PosShare TreeShare
  | ⟨0, _⟩ => fullShare.left
  | ⟨1, _⟩ => fullShare.right.left
  | ⟨2, _⟩ => fullShare.right.right
  | ⟨3, _⟩ => fullShare.left
  | ⟨4, _⟩ => fullShare.right.left
  | ⟨5, _⟩ => fullShare.right.right
  | ⟨6, _⟩ => fullShare.left
  | ⟨7, _⟩ => fullShare.right.left
  | ⟨8, _⟩ => fullShare.right.right
  | ⟨9, _⟩ => fullShare.left
  | ⟨10, _⟩ => fullShare.right.left
  | ⟨11, _⟩ => fullShare.right.right
  | ⟨12, _⟩ => fullShare.left
  | ⟨13, _⟩ => fullShare.right.left
  | ⟨14, _⟩ => fullShare.right.right
  | ⟨15, _⟩ => fullShare
  | ⟨_ + 16, h⟩ => absurd h (Nat.not_lt.2 (Nat.le_add_left _ _))

/-- The result's buffer after the body at point `t`, from the input blocks there. -/
def res1 (c : Dev nD) (t : Fin cfg1.N) : Vec F S1x128 .f32 :=
  out1_15 (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t) (iblk1 V c 11 t) (iblk1 V c 12 t) (iblk1 V c 13 t) (iblk1 V c 14 t)

/-- The pipeline's proof data: the arrays as the region finds them; after the body each input buffer at its block
    and the result's at the body's store of them; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => res1 V c t
    | ⟨_ + 16, h⟩ => absurd h (Nat.not_lt.2 (Nat.le_add_left _ _))
  Φ _ := Pipeline.ΦA spec1 c
  q := q1
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = res1 V c t := by dsimp only [dat1]

end Cert.Kernel.Hand

end
-- ==== Proof.K.R2Defs.lean ====
/-
  The final projection's pipeline (the third kernel region), at the buffer contents `V` the region is entered with.

  Grid point t stages the whole 1 × 4096 state row, rows 512·t … 512·t + 511 of the 50257 × 4096 output weights and
  the matching 512 bias entries, and writes 512 logits back.  50257 = 98 · 512 + 81: the last point's weight, bias and
  result blocks reach past the arrays' ends, so only their first 81 rows (columns) move; the staging words beyond
  them are whatever the machine left there.
-/
import proofs.«157188_j18528488915578_1_alg».proof.Proof.Gen.Kernel.Launch
import proofs.«157188_j18528488915578_1_alg».proof.Proof.Gen.Kernel.Skeleton
import proofs.«157188_j18528488915578_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it: the part inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole state row, the whole weight block, the whole bias / result block. -/
abbrev rRow2 : Rect S1x4096 := Rect.unit (s := S1x4096) ![0, 0] S1x4096.size inb_S1x4096_S1x4096_0_0
abbrev rWgt2 : Rect S512x4096 := Rect.unit (s := S512x4096) ![0, 0] S512x4096.size inb_S512x4096_S512x4096_0_0
abbrev rOut2 : Rect S1x512 := Rect.unit (s := S1x512) ![0, 0] S1x512.size inb_S1x512_S1x512_0_0

/-- What the body leaves in the result's staging buffer, from what the three input buffers hold: its one whole store. -/
def out2_3 (x0 : Vec F S1x4096 .f32) (x1 : Vec F S512x4096 .f32) (x2 : Vec F S1x512 .f32) : Vec F S1x512 .f32 :=
  View.canon [⟨rOut2, k2_pay1 (View.ld x0 rRow2) (View.ld x1 rWgt2) (View.ld x2 rOut2)⟩]

/-- The one store covers the buffer. -/
theorem cover2_3 (p0 : Vec F S1x512 .f32) (y : S1x512.Idx) :
    ∃ pc ∈ ([⟨rOut2, p0⟩] : List (View.Piece (Elt F) S1x512 .f32)), y ∈ pc.1.set :=
  View.cover_of_tiled [⟨rOut2, p0⟩] S1x512.size (by rfl) y

/-- The word that fills a clipped block out to the staging buffer's size where nothing names the contents. -/
abbrev pad0 : Elt F .f32 := Scalar.ofBits .f32 0#32

/-- The weight block at point `t` filled out to 512 rows, and the bias block to 512 columns. -/
def wblk2 (c : Dev nD) (t : Fin cfg2.N) : S512x4096.Idx → Elt F .f32 :=
  win2_1.fill (grid2.coords t) (fun _ => pad0) (iblk2 V c 1 t)
def bblk2 (c : Dev nD) (t : Fin cfg2.N) : S1x512.Idx → Elt F .f32 :=
  win2_2.fill (grid2.coords t) (fun _ => pad0) (iblk2 V c 2 t)

/-- The pipeline's proof data: the arrays as the region finds them; after the body each input buffer at its block
    (filled out past the array's end) and the result's at the body's store of those; the scoped rest and the generator
    register untouched; nothing owed; every array held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => wblk2 V c t
    | ⟨2, _⟩ => bblk2 V c t
    | ⟨3, _⟩ => out2_3 (iblk2 V c 0 t) (wblk2 V c t) (bblk2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = wblk2 V c t := by dsimp only [dat2]
theorem after2_2 (c : Dev nD) (t : Fin cfg2.N) : (dat2 V c).after 2 t = bblk2 V c t := by dsimp only [dat2]
theorem after2_3 (c : Dev nD) (t : Fin cfg2.N) :
    (dat2 V c).after 3 t = out2_3 (iblk2 V c 0 t) (wblk2 V c t) (bblk2 V c t) := by dsimp only [dat2]

end Cert.Kernel.Hand

end
-- ==== Proof.K.Fold.lean ====
/-
  The run of @main: three kernel regions among stretches of host operations.

  Between two items the core holds every unscoped buffer whole at contents known by name — the launch memory with each
  host stretch's results and each region's result array folded in — beside its generator register and its (empty)
  debts.  The two GRU regions name what they leave (hidden coordinate by hidden coordinate, whatever the number system);
  the projection region is entered at named contents too, but what it leaves in the logits array is named only when its
  result window is not forgotten: the host operations after it run at WHATEVER that array holds.  The claim read off
  the last state: every unscoped buffer at the fold's last contents, for some contents of the logits array, which are
  the named ones when nothing was forgotten.
-/
import proofs.«157188_j18528488915578_1_alg».proof.Proof.Gen.Kernel.Launch
import proofs.«157188_j18528488915578_1_alg».proof.Proof.Gen.Kernel.Skeleton
import proofs.«157188_j18528488915578_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«157188_j18528488915578_1_alg».proof.Proof.Gen.Kernel.Regions
import proofs.«157188_j18528488915578_1_alg».proof.Proof.K.R0Defs
import proofs.«157188_j18528488915578_1_alg».proof.Proof.K.R1Defs
import proofs.«157188_j18528488915578_1_alg».proof.Proof.K.R2Defs
import Idealize.ShloMosaic.Lib.Pipeline.Regions
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.Pipeline (HostSeg)

variable (m : (ℓ : Loc nD τ sig) → Buf (Elt F) ℓ) (ρ : Dev nD → PrngReg)

/-! ## The buffers' contents at each boundary -/

/-- At launch; after the first host stretch (the two rows and the first cell's two bias rows reshaped). -/
abbrev W0 (c : Dev nD) : Valuation τ sig (Elt F) := fun b => m (c, b)
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- The first cell's state, as its pipeline leaves it. -/
def o4 (c : Dev nD) : Buf (Elt F) ((c : Thread nD τ).loc main_v4) := (dat0 (V1 m) c).arrAt 15 cfg0.N
/-- After the first region; after the second host stretch (the second cell's bias rows). -/
abbrev W2 (c : Dev nD) : Valuation τ sig (Elt F) := Function.update (W1 m c) main_v4 (o4 m c)
abbrev V2 : (c : Dev nD) → (b : Ref sig .tc) → Buf (Elt F) ((c : Thread nD τ).loc b) := fun c b => W2 m c b
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- The second cell's state. -/
def o7 (c : Dev nD) : Buf (Elt F) ((c : Thread nD τ).loc main_v7) := (dat1 (V3 m) c).arrAt 15 cfg1.N
/-- After the second region; after the third host stretch (the output bias row). -/
abbrev W4 (c : Dev nD) : Valuation τ sig (Elt F) := Function.update (W3 m c) main_v7 (o7 m c)
abbrev V4 : (c : Dev nD) → (b : Ref sig .tc) → Buf (Elt F) ((c : Thread nD τ).loc b) := fun c b => W4 m c b
abbrev W5 (c : Dev nD) : Valuation τ sig (Elt F) := StableHlo.after hostOps2 (W4 m c)
abbrev V5 : (c : Dev nD) → (b : Ref sig .tc) → Buf (Elt F) ((c : Thread nD τ).loc b) := fun c b => W5 m c b
/-- The logits as the projection's pipeline names them. -/
def o9 (c : Dev nD) : Buf (Elt F) ((c : Thread nD τ).loc main_v9) := (dat2 (V5 m) c).arrAt 3 cfg2.N
/-- After the third region, the logits array at `x`; after the log-softmax; after the last reshape. -/
abbrev W6 (c : Dev nD) (x : Buf (Elt F) ((c : Thread nD τ).loc main_v9)) : Valuation τ sig (Elt F) := Function.update (W5 m c) main_v9 x
abbrev V6 (c : Dev nD) (x : Buf (Elt F) ((c : Thread nD τ).loc main_v9)) : (b : Ref sig .tc) → Buf (Elt F) ((c : Thread nD τ).loc b) := fun b => W6 m c x b
abbrev W7 (c : Dev nD) (x : Buf (Elt F) ((c : Thread nD τ).loc main_v9)) : Valuation τ sig (Elt F) := StableHlo.after hostOps3 (W6 m c x)
abbrev W8 (c : Dev nD) (x : Buf (Elt F) ((c : Thread nD τ).loc main_v9)) : Valuation τ sig (Elt F) := StableHlo.after hostOps3_1 (W7 m c x)

/-! ## What each item leaves alone -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ≠ main_v4) : W2 m c r = W1 m c r := by
  simp only [W2, Function.update_of_ne (StableHlo.devRef_ne_of_ne h : (Proc.devRef .tc r : DevRef τ sig) ≠ Proc.devRef .tc main_v4)]
theorem W2_self (c : Dev nD) : W2 m c main_v4 = o4 m c := by simp only [W2, Function.update_self]
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ≠ main_v7) : W4 m c r = W3 m c r := by
  simp only [W4, Function.update_of_ne (StableHlo.devRef_ne_of_ne h : (Proc.devRef .tc r : DevRef τ sig) ≠ Proc.devRef .tc main_v7)]
theorem W4_self (c : Dev nD) : W4 m c main_v7 = o7 m c := by simp only [W4, Function.update_self]
theorem W5_of (c : Dev nD) (r : Ref sig .tc) (h : r ∉ hostOps2_W) : W5 m c r = W4 m c r :=
  StableHlo.after_of_writes_sub hostOps2 _ hostOps2_writes h
theorem W6_of (c : Dev nD) (x) (r : Ref sig .tc) (h : r ≠ main_v9) : W6 m c x r = W5 m c r := by
  simp only [W6, Function.update_of_ne (StableHlo.devRef_ne_of_ne h : (Proc.devRef .tc r : DevRef τ sig) ≠ Proc.devRef .tc main_v9)]
theorem W6_self (c : Dev nD) (x) : W6 m c x main_v9 = x := by simp only [W6, Function.update_self]
theorem W7_of (c : Dev nD) (x) (r : Ref sig .tc) (h : r ∉ hostOps3_W) : W7 m c x r = W6 m c x r :=
  StableHlo.after_of_writes_sub hostOps3 _ hostOps3_writes h
theorem W8_of (c : Dev nD) (x) (r : Ref sig .tc) (h : r ∉ hostOps3_1_W) : W8 m c x r = W7 m c x r :=
  StableHlo.after_of_writes_sub hostOps3_1 _ hostOps3_1_writes h

/-- No item writes an argument: a reference none of the host stretches writes and no region's result array reaches the
    end as launched. -/
theorem W8_kept (c : Dev nD) (x) (r : Ref sig .tc) (h0 : r ∉ hostOps0_W) (h1 : r ∉ hostOps1_W) (h2 : r ∉ hostOps2_W)
    (h3 : r ∉ hostOps3_W) (h4 : r ∉ hostOps3_1_W) (g4 : r ≠ main_v4) (g7 : r ≠ main_v7) (g9 : r ≠ main_v9) :
    W8 m c x r = m ((c : Thread nD τ).loc r) :=
  (W8_of m c x r h4).trans <| (W7_of m c x r h3).trans <| (W6_of m c x r g9).trans <| (W5_of m c r h2).trans <|
    (W4_of m c r g7).trans <| (W3_of m c r h1).trans <| (W2_of m c r g4).trans <| (W1_of m c r h0).trans rfl

end Cert.Kernel.Hand

end
-- ==== Proof.K.R0Body.lean ====
/-
  The body of this region's pipeline at a grid point, and the pipeline's obligation for it.

  The body reads its fifteen input buffers whole, stores the cell's update of the 128 state coordinates of the point
  into the result's buffer whole, and touches nothing else.  Every block lies inside its array, so each input buffer
  holds exactly its window's block when the body runs: at the point that fetched it, and at the later points of a
  window whose block index stands still, because the body leaves the buffer as it found it.
-/
import proofs.«157188_j18528488915578_1_alg».proof.Proof.Gen.Kernel.Launch
import proofs.«157188_j18528488915578_1_alg».proof.Proof.Gen.Kernel.Skeleton
import proofs.«157188_j18528488915578_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«157188_j18528488915578_1_alg».proof.Proof.K.R0Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body on whole memrefs -/

set_option maxHeartbeats 4000000 in
/-- The body on whole staging memrefs — the fifteen inputs' at contents `x0 … x14`, the result's at anything — runs
    to the continuation holding the inputs' as they were and the result's at the body's one store of them.  The
    body's first part only loads and computes, so running through it leaves every buffer as it was. -/
theorem sound_kernel0 (c : Dev nD) (E : Set ℕ) (i : grid0.Coords)
    (arg1 : Memref sig .tc .vmem S1x4096 .f32) (harg1 : arg1.IsWhole) (arg2 : Memref sig .tc .vmem S1x4096 .f32) (harg2 : arg2.IsWhole)
    (arg3 : Memref sig .tc .vmem S1x128 .f32) (harg3 : arg3.IsWhole) (arg4 : Memref sig .tc .vmem S128x4096 .f32) (harg4 : arg4.IsWhole)
    (arg5 : Memref sig .tc .vmem S128x4096 .f32) (harg5 : arg5.IsWhole) (arg6 : Memref sig .tc .vmem S128x4096 .f32) (harg6 : arg6.IsWhole)
    (arg7 : Memref sig .tc .vmem S128x4096 .f32) (harg7 : arg7.IsWhole) (arg8 : Memref sig .tc .vmem S128x4096 .f32) (harg8 : arg8.IsWhole)
    (arg9 : Memref sig .tc .vmem S128x4096 .f32) (harg9 : arg9.IsWhole) (arg10 : Memref sig .tc .vmem S1x128 .f32) (harg10 : arg10.IsWhole)
    (arg11 : Memref sig .tc .vmem S1x128 .f32) (harg11 : arg11.IsWhole) (arg12 : Memref sig .tc .vmem S1x128 .f32) (harg12 : arg12.IsWhole)
    (arg13 : Memref sig .tc .vmem S1x128 .f32) (harg13 : arg13.IsWhole) (arg14 : Memref sig .tc .vmem S1x128 .f32) (harg14 : arg14.IsWhole)
    (arg15 : Memref sig .tc .vmem S1x128 .f32) (harg15 : arg15.IsWhole) (arg16 : Memref sig .tc .vmem S1x128 .f32) (harg16 : arg16.IsWhole)
    (x0 x1 : Vec F S1x4096 .f32) (x2 : Vec F S1x128 .f32) (x3 x4 x5 x6 x7 x8 : Vec F S128x4096 .f32)
    (x9 x10 x11 x12 x13 x14 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ (∃ d, owns (c : Thread nD τ) arg16 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare (out0_15 x0 x1 x2 x3 x4 x5 x6 x7 x8 x9 x10 x11 x12 x13 x14)) -∗ K ⟨⟩))
      ⊢ wp frame (wpE (defs₀ (F := F)) Variants.none c none) E
          (cc0__gru_cell_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__gru_cell_kernel_eq_skeleton]; unfold cc0__gru_cell_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0; subst hf1; subst hf2; subst hf3; subst hf4; subst hf5; subst hf6; subst hf7
  subst hf8; subst hf9; subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover0_15 _)

/-! ## What each input buffer holds when the body runs -/

/- An input window's buffer holds the window's block at every point.  Where the pipeline fetched it there, that is
   what the fetch put; where it did not, the block index has not moved since the fetch and the body left the buffer
   alone.  No window here is cut or idle, so the buffer is filled by the block entire. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl)
    (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl)
    (fun t => by rw [after0_10]; unfold Dat.blockOf iblk0; rw [A_eq0]; try rfl) t d).trans
    (by unfold Dat.fetched Dat.blockOf iblk0; rw [A_eq0]; try rfl)
theorem before0_11 (c : Dev nD) (t : Fin cfg0.N) (d) : (dat0 V c).before 11 t d = iblk0 V c 11 t :=
  ((dat0 V c).before_in_eq_fetched 11 rfl (fun _ => rfl) (fun _ _ _ => rfl)
    (fun t => by rw [after0_11]; unfold Dat.blockOf iblk0; rw [A_eq0]; try rfl) t d).trans
    (by unfold Dat.fetched Dat.blockOf iblk0; rw [A_eq0]; try rfl)
theorem before0_12 (c : Dev nD) (t : Fin cfg0.N) (d) : (dat0 V c).before 12 t d = iblk0 V c 12 t :=
  ((dat0 V c).before_in_eq_fetched 12 rfl (fun _ => rfl) (fun _ _ _ => rfl)
    (fun t => by rw [after0_12]; unfold Dat.blockOf iblk0; rw [A_eq0]; try rfl) t d).trans
    (by unfold Dat.fetched Dat.blockOf iblk0; rw [A_eq0]; try rfl)
theorem before0_13 (c : Dev nD) (t : Fin cfg0.N) (d) : (dat0 V c).before 13 t d = iblk0 V c 13 t :=
  ((dat0 V c).before_in_eq_fetched 13 rfl (fun _ => rfl) (fun _ _ _ => rfl)
    (fun t => by rw [after0_13]; unfold Dat.blockOf iblk0; rw [A_eq0]; try rfl) t d).trans
    (by unfold Dat.fetched Dat.blockOf iblk0; rw [A_eq0]; try rfl)
theorem before0_14 (c : Dev nD) (t : Fin cfg0.N) (d) : (dat0 V c).before 14 t d = iblk0 V c 14 t :=
  ((dat0 V c).before_in_eq_fetched 14 rfl (fun _ => rfl) (fun _ _ _ => rfl)
    (fun t => by rw [after0_14]; unfold Dat.blockOf iblk0; rw [A_eq0]; try rfl) t d).trans
    (by unfold Dat.fetched Dat.blockOf iblk0; rw [A_eq0]; try rfl)

/-! ## The obligation at a point -/

/-- What the body is handed at point `t`: the invariant, what the core owes, and each window's current buffer at what
    it then holds, the windows one by one. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d)))

/-- What it hands back: the same invariant and debt, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t))

set_option maxHeartbeats 4000000 in
/-- The body at any point: the inputs' buffers hold their blocks, so the statement on whole memrefs applies to them; the
    invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15]
  unfold res0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel0 c Set.univ _ _ _ _ _ _ _ _ _ _ _ _ _ _ _ _ _ _ _ _ _ _ _ _ _ _ _ _ _ _ _ _ _
    (iblk0 V c 0 t) (iblk0 V c 1 t) (iblk0 V c 2 t) (iblk0 V c 3 t) (iblk0 V c 4 t)
    (iblk0 V c 5 t) (iblk0 V c 6 t) (iblk0 V c 7 t) (iblk0 V c 8 t) (iblk0 V c 9 t)
    (iblk0 V c 10 t) (iblk0 V c 11 t) (iblk0 V c 12 t) (iblk0 V c 13 t) (iblk0 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Body.lean ====
/-
  The body of this region's pipeline at a grid point, and the pipeline's obligation for it.

  The body reads its fifteen input buffers whole, stores the cell's update of the 128 state coordinates of the point
  into the result's buffer whole, and touches nothing else.  Every block lies inside its array, so each input buffer
  holds exactly its window's block when the body runs: at the point that fetched it, and at the later points of a
  window whose block index stands still, because the body leaves the buffer as it found it.
-/
import proofs.«157188_j18528488915578_1_alg».proof.Proof.Gen.Kernel.Launch
import proofs.«157188_j18528488915578_1_alg».proof.Proof.Gen.Kernel.Skeleton
import proofs.«157188_j18528488915578_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«157188_j18528488915578_1_alg».proof.Proof.K.R1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body on whole memrefs -/

set_option maxHeartbeats 4000000 in
/-- The body on whole staging memrefs — the fifteen inputs' at contents `x0 … x14`, the result's at anything — runs
    to the continuation holding the inputs' as they were and the result's at the body's one store of them.  The
    body's first part only loads and computes, so running through it leaves every buffer as it was. -/
theorem sound_kernel1 (c : Dev nD) (E : Set ℕ) (i : grid1.Coords)
    (arg1 : Memref sig .tc .vmem S1x4096 .f32) (harg1 : arg1.IsWhole) (arg2 : Memref sig .tc .vmem S1x4096 .f32) (harg2 : arg2.IsWhole)
    (arg3 : Memref sig .tc .vmem S1x128 .f32) (harg3 : arg3.IsWhole) (arg4 : Memref sig .tc .vmem S128x4096 .f32) (harg4 : arg4.IsWhole)
    (arg5 : Memref sig .tc .vmem S128x4096 .f32) (harg5 : arg5.IsWhole) (arg6 : Memref sig .tc .vmem S128x4096 .f32) (harg6 : arg6.IsWhole)
    (arg7 : Memref sig .tc .vmem S128x4096 .f32) (harg7 : arg7.IsWhole) (arg8 : Memref sig .tc .vmem S128x4096 .f32) (harg8 : arg8.IsWhole)
    (arg9 : Memref sig .tc .vmem S128x4096 .f32) (harg9 : arg9.IsWhole) (arg10 : Memref sig .tc .vmem S1x128 .f32) (harg10 : arg10.IsWhole)
    (arg11 : Memref sig .tc .vmem S1x128 .f32) (harg11 : arg11.IsWhole) (arg12 : Memref sig .tc .vmem S1x128 .f32) (harg12 : arg12.IsWhole)
    (arg13 : Memref sig .tc .vmem S1x128 .f32) (harg13 : arg13.IsWhole) (arg14 : Memref sig .tc .vmem S1x128 .f32) (harg14 : arg14.IsWhole)
    (arg15 : Memref sig .tc .vmem S1x128 .f32) (harg15 : arg15.IsWhole) (arg16 : Memref sig .tc .vmem S1x128 .f32) (harg16 : arg16.IsWhole)
    (x0 x1 : Vec F S1x4096 .f32) (x2 : Vec F S1x128 .f32) (x3 x4 x5 x6 x7 x8 : Vec F S128x4096 .f32)
    (x9 x10 x11 x12 x13 x14 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ (∃ d, owns (c : Thread nD τ) arg16 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare (out1_15 x0 x1 x2 x3 x4 x5 x6 x7 x8 x9 x10 x11 x12 x13 x14)) -∗ K ⟨⟩))
      ⊢ wp frame (wpE (defs₀ (F := F)) Variants.none c none) E
          (cc1__gru_cell_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1__gru_cell_kernel_eq_skeleton]; unfold cc1__gru_cell_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0; subst hf1; subst hf2; subst hf3; subst hf4; subst hf5; subst hf6; subst hf7
  subst hf8; subst hf9; subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover1_15 _)

/-! ## What each input buffer holds when the body runs -/

/- An input window's buffer holds the window's block at every point.  Where the pipeline fetched it there, that is
   what the fetch put; where it did not, the block index has not moved since the fetch and the body left the buffer
   alone.  No window here is cut or idle, so the buffer is filled by the block entire. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl)
    (fun t => by rw [after1_10]; unfold Dat.blockOf iblk1; rw [A_eq1]; try rfl) t d).trans
    (by unfold Dat.fetched Dat.blockOf iblk1; rw [A_eq1]; try rfl)
theorem before1_11 (c : Dev nD) (t : Fin cfg1.N) (d) : (dat1 V c).before 11 t d = iblk1 V c 11 t :=
  ((dat1 V c).before_in_eq_fetched 11 rfl (fun _ => rfl) (fun _ _ _ => rfl)
    (fun t => by rw [after1_11]; unfold Dat.blockOf iblk1; rw [A_eq1]; try rfl) t d).trans
    (by unfold Dat.fetched Dat.blockOf iblk1; rw [A_eq1]; try rfl)
theorem before1_12 (c : Dev nD) (t : Fin cfg1.N) (d) : (dat1 V c).before 12 t d = iblk1 V c 12 t :=
  ((dat1 V c).before_in_eq_fetched 12 rfl (fun _ => rfl) (fun _ _ _ => rfl)
    (fun t => by rw [after1_12]; unfold Dat.blockOf iblk1; rw [A_eq1]; try rfl) t d).trans
    (by unfold Dat.fetched Dat.blockOf iblk1; rw [A_eq1]; try rfl)
theorem before1_13 (c : Dev nD) (t : Fin cfg1.N) (d) : (dat1 V c).before 13 t d = iblk1 V c 13 t :=
  ((dat1 V c).before_in_eq_fetched 13 rfl (fun _ => rfl) (fun _ _ _ => rfl)
    (fun t => by rw [after1_13]; unfold Dat.blockOf iblk1; rw [A_eq1]; try rfl) t d).trans
    (by unfold Dat.fetched Dat.blockOf iblk1; rw [A_eq1]; try rfl)
theorem before1_14 (c : Dev nD) (t : Fin cfg1.N) (d) : (dat1 V c).before 14 t d = iblk1 V c 14 t :=
  ((dat1 V c).before_in_eq_fetched 14 rfl (fun _ => rfl) (fun _ _ _ => rfl)
    (fun t => by rw [after1_14]; unfold Dat.blockOf iblk1; rw [A_eq1]; try rfl) t d).trans
    (by unfold Dat.fetched Dat.blockOf iblk1; rw [A_eq1]; try rfl)

/-! ## The obligation at a point -/

/-- What the body is handed at point `t`: the invariant, what the core owes, and each window's current buffer at what
    it then holds, the windows one by one. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d)))

/-- What it hands back: the same invariant and debt, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t))

set_option maxHeartbeats 4000000 in
/-- The body at any point: the inputs' buffers hold their blocks, so the statement on whole memrefs applies to them; the
    invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15]
  unfold res1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel1 c Set.univ _ _ _ _ _ _ _ _ _ _ _ _ _ _ _ _ _ _ _ _ _ _ _ _ _ _ _ _ _ _ _ _ _
    (iblk1 V c 0 t) (iblk1 V c 1 t) (iblk1 V c 2 t) (iblk1 V c 3 t) (iblk1 V c 4 t)
    (iblk1 V c 5 t) (iblk1 V c 6 t) (iblk1 V c 7 t) (iblk1 V c 8 t) (iblk1 V c 9 t)
    (iblk1 V c 10 t) (iblk1 V c 11 t) (iblk1 V c 12 t) (iblk1 V c 13 t) (iblk1 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2Body.lean ====
/-
  The final projection's body at a grid point, and the pipeline's obligation for it.

  The body reads its three input buffers whole, stores  relu(row) · Wᵀ + bias  into the result's buffer whole, and
  touches nothing else.  At the last grid point the weight, bias and result blocks overhang their arrays: the
  obligation then speaks only of the part that moves.  Whether the moved 81 logits depend on the overhanging weight rows
  is a matter of the number system: over the extended reals a logit is a sum over ITS OWN weight row, so they do
  not; the word-level product is a function of the whole tile, so there nothing is said of what the body leaves in the
  result's buffer (the window is forgotten).
-/
import proofs.«157188_j18528488915578_1_alg».proof.Proof.Gen.Kernel.Launch
import proofs.«157188_j18528488915578_1_alg».proof.Proof.Gen.Kernel.Skeleton
import proofs.«157188_j18528488915578_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«157188_j18528488915578_1_alg».proof.Proof.K.R2Defs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging memrefs — the inputs' at contents `x0 x1 x2`, the result's at anything — runs to the
    continuation holding the inputs' as they were and the result's at the body's one store of them. -/
theorem sound_kernel2 (c : Dev nD) (E : Set ℕ) (i : grid2.Coords)
    (arg1 : Memref sig .tc .vmem S1x4096 .f32) (harg1 : arg1.IsWhole) (arg2 : Memref sig .tc .vmem S512x4096 .f32) (harg2 : arg2.IsWhole)
    (arg3 : Memref sig .tc .vmem S1x512 .f32) (harg3 : arg3.IsWhole) (arg4 : Memref sig .tc .vmem S1x512 .f32) (harg4 : arg4.IsWhole)
    (x0 : Vec F S1x4096 .f32) (x1 : Vec F S512x4096 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__final_kernel i arg1 harg1 arg2 harg2 arg3 harg3 arg4 harg4) K := by
  simp only [cc2__final_kernel_eq_skeleton]; unfold cc2__final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

end Cert.Kernel.Hand

end
-- ==== Proof.K.R2Obl.lean ====
/-
  The final projection's body obligation with the result window forgotten.

  At every grid point the state row's buffer holds the whole row; the weight and bias buffers have just been
  fetched, so they hold their blocks on the part inside the arrays and unnamed words beyond.  The body reads the
  three, stores into the fourth and changes none of the three.  Of the fourth nothing is said here.
-/
import proofs.«157188_j18528488915578_1_alg».proof.Proof.Gen.Kernel.Launch
import proofs.«157188_j18528488915578_1_alg».proof.Proof.Gen.Kernel.Skeleton
import proofs.«157188_j18528488915578_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«157188_j18528488915578_1_alg».proof.Proof.K.R2Defs
import proofs.«157188_j18528488915578_1_alg».proof.Proof.K.R2Body
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The windows whose contents the obligation does not name: the result's only. -/
def fgt3 : Fin cfg2.W → Bool :=
  fun | 0 => false | 1 => false | 2 => false | 3 => true | ⟨_ + 4, h⟩ => absurd h (Nat.not_lt.2 (Nat.le_add_left _ _))

theorem fgt3_0 : fgt3 (0 : Fin 4) = false := rfl
theorem fgt3_1 : fgt3 (1 : Fin 4) = false := rfl
theorem fgt3_2 : fgt3 (2 : Fin 4) = false := rfl
theorem fgt3_3 : fgt3 (3 : Fin 4) = true := rfl

/-- The state row's buffer holds the row at every point: it is fetched once, never cut, and the body leaves it. -/
theorem before2_0 (c : Dev nD) (t : Fin cfg2.N) (d) : (dat2 V c).before 0 t d = iblk2 V c 0 t := by
  have hkeep : ∀ s, (cfg2.win 0).cut (cfg2.grid.coords s) ((dat2 V c).after 0 s) = (dat2 V c).blockOf 0 s := by
    intro s
    rw [after2_0]; unfold Dat.blockOf iblk2; rw [A_eq2]; try rfl
  rw [(dat2 V c).before_in_eq_fetched 0 rfl (fun _ => rfl) (fun _ _ _ => rfl) hkeep t d]
  unfold Dat.fetched Dat.blockOf iblk2; rw [A_eq2]; try rfl

/-- The weight buffer was fetched at this very point: the block on the rows inside the array, `d` beyond. -/
theorem before2_1 (c : Dev nD) (t : Fin cfg2.N) (d) :
    (dat2 V c).before 1 t d = win2_1.fill (grid2.coords t) d (iblk2 V c 1 t) := by
  unfold Dat.before; rw [if_pos (fetch2_1 t)]; rfl

/-- The bias buffer likewise, on the columns inside the array. -/
theorem before2_2 (c : Dev nD) (t : Fin cfg2.N) (d) :
    (dat2 V c).before 2 t d = win2_2.fill (grid2.coords t) d (iblk2 V c 2 t) := by
  unfold Dat.before; rw [if_pos (fetch2_2 t)]; rfl

theorem body_obligation2_forget (c : Dev nD) :
    BodyObligationLoose (dat2 (F := F) V c) (defs₀ (F := F)) Variants.none () Set.univ fgt3 := fun t => by
  rw [bigSep_W2, bigSep_W2]
  simp only [fgt3]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, H3⟩
  rw [before2_0 V c t d0, before2_1 V c t d1, before2_2 V c t d2, after2_0, after2_1, after2_2]
  iapply (sound_kernel2 (F := F) c Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3)) (iblk2 V c 0 t)
    (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  -- the weight and bias buffers are as they were found; on the part that moved that is the block, which is all
  -- the padded block is asked to agree with
  have h1 : win2_1.cut (grid2.coords t) (wblk2 V c t) = iblk2 V c 1 t := win2_1.cut_fill _ _ _
  have h2 : win2_2.cut (grid2.coords t) (bblk2 V c t) = iblk2 V c 2 t := win2_2.cut_fill _ _ _
  isplitl [H1]
  · iexists d1
    change _ ⊢ owns (c : Thread nD τ) (st2_1 t) fullShare (win2_1.fill (grid2.coords t) d1 (win2_1.cut (grid2.coords t) (wblk2 V c t)))
    rw [h1]
  isplitl [H2]
  · iexists d2
    change _ ⊢ owns (c : Thread nD τ) (st2_2 t) fullShare (win2_2.fill (grid2.coords t) d2 (win2_2.cut (grid2.coords t) (bblk2 V c t)))
    rw [h2]
  iexists _; iexact H3

end Cert.Kernel.Hand

end
-- ==== Proof.K.R0Share.lean ====
/-
  Kernel region 0: one buffer read through several windows.

  The sixteen windows stand on seven buffers.  The input row and the result have a window each; the state row has two (the
  whole row and its 128-wide chunk); each of the two weight matrices and each of the two bias rows has three (the r, z, n
  slices).  Ownership of a buffer with several readers is cut along the share tree: two readers take a half each, three
  take a half, a quarter and a quarter.  Since no reader writes, every part still holds the entry contents after the last
  point, and the parts are put together again to the whole buffer; the result's buffer, held whole throughout, returns
  with what the write-backs left in it.
-/
import proofs.«157188_j18528488915578_1_alg».proof.Proof.K.R0Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the sixteen windows' arrays are seven. -/
theorem arrImage0 : (Finset.univ.image (Pipeline.arrRef spec0)) = ([main_v0, main_v1, main_arg2, main_arg3, main_v2, main_v3, main_v4] : List (Ref sig .tc)).toFinset := by decide

/-- Every window holds its array at the share the table deals it: the output window's entry there is the full share. -/
theorem share0 (c : Dev nD) : ∀ w : Fin cfg0.W, (dat0 V c).share w = q0 w := by
  intro w
  unfold Dat.share
  dsimp only [dat0]
  fin_cases w <;> rfl

/-- A whole buffer halved between two readers. -/
theorem deal_two {ℓ : Loc nD τ sig} (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-- A whole buffer dealt to three readers: a half, and the other half halved again. -/
theorem deal_three {ℓ : Loc nD τ sig} (f : Buf (Elt F) ℓ) :
    (ℓ ↦{fullShare} f : sProp 𝕄) ⊣⊢ iprop((ℓ ↦{fullShare.left} f) ∗ (ℓ ↦{fullShare.right.left} f) ∗ ℓ ↦{fullShare.right.right} f) :=
  ⟨(deal_two f).1.trans (sep_mono .rfl (pointsTo_share (PosShare.mem_left_op_right fullShare.right)).1),
   (sep_mono .rfl (pointsTo_share (PosShare.mem_left_op_right fullShare.right)).2).trans (deal_two f).2⟩

/-- One window's array, a whole buffer, at the window's share. -/
theorem win_pt0 (c : Dev nD) (G : (w : Fin cfg0.W) → Buf (Elt F) ((cfg0.win w).arr.view.loc (c.tc : Thread nD τ))) (w : Fin cfg0.W) :
    (((cfg0.win w).arr.view.loc (c.tc : Thread nD τ) ↦[(cfg0.win w).arr.view.set]{(dat0 V c).share w} G w) : sProp 𝕄)
      = (((c.tc : Thread nD τ).loc (Pipeline.arrRef spec0 w)) ↦{q0 w} G w) := by
  rw [(arr_whole0 w).set_eq_univ, share0 V c w]

/-- The sixteen windows' arrays one by one, each a whole buffer at its dealt share. -/
theorem arrays_chain0 (c : Dev nD) (G : (w : Fin cfg0.W) → Buf (Elt F) ((cfg0.win w).arr.view.loc (c.tc : Thread nD τ))) :
    ((dat0 V c).arrays G : sProp 𝕄) = iprop(
      (((c.tc : Thread nD τ).loc main_v0) ↦{fullShare} G 0) ∗
      (((c.tc : Thread nD τ).loc main_v1) ↦{fullShare.left} G 1) ∗
      (((c.tc : Thread nD τ).loc main_v1) ↦{fullShare.right} G 2) ∗
      (((c.tc : Thread nD τ).loc main_arg2) ↦{fullShare.left} G 3) ∗
      (((c.tc : Thread nD τ).loc main_arg2) ↦{fullShare.right.left} G 4) ∗
      (((c.tc : Thread nD τ).loc main_arg2) ↦{fullShare.right.right} G 5) ∗
      (((c.tc : Thread nD τ).loc main_arg3) ↦{fullShare.left} G 6) ∗
      (((c.tc : Thread nD τ).loc main_arg3) ↦{fullShare.right.left} G 7) ∗
      (((c.tc : Thread nD τ).loc main_arg3) ↦{fullShare.right.right} G 8) ∗
      (((c.tc : Thread nD τ).loc main_v2) ↦{fullShare.left} G 9) ∗
      (((c.tc : Thread nD τ).loc main_v2) ↦{fullShare.right.left} G 10) ∗
      (((c.tc : Thread nD τ).loc main_v2) ↦{fullShare.right.right} G 11) ∗
      (((c.tc : Thread nD τ).loc main_v3) ↦{fullShare.left} G 12) ∗
      (((c.tc : Thread nD τ).loc main_v3) ↦{fullShare.right.left} G 13) ∗
      (((c.tc : Thread nD τ).loc main_v3) ↦{fullShare.right.right} G 14) ∗
      (((c.tc : Thread nD τ).loc main_v4) ↦{fullShare} G 15)) := by
  unfold Dat.arrays
  rw [bigSep_congr fun w _ => win_pt0 V c G w, bigSep_W0]
  rfl

/-- The seven buffers behind the windows' arrays one by one, each whole at the full share. -/
theorem arrBufs_chain0 (c : Dev nD) (X : (b : Ref sig .tc) → Buf (Elt F) ((c.tc : Thread nD τ).loc b)) :
    (Pipeline.arrBufs spec0 c X : sProp 𝕄) = iprop(
      (((c.tc : Thread nD τ).loc main_v0) ↦{fullShare} X main_v0) ∗
      (((c.tc : Thread nD τ).loc main_v1) ↦{fullShare} X main_v1) ∗
      (((c.tc : Thread nD τ).loc main_arg2) ↦{fullShare} X main_arg2) ∗
      (((c.tc : Thread nD τ).loc main_arg3) ↦{fullShare} X main_arg3) ∗
      (((c.tc : Thread nD τ).loc main_v2) ↦{fullShare} X main_v2) ∗
      (((c.tc : Thread nD τ).loc main_v3) ↦{fullShare} X main_v3) ∗
      (((c.tc : Thread nD τ).loc main_v4) ↦{fullShare} X main_v4)) := by
  unfold Pipeline.arrBufs
  rw [bigSep_eq_bigSepL_of_eq _ arrImage0 (by decide)]
  rfl

/-- Dealing the seven buffers, each whole, among the sixteen windows at the arrays' entry contents: the state row's buffer is
    halved between its two readers, each weight matrix's and each bias row's dealt to its three. -/
theorem arrays_split0 (c : Dev nD) : (Pipeline.arrBufs spec0 c (V c) : sProp 𝕄) ⊢ (dat0 V c).arrays (dat0 V c).A := by
  rw [arrays_chain0, arrBufs_chain0]
  simp only [A_eq0]
  iintro ⟨H0, H1, H2, H3, H4, H5, H6⟩
  ihave H1s := (deal_two _).1 $$ H1
  icases H1s with ⟨H1a, H1b⟩
  ihave H2s := (deal_three _).1 $$ H2
  icases H2s with ⟨H2a, H2b, H2c⟩
  ihave H3s := (deal_three _).1 $$ H3
  icases H3s with ⟨H3a, H3b, H3c⟩
  ihave H4s := (deal_three _).1 $$ H4
  icases H4s with ⟨H4a, H4b, H4c⟩
  ihave H5s := (deal_three _).1 $$ H5
  icases H5s with ⟨H5a, H5b, H5c⟩
  isplitl [H0]; · iexact H0
  isplitl [H1a]; · iexact H1a
  isplitl [H1b]; · iexact H1b
  isplitl [H2a]; · iexact H2a
  isplitl [H2b]; · iexact H2b
  isplitl [H2c]; · iexact H2c
  isplitl [H3a]; · iexact H3a
  isplitl [H3b]; · iexact H3b
  isplitl [H3c]; · iexact H3c
  isplitl [H4a]; · iexact H4a
  isplitl [H4b]; · iexact H4b
  isplitl [H4c]; · iexact H4c
  isplitl [H5a]; · iexact H5a
  isplitl [H5b]; · iexact H5b
  isplitl [H5c]; · iexact H5c
  iexact H6

/-- Collecting the windows' shares: when the windows on one buffer all hold the contents `X` gives it, their shares add up
    to the buffer whole at those contents. -/
theorem arrays_join0_of (c : Dev nD) (G : (w : Fin cfg0.W) → Buf (Elt F) ((cfg0.win w).arr.view.loc (c.tc : Thread nD τ)))
    (X : (b : Ref sig .tc) → Buf (Elt F) ((c.tc : Thread nD τ).loc b))
    (h0 : G 0 = X main_v0) (h1 : G 1 = X main_v1) (h2 : G 2 = X main_v1)
    (h3 : G 3 = X main_arg2) (h4 : G 4 = X main_arg2) (h5 : G 5 = X main_arg2)
    (h6 : G 6 = X main_arg3) (h7 : G 7 = X main_arg3) (h8 : G 8 = X main_arg3)
    (h9 : G 9 = X main_v2) (h10 : G 10 = X main_v2) (h11 : G 11 = X main_v2)
    (h12 : G 12 = X main_v3) (h13 : G 13 = X main_v3) (h14 : G 14 = X main_v3)
    (h15 : G 15 = X main_v4) :
    ((dat0 V c).arrays G : sProp 𝕄) ⊢ Pipeline.arrBufs spec0 c X := by
  rw [arrays_chain0, arrBufs_chain0]
  simp only [h0, h1, h2, h3, h4, h5, h6, h7, h8, h9, h10, h11, h12, h13, h14, h15]
  iintro ⟨H0, H1a, H1b, H2a, H2b, H2c, H3a, H3b, H3c, H4a, H4b, H4c, H5a, H5b, H5c, H6⟩
  isplitl [H0]; · iexact H0
  isplitl [H1a H1b]
  · iapply (deal_two _).2
    isplitl [H1a]; · iexact H1a
    iexact H1b
  isplitl [H2a H2b H2c]
  · iapply (deal_three _).2
    isplitl [H2a]; · iexact H2a
    isplitl [H2b]; · iexact H2b
    iexact H2c
  isplitl [H3a H3b H3c]
  · iapply (deal_three _).2
    isplitl [H3a]; · iexact H3a
    isplitl [H3b]; · iexact H3b
    iexact H3c
  isplitl [H4a H4b H4c]
  · iapply (deal_three _).2
    isplitl [H4a]; · iexact H4a
    isplitl [H4b]; · iexact H4b
    iexact H4c
  isplitl [H5a H5b H5c]
  · iapply (deal_three _).2
    isplitl [H5a]; · iexact H5a
    isplitl [H5b]; · iexact H5b
    iexact H5c
  iexact H6

/-- An input window's array after the last point is the buffer as the region found it. -/
theorem arrAt_in0 (c : Dev nD) (w : Fin cfg0.W) (hin : (cfg0.win w).isOut = false) :
    (dat0 V c).arrAt w cfg0.N = V c (Pipeline.arrRef spec0 w) :=
  ((dat0 V c).arrAt_in w hin cfg0.N).trans (A_eq0 V c w)

/-- Collecting the windows' shares after the last point: no input array was written, so each buffer's shares agree on the
    entry contents and add up to the whole; the result's buffer comes back as the write-backs left it. -/
theorem arrays_join0 (c : Dev nD) (V' : (b : Ref sig .tc) → Buf (Elt F) ((c : Thread nD τ).loc b))
    (hout : V' main_v4 = (dat0 V c).arrAt 15 cfg0.N) (hrest : ∀ b, b ≠ main_v4 → V' b = V c b) :
    ((dat0 V c).arrays ((dat0 V c).arrAt · cfg0.N) : sProp 𝕄) ⊢ Pipeline.arrBufs spec0 c V' :=
  arrays_join0_of V c _ V'
    ((arrAt_in0 V c 0 rfl).trans (hrest main_v0 (by decide)).symm)
    ((arrAt_in0 V c 1 rfl).trans (hrest main_v1 (by decide)).symm)
    ((arrAt_in0 V c 2 rfl).trans (hrest main_v1 (by decide)).symm)
    ((arrAt_in0 V c 3 rfl).trans (hrest main_arg2 (by decide)).symm)
    ((arrAt_in0 V c 4 rfl).trans (hrest main_arg2 (by decide)).symm)
    ((arrAt_in0 V c 5 rfl).trans (hrest main_arg2 (by decide)).symm)
    ((arrAt_in0 V c 6 rfl).trans (hrest main_arg3 (by decide)).symm)
    ((arrAt_in0 V c 7 rfl).trans (hrest main_arg3 (by decide)).symm)
    ((arrAt_in0 V c 8 rfl).trans (hrest main_arg3 (by decide)).symm)
    ((arrAt_in0 V c 9 rfl).trans (hrest main_v2 (by decide)).symm)
    ((arrAt_in0 V c 10 rfl).trans (hrest main_v2 (by decide)).symm)
    ((arrAt_in0 V c 11 rfl).trans (hrest main_v2 (by decide)).symm)
    ((arrAt_in0 V c 12 rfl).trans (hrest main_v3 (by decide)).symm)
    ((arrAt_in0 V c 13 rfl).trans (hrest main_v3 (by decide)).symm)
    ((arrAt_in0 V c 14 rfl).trans (hrest main_v3 (by decide)).symm)
    hout.symm

end Cert.Kernel.Hand

end
-- ==== Proof.K.R1Share.lean ====
/-
  Kernel region 1: one buffer read through several windows.

  The sixteen windows stand on six buffers.  The state row, which is also this cell's input row, has three readers (the row
  whole twice and its 128-wide chunk); each of the two weight matrices and each of the two bias rows has three (the r, z, n
  slices); the result has a window of its own.  Ownership of a buffer with three readers is cut along the share tree into a
  half, a quarter and a quarter.  Since no reader writes, every part still holds the entry contents after the last point,
  and the parts are put together again to the whole buffer; the result's buffer, held whole throughout, returns with what
  the write-backs left in it.
-/
import proofs.«157188_j18528488915578_1_alg».proof.Proof.K.R1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the sixteen windows' arrays are six. -/
theorem arrImage1 : (Finset.univ.image (Pipeline.arrRef spec1)) = ([main_v4, main_arg6, main_arg7, main_v5, main_v6, main_v7] : List (Ref sig .tc)).toFinset := by decide

/-- Every window holds its array at the share the table deals it: the output window's entry there is the full share. -/
theorem share1 (c : Dev nD) : ∀ w : Fin cfg1.W, (dat1 V c).share w = q1 w := by
  intro w
  unfold Dat.share
  dsimp only [dat1]
  fin_cases w <;> rfl

/-- A whole buffer dealt to three readers: a half, and the other half halved again. -/
theorem deal_three1 {ℓ : Loc nD τ sig} (f : Buf (Elt F) ℓ) :
    (ℓ ↦{fullShare} f : sProp 𝕄) ⊣⊢ iprop((ℓ ↦{fullShare.left} f) ∗ (ℓ ↦{fullShare.right.left} f) ∗ ℓ ↦{fullShare.right.right} f) :=
  ⟨(pointsTo_share (PosShare.mem_left_op_right fullShare)).1.trans
      (sep_mono .rfl (pointsTo_share (PosShare.mem_left_op_right fullShare.right)).1),
   (sep_mono .rfl (pointsTo_share (PosShare.mem_left_op_right fullShare.right)).2).trans
      (pointsTo_share (PosShare.mem_left_op_right fullShare)).2⟩

/-- One window's array, a whole buffer, at the window's share. -/
theorem win_pt1 (c : Dev nD) (G : (w : Fin cfg1.W) → Buf (Elt F) ((cfg1.win w).arr.view.loc (c.tc : Thread nD τ))) (w : Fin cfg1.W) :
    (((cfg1.win w).arr.view.loc (c.tc : Thread nD τ) ↦[(cfg1.win w).arr.view.set]{(dat1 V c).share w} G w) : sProp 𝕄)
      = (((c.tc : Thread nD τ).loc (Pipeline.arrRef spec1 w)) ↦{q1 w} G w) := by
  rw [(arr_whole1 w).set_eq_univ, share1 V c w]

/-- The sixteen windows' arrays one by one, each a whole buffer at its dealt share. -/
theorem arrays_chain1 (c : Dev nD) (G : (w : Fin cfg1.W) → Buf (Elt F) ((cfg1.win w).arr.view.loc (c.tc : Thread nD τ))) :
    ((dat1 V c).arrays G : sProp 𝕄) = iprop(
      (((c.tc : Thread nD τ).loc main_v4) ↦{fullShare.left} G 0) ∗
      (((c.tc : Thread nD τ).loc main_v4) ↦{fullShare.right.left} G 1) ∗
      (((c.tc : Thread nD τ).loc main_v4) ↦{fullShare.right.right} G 2) ∗
      (((c.tc : Thread nD τ).loc main_arg6) ↦{fullShare.left} G 3) ∗
      (((c.tc : Thread nD τ).loc main_arg6) ↦{fullShare.right.left} G 4) ∗
      (((c.tc : Thread nD τ).loc main_arg6) ↦{fullShare.right.right} G 5) ∗
      (((c.tc : Thread nD τ).loc main_arg7) ↦{fullShare.left} G 6) ∗
      (((c.tc : Thread nD τ).loc main_arg7) ↦{fullShare.right.left} G 7) ∗
      (((c.tc : Thread nD τ).loc main_arg7) ↦{fullShare.right.right} G 8) ∗
      (((c.tc : Thread nD τ).loc main_v5) ↦{fullShare.left} G 9) ∗
      (((c.tc : Thread nD τ).loc main_v5) ↦{fullShare.right.left} G 10) ∗
      (((c.tc : Thread nD τ).loc main_v5) ↦{fullShare.right.right} G 11) ∗
      (((c.tc : Thread nD τ).loc main_v6) ↦{fullShare.left} G 12) ∗
      (((c.tc : Thread nD τ).loc main_v6) ↦{fullShare.right.left} G 13) ∗
      (((c.tc : Thread nD τ).loc main_v6) ↦{fullShare.right.right} G 14) ∗
      (((c.tc : Thread nD τ).loc main_v7) ↦{fullShare} G 15)) := by
  unfold Dat.arrays
  rw [bigSep_congr fun w _ => win_pt1 V c G w, bigSep_W1]
  rfl

/-- The six buffers behind the windows' arrays one by one, each whole at the full share. -/
theorem arrBufs_chain1 (c : Dev nD) (X : (b : Ref sig .tc) → Buf (Elt F) ((c.tc : Thread nD τ).loc b)) :
    (Pipeline.arrBufs spec1 c X : sProp 𝕄) = iprop(
      (((c.tc : Thread nD τ).loc main_v4) ↦{fullShare} X main_v4) ∗
      (((c.tc : Thread nD τ).loc main_arg6) ↦{fullShare} X main_arg6) ∗
      (((c.tc : Thread nD τ).loc main_arg7) ↦{fullShare} X main_arg7) ∗
      (((c.tc : Thread nD τ).loc main_v5) ↦{fullShare} X main_v5) ∗
      (((c.tc : Thread nD τ).loc main_v6) ↦{fullShare} X main_v6) ∗
      (((c.tc : Thread nD τ).loc main_v7) ↦{fullShare} X main_v7)) := by
  unfold Pipeline.arrBufs
  rw [bigSep_eq_bigSepL_of_eq _ arrImage1 (by decide)]
  rfl

/-- Dealing the six buffers, each whole, among the sixteen windows at the arrays' entry contents: the state row's buffer,
    each weight matrix's and each bias row's is dealt to its three readers. -/
theorem arrays_split1 (c : Dev nD) : (Pipeline.arrBufs spec1 c (V c) : sProp 𝕄) ⊢ (dat1 V c).arrays (dat1 V c).A := by
  rw [arrays_chain1, arrBufs_chain1]
  simp only [A_eq1]
  iintro ⟨H1, H2, H3, H4, H5, H6⟩
  ihave H1s := (deal_three1 _).1 $$ H1
  icases H1s with ⟨H1a, H1b, H1c⟩
  ihave H2s := (deal_three1 _).1 $$ H2
  icases H2s with ⟨H2a, H2b, H2c⟩
  ihave H3s := (deal_three1 _).1 $$ H3
  icases H3s with ⟨H3a, H3b, H3c⟩
  ihave H4s := (deal_three1 _).1 $$ H4
  icases H4s with ⟨H4a, H4b, H4c⟩
  ihave H5s := (deal_three1 _).1 $$ H5
  icases H5s with ⟨H5a, H5b, H5c⟩
  isplitl [H1a]; · iexact H1a
  isplitl [H1b]; · iexact H1b
  isplitl [H1c]; · iexact H1c
  isplitl [H2a]; · iexact H2a
  isplitl [H2b]; · iexact H2b
  isplitl [H2c]; · iexact H2c
  isplitl [H3a]; · iexact H3a
  isplitl [H3b]; · iexact H3b
  isplitl [H3c]; · iexact H3c
  isplitl [H4a]; · iexact H4a
  isplitl [H4b]; · iexact H4b
  isplitl [H4c]; · iexact H4c
  isplitl [H5a]; · iexact H5a
  isplitl [H5b]; · iexact H5b
  isplitl [H5c]; · iexact H5c
  iexact H6

/-- Collecting the windows' shares: when the windows on one buffer all hold the contents `X` gives it, their shares add up
    to the buffer whole at those contents. -/
theorem arrays_join1_of (c : Dev nD) (G : (w : Fin cfg1.W) → Buf (Elt F) ((cfg1.win w).arr.view.loc (c.tc : Thread nD τ)))
    (X : (b : Ref sig .tc) → Buf (Elt F) ((c.tc : Thread nD τ).loc b))
    (h0 : G 0 = X main_v4) (h1 : G 1 = X main_v4) (h2 : G 2 = X main_v4)
    (h3 : G 3 = X main_arg6) (h4 : G 4 = X main_arg6) (h5 : G 5 = X main_arg6)
    (h6 : G 6 = X main_arg7) (h7 : G 7 = X main_arg7) (h8 : G 8 = X main_arg7)
    (h9 : G 9 = X main_v5) (h10 : G 10 = X main_v5) (h11 : G 11 = X main_v5)
    (h12 : G 12 = X main_v6) (h13 : G 13 = X main_v6) (h14 : G 14 = X main_v6)
    (h15 : G 15 = X main_v7) :
    ((dat1 V c).arrays G : sProp 𝕄) ⊢ Pipeline.arrBufs spec1 c X := by
  rw [arrays_chain1, arrBufs_chain1]
  simp only [h0, h1, h2, h3, h4, h5, h6, h7, h8, h9, h10, h11, h12, h13, h14, h15]
  iintro ⟨H1a, H1b, H1c, H2a, H2b, H2c, H3a, H3b, H3c, H4a, H4b, H4c, H5a, H5b, H5c, H6⟩
  isplitl [H1a H1b H1c]
  · iapply (deal_three1 _).2
    isplitl [H1a]; · iexact H1a
    isplitl [H1b]; · iexact H1b
    iexact H1c
  isplitl [H2a H2b H2c]
  · iapply (deal_three1 _).2
    isplitl [H2a]; · iexact H2a
    isplitl [H2b]; · iexact H2b
    iexact H2c
  isplitl [H3a H3b H3c]
  · iapply (deal_three1 _).2
    isplitl [H3a]; · iexact H3a
    isplitl [H3b]; · iexact H3b
    iexact H3c
  isplitl [H4a H4b H4c]
  · iapply (deal_three1 _).2
    isplitl [H4a]; · iexact H4a
    isplitl [H4b]; · iexact H4b
    iexact H4c
  isplitl [H5a H5b H5c]
  · iapply (deal_three1 _).2
    isplitl [H5a]; · iexact H5a
    isplitl [H5b]; · iexact H5b
    iexact H5c
  iexact H6

/-- An input window's array after the last point is the buffer as the region found it. -/
theorem arrAt_in1 (c : Dev nD) (w : Fin cfg1.W) (hin : (cfg1.win w).isOut = false) :
    (dat1 V c).arrAt w cfg1.N = V c (Pipeline.arrRef spec1 w) :=
  ((dat1 V c).arrAt_in w hin cfg1.N).trans (A_eq1 V c w)

/-- Collecting the windows' shares after the last point: no input array was written, so each buffer's shares agree on the
    entry contents and add up to the whole; the result's buffer comes back as the write-backs left it. -/
theorem arrays_join1 (c : Dev nD) (V' : (b : Ref sig .tc) → Buf (Elt F) ((c : Thread nD τ).loc b))
    (hout : V' main_v7 = (dat1 V c).arrAt 15 cfg1.N) (hrest : ∀ b, b ≠ main_v7 → V' b = V c b) :
    ((dat1 V c).arrays ((dat1 V c).arrAt · cfg1.N) : sProp 𝕄) ⊢ Pipeline.arrBufs spec1 c V' :=
  arrays_join1_of V c _ V'
    ((arrAt_in1 V c 0 rfl).trans (hrest main_v4 (by decide)).symm)
    ((arrAt_in1 V c 1 rfl).trans (hrest main_v4 (by decide)).symm)
    ((arrAt_in1 V c 2 rfl).trans (hrest main_v4 (by decide)).symm)
    ((arrAt_in1 V c 3 rfl).trans (hrest main_arg6 (by decide)).symm)
    ((arrAt_in1 V c 4 rfl).trans (hrest main_arg6 (by decide)).symm)
    ((arrAt_in1 V c 5 rfl).trans (hrest main_arg6 (by decide)).symm)
    ((arrAt_in1 V c 6 rfl).trans (hrest main_arg7 (by decide)).symm)
    ((arrAt_in1 V c 7 rfl).trans (hrest main_arg7 (by decide)).symm)
    ((arrAt_in1 V c 8 rfl).trans (hrest main_arg7 (by decide)).symm)
    ((arrAt_in1 V c 9 rfl).trans (hrest main_v5 (by decide)).symm)
    ((arrAt_in1 V c 10 rfl).trans (hrest main_v5 (by decide)).symm)
    ((arrAt_in1 V c 11 rfl).trans (hrest main_v5 (by decide)).symm)
    ((arrAt_in1 V c 12 rfl).trans (hrest main_v6 (by decide)).symm)
    ((arrAt_in1 V c 13 rfl).trans (hrest main_v6 (by decide)).symm)
    ((arrAt_in1 V c 14 rfl).trans (hrest main_v6 (by decide)).symm)
    hout.symm

end Cert.Kernel.Hand

end
-- ==== Proof.K.Run.lean ====
/-
  The run of @main as a list of items: a host segment per stretch of host operations, a region record per kernel region,
  and the launch.  What the last state says: for some contents `x` of the logits array — the pipeline's named ones
  when its result window is not forgotten — every unscoped buffer holds the fold's last contents at `x`.
-/
import proofs.«157188_j18528488915578_1_alg».proof.Proof.Gen.Kernel.Launch
import proofs.«157188_j18528488915578_1_alg».proof.Proof.Gen.Kernel.Skeleton
import proofs.«157188_j18528488915578_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«157188_j18528488915578_1_alg».proof.Proof.Gen.Kernel.Regions
import proofs.«157188_j18528488915578_1_alg».proof.Proof.K.Fold
import proofs.«157188_j18528488915578_1_alg».proof.Proof.K.R0Body
import proofs.«157188_j18528488915578_1_alg».proof.Proof.K.R1Body
import proofs.«157188_j18528488915578_1_alg».proof.Proof.K.R2Obl
import proofs.«157188_j18528488915578_1_alg».proof.Proof.K.R0Share
import proofs.«157188_j18528488915578_1_alg».proof.Proof.K.R1Share
import Idealize.ShloMosaic.Lib.Pipeline.Regions
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.Pipeline (HostSeg RDat)

variable (m : (ℓ : Loc nD τ sig) → Buf (Elt F) ℓ) (ρ : Dev nD → PrngReg)

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the generator register at some state and the core's debts, none. -/
abbrev R (c : Dev nD) : sProp 𝕄 := iprop((∃ r, prngReg c r) ∗ ∃ W, owes (c : Thread nD τ) (0 : CellTallies nD τ sig Unit) W)

/-- The state between items: every unscoped buffer whole at `W`. -/
abbrev T (W : Valuation τ sig (Elt F)) (c : Dev nD) : sProp 𝕄 :=
  iprop(StableHlo.held (c : Thread nD τ) (Pipeline.ucRefs τ sig) W ∗ R c)

/-- The contents the logits array may hold after the projection region. -/
abbrev Logits (c : Dev nD) : Type := Buf (Elt F) ((c : Thread nD τ).loc main_v9)

/-- The state after the projection region: the logits array at SOME contents `x` of which `P c x` holds. -/
abbrev TX (P : (c : Dev nD) → Logits (F := F) c → Prop) (W : (c : Dev nD) → Logits (F := F) c → Valuation τ sig (Elt F)) (c : Dev nD) : sProp 𝕄 :=
  iprop(∃ x, ⌜P c x⌝ ∗ StableHlo.held (c : Thread nD τ) (Pipeline.ucRefs τ sig) (W c x) ∗ R c)

/-! ## The host stretches -/

/-- A stretch of host operations from named contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- A stretch of host operations from contents known only up to `x`: it runs at whatever `x` is, to the same
    operations' results at that `x`. -/
def hsegX (ops : List (HloOp τ sig (Elt F))) (hsub : ops.Forall fun op => op.bufs ⊆ StableHlo.tcRefs τ sig)
    (hfresh : ops.Forall fun op => op.fresh = ∅)
    (P : (c : Dev nD) → Logits (F := F) c → Prop) (W : (c : Dev nD) → Logits (F := F) c → Valuation τ sig (Elt F)) :
    HostSeg (Name := ℕ) (U := UR sig nD τ) (pcfgs (F := F)) defs₀ 𝒱₀ L lv where
  prog := StableHlo.seq ops
  pre c := TX P W c
  post c := TX P (fun c x => StableHlo.after ops (W c x)) c
  run c {β} k K := by
    iintro ⟨Hk, Hbd, ⟨%x, %hx, Hh, HR⟩, -⟩
    have hseq := StableHlo.wp_seq (defs := Pipeline.defs (pcfgs (F := F)) defs₀) (Variants.lift 𝒱₀) none Set.univ c (Pipeline.ucRefs τ sig) k (K := K) ops
      (fun op h => Pipeline.sub_ucRefs op ((List.forall_iff_forall_mem.mp hsub) op h))
      (fun op h => (List.forall_iff_forall_mem.mp hfresh) op h) (W c x)
    iapply hseq $$ [Hbd Hh]
    · isplitl [Hbd] <;> iassumption
    iintro ⟨Hbd, Hh⟩
    iapply Hk
    isplitl [Hbd]; · iexact Hbd
    iexists x
    isplitr; · ipureintro; exact hx
    isplitl [Hh] <;> iassumption

/-! ## The proof data of the three pipelines -/

/-- Each pipeline's data at its region's entry contents; the projection's read with the windows `fgt` marks forgotten. -/
def rdats (fgt : Fin cfg2.W → Bool) : (p : Fin 3) → (c : Dev nD) → RDat τ (Elt F) Unit ℕ (UR sig nD τ) ℕ (Pipeline.pin (pcfgs (F := F)) adm p) c
  | ⟨0, _⟩ => fun c => (dat0 (V1 m) c).toR
  | ⟨1, _⟩ => fun c => (dat1 (V3 m) c).toR
  | ⟨2, _⟩ => fun c => (dat2 (V5 m) c).toRForget fgt

/-- The same data as exact data: what the library's lemmas about arrays held whole are stated over. -/
def pd : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

/-! ## The regions -/

-- the library's lemmas are stated over the pinned configuration: unification must unfold plain definitions in a type
set_option backward.isDefEq.respectTransparency.types false in
/-- Kernel region 0: entered with every unscoped buffer at the boundary's contents, left with its result array at what its
    pipeline's write-backs fold to and every other buffer as entered.  At entry the buffers behind the windows' arrays are
    dealt among the windows (several windows read one array); at exit they are collected again. -/
def reg0 (fgt : Fin cfg2.W → Bool) : Pipeline.RDat.RegionSeg (pcfgs (F := F)) adm (rdats m fgt) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose.toR
  hwaits := Pipeline.RDat.hwaits_of_owed_zero _ _ _ _ L lv 0 fun _ _ => rfl
  pre c := T (W1 m c) c
  post c := T (W2 m c) c
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (StableHlo.held (c : Thread nD τ) (Pipeline.ucRefs τ sig) (W1 m c) : sProp 𝕄)
        ⊢ iprop((rdats m fgt 0 c).arrays (rdats m fgt 0 c).A ∗ Pipeline.unscopedRest spec0 c (V1 m c)) := by
      show _ ⊢ iprop((dat0 (V1 m) c).arrays (dat0 (V1 m) c).A ∗ Pipeline.unscopedRest spec0 c (V1 m c))
      rw [← Pipeline.unscopedBufs_held c (W1 m c), Pipeline.unscopedBufs_split₀ cfgs 0 winFacts₀0.arr_unscoped c]
      exact sep_mono (arrays_split0 (V1 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m fgt 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dat0 (V1 m) c).arrays ((dat0 (V1 m) c).arrAt · cfg0.N) ∗ Pipeline.unscopedRest spec0 c (V1 m c))
        ⊢ (StableHlo.held (c : Thread nD τ) (Pipeline.ucRefs τ sig) (W2 m c) : sProp 𝕄) := by
      rw [← Pipeline.unscopedBufs_held c (W2 m c), Pipeline.unscopedBufs_split₀ cfgs 0 winFacts₀0.arr_unscoped c]
      refine sep_mono (arrays_join0 (V1 m) c _ (W2_self m c) (fun b hb => W2_of m c b hb)) (Entails.of_eq ?_)
      unfold Pipeline.unscopedRest
      exact bigSep_congr fun b hb => by
        have hne : b ≠ main_v4 := fun e => (Finset.mem_sdiff.mp hb).2 (e ▸ Finset.mem_image.mpr ⟨15, Finset.mem_univ _, rfl⟩)
        simp only [W2_of m c b hne]
    rw [show (rdats m fgt 0 c).arraysAt (Pipeline.pin (pcfgs (F := F)) adm 0).N
      = (dat0 (V1 m) c).arrays ((dat0 (V1 m) c).arrAt · cfg0.N) from (dat0 (V1 m) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

-- the library's lemmas are stated over the pinned configuration: unification must unfold plain definitions in a type
set_option backward.isDefEq.respectTransparency.types false in
/-- Kernel region 1: entered with every unscoped buffer at the boundary's contents, left with its result array at what its
    pipeline's write-backs fold to and every other buffer as entered.  At entry the buffers behind the windows' arrays are
    dealt among the windows (several windows read one array); at exit they are collected again. -/
def reg1 (fgt : Fin cfg2.W → Bool) : Pipeline.RDat.RegionSeg (pcfgs (F := F)) adm (rdats m fgt) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose.toR
  hwaits := Pipeline.RDat.hwaits_of_owed_zero _ _ _ _ L lv 1 fun _ _ => rfl
  pre c := T (W3 m c) c
  post c := T (W4 m c) c
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (StableHlo.held (c : Thread nD τ) (Pipeline.ucRefs τ sig) (W3 m c) : sProp 𝕄)
        ⊢ iprop((rdats m fgt 1 c).arrays (rdats m fgt 1 c).A ∗ Pipeline.unscopedRest spec1 c (V3 m c)) := by
      show _ ⊢ iprop((dat1 (V3 m) c).arrays (dat1 (V3 m) c).A ∗ Pipeline.unscopedRest spec1 c (V3 m c))
      rw [← Pipeline.unscopedBufs_held c (W3 m c), Pipeline.unscopedBufs_split₀ cfgs 1 winFacts₀1.arr_unscoped c]
      exact sep_mono (arrays_split1 (V3 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((dat1 (V3 m) c).arrays ((dat1 (V3 m) c).arrAt · cfg1.N) ∗ Pipeline.unscopedRest spec1 c (V3 m c))
        ⊢ (StableHlo.held (c : Thread nD τ) (Pipeline.ucRefs τ sig) (W4 m c) : sProp 𝕄) := by
      rw [← Pipeline.unscopedBufs_held c (W4 m c), Pipeline.unscopedBufs_split₀ cfgs 1 winFacts₀1.arr_unscoped c]
      refine sep_mono (arrays_join1 (V3 m) c _ (W4_self m c) (fun b hb => W4_of m c b hb)) (Entails.of_eq ?_)
      unfold Pipeline.unscopedRest
      exact bigSep_congr fun b hb => by
        have hne : b ≠ main_v7 := fun e => (Finset.mem_sdiff.mp hb).2 (e ▸ Finset.mem_image.mpr ⟨15, Finset.mem_univ _, rfl⟩)
        simp only [W4_of m c b hne]
    rw [show (rdats m fgt 1 c).arraysAt (Pipeline.pin (pcfgs (F := F)) adm 1).N
      = (dat1 (V3 m) c).arrays ((dat1 (V3 m) c).arrAt · cfg1.N) from (dat1 (V3 m) c).toR_arraysAt_eq cfg1.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## The projection region's exit -/

section Exit2
variable (V : (c : Dev nD) → (b : Ref sig .tc) → Buf (Elt F) ((c : Thread nD τ).loc b))

/-- An input array, its window not forgotten, is never written: whatever it may hold after every write-back is what it
    held at entry. -/
theorem kept2 (fgt : Fin cfg2.W → Bool) (c : Dev nD)
    (w : Fin cfg2.W) (hw : (cfg2.win w).isOut = false) (hf : fgt w = false)
    (G : Buf (Elt F) ((cfg2.win w).arr.view.loc (c : Thread nD τ))) (h : ((dat2 V c).toRForget fgt).ArrAt w cfg2.N G) :
    G = (dat2 V c).A w :=
  (((dat2 V c).toRForget_arrAt_iff hf cfg2.N G).mp h).trans ((dat2 V c).arrAt_in w hw cfg2.N)

/-- The four arrays after the region, the result's at some contents `x`. -/
def exitArr (c : Dev nD) (x : Buf (Elt F) ((cfg2.win 3).arr.view.loc (c : Thread nD τ))) :
    (w : Fin cfg2.W) → Buf (Elt F) ((cfg2.win w).arr.view.loc (c : Thread nD τ))
  | ⟨0, _⟩ => (dat2 V c).A 0
  | ⟨1, _⟩ => (dat2 V c).A 1
  | ⟨2, _⟩ => (dat2 V c).A 2
  | ⟨3, _⟩ => x

/-- After every write-back the three input arrays are as entered and the result array is at some contents, the named ones
    unless its window is forgotten. -/
theorem exit2_arrays (fgt : Fin cfg2.W → Bool) (hfgt : ∀ w : Fin cfg2.W, w ≠ 3 → fgt w = false) (c : Dev nD) :
    ((((dat2 V c).toRForget fgt).arraysAt cfg2.N) : sProp 𝕄)
      ⊢ iprop(∃ x : Buf (Elt F) ((cfg2.win 3).arr.view.loc (c : Thread nD τ)), ⌜fgt 3 = false → x = (dat2 V c).arrAt 3 cfg2.N⌝
          ∗ (dat2 V c).arrays (exitArr V c x)) := by
  unfold RDat.arraysAt Dat.arrays
  simp only [bigSep_W2, exitArr]
  iintro ⟨⟨%F0, %h0, H0⟩, ⟨%F1, %h1, H1⟩, ⟨%F2, %h2, H2⟩, ⟨%F3, %h3, H3⟩⟩
  have q0 := kept2 V fgt c 0 rfl (hfgt 0 (by decide)) F0 h0
  have q1 := kept2 V fgt c 1 rfl (hfgt 1 (by decide)) F1 h1
  have q2 := kept2 V fgt c 2 rfl (hfgt 2 (by decide)) F2 h2
  subst q0 q1 q2
  iexists F3
  isplitr
  · ipureintro; exact fun hf => ((dat2 V c).toRForget_arrAt_iff hf cfg2.N F3).mp h3
  isplitl [H0]; · iexact H0
  isplitl [H1]; · iexact H1
  isplitl [H2]; · iexact H2
  iexact H3

end Exit2

/-- What is known of the logits array after the projection region: the pipeline's named contents, unless its result
    window was forgotten. -/
abbrev Named (fgt : Fin cfg2.W → Bool) (c : Dev nD) (x : Logits (F := F) c) : Prop := fgt 3 = false → x = o9 m c

-- the library's lemmas are stated over the pinned configuration: unification must unfold plain definitions in a type
set_option backward.isDefEq.respectTransparency.types false in
/-- Kernel region 2 (the projection): its windows' arrays are distinct, each held whole.  It is entered at named contents
    and left with the logits array at SOME contents its write-backs may have produced — the named ones when the result window
    is not forgotten (`fgt 3 = false`); the input windows are never forgotten (`hfgt`). -/
def reg2 (fgt : Fin cfg2.W → Bool) (hfgt : ∀ w : Fin cfg2.W, w ≠ 3 → fgt w = false)
    (hb2 : ∀ c, BodyObligationLoose (dat2 (F := F) (V5 m) c) (defs₀ (F := F)) Variants.none () Set.univ fgt) :
    Pipeline.RDat.RegionSeg (pcfgs (F := F)) adm (rdats m fgt) () defs₀ 𝒱₀ L lv 2 where
  win := winFacts2.to₀
  block_pos := block_pos2
  stage_whole := stage_whole2
  K := PEmpty
  osem k := k.elim
  ho := Pipeline.OwnSemFacts.none _
  hbody c := (hb2 c).toRForget
  hwaits := Pipeline.RDat.hwaits_of_owed_zero _ _ _ _ L lv 2 fun _ _ => rfl
  pre c := T (W5 m c) c
  post c := TX (Named m fgt) (W6 m) c
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.RDat.arrays_of_unscopedBufs (p := 2) (pcfgs (F := F)) adm (rdats m fgt) winFacts2 arr_whole2 c
      ((rdats m fgt 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m fgt 2 c).Φ (Fin.last _) = Pipeline.ΦA spec2 c from rfl]; unfold Pipeline.ΦA
    iintro ⟨Hr, Hp⟩
    isplitl [Hp]; · iexact Hp
    isplitr; · iempintro
    iexact Hr
  hexit c := by
    -- the three input arrays are as entered; the result array is at some contents `x`
    have hA := exit2_arrays (V5 m) fgt hfgt c
    have hF : ∀ (x : Logits (F := F) c) (w : Fin cfg2.W), exitArr (V5 m) c x w = V6 m c x (Pipeline.arrRef spec2 w) := fun x w =>
      match w with
      | ⟨0, _⟩ => show (dat2 (V5 m) c).A 0 = W6 m c x main_v7 from (A_eq2 (V5 m) c 0).trans (W6_of m c x main_v7 (by decide)).symm
      | ⟨1, _⟩ => show (dat2 (V5 m) c).A 1 = W6 m c x main_arg10 from (A_eq2 (V5 m) c 1).trans (W6_of m c x main_arg10 (by decide)).symm
      | ⟨2, _⟩ => show (dat2 (V5 m) c).A 2 = W6 m c x main_v8 from (A_eq2 (V5 m) c 2).trans (W6_of m c x main_v8 (by decide)).symm
      | ⟨3, _⟩ => show x = W6 m c x main_v9 from (W6_self m c x).symm
    have hjoin : ∀ x : Logits (F := F) c,
        iprop((dat2 (V5 m) c).arrays (exitArr (V5 m) c x) ∗ Pipeline.unscopedRest spec2 c (V5 m c))
          ⊢ (StableHlo.held (c : Thread nD τ) (Pipeline.ucRefs τ sig) (W6 m c x) : sProp 𝕄) := fun x => by
      rw [← Pipeline.unscopedBufs_held c (W6 m c x)]
      exact Pipeline.unscopedBufs_of_arrays (p := 2) (pcfgs (F := F)) adm winFacts2 arr_whole2 c (pd m)
        ((pd m 2 c).share_full fun _ => rfl) (V5 m c) (V6 m c x) (exitArr (V5 m) c x) (hF x)
        (fun b hb => W6_of m c x b fun e => hb (e ▸ Finset.mem_image.mpr ⟨3, Finset.mem_univ _, rfl⟩))
    have hA' : ((rdats m fgt 2 c).arraysAt (Pipeline.pin (pcfgs (F := F)) adm 2).N : sProp 𝕄)
        ⊢ iprop(∃ x : Logits (F := F) c, ⌜Named m fgt c x⌝ ∗ (dat2 (V5 m) c).arrays (exitArr (V5 m) c x)) := hA
    iintro ⟨Ha, HO, HY, Hrest⟩
    ihave H := hA' $$ Ha
    icases H with ⟨%x, %hx, Ha⟩
    imodintro
    iexists x
    isplitr; · ipureintro; exact hx
    isplitl [Ha Hrest]
    · iapply (hjoin x); isplitl [Ha] <;> iassumption
    isplitl [HY]; · iexact HY
    unfold Pipeline.RDat.owesAt Pipeline.owesWithin
    icases HO with ⟨%W, -, HO⟩; iexists W; iexact HO

/-! ## @main as items, and the launch -/

/-- @main's eight items in order. -/
abbrev segs (fgt : Fin cfg2.W → Bool) (hfgt : ∀ w : Fin cfg2.W, w ≠ 3 → fgt w = false)
    (hb2 : ∀ c, BodyObligationLoose (dat2 (F := F) (V5 m) c) (defs₀ (F := F)) Variants.none () Set.univ fgt) :
    List (Pipeline.RDat.Seg (pcfgs (F := F)) adm (rdats m fgt) () defs₀ 𝒱₀ L lv) :=
  [ .host (hseg hostOps0 hostOps0_sub hostOps0_fresh (W0 m)),
    .region (reg0 m fgt),
    .host (hseg hostOps1 hostOps1_sub hostOps1_fresh (W2 m)),
    .region (reg1 m fgt),
    .host (hseg hostOps2 hostOps2_sub hostOps2_fresh (W4 m)),
    .region (reg2 m fgt hfgt hb2),
    .host (hsegX hostOps3 hostOps3_sub hostOps3_fresh (Named m fgt) (W6 m)),
    .host (hsegX hostOps3_1 hostOps3_1_sub hostOps3_1_fresh (Named m fgt) (W7 m)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one
set_option backward.isDefEq.respectTransparency.types false in
/-- THE RUN.  From any memory with zero counters every weakly fair execution of @main terminates, nothing faulting, and in
    every final state, on every core, for some contents `x` of the logits array — the named ones when the projection's result
    window is not forgotten — every unscoped buffer holds the fold's last contents at `x`. -/
theorem run_main (fgt : Fin cfg2.W → Bool) (hfgt : ∀ w : Fin cfg2.W, w ≠ 3 → fgt w = false)
    (hb2 : ∀ c, BodyObligationLoose (dat2 (F := F) (V5 m) c) (defs₀ (F := F)) Variants.none () Set.univ fgt) :
    θ_run defs (onTc (τ := τ) (main (F := F))) ⟨m, fun _ => 0, ρ⟩ (fun r => ∀ c : Dev nD, ∃ x : Logits (F := F) c,
      Named m fgt c x ∧ ∀ b ∈ Pipeline.ucRefs τ sig, r.2.mem ((c : Thread nD τ).1, b) = W8 m c x b) :=
  Pipeline.RDat.θ_run_regions_kit (pcfgs (F := F)) adm (rdats m fgt) () cellOf_inj emb₁ defs₀ 𝒱₀ L lv m ρ main (segs m fgt hfgt hb2)
    (fun c Q => by
      rewrite [main_chain c, Pipeline.RDat.Seg.run_eq_chain,
        show (segs m fgt hfgt hb2).map Pipeline.RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => T (W0 m c) c)
    (Tₙ := fun c => iprop(∃ x : Logits (F := F) c, ⌜Named m fgt c x⌝
      ∗ StableHlo.held (c : Thread nD τ) (Pipeline.ucRefs τ sig) (W8 m c x) ∗ ∃ r, prngReg c r))
    (hch := ⟨fun _ => .rfl, fun _ => .rfl, fun _ => .rfl, fun _ => .rfl, fun _ => .rfl, fun _ => .rfl, fun _ => .rfl, fun _ => .rfl, fun c => by
      show (TX (Named m fgt) (W8 m) c : sProp 𝕄) ⊢ _
      iintro ⟨%x, %hx, Hh, Hp, HO⟩
      isplitr [HO]
      · iexists x; isplitr; · ipureintro; exact hx
        isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ x : Logits (F := F) c, Named m fgt c x ∧ ∀ b ∈ Pipeline.ucRefs τ sig, s.mem (((c : Thread nD τ)).1, b) = W8 m c x b)
    (hfin := fun c s' => by
      iintro ⟨⟨%x, %hx, Hh, -⟩, HSI⟩
      unfold StableHlo.held
      ihave Hr := (pointsTo_read_all (Pipeline.ucRefs τ sig) (fun b => (((c : Thread nD τ)).1, b)) (W8 m c x) s') $$ [Hh HSI]
      · isplitl [Hh] <;> iassumption
      icases Hr with ⟨%h, HSI⟩
      imodintro
      isplitr
      · ipureintro; exact ⟨x, hx, h⟩
      · iexact HSI)
    (hQ := fun _ h => h)

/-! ## The frame -/

/-- Every argument array ends as launched: no host stretch writes it and it is no region's result array. -/
theorem run_frame (fgt : Fin cfg2.W → Bool) (hfgt : ∀ w : Fin cfg2.W, w ≠ 3 → fgt w = false)
    (hb2 : ∀ c, BodyObligationLoose (dat2 (F := F) (V5 m) c) (defs₀ (F := F)) Variants.none () Set.univ fgt) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    obtain ⟨x, -, hb⟩ := h c
    exact ⟨(hb _ (mem_uc main_arg0 (by decide))).trans (W8_kept m c x main_arg0 (by decide) (by decide) (by decide) (by decide) (by decide) (by decide) (by decide) (by decide)),
      (hb _ (mem_uc main_arg1 (by decide))).trans (W8_kept m c x main_arg1 (by decide) (by decide) (by decide) (by decide) (by decide) (by decide) (by decide) (by decide)),
      (hb _ (mem_uc main_arg2 (by decide))).trans (W8_kept m c x main_arg2 (by decide) (by decide) (by decide) (by decide) (by decide) (by decide) (by decide) (by decide)),
      (hb _ (mem_uc main_arg3 (by decide))).trans (W8_kept m c x main_arg3 (by decide) (by decide) (by decide) (by decide) (by decide) (by decide) (by decide) (by decide)),
      (hb _ (mem_uc main_arg4 (by decide))).trans (W8_kept m c x main_arg4 (by decide) (by decide) (by decide) (by decide) (by decide) (by decide) (by decide) (by decide)),
      (hb _ (mem_uc main_arg5 (by decide))).trans (W8_kept m c x main_arg5 (by decide) (by decide) (by decide) (by decide) (by decide) (by decide) (by decide) (by decide)),
      (hb _ (mem_uc main_arg6 (by decide))).trans (W8_kept m c x main_arg6 (by decide) (by decide) (by decide) (by decide) (by decide) (by decide) (by decide) (by decide)),
      (hb _ (mem_uc main_arg7 (by decide))).trans (W8_kept m c x main_arg7 (by decide) (by decide) (by decide) (by decide) (by decide) (by decide) (by decide) (by decide)),
      (hb _ (mem_uc main_arg8 (by decide))).trans (W8_kept m c x main_arg8 (by decide) (by decide) (by decide) (by decide) (by decide) (by decide) (by decide) (by decide)),
      (hb _ (mem_uc main_arg9 (by decide))).trans (W8_kept m c x main_arg9 (by decide) (by decide) (by decide) (by decide) (by decide) (by decide) (by decide) (by decide)),
      (hb _ (mem_uc main_arg10 (by decide))).trans (W8_kept m c x main_arg10 (by decide) (by decide) (by decide) (by decide) (by decide) (by decide) (by decide) (by decide)),
      (hb _ (mem_uc main_arg11 (by decide))).trans (W8_kept m c x main_arg11 (by decide) (by decide) (by decide) (by decide) (by decide) (by decide) (by decide) (by decide))⟩)
    (run_main m ρ fgt hfgt hb2)

end Cert.Kernel.Hand

end
-- ==== Proof.KI.R0Defs.lean ====
/-
  A GRU cell's pipeline — kernel region 0 of @main —, at the buffer contents `V` the region is entered with.

  Grid point t (of 32) computes hidden coordinates 128·t … 128·t + 127.  It stages the whole input row and the whole state
  row (windows 0, 1), the state's 128-wide chunk (window 2), the r, z, n slices' rows 128·t …, 4096 + 128·t …,
  8192 + 128·t … of the input weights (windows 3–5) and of the state weights (6–8), the matching bias chunks
  (9–11 and 12–14), and writes the 128 new state coordinates back (window 15).  Every block lies inside its array.
  Several windows read one array (a weight matrix's three slices; a bias row's; the state row whole and in chunks).
-/
import proofs.«157188_j18528488915578_1_alg».proof.Proof.Gen.KernelIdeal.Launch
import proofs.«157188_j18528488915578_1_alg».proof.Proof.Gen.KernelIdeal.Skeleton
import proofs.«157188_j18528488915578_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole row, the whole weight block, the whole 128-wide chunk. -/
abbrev rRow0 : Rect S1x4096 := Rect.unit (s := S1x4096) ![0, 0] S1x4096.size inb_S1x4096_S1x4096_0_0
abbrev rWgt0 : Rect S128x4096 := Rect.unit (s := S128x4096) ![0, 0] S128x4096.size inb_S128x4096_S128x4096_0_0
abbrev rChk0 : Rect S1x128 := Rect.unit (s := S1x128) ![0, 0] S1x128.size inb_S1x128_S1x128_0_0

/-- What the body leaves in the result's staging buffer, from what the fifteen input buffers hold (`xW` window W's):
    its one whole store, the cell's combination of the six products with their biases and the state chunk. -/
def out0_15 (x0 x1 : Vec F S1x4096 .f32) (x2 : Vec F S1x128 .f32) (x3 x4 x5 x6 x7 x8 : Vec F S128x4096 .f32)
    (x9 x10 x11 x12 x13 x14 : Vec F S1x128 .f32) : Vec F S1x128 .f32 :=
  View.canon [⟨rChk0, k0_pay1 (k0_pay3 (View.ld x1 rRow0))
    (k0_pay4 (View.ld x0 rRow0) (View.ld x3 rWgt0) (View.ld x9 rChk0))
    (k0_pay5 (View.ld x0 rRow0) (View.ld x4 rWgt0) (View.ld x10 rChk0))
    (k0_pay6 (View.ld x0 rRow0) (View.ld x5 rWgt0) (View.ld x11 rChk0))
    (k0_pay7 (View.ld x1 rRow0) (View.ld x6 rWgt0) (View.ld x12 rChk0))
    (k0_pay8 (View.ld x7 rWgt0))
    (constant S1x128 .f32 0x00000000#32)
    (View.ld x13 rChk0) (View.ld x8 rWgt0) (View.ld x14 rChk0) (View.ld x2 rChk0)⟩]

/-- The one store covers the buffer. -/
theorem cover0_15 (p0 : Vec F S1x128 .f32) (y : S1x128.Idx) :
    ∃ pc ∈ ([⟨rChk0, p0⟩] : List (View.Piece (Elt F) S1x128 .f32)), y ∈ pc.1.set :=
  View.cover_of_tiled [⟨rChk0, p0⟩] S1x128.size (by rfl) y

/-- How the arrays' shares are dealt among the windows of kernel region 0: an array one window reads is held whole; two
    windows on one array take a half each; three take a half, a quarter and a quarter. -/
def q0 : Fin cfg0.W → PosShare TreeShare
  | ⟨0, _⟩ => fullShare
  | ⟨1, _⟩ => fullShare.left
  | ⟨2, _⟩ => fullShare.right
  | ⟨3, _⟩ => fullShare.left
  | ⟨4, _⟩ => fullShare.right.left
  | ⟨5, _⟩ => fullShare.right.right
  | ⟨6, _⟩ => fullShare.left
  | ⟨7, _⟩ => fullShare.right.left
  | ⟨8, _⟩ => fullShare.right.right
  | ⟨9, _⟩ => fullShare.left
  | ⟨10, _⟩ => fullShare.right.left
  | ⟨11, _⟩ => fullShare.right.right
  | ⟨12, _⟩ => fullShare.left
  | ⟨13, _⟩ => fullShare.right.left
  | ⟨14, _⟩ => fullShare.right.right
  | ⟨15, _⟩ => fullShare
  | ⟨_ + 16, h⟩ => absurd h (Nat.not_lt.2 (Nat.le_add_left _ _))

/-- The result's buffer after the body at point `t`, from the input blocks there. -/
def res0 (c : Dev nD) (t : Fin cfg0.N) : Vec F S1x128 .f32 :=
  out0_15 (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t) (iblk0 V c 11 t) (iblk0 V c 12 t) (iblk0 V c 13 t) (iblk0 V c 14 t)

/-- The pipeline's proof data: the arrays as the region finds them; after the body each input buffer at its block
    and the result's at the body's store of them; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => res0 V c t
    | ⟨_ + 16, h⟩ => absurd h (Nat.not_lt.2 (Nat.le_add_left _ _))
  Φ _ := Pipeline.ΦA spec0 c
  q := q0
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = res0 V c t := by dsimp only [dat0]

end Cert.KernelIdeal.Hand

end
-- ==== Proof.KI.R1Defs.lean ====
/-
  A GRU cell's pipeline — kernel region 1 of @main —, at the buffer contents `V` the region is entered with.

  Grid point t (of 32) computes hidden coordinates 128·t … 128·t + 127.  It stages the whole input row and the whole state
  row (windows 0, 1), the state's 128-wide chunk (window 2), the r, z, n slices' rows 128·t …, 4096 + 128·t …,
  8192 + 128·t … of the input weights (windows 3–5) and of the state weights (6–8), the matching bias chunks
  (9–11 and 12–14), and writes the 128 new state coordinates back (window 15).  Every block lies inside its array.
  Several windows read one array (a weight matrix's three slices; a bias row's; the state row whole and in chunks).
-/
import proofs.«157188_j18528488915578_1_alg».proof.Proof.Gen.KernelIdeal.Launch
import proofs.«157188_j18528488915578_1_alg».proof.Proof.Gen.KernelIdeal.Skeleton
import proofs.«157188_j18528488915578_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole row, the whole weight block, the whole 128-wide chunk. -/
abbrev rRow1 : Rect S1x4096 := Rect.unit (s := S1x4096) ![0, 0] S1x4096.size inb_S1x4096_S1x4096_0_0
abbrev rWgt1 : Rect S128x4096 := Rect.unit (s := S128x4096) ![0, 0] S128x4096.size inb_S128x4096_S128x4096_0_0
abbrev rChk1 : Rect S1x128 := Rect.unit (s := S1x128) ![0, 0] S1x128.size inb_S1x128_S1x128_0_0

/-- What the body leaves in the result's staging buffer, from what the fifteen input buffers hold (`xW` window W's):
    its one whole store, the cell's combination of the six products with their biases and the state chunk. -/
def out1_15 (x0 x1 : Vec F S1x4096 .f32) (x2 : Vec F S1x128 .f32) (x3 x4 x5 x6 x7 x8 : Vec F S128x4096 .f32)
    (x9 x10 x11 x12 x13 x14 : Vec F S1x128 .f32) : Vec F S1x128 .f32 :=
  View.canon [⟨rChk1, k1_pay1 (k1_pay3 (View.ld x1 rRow1))
    (k1_pay4 (View.ld x0 rRow1) (View.ld x3 rWgt1) (View.ld x9 rChk1))
    (k1_pay5 (View.ld x0 rRow1) (View.ld x4 rWgt1) (View.ld x10 rChk1))
    (k1_pay6 (View.ld x0 rRow1) (View.ld x5 rWgt1) (View.ld x11 rChk1))
    (k1_pay7 (View.ld x1 rRow1) (View.ld x6 rWgt1) (View.ld x12 rChk1))
    (k1_pay8 (View.ld x7 rWgt1))
    (constant S1x128 .f32 0x00000000#32)
    (View.ld x13 rChk1) (View.ld x8 rWgt1) (View.ld x14 rChk1) (View.ld x2 rChk1)⟩]

/-- The one store covers the buffer. -/
theorem cover1_15 (p0 : Vec F S1x128 .f32) (y : S1x128.Idx) :
    ∃ pc ∈ ([⟨rChk1, p0⟩] : List (View.Piece (Elt F) S1x128 .f32)), y ∈ pc.1.set :=
  View.cover_of_tiled [⟨rChk1, p0⟩] S1x128.size (by rfl) y

/-- How the arrays' shares are dealt among the windows of kernel region 1: an array one window reads is held whole; two
    windows on one array take a half each; three take a half, a quarter and a quarter. -/
def q1 : Fin cfg1.W → PosShare TreeShare
  | ⟨0, _⟩ => fullShare.left
  | ⟨1, _⟩ => fullShare.right.left
  | ⟨2, _⟩ => fullShare.right.right
  | ⟨3, _⟩ => fullShare.left
  | ⟨4, _⟩ => fullShare.right.left
  | ⟨5, _⟩ => fullShare.right.right
  | ⟨6, _⟩ => fullShare.left
  | ⟨7, _⟩ => fullShare.right.left
  | ⟨8, _⟩ => fullShare.right.right
  | ⟨9, _⟩ => fullShare.left
  | ⟨10, _⟩ => fullShare.right.left
  | ⟨11, _⟩ => fullShare.right.right
  | ⟨12, _⟩ => fullShare.left
  | ⟨13, _⟩ => fullShare.right.left
  | ⟨14, _⟩ => fullShare.right.right
  | ⟨15, _⟩ => fullShare
  | ⟨_ + 16, h⟩ => absurd h (Nat.not_lt.2 (Nat.le_add_left _ _))

/-- The result's buffer after the body at point `t`, from the input blocks there. -/
def res1 (c : Dev nD) (t : Fin cfg1.N) : Vec F S1x128 .f32 :=
  out1_15 (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t) (iblk1 V c 11 t) (iblk1 V c 12 t) (iblk1 V c 13 t) (iblk1 V c 14 t)

/-- The pipeline's proof data: the arrays as the region finds them; after the body each input buffer at its block
    and the result's at the body's store of them; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => res1 V c t
    | ⟨_ + 16, h⟩ => absurd h (Nat.not_lt.2 (Nat.le_add_left _ _))
  Φ _ := Pipeline.ΦA spec1 c
  q := q1
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = res1 V c t := by dsimp only [dat1]

end Cert.KernelIdeal.Hand

end
-- ==== Proof.KI.R2Defs.lean ====
/-
  The final projection's pipeline (the third kernel region), at the buffer contents `V` the region is entered with.

  Grid point t stages the whole 1 × 4096 state row, rows 512·t … 512·t + 511 of the 50257 × 4096 output weights and
  the matching 512 bias entries, and writes 512 logits back.  50257 = 98 · 512 + 81: the last point's weight, bias and
  result blocks reach past the arrays' ends, so only their first 81 rows (columns) move; the staging words beyond
  them are whatever the machine left there.
-/
import proofs.«157188_j18528488915578_1_alg».proof.Proof.Gen.KernelIdeal.Launch
import proofs.«157188_j18528488915578_1_alg».proof.Proof.Gen.KernelIdeal.Skeleton
import proofs.«157188_j18528488915578_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it: the part inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole state row, the whole weight block, the whole bias / result block. -/
abbrev rRow2 : Rect S1x4096 := Rect.unit (s := S1x4096) ![0, 0] S1x4096.size inb_S1x4096_S1x4096_0_0
abbrev rWgt2 : Rect S512x4096 := Rect.unit (s := S512x4096) ![0, 0] S512x4096.size inb_S512x4096_S512x4096_0_0
abbrev rOut2 : Rect S1x512 := Rect.unit (s := S1x512) ![0, 0] S1x512.size inb_S1x512_S1x512_0_0

/-- What the body leaves in the result's staging buffer, from what the three input buffers hold: its one whole store. -/
def out2_3 (x0 : Vec F S1x4096 .f32) (x1 : Vec F S512x4096 .f32) (x2 : Vec F S1x512 .f32) : Vec F S1x512 .f32 :=
  View.canon [⟨rOut2, k2_pay1 (View.ld x0 rRow2) (View.ld x1 rWgt2) (View.ld x2 rOut2)⟩]

/-- The one store covers the buffer. -/
theorem cover2_3 (p0 : Vec F S1x512 .f32) (y : S1x512.Idx) :
    ∃ pc ∈ ([⟨rOut2, p0⟩] : List (View.Piece (Elt F) S1x512 .f32)), y ∈ pc.1.set :=
  View.cover_of_tiled [⟨rOut2, p0⟩] S1x512.size (by rfl) y

/-- The word that fills a clipped block out to the staging buffer's size where nothing names the contents. -/
abbrev pad0 : Elt F .f32 := Scalar.ofBits .f32 0#32

/-- The weight block at point `t` filled out to 512 rows, and the bias block to 512 columns. -/
def wblk2 (c : Dev nD) (t : Fin cfg2.N) : S512x4096.Idx → Elt F .f32 :=
  win2_1.fill (grid2.coords t) (fun _ => pad0) (iblk2 V c 1 t)
def bblk2 (c : Dev nD) (t : Fin cfg2.N) : S1x512.Idx → Elt F .f32 :=
  win2_2.fill (grid2.coords t) (fun _ => pad0) (iblk2 V c 2 t)

/-- The pipeline's proof data: the arrays as the region finds them; after the body each input buffer at its block
    (filled out past the array's end) and the result's at the body's store of those; the scoped rest and the generator
    register untouched; nothing owed; every array held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => wblk2 V c t
    | ⟨2, _⟩ => bblk2 V c t
    | ⟨3, _⟩ => out2_3 (iblk2 V c 0 t) (wblk2 V c t) (bblk2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = wblk2 V c t := by dsimp only [dat2]
theorem after2_2 (c : Dev nD) (t : Fin cfg2.N) : (dat2 V c).after 2 t = bblk2 V c t := by dsimp only [dat2]
theorem after2_3 (c : Dev nD) (t : Fin cfg2.N) :
    (dat2 V c).after 3 t = out2_3 (iblk2 V c 0 t) (wblk2 V c t) (bblk2 V c t) := by dsimp only [dat2]

end Cert.KernelIdeal.Hand

end
-- ==== Proof.KI.Fold.lean ====
/-
  The run of @main: three kernel regions among stretches of host operations.

  Between two items the core holds every unscoped buffer whole at contents known by name — the launch memory with each
  host stretch's results and each region's result array folded in — beside its generator register and its (empty)
  debts.  The two GRU regions name what they leave (hidden coordinate by hidden coordinate, whatever the number system);
  the projection region is entered at named contents too, but what it leaves in the logits array is named only when its
  result window is not forgotten: the host operations after it run at WHATEVER that array holds.  The claim read off
  the last state: every unscoped buffer at the fold's last contents, for some contents of the logits array, which are
  the named ones when nothing was forgotten.
-/
import proofs.«157188_j18528488915578_1_alg».proof.Proof.Gen.KernelIdeal.Launch
import proofs.«157188_j18528488915578_1_alg».proof.Proof.Gen.KernelIdeal.Skeleton
import proofs.«157188_j18528488915578_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«157188_j18528488915578_1_alg».proof.Proof.Gen.KernelIdeal.Regions
import proofs.«157188_j18528488915578_1_alg».proof.Proof.KI.R0Defs
import proofs.«157188_j18528488915578_1_alg».proof.Proof.KI.R1Defs
import proofs.«157188_j18528488915578_1_alg».proof.Proof.KI.R2Defs
import Idealize.ShloMosaic.Lib.Pipeline.Regions
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.Pipeline (HostSeg)

variable (m : (ℓ : Loc nD τ sig) → Buf (Elt F) ℓ) (ρ : Dev nD → PrngReg)

/-! ## The buffers' contents at each boundary -/

/-- At launch; after the first host stretch (the two rows and the first cell's two bias rows reshaped). -/
abbrev W0 (c : Dev nD) : Valuation τ sig (Elt F) := fun b => m (c, b)
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- The first cell's state, as its pipeline leaves it. -/
def o4 (c : Dev nD) : Buf (Elt F) ((c : Thread nD τ).loc main_v4) := (dat0 (V1 m) c).arrAt 15 cfg0.N
/-- After the first region; after the second host stretch (the second cell's bias rows). -/
abbrev W2 (c : Dev nD) : Valuation τ sig (Elt F) := Function.update (W1 m c) main_v4 (o4 m c)
abbrev V2 : (c : Dev nD) → (b : Ref sig .tc) → Buf (Elt F) ((c : Thread nD τ).loc b) := fun c b => W2 m c b
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- The second cell's state. -/
def o7 (c : Dev nD) : Buf (Elt F) ((c : Thread nD τ).loc main_v7) := (dat1 (V3 m) c).arrAt 15 cfg1.N
/-- After the second region; after the third host stretch (the output bias row). -/
abbrev W4 (c : Dev nD) : Valuation τ sig (Elt F) := Function.update (W3 m c) main_v7 (o7 m c)
abbrev V4 : (c : Dev nD) → (b : Ref sig .tc) → Buf (Elt F) ((c : Thread nD τ).loc b) := fun c b => W4 m c b
abbrev W5 (c : Dev nD) : Valuation τ sig (Elt F) := StableHlo.after hostOps2 (W4 m c)
abbrev V5 : (c : Dev nD) → (b : Ref sig .tc) → Buf (Elt F) ((c : Thread nD τ).loc b) := fun c b => W5 m c b
/-- The logits as the projection's pipeline names them. -/
def o9 (c : Dev nD) : Buf (Elt F) ((c : Thread nD τ).loc main_v9) := (dat2 (V5 m) c).arrAt 3 cfg2.N
/-- After the third region, the logits array at `x`; after the log-softmax; after the last reshape. -/
abbrev W6 (c : Dev nD) (x : Buf (Elt F) ((c : Thread nD τ).loc main_v9)) : Valuation τ sig (Elt F) := Function.update (W5 m c) main_v9 x
abbrev V6 (c : Dev nD) (x : Buf (Elt F) ((c : Thread nD τ).loc main_v9)) : (b : Ref sig .tc) → Buf (Elt F) ((c : Thread nD τ).loc b) := fun b => W6 m c x b
abbrev W7 (c : Dev nD) (x : Buf (Elt F) ((c : Thread nD τ).loc main_v9)) : Valuation τ sig (Elt F) := StableHlo.after hostOps3 (W6 m c x)
abbrev W8 (c : Dev nD) (x : Buf (Elt F) ((c : Thread nD τ).loc main_v9)) : Valuation τ sig (Elt F) := StableHlo.after hostOps3_1 (W7 m c x)

/-! ## What each item leaves alone -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ≠ main_v4) : W2 m c r = W1 m c r := by
  simp only [W2, Function.update_of_ne (StableHlo.devRef_ne_of_ne h : (Proc.devRef .tc r : DevRef τ sig) ≠ Proc.devRef .tc main_v4)]
theorem W2_self (c : Dev nD) : W2 m c main_v4 = o4 m c := by simp only [W2, Function.update_self]
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ≠ main_v7) : W4 m c r = W3 m c r := by
  simp only [W4, Function.update_of_ne (StableHlo.devRef_ne_of_ne h : (Proc.devRef .tc r : DevRef τ sig) ≠ Proc.devRef .tc main_v7)]
theorem W4_self (c : Dev nD) : W4 m c main_v7 = o7 m c := by simp only [W4, Function.update_self]
theorem W5_of (c : Dev nD) (r : Ref sig .tc) (h : r ∉ hostOps2_W) : W5 m c r = W4 m c r :=
  StableHlo.after_of_writes_sub hostOps2 _ hostOps2_writes h
theorem W6_of (c : Dev nD) (x) (r : Ref sig .tc) (h : r ≠ main_v9) : W6 m c x r = W5 m c r := by
  simp only [W6, Function.update_of_ne (StableHlo.devRef_ne_of_ne h : (Proc.devRef .tc r : DevRef τ sig) ≠ Proc.devRef .tc main_v9)]
theorem W6_self (c : Dev nD) (x) : W6 m c x main_v9 = x := by simp only [W6, Function.update_self]
theorem W7_of (c : Dev nD) (x) (r : Ref sig .tc) (h : r ∉ hostOps3_W) : W7 m c x r = W6 m c x r :=
  StableHlo.after_of_writes_sub hostOps3 _ hostOps3_writes h
theorem W8_of (c : Dev nD) (x) (r : Ref sig .tc) (h : r ∉ hostOps3_1_W) : W8 m c x r = W7 m c x r :=
  StableHlo.after_of_writes_sub hostOps3_1 _ hostOps3_1_writes h

/-- No item writes an argument: a reference none of the host stretches writes and no region's result array reaches the
    end as launched. -/
theorem W8_kept (c : Dev nD) (x) (r : Ref sig .tc) (h0 : r ∉ hostOps0_W) (h1 : r ∉ hostOps1_W) (h2 : r ∉ hostOps2_W)
    (h3 : r ∉ hostOps3_W) (h4 : r ∉ hostOps3_1_W) (g4 : r ≠ main_v4) (g7 : r ≠ main_v7) (g9 : r ≠ main_v9) :
    W8 m c x r = m ((c : Thread nD τ).loc r) :=
  (W8_of m c x r h4).trans <| (W7_of m c x r h3).trans <| (W6_of m c x r g9).trans <| (W5_of m c r h2).trans <|
    (W4_of m c r g7).trans <| (W3_of m c r h1).trans <| (W2_of m c r g4).trans <| (W1_of m c r h0).trans rfl

end Cert.KernelIdeal.Hand

end
-- ==== Proof.KI.R0Body.lean ====
/-
  The body of this region's pipeline at a grid point, and the pipeline's obligation for it.

  The body reads its fifteen input buffers whole, stores the cell's update of the 128 state coordinates of the point
  into the result's buffer whole, and touches nothing else.  Every block lies inside its array, so each input buffer
  holds exactly its window's block when the body runs: at the point that fetched it, and at the later points of a
  window whose block index stands still, because the body leaves the buffer as it found it.
-/
import proofs.«157188_j18528488915578_1_alg».proof.Proof.Gen.KernelIdeal.Launch
import proofs.«157188_j18528488915578_1_alg».proof.Proof.Gen.KernelIdeal.Skeleton
import proofs.«157188_j18528488915578_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«157188_j18528488915578_1_alg».proof.Proof.KI.R0Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body on whole memrefs -/

set_option maxHeartbeats 4000000 in
/-- The body on whole staging memrefs — the fifteen inputs' at contents `x0 … x14`, the result's at anything — runs
    to the continuation holding the inputs' as they were and the result's at the body's one store of them.  The
    body's first part only loads and computes, so running through it leaves every buffer as it was. -/
theorem sound_kernel0 (c : Dev nD) (E : Set ℕ) (i : grid0.Coords)
    (arg1 : Memref sig .tc .vmem S1x4096 .f32) (harg1 : arg1.IsWhole) (arg2 : Memref sig .tc .vmem S1x4096 .f32) (harg2 : arg2.IsWhole)
    (arg3 : Memref sig .tc .vmem S1x128 .f32) (harg3 : arg3.IsWhole) (arg4 : Memref sig .tc .vmem S128x4096 .f32) (harg4 : arg4.IsWhole)
    (arg5 : Memref sig .tc .vmem S128x4096 .f32) (harg5 : arg5.IsWhole) (arg6 : Memref sig .tc .vmem S128x4096 .f32) (harg6 : arg6.IsWhole)
    (arg7 : Memref sig .tc .vmem S128x4096 .f32) (harg7 : arg7.IsWhole) (arg8 : Memref sig .tc .vmem S128x4096 .f32) (harg8 : arg8.IsWhole)
    (arg9 : Memref sig .tc .vmem S128x4096 .f32) (harg9 : arg9.IsWhole) (arg10 : Memref sig .tc .vmem S1x128 .f32) (harg10 : arg10.IsWhole)
    (arg11 : Memref sig .tc .vmem S1x128 .f32) (harg11 : arg11.IsWhole) (arg12 : Memref sig .tc .vmem S1x128 .f32) (harg12 : arg12.IsWhole)
    (arg13 : Memref sig .tc .vmem S1x128 .f32) (harg13 : arg13.IsWhole) (arg14 : Memref sig .tc .vmem S1x128 .f32) (harg14 : arg14.IsWhole)
    (arg15 : Memref sig .tc .vmem S1x128 .f32) (harg15 : arg15.IsWhole) (arg16 : Memref sig .tc .vmem S1x128 .f32) (harg16 : arg16.IsWhole)
    (x0 x1 : Vec F S1x4096 .f32) (x2 : Vec F S1x128 .f32) (x3 x4 x5 x6 x7 x8 : Vec F S128x4096 .f32)
    (x9 x10 x11 x12 x13 x14 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ (∃ d, owns (c : Thread nD τ) arg16 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare (out0_15 x0 x1 x2 x3 x4 x5 x6 x7 x8 x9 x10 x11 x12 x13 x14)) -∗ K ⟨⟩))
      ⊢ wp frame (wpE (defs₀ (F := F)) Variants.none c none) E
          (cc0__gru_cell_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__gru_cell_kernel_eq_skeleton]; unfold cc0__gru_cell_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0; subst hf1; subst hf2; subst hf3; subst hf4; subst hf5; subst hf6; subst hf7
  subst hf8; subst hf9; subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover0_15 _)

/-! ## What each input buffer holds when the body runs -/

/- An input window's buffer holds the window's block at every point.  Where the pipeline fetched it there, that is
   what the fetch put; where it did not, the block index has not moved since the fetch and the body left the buffer
   alone.  No window here is cut or idle, so the buffer is filled by the block entire. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl)
    (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl)
    (fun t => by rw [after0_10]; unfold Dat.blockOf iblk0; rw [A_eq0]; try rfl) t d).trans
    (by unfold Dat.fetched Dat.blockOf iblk0; rw [A_eq0]; try rfl)
theorem before0_11 (c : Dev nD) (t : Fin cfg0.N) (d) : (dat0 V c).before 11 t d = iblk0 V c 11 t :=
  ((dat0 V c).before_in_eq_fetched 11 rfl (fun _ => rfl) (fun _ _ _ => rfl)
    (fun t => by rw [after0_11]; unfold Dat.blockOf iblk0; rw [A_eq0]; try rfl) t d).trans
    (by unfold Dat.fetched Dat.blockOf iblk0; rw [A_eq0]; try rfl)
theorem before0_12 (c : Dev nD) (t : Fin cfg0.N) (d) : (dat0 V c).before 12 t d = iblk0 V c 12 t :=
  ((dat0 V c).before_in_eq_fetched 12 rfl (fun _ => rfl) (fun _ _ _ => rfl)
    (fun t => by rw [after0_12]; unfold Dat.blockOf iblk0; rw [A_eq0]; try rfl) t d).trans
    (by unfold Dat.fetched Dat.blockOf iblk0; rw [A_eq0]; try rfl)
theorem before0_13 (c : Dev nD) (t : Fin cfg0.N) (d) : (dat0 V c).before 13 t d = iblk0 V c 13 t :=
  ((dat0 V c).before_in_eq_fetched 13 rfl (fun _ => rfl) (fun _ _ _ => rfl)
    (fun t => by rw [after0_13]; unfold Dat.blockOf iblk0; rw [A_eq0]; try rfl) t d).trans
    (by unfold Dat.fetched Dat.blockOf iblk0; rw [A_eq0]; try rfl)
theorem before0_14 (c : Dev nD) (t : Fin cfg0.N) (d) : (dat0 V c).before 14 t d = iblk0 V c 14 t :=
  ((dat0 V c).before_in_eq_fetched 14 rfl (fun _ => rfl) (fun _ _ _ => rfl)
    (fun t => by rw [after0_14]; unfold Dat.blockOf iblk0; rw [A_eq0]; try rfl) t d).trans
    (by unfold Dat.fetched Dat.blockOf iblk0; rw [A_eq0]; try rfl)

/-! ## The obligation at a point -/

/-- What the body is handed at point `t`: the invariant, what the core owes, and each window's current buffer at what
    it then holds, the windows one by one. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d)))

/-- What it hands back: the same invariant and debt, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t))

set_option maxHeartbeats 4000000 in
/-- The body at any point: the inputs' buffers hold their blocks, so the statement on whole memrefs applies to them; the
    invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15]
  unfold res0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel0 c Set.univ _ _ _ _ _ _ _ _ _ _ _ _ _ _ _ _ _ _ _ _ _ _ _ _ _ _ _ _ _ _ _ _ _
    (iblk0 V c 0 t) (iblk0 V c 1 t) (iblk0 V c 2 t) (iblk0 V c 3 t) (iblk0 V c 4 t)
    (iblk0 V c 5 t) (iblk0 V c 6 t) (iblk0 V c 7 t) (iblk0 V c 8 t) (iblk0 V c 9 t)
    (iblk0 V c 10 t) (iblk0 V c 11 t) (iblk0 V c 12 t) (iblk0 V c 13 t) (iblk0 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Body.lean ====
/-
  The body of this region's pipeline at a grid point, and the pipeline's obligation for it.

  The body reads its fifteen input buffers whole, stores the cell's update of the 128 state coordinates of the point
  into the result's buffer whole, and touches nothing else.  Every block lies inside its array, so each input buffer
  holds exactly its window's block when the body runs: at the point that fetched it, and at the later points of a
  window whose block index stands still, because the body leaves the buffer as it found it.
-/
import proofs.«157188_j18528488915578_1_alg».proof.Proof.Gen.KernelIdeal.Launch
import proofs.«157188_j18528488915578_1_alg».proof.Proof.Gen.KernelIdeal.Skeleton
import proofs.«157188_j18528488915578_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«157188_j18528488915578_1_alg».proof.Proof.KI.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body on whole memrefs -/

set_option maxHeartbeats 4000000 in
/-- The body on whole staging memrefs — the fifteen inputs' at contents `x0 … x14`, the result's at anything — runs
    to the continuation holding the inputs' as they were and the result's at the body's one store of them.  The
    body's first part only loads and computes, so running through it leaves every buffer as it was. -/
theorem sound_kernel1 (c : Dev nD) (E : Set ℕ) (i : grid1.Coords)
    (arg1 : Memref sig .tc .vmem S1x4096 .f32) (harg1 : arg1.IsWhole) (arg2 : Memref sig .tc .vmem S1x4096 .f32) (harg2 : arg2.IsWhole)
    (arg3 : Memref sig .tc .vmem S1x128 .f32) (harg3 : arg3.IsWhole) (arg4 : Memref sig .tc .vmem S128x4096 .f32) (harg4 : arg4.IsWhole)
    (arg5 : Memref sig .tc .vmem S128x4096 .f32) (harg5 : arg5.IsWhole) (arg6 : Memref sig .tc .vmem S128x4096 .f32) (harg6 : arg6.IsWhole)
    (arg7 : Memref sig .tc .vmem S128x4096 .f32) (harg7 : arg7.IsWhole) (arg8 : Memref sig .tc .vmem S128x4096 .f32) (harg8 : arg8.IsWhole)
    (arg9 : Memref sig .tc .vmem S128x4096 .f32) (harg9 : arg9.IsWhole) (arg10 : Memref sig .tc .vmem S1x128 .f32) (harg10 : arg10.IsWhole)
    (arg11 : Memref sig .tc .vmem S1x128 .f32) (harg11 : arg11.IsWhole) (arg12 : Memref sig .tc .vmem S1x128 .f32) (harg12 : arg12.IsWhole)
    (arg13 : Memref sig .tc .vmem S1x128 .f32) (harg13 : arg13.IsWhole) (arg14 : Memref sig .tc .vmem S1x128 .f32) (harg14 : arg14.IsWhole)
    (arg15 : Memref sig .tc .vmem S1x128 .f32) (harg15 : arg15.IsWhole) (arg16 : Memref sig .tc .vmem S1x128 .f32) (harg16 : arg16.IsWhole)
    (x0 x1 : Vec F S1x4096 .f32) (x2 : Vec F S1x128 .f32) (x3 x4 x5 x6 x7 x8 : Vec F S128x4096 .f32)
    (x9 x10 x11 x12 x13 x14 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ (∃ d, owns (c : Thread nD τ) arg16 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare (out1_15 x0 x1 x2 x3 x4 x5 x6 x7 x8 x9 x10 x11 x12 x13 x14)) -∗ K ⟨⟩))
      ⊢ wp frame (wpE (defs₀ (F := F)) Variants.none c none) E
          (cc1__gru_cell_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1__gru_cell_kernel_eq_skeleton]; unfold cc1__gru_cell_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0; subst hf1; subst hf2; subst hf3; subst hf4; subst hf5; subst hf6; subst hf7
  subst hf8; subst hf9; subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover1_15 _)

/-! ## What each input buffer holds when the body runs -/

/- An input window's buffer holds the window's block at every point.  Where the pipeline fetched it there, that is
   what the fetch put; where it did not, the block index has not moved since the fetch and the body left the buffer
   alone.  No window here is cut or idle, so the buffer is filled by the block entire. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl)
    (fun t => by rw [after1_10]; unfold Dat.blockOf iblk1; rw [A_eq1]; try rfl) t d).trans
    (by unfold Dat.fetched Dat.blockOf iblk1; rw [A_eq1]; try rfl)
theorem before1_11 (c : Dev nD) (t : Fin cfg1.N) (d) : (dat1 V c).before 11 t d = iblk1 V c 11 t :=
  ((dat1 V c).before_in_eq_fetched 11 rfl (fun _ => rfl) (fun _ _ _ => rfl)
    (fun t => by rw [after1_11]; unfold Dat.blockOf iblk1; rw [A_eq1]; try rfl) t d).trans
    (by unfold Dat.fetched Dat.blockOf iblk1; rw [A_eq1]; try rfl)
theorem before1_12 (c : Dev nD) (t : Fin cfg1.N) (d) : (dat1 V c).before 12 t d = iblk1 V c 12 t :=
  ((dat1 V c).before_in_eq_fetched 12 rfl (fun _ => rfl) (fun _ _ _ => rfl)
    (fun t => by rw [after1_12]; unfold Dat.blockOf iblk1; rw [A_eq1]; try rfl) t d).trans
    (by unfold Dat.fetched Dat.blockOf iblk1; rw [A_eq1]; try rfl)
theorem before1_13 (c : Dev nD) (t : Fin cfg1.N) (d) : (dat1 V c).before 13 t d = iblk1 V c 13 t :=
  ((dat1 V c).before_in_eq_fetched 13 rfl (fun _ => rfl) (fun _ _ _ => rfl)
    (fun t => by rw [after1_13]; unfold Dat.blockOf iblk1; rw [A_eq1]; try rfl) t d).trans
    (by unfold Dat.fetched Dat.blockOf iblk1; rw [A_eq1]; try rfl)
theorem before1_14 (c : Dev nD) (t : Fin cfg1.N) (d) : (dat1 V c).before 14 t d = iblk1 V c 14 t :=
  ((dat1 V c).before_in_eq_fetched 14 rfl (fun _ => rfl) (fun _ _ _ => rfl)
    (fun t => by rw [after1_14]; unfold Dat.blockOf iblk1; rw [A_eq1]; try rfl) t d).trans
    (by unfold Dat.fetched Dat.blockOf iblk1; rw [A_eq1]; try rfl)

/-! ## The obligation at a point -/

/-- What the body is handed at point `t`: the invariant, what the core owes, and each window's current buffer at what
    it then holds, the windows one by one. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d)))

/-- What it hands back: the same invariant and debt, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t))

set_option maxHeartbeats 4000000 in
/-- The body at any point: the inputs' buffers hold their blocks, so the statement on whole memrefs applies to them; the
    invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15]
  unfold res1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel1 c Set.univ _ _ _ _ _ _ _ _ _ _ _ _ _ _ _ _ _ _ _ _ _ _ _ _ _ _ _ _ _ _ _ _ _
    (iblk1 V c 0 t) (iblk1 V c 1 t) (iblk1 V c 2 t) (iblk1 V c 3 t) (iblk1 V c 4 t)
    (iblk1 V c 5 t) (iblk1 V c 6 t) (iblk1 V c 7 t) (iblk1 V c 8 t) (iblk1 V c 9 t)
    (iblk1 V c 10 t) (iblk1 V c 11 t) (iblk1 V c 12 t) (iblk1 V c 13 t) (iblk1 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2Body.lean ====
/-
  The final projection's body at a grid point, and the pipeline's obligation for it.

  The body reads its three input buffers whole, stores  relu(row) · Wᵀ + bias  into the result's buffer whole, and
  touches nothing else.  At the last grid point the weight, bias and result blocks overhang their arrays: the
  obligation then speaks only of the part that moves.  Whether the moved 81 logits depend on the overhanging weight rows
  is a matter of the number system: over the extended reals a logit is a sum over ITS OWN weight row, so they do
  not; the word-level product is a function of the whole tile, so there nothing is said of what the body leaves in the
  result's buffer (the window is forgotten).
-/
import proofs.«157188_j18528488915578_1_alg».proof.Proof.Gen.KernelIdeal.Launch
import proofs.«157188_j18528488915578_1_alg».proof.Proof.Gen.KernelIdeal.Skeleton
import proofs.«157188_j18528488915578_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«157188_j18528488915578_1_alg».proof.Proof.KI.R2Defs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging memrefs — the inputs' at contents `x0 x1 x2`, the result's at anything — runs to the
    continuation holding the inputs' as they were and the result's at the body's one store of them. -/
theorem sound_kernel2 (c : Dev nD) (E : Set ℕ) (i : grid2.Coords)
    (arg1 : Memref sig .tc .vmem S1x4096 .f32) (harg1 : arg1.IsWhole) (arg2 : Memref sig .tc .vmem S512x4096 .f32) (harg2 : arg2.IsWhole)
    (arg3 : Memref sig .tc .vmem S1x512 .f32) (harg3 : arg3.IsWhole) (arg4 : Memref sig .tc .vmem S1x512 .f32) (harg4 : arg4.IsWhole)
    (x0 : Vec F S1x4096 .f32) (x1 : Vec F S512x4096 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__final_kernel i arg1 harg1 arg2 harg2 arg3 harg3 arg4 harg4) K := by
  simp only [cc2__final_kernel_eq_skeleton]; unfold cc2__final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

end Cert.KernelIdeal.Hand

end
-- ==== Proof.KI.R2Obl.lean ====
/-
  The final projection's body obligation with the result window forgotten.

  At every grid point the state row's buffer holds the whole row; the weight and bias buffers have just been
  fetched, so they hold their blocks on the part inside the arrays and unnamed words beyond.  The body reads the
  three, stores into the fourth and changes none of the three.  Of the fourth nothing is said here.
-/
import proofs.«157188_j18528488915578_1_alg».proof.Proof.Gen.KernelIdeal.Launch
import proofs.«157188_j18528488915578_1_alg».proof.Proof.Gen.KernelIdeal.Skeleton
import proofs.«157188_j18528488915578_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«157188_j18528488915578_1_alg».proof.Proof.KI.R2Defs
import proofs.«157188_j18528488915578_1_alg».proof.Proof.KI.R2Body
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The windows whose contents the obligation does not name: the result's only. -/
def fgt3 : Fin cfg2.W → Bool :=
  fun | 0 => false | 1 => false | 2 => false | 3 => true | ⟨_ + 4, h⟩ => absurd h (Nat.not_lt.2 (Nat.le_add_left _ _))

theorem fgt3_0 : fgt3 (0 : Fin 4) = false := rfl
theorem fgt3_1 : fgt3 (1 : Fin 4) = false := rfl
theorem fgt3_2 : fgt3 (2 : Fin 4) = false := rfl
theorem fgt3_3 : fgt3 (3 : Fin 4) = true := rfl

/-- The state row's buffer holds the row at every point: it is fetched once, never cut, and the body leaves it. -/
theorem before2_0 (c : Dev nD) (t : Fin cfg2.N) (d) : (dat2 V c).before 0 t d = iblk2 V c 0 t := by
  have hkeep : ∀ s, (cfg2.win 0).cut (cfg2.grid.coords s) ((dat2 V c).after 0 s) = (dat2 V c).blockOf 0 s := by
    intro s
    rw [after2_0]; unfold Dat.blockOf iblk2; rw [A_eq2]; try rfl
  rw [(dat2 V c).before_in_eq_fetched 0 rfl (fun _ => rfl) (fun _ _ _ => rfl) hkeep t d]
  unfold Dat.fetched Dat.blockOf iblk2; rw [A_eq2]; try rfl

/-- The weight buffer was fetched at this very point: the block on the rows inside the array, `d` beyond. -/
theorem before2_1 (c : Dev nD) (t : Fin cfg2.N) (d) :
    (dat2 V c).before 1 t d = win2_1.fill (grid2.coords t) d (iblk2 V c 1 t) := by
  unfold Dat.before; rw [if_pos (fetch2_1 t)]; rfl

/-- The bias buffer likewise, on the columns inside the array. -/
theorem before2_2 (c : Dev nD) (t : Fin cfg2.N) (d) :
    (dat2 V c).before 2 t d = win2_2.fill (grid2.coords t) d (iblk2 V c 2 t) := by
  unfold Dat.before; rw [if_pos (fetch2_2 t)]; rfl

theorem body_obligation2_forget (c : Dev nD) :
    BodyObligationLoose (dat2 (F := F) V c) (defs₀ (F := F)) Variants.none () Set.univ fgt3 := fun t => by
  rw [bigSep_W2, bigSep_W2]
  simp only [fgt3]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, H3⟩
  rw [before2_0 V c t d0, before2_1 V c t d1, before2_2 V c t d2, after2_0, after2_1, after2_2]
  iapply (sound_kernel2 (F := F) c Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3)) (iblk2 V c 0 t)
    (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  -- the weight and bias buffers are as they were found; on the part that moved that is the block, which is all
  -- the padded block is asked to agree with
  have h1 : win2_1.cut (grid2.coords t) (wblk2 V c t) = iblk2 V c 1 t := win2_1.cut_fill _ _ _
  have h2 : win2_2.cut (grid2.coords t) (bblk2 V c t) = iblk2 V c 2 t := win2_2.cut_fill _ _ _
  isplitl [H1]
  · iexists d1
    change _ ⊢ owns (c : Thread nD τ) (st2_1 t) fullShare (win2_1.fill (grid2.coords t) d1 (win2_1.cut (grid2.coords t) (wblk2 V c t)))
    rw [h1]
  isplitl [H2]
  · iexists d2
    change _ ⊢ owns (c : Thread nD τ) (st2_2 t) fullShare (win2_2.fill (grid2.coords t) d2 (win2_2.cut (grid2.coords t) (bblk2 V c t)))
    rw [h2]
  iexists _; iexact H3

end Cert.KernelIdeal.Hand

end
-- ==== Proof.KI.R0Share.lean ====
/-
  Kernel region 0: one buffer read through several windows.

  The sixteen windows stand on seven buffers.  The input row and the result have a window each; the state row has two (the
  whole row and its 128-wide chunk); each of the two weight matrices and each of the two bias rows has three (the r, z, n
  slices).  Ownership of a buffer with several readers is cut along the share tree: two readers take a half each, three
  take a half, a quarter and a quarter.  Since no reader writes, every part still holds the entry contents after the last
  point, and the parts are put together again to the whole buffer; the result's buffer, held whole throughout, returns
  with what the write-backs left in it.
-/
import proofs.«157188_j18528488915578_1_alg».proof.Proof.KI.R0Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the sixteen windows' arrays are seven. -/
theorem arrImage0 : (Finset.univ.image (Pipeline.arrRef spec0)) = ([main_v0, main_v1, main_arg2, main_arg3, main_v2, main_v3, main_v4] : List (Ref sig .tc)).toFinset := by decide

/-- Every window holds its array at the share the table deals it: the output window's entry there is the full share. -/
theorem share0 (c : Dev nD) : ∀ w : Fin cfg0.W, (dat0 V c).share w = q0 w := by
  intro w
  unfold Dat.share
  dsimp only [dat0]
  fin_cases w <;> rfl

/-- A whole buffer halved between two readers. -/
theorem deal_two {ℓ : Loc nD τ sig} (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-- A whole buffer dealt to three readers: a half, and the other half halved again. -/
theorem deal_three {ℓ : Loc nD τ sig} (f : Buf (Elt F) ℓ) :
    (ℓ ↦{fullShare} f : sProp 𝕄) ⊣⊢ iprop((ℓ ↦{fullShare.left} f) ∗ (ℓ ↦{fullShare.right.left} f) ∗ ℓ ↦{fullShare.right.right} f) :=
  ⟨(deal_two f).1.trans (sep_mono .rfl (pointsTo_share (PosShare.mem_left_op_right fullShare.right)).1),
   (sep_mono .rfl (pointsTo_share (PosShare.mem_left_op_right fullShare.right)).2).trans (deal_two f).2⟩

/-- One window's array, a whole buffer, at the window's share. -/
theorem win_pt0 (c : Dev nD) (G : (w : Fin cfg0.W) → Buf (Elt F) ((cfg0.win w).arr.view.loc (c.tc : Thread nD τ))) (w : Fin cfg0.W) :
    (((cfg0.win w).arr.view.loc (c.tc : Thread nD τ) ↦[(cfg0.win w).arr.view.set]{(dat0 V c).share w} G w) : sProp 𝕄)
      = (((c.tc : Thread nD τ).loc (Pipeline.arrRef spec0 w)) ↦{q0 w} G w) := by
  rw [(arr_whole0 w).set_eq_univ, share0 V c w]

/-- The sixteen windows' arrays one by one, each a whole buffer at its dealt share. -/
theorem arrays_chain0 (c : Dev nD) (G : (w : Fin cfg0.W) → Buf (Elt F) ((cfg0.win w).arr.view.loc (c.tc : Thread nD τ))) :
    ((dat0 V c).arrays G : sProp 𝕄) = iprop(
      (((c.tc : Thread nD τ).loc main_v0) ↦{fullShare} G 0) ∗
      (((c.tc : Thread nD τ).loc main_v1) ↦{fullShare.left} G 1) ∗
      (((c.tc : Thread nD τ).loc main_v1) ↦{fullShare.right} G 2) ∗
      (((c.tc : Thread nD τ).loc main_arg2) ↦{fullShare.left} G 3) ∗
      (((c.tc : Thread nD τ).loc main_arg2) ↦{fullShare.right.left} G 4) ∗
      (((c.tc : Thread nD τ).loc main_arg2) ↦{fullShare.right.right} G 5) ∗
      (((c.tc : Thread nD τ).loc main_arg3) ↦{fullShare.left} G 6) ∗
      (((c.tc : Thread nD τ).loc main_arg3) ↦{fullShare.right.left} G 7) ∗
      (((c.tc : Thread nD τ).loc main_arg3) ↦{fullShare.right.right} G 8) ∗
      (((c.tc : Thread nD τ).loc main_v2) ↦{fullShare.left} G 9) ∗
      (((c.tc : Thread nD τ).loc main_v2) ↦{fullShare.right.left} G 10) ∗
      (((c.tc : Thread nD τ).loc main_v2) ↦{fullShare.right.right} G 11) ∗
      (((c.tc : Thread nD τ).loc main_v3) ↦{fullShare.left} G 12) ∗
      (((c.tc : Thread nD τ).loc main_v3) ↦{fullShare.right.left} G 13) ∗
      (((c.tc : Thread nD τ).loc main_v3) ↦{fullShare.right.right} G 14) ∗
      (((c.tc : Thread nD τ).loc main_v4) ↦{fullShare} G 15)) := by
  unfold Dat.arrays
  rw [bigSep_congr fun w _ => win_pt0 V c G w, bigSep_W0]
  rfl

/-- The seven buffers behind the windows' arrays one by one, each whole at the full share. -/
theorem arrBufs_chain0 (c : Dev nD) (X : (b : Ref sig .tc) → Buf (Elt F) ((c.tc : Thread nD τ).loc b)) :
    (Pipeline.arrBufs spec0 c X : sProp 𝕄) = iprop(
      (((c.tc : Thread nD τ).loc main_v0) ↦{fullShare} X main_v0) ∗
      (((c.tc : Thread nD τ).loc main_v1) ↦{fullShare} X main_v1) ∗
      (((c.tc : Thread nD τ).loc main_arg2) ↦{fullShare} X main_arg2) ∗
      (((c.tc : Thread nD τ).loc main_arg3) ↦{fullShare} X main_arg3) ∗
      (((c.tc : Thread nD τ).loc main_v2) ↦{fullShare} X main_v2) ∗
      (((c.tc : Thread nD τ).loc main_v3) ↦{fullShare} X main_v3) ∗
      (((c.tc : Thread nD τ).loc main_v4) ↦{fullShare} X main_v4)) := by
  unfold Pipeline.arrBufs
  rw [bigSep_eq_bigSepL_of_eq _ arrImage0 (by decide)]
  rfl

/-- Dealing the seven buffers, each whole, among the sixteen windows at the arrays' entry contents: the state row's buffer is
    halved between its two readers, each weight matrix's and each bias row's dealt to its three. -/
theorem arrays_split0 (c : Dev nD) : (Pipeline.arrBufs spec0 c (V c) : sProp 𝕄) ⊢ (dat0 V c).arrays (dat0 V c).A := by
  rw [arrays_chain0, arrBufs_chain0]
  simp only [A_eq0]
  iintro ⟨H0, H1, H2, H3, H4, H5, H6⟩
  ihave H1s := (deal_two _).1 $$ H1
  icases H1s with ⟨H1a, H1b⟩
  ihave H2s := (deal_three _).1 $$ H2
  icases H2s with ⟨H2a, H2b, H2c⟩
  ihave H3s := (deal_three _).1 $$ H3
  icases H3s with ⟨H3a, H3b, H3c⟩
  ihave H4s := (deal_three _).1 $$ H4
  icases H4s with ⟨H4a, H4b, H4c⟩
  ihave H5s := (deal_three _).1 $$ H5
  icases H5s with ⟨H5a, H5b, H5c⟩
  isplitl [H0]; · iexact H0
  isplitl [H1a]; · iexact H1a
  isplitl [H1b]; · iexact H1b
  isplitl [H2a]; · iexact H2a
  isplitl [H2b]; · iexact H2b
  isplitl [H2c]; · iexact H2c
  isplitl [H3a]; · iexact H3a
  isplitl [H3b]; · iexact H3b
  isplitl [H3c]; · iexact H3c
  isplitl [H4a]; · iexact H4a
  isplitl [H4b]; · iexact H4b
  isplitl [H4c]; · iexact H4c
  isplitl [H5a]; · iexact H5a
  isplitl [H5b]; · iexact H5b
  isplitl [H5c]; · iexact H5c
  iexact H6

/-- Collecting the windows' shares: when the windows on one buffer all hold the contents `X` gives it, their shares add up
    to the buffer whole at those contents. -/
theorem arrays_join0_of (c : Dev nD) (G : (w : Fin cfg0.W) → Buf (Elt F) ((cfg0.win w).arr.view.loc (c.tc : Thread nD τ)))
    (X : (b : Ref sig .tc) → Buf (Elt F) ((c.tc : Thread nD τ).loc b))
    (h0 : G 0 = X main_v0) (h1 : G 1 = X main_v1) (h2 : G 2 = X main_v1)
    (h3 : G 3 = X main_arg2) (h4 : G 4 = X main_arg2) (h5 : G 5 = X main_arg2)
    (h6 : G 6 = X main_arg3) (h7 : G 7 = X main_arg3) (h8 : G 8 = X main_arg3)
    (h9 : G 9 = X main_v2) (h10 : G 10 = X main_v2) (h11 : G 11 = X main_v2)
    (h12 : G 12 = X main_v3) (h13 : G 13 = X main_v3) (h14 : G 14 = X main_v3)
    (h15 : G 15 = X main_v4) :
    ((dat0 V c).arrays G : sProp 𝕄) ⊢ Pipeline.arrBufs spec0 c X := by
  rw [arrays_chain0, arrBufs_chain0]
  simp only [h0, h1, h2, h3, h4, h5, h6, h7, h8, h9, h10, h11, h12, h13, h14, h15]
  iintro ⟨H0, H1a, H1b, H2a, H2b, H2c, H3a, H3b, H3c, H4a, H4b, H4c, H5a, H5b, H5c, H6⟩
  isplitl [H0]; · iexact H0
  isplitl [H1a H1b]
  · iapply (deal_two _).2
    isplitl [H1a]; · iexact H1a
    iexact H1b
  isplitl [H2a H2b H2c]
  · iapply (deal_three _).2
    isplitl [H2a]; · iexact H2a
    isplitl [H2b]; · iexact H2b
    iexact H2c
  isplitl [H3a H3b H3c]
  · iapply (deal_three _).2
    isplitl [H3a]; · iexact H3a
    isplitl [H3b]; · iexact H3b
    iexact H3c
  isplitl [H4a H4b H4c]
  · iapply (deal_three _).2
    isplitl [H4a]; · iexact H4a
    isplitl [H4b]; · iexact H4b
    iexact H4c
  isplitl [H5a H5b H5c]
  · iapply (deal_three _).2
    isplitl [H5a]; · iexact H5a
    isplitl [H5b]; · iexact H5b
    iexact H5c
  iexact H6

/-- An input window's array after the last point is the buffer as the region found it. -/
theorem arrAt_in0 (c : Dev nD) (w : Fin cfg0.W) (hin : (cfg0.win w).isOut = false) :
    (dat0 V c).arrAt w cfg0.N = V c (Pipeline.arrRef spec0 w) :=
  ((dat0 V c).arrAt_in w hin cfg0.N).trans (A_eq0 V c w)

/-- Collecting the windows' shares after the last point: no input array was written, so each buffer's shares agree on the
    entry contents and add up to the whole; the result's buffer comes back as the write-backs left it. -/
theorem arrays_join0 (c : Dev nD) (V' : (b : Ref sig .tc) → Buf (Elt F) ((c : Thread nD τ).loc b))
    (hout : V' main_v4 = (dat0 V c).arrAt 15 cfg0.N) (hrest : ∀ b, b ≠ main_v4 → V' b = V c b) :
    ((dat0 V c).arrays ((dat0 V c).arrAt · cfg0.N) : sProp 𝕄) ⊢ Pipeline.arrBufs spec0 c V' :=
  arrays_join0_of V c _ V'
    ((arrAt_in0 V c 0 rfl).trans (hrest main_v0 (by decide)).symm)
    ((arrAt_in0 V c 1 rfl).trans (hrest main_v1 (by decide)).symm)
    ((arrAt_in0 V c 2 rfl).trans (hrest main_v1 (by decide)).symm)
    ((arrAt_in0 V c 3 rfl).trans (hrest main_arg2 (by decide)).symm)
    ((arrAt_in0 V c 4 rfl).trans (hrest main_arg2 (by decide)).symm)
    ((arrAt_in0 V c 5 rfl).trans (hrest main_arg2 (by decide)).symm)
    ((arrAt_in0 V c 6 rfl).trans (hrest main_arg3 (by decide)).symm)
    ((arrAt_in0 V c 7 rfl).trans (hrest main_arg3 (by decide)).symm)
    ((arrAt_in0 V c 8 rfl).trans (hrest main_arg3 (by decide)).symm)
    ((arrAt_in0 V c 9 rfl).trans (hrest main_v2 (by decide)).symm)
    ((arrAt_in0 V c 10 rfl).trans (hrest main_v2 (by decide)).symm)
    ((arrAt_in0 V c 11 rfl).trans (hrest main_v2 (by decide)).symm)
    ((arrAt_in0 V c 12 rfl).trans (hrest main_v3 (by decide)).symm)
    ((arrAt_in0 V c 13 rfl).trans (hrest main_v3 (by decide)).symm)
    ((arrAt_in0 V c 14 rfl).trans (hrest main_v3 (by decide)).symm)
    hout.symm

end Cert.KernelIdeal.Hand

end
-- ==== Proof.KI.R1Share.lean ====
/-
  Kernel region 1: one buffer read through several windows.

  The sixteen windows stand on six buffers.  The state row, which is also this cell's input row, has three readers (the row
  whole twice and its 128-wide chunk); each of the two weight matrices and each of the two bias rows has three (the r, z, n
  slices); the result has a window of its own.  Ownership of a buffer with three readers is cut along the share tree into a
  half, a quarter and a quarter.  Since no reader writes, every part still holds the entry contents after the last point,
  and the parts are put together again to the whole buffer; the result's buffer, held whole throughout, returns with what
  the write-backs left in it.
-/
import proofs.«157188_j18528488915578_1_alg».proof.Proof.KI.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the sixteen windows' arrays are six. -/
theorem arrImage1 : (Finset.univ.image (Pipeline.arrRef spec1)) = ([main_v4, main_arg6, main_arg7, main_v5, main_v6, main_v7] : List (Ref sig .tc)).toFinset := by decide

/-- Every window holds its array at the share the table deals it: the output window's entry there is the full share. -/
theorem share1 (c : Dev nD) : ∀ w : Fin cfg1.W, (dat1 V c).share w = q1 w := by
  intro w
  unfold Dat.share
  dsimp only [dat1]
  fin_cases w <;> rfl

/-- A whole buffer dealt to three readers: a half, and the other half halved again. -/
theorem deal_three1 {ℓ : Loc nD τ sig} (f : Buf (Elt F) ℓ) :
    (ℓ ↦{fullShare} f : sProp 𝕄) ⊣⊢ iprop((ℓ ↦{fullShare.left} f) ∗ (ℓ ↦{fullShare.right.left} f) ∗ ℓ ↦{fullShare.right.right} f) :=
  ⟨(pointsTo_share (PosShare.mem_left_op_right fullShare)).1.trans
      (sep_mono .rfl (pointsTo_share (PosShare.mem_left_op_right fullShare.right)).1),
   (sep_mono .rfl (pointsTo_share (PosShare.mem_left_op_right fullShare.right)).2).trans
      (pointsTo_share (PosShare.mem_left_op_right fullShare)).2⟩

/-- One window's array, a whole buffer, at the window's share. -/
theorem win_pt1 (c : Dev nD) (G : (w : Fin cfg1.W) → Buf (Elt F) ((cfg1.win w).arr.view.loc (c.tc : Thread nD τ))) (w : Fin cfg1.W) :
    (((cfg1.win w).arr.view.loc (c.tc : Thread nD τ) ↦[(cfg1.win w).arr.view.set]{(dat1 V c).share w} G w) : sProp 𝕄)
      = (((c.tc : Thread nD τ).loc (Pipeline.arrRef spec1 w)) ↦{q1 w} G w) := by
  rw [(arr_whole1 w).set_eq_univ, share1 V c w]

/-- The sixteen windows' arrays one by one, each a whole buffer at its dealt share. -/
theorem arrays_chain1 (c : Dev nD) (G : (w : Fin cfg1.W) → Buf (Elt F) ((cfg1.win w).arr.view.loc (c.tc : Thread nD τ))) :
    ((dat1 V c).arrays G : sProp 𝕄) = iprop(
      (((c.tc : Thread nD τ).loc main_v4) ↦{fullShare.left} G 0) ∗
      (((c.tc : Thread nD τ).loc main_v4) ↦{fullShare.right.left} G 1) ∗
      (((c.tc : Thread nD τ).loc main_v4) ↦{fullShare.right.right} G 2) ∗
      (((c.tc : Thread nD τ).loc main_arg6) ↦{fullShare.left} G 3) ∗
      (((c.tc : Thread nD τ).loc main_arg6) ↦{fullShare.right.left} G 4) ∗
      (((c.tc : Thread nD τ).loc main_arg6) ↦{fullShare.right.right} G 5) ∗
      (((c.tc : Thread nD τ).loc main_arg7) ↦{fullShare.left} G 6) ∗
      (((c.tc : Thread nD τ).loc main_arg7) ↦{fullShare.right.left} G 7) ∗
      (((c.tc : Thread nD τ).loc main_arg7) ↦{fullShare.right.right} G 8) ∗
      (((c.tc : Thread nD τ).loc main_v5) ↦{fullShare.left} G 9) ∗
      (((c.tc : Thread nD τ).loc main_v5) ↦{fullShare.right.left} G 10) ∗
      (((c.tc : Thread nD τ).loc main_v5) ↦{fullShare.right.right} G 11) ∗
      (((c.tc : Thread nD τ).loc main_v6) ↦{fullShare.left} G 12) ∗
      (((c.tc : Thread nD τ).loc main_v6) ↦{fullShare.right.left} G 13) ∗
      (((c.tc : Thread nD τ).loc main_v6) ↦{fullShare.right.right} G 14) ∗
      (((c.tc : Thread nD τ).loc main_v7) ↦{fullShare} G 15)) := by
  unfold Dat.arrays
  rw [bigSep_congr fun w _ => win_pt1 V c G w, bigSep_W1]
  rfl

/-- The six buffers behind the windows' arrays one by one, each whole at the full share. -/
theorem arrBufs_chain1 (c : Dev nD) (X : (b : Ref sig .tc) → Buf (Elt F) ((c.tc : Thread nD τ).loc b)) :
    (Pipeline.arrBufs spec1 c X : sProp 𝕄) = iprop(
      (((c.tc : Thread nD τ).loc main_v4) ↦{fullShare} X main_v4) ∗
      (((c.tc : Thread nD τ).loc main_arg6) ↦{fullShare} X main_arg6) ∗
      (((c.tc : Thread nD τ).loc main_arg7) ↦{fullShare} X main_arg7) ∗
      (((c.tc : Thread nD τ).loc main_v5) ↦{fullShare} X main_v5) ∗
      (((c.tc : Thread nD τ).loc main_v6) ↦{fullShare} X main_v6) ∗
      (((c.tc : Thread nD τ).loc main_v7) ↦{fullShare} X main_v7)) := by
  unfold Pipeline.arrBufs
  rw [bigSep_eq_bigSepL_of_eq _ arrImage1 (by decide)]
  rfl

/-- Dealing the six buffers, each whole, among the sixteen windows at the arrays' entry contents: the state row's buffer,
    each weight matrix's and each bias row's is dealt to its three readers. -/
theorem arrays_split1 (c : Dev nD) : (Pipeline.arrBufs spec1 c (V c) : sProp 𝕄) ⊢ (dat1 V c).arrays (dat1 V c).A := by
  rw [arrays_chain1, arrBufs_chain1]
  simp only [A_eq1]
  iintro ⟨H1, H2, H3, H4, H5, H6⟩
  ihave H1s := (deal_three1 _).1 $$ H1
  icases H1s with ⟨H1a, H1b, H1c⟩
  ihave H2s := (deal_three1 _).1 $$ H2
  icases H2s with ⟨H2a, H2b, H2c⟩
  ihave H3s := (deal_three1 _).1 $$ H3
  icases H3s with ⟨H3a, H3b, H3c⟩
  ihave H4s := (deal_three1 _).1 $$ H4
  icases H4s with ⟨H4a, H4b, H4c⟩
  ihave H5s := (deal_three1 _).1 $$ H5
  icases H5s with ⟨H5a, H5b, H5c⟩
  isplitl [H1a]; · iexact H1a
  isplitl [H1b]; · iexact H1b
  isplitl [H1c]; · iexact H1c
  isplitl [H2a]; · iexact H2a
  isplitl [H2b]; · iexact H2b
  isplitl [H2c]; · iexact H2c
  isplitl [H3a]; · iexact H3a
  isplitl [H3b]; · iexact H3b
  isplitl [H3c]; · iexact H3c
  isplitl [H4a]; · iexact H4a
  isplitl [H4b]; · iexact H4b
  isplitl [H4c]; · iexact H4c
  isplitl [H5a]; · iexact H5a
  isplitl [H5b]; · iexact H5b
  isplitl [H5c]; · iexact H5c
  iexact H6

/-- Collecting the windows' shares: when the windows on one buffer all hold the contents `X` gives it, their shares add up
    to the buffer whole at those contents. -/
theorem arrays_join1_of (c : Dev nD) (G : (w : Fin cfg1.W) → Buf (Elt F) ((cfg1.win w).arr.view.loc (c.tc : Thread nD τ)))
    (X : (b : Ref sig .tc) → Buf (Elt F) ((c.tc : Thread nD τ).loc b))
    (h0 : G 0 = X main_v4) (h1 : G 1 = X main_v4) (h2 : G 2 = X main_v4)
    (h3 : G 3 = X main_arg6) (h4 : G 4 = X main_arg6) (h5 : G 5 = X main_arg6)
    (h6 : G 6 = X main_arg7) (h7 : G 7 = X main_arg7) (h8 : G 8 = X main_arg7)
    (h9 : G 9 = X main_v5) (h10 : G 10 = X main_v5) (h11 : G 11 = X main_v5)
    (h12 : G 12 = X main_v6) (h13 : G 13 = X main_v6) (h14 : G 14 = X main_v6)
    (h15 : G 15 = X main_v7) :
    ((dat1 V c).arrays G : sProp 𝕄) ⊢ Pipeline.arrBufs spec1 c X := by
  rw [arrays_chain1, arrBufs_chain1]
  simp only [h0, h1, h2, h3, h4, h5, h6, h7, h8, h9, h10, h11, h12, h13, h14, h15]
  iintro ⟨H1a, H1b, H1c, H2a, H2b, H2c, H3a, H3b, H3c, H4a, H4b, H4c, H5a, H5b, H5c, H6⟩
  isplitl [H1a H1b H1c]
  · iapply (deal_three1 _).2
    isplitl [H1a]; · iexact H1a
    isplitl [H1b]; · iexact H1b
    iexact H1c
  isplitl [H2a H2b H2c]
  · iapply (deal_three1 _).2
    isplitl [H2a]; · iexact H2a
    isplitl [H2b]; · iexact H2b
    iexact H2c
  isplitl [H3a H3b H3c]
  · iapply (deal_three1 _).2
    isplitl [H3a]; · iexact H3a
    isplitl [H3b]; · iexact H3b
    iexact H3c
  isplitl [H4a H4b H4c]
  · iapply (deal_three1 _).2
    isplitl [H4a]; · iexact H4a
    isplitl [H4b]; · iexact H4b
    iexact H4c
  isplitl [H5a H5b H5c]
  · iapply (deal_three1 _).2
    isplitl [H5a]; · iexact H5a
    isplitl [H5b]; · iexact H5b
    iexact H5c
  iexact H6

/-- An input window's array after the last point is the buffer as the region found it. -/
theorem arrAt_in1 (c : Dev nD) (w : Fin cfg1.W) (hin : (cfg1.win w).isOut = false) :
    (dat1 V c).arrAt w cfg1.N = V c (Pipeline.arrRef spec1 w) :=
  ((dat1 V c).arrAt_in w hin cfg1.N).trans (A_eq1 V c w)

/-- Collecting the windows' shares after the last point: no input array was written, so each buffer's shares agree on the
    entry contents and add up to the whole; the result's buffer comes back as the write-backs left it. -/
theorem arrays_join1 (c : Dev nD) (V' : (b : Ref sig .tc) → Buf (Elt F) ((c : Thread nD τ).loc b))
    (hout : V' main_v7 = (dat1 V c).arrAt 15 cfg1.N) (hrest : ∀ b, b ≠ main_v7 → V' b = V c b) :
    ((dat1 V c).arrays ((dat1 V c).arrAt · cfg1.N) : sProp 𝕄) ⊢ Pipeline.arrBufs spec1 c V' :=
  arrays_join1_of V c _ V'
    ((arrAt_in1 V c 0 rfl).trans (hrest main_v4 (by decide)).symm)
    ((arrAt_in1 V c 1 rfl).trans (hrest main_v4 (by decide)).symm)
    ((arrAt_in1 V c 2 rfl).trans (hrest main_v4 (by decide)).symm)
    ((arrAt_in1 V c 3 rfl).trans (hrest main_arg6 (by decide)).symm)
    ((arrAt_in1 V c 4 rfl).trans (hrest main_arg6 (by decide)).symm)
    ((arrAt_in1 V c 5 rfl).trans (hrest main_arg6 (by decide)).symm)
    ((arrAt_in1 V c 6 rfl).trans (hrest main_arg7 (by decide)).symm)
    ((arrAt_in1 V c 7 rfl).trans (hrest main_arg7 (by decide)).symm)
    ((arrAt_in1 V c 8 rfl).trans (hrest main_arg7 (by decide)).symm)
    ((arrAt_in1 V c 9 rfl).trans (hrest main_v5 (by decide)).symm)
    ((arrAt_in1 V c 10 rfl).trans (hrest main_v5 (by decide)).symm)
    ((arrAt_in1 V c 11 rfl).trans (hrest main_v5 (by decide)).symm)
    ((arrAt_in1 V c 12 rfl).trans (hrest main_v6 (by decide)).symm)
    ((arrAt_in1 V c 13 rfl).trans (hrest main_v6 (by decide)).symm)
    ((arrAt_in1 V c 14 rfl).trans (hrest main_v6 (by decide)).symm)
    hout.symm

end Cert.KernelIdeal.Hand

end
-- ==== Proof.KI.Run.lean ====
/-
  The run of @main as a list of items: a host segment per stretch of host operations, a region record per kernel region,
  and the launch.  What the last state says: for some contents `x` of the logits array — the pipeline's named ones
  when its result window is not forgotten — every unscoped buffer holds the fold's last contents at `x`.
-/
import proofs.«157188_j18528488915578_1_alg».proof.Proof.Gen.KernelIdeal.Launch
import proofs.«157188_j18528488915578_1_alg».proof.Proof.Gen.KernelIdeal.Skeleton
import proofs.«157188_j18528488915578_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«157188_j18528488915578_1_alg».proof.Proof.Gen.KernelIdeal.Regions
import proofs.«157188_j18528488915578_1_alg».proof.Proof.KI.Fold
import proofs.«157188_j18528488915578_1_alg».proof.Proof.KI.R0Body
import proofs.«157188_j18528488915578_1_alg».proof.Proof.KI.R1Body
import proofs.«157188_j18528488915578_1_alg».proof.Proof.KI.R2Obl
import proofs.«157188_j18528488915578_1_alg».proof.Proof.KI.R0Share
import proofs.«157188_j18528488915578_1_alg».proof.Proof.KI.R1Share
import Idealize.ShloMosaic.Lib.Pipeline.Regions
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.Pipeline (HostSeg RDat)

variable (m : (ℓ : Loc nD τ sig) → Buf (Elt F) ℓ) (ρ : Dev nD → PrngReg)

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the generator register at some state and the core's debts, none. -/
abbrev R (c : Dev nD) : sProp 𝕄 := iprop((∃ r, prngReg c r) ∗ ∃ W, owes (c : Thread nD τ) (0 : CellTallies nD τ sig Unit) W)

/-- The state between items: every unscoped buffer whole at `W`. -/
abbrev T (W : Valuation τ sig (Elt F)) (c : Dev nD) : sProp 𝕄 :=
  iprop(StableHlo.held (c : Thread nD τ) (Pipeline.ucRefs τ sig) W ∗ R c)

/-- The contents the logits array may hold after the projection region. -/
abbrev Logits (c : Dev nD) : Type := Buf (Elt F) ((c : Thread nD τ).loc main_v9)

/-- The state after the projection region: the logits array at SOME contents `x` of which `P c x` holds. -/
abbrev TX (P : (c : Dev nD) → Logits (F := F) c → Prop) (W : (c : Dev nD) → Logits (F := F) c → Valuation τ sig (Elt F)) (c : Dev nD) : sProp 𝕄 :=
  iprop(∃ x, ⌜P c x⌝ ∗ StableHlo.held (c : Thread nD τ) (Pipeline.ucRefs τ sig) (W c x) ∗ R c)

/-! ## The host stretches -/

/-- A stretch of host operations from named contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- A stretch of host operations from contents known only up to `x`: it runs at whatever `x` is, to the same
    operations' results at that `x`. -/
def hsegX (ops : List (HloOp τ sig (Elt F))) (hsub : ops.Forall fun op => op.bufs ⊆ StableHlo.tcRefs τ sig)
    (hfresh : ops.Forall fun op => op.fresh = ∅)
    (P : (c : Dev nD) → Logits (F := F) c → Prop) (W : (c : Dev nD) → Logits (F := F) c → Valuation τ sig (Elt F)) :
    HostSeg (Name := ℕ) (U := UR sig nD τ) (pcfgs (F := F)) defs₀ 𝒱₀ L lv where
  prog := StableHlo.seq ops
  pre c := TX P W c
  post c := TX P (fun c x => StableHlo.after ops (W c x)) c
  run c {β} k K := by
    iintro ⟨Hk, Hbd, ⟨%x, %hx, Hh, HR⟩, -⟩
    have hseq := StableHlo.wp_seq (defs := Pipeline.defs (pcfgs (F := F)) defs₀) (Variants.lift 𝒱₀) none Set.univ c (Pipeline.ucRefs τ sig) k (K := K) ops
      (fun op h => Pipeline.sub_ucRefs op ((List.forall_iff_forall_mem.mp hsub) op h))
      (fun op h => (List.forall_iff_forall_mem.mp hfresh) op h) (W c x)
    iapply hseq $$ [Hbd Hh]
    · isplitl [Hbd] <;> iassumption
    iintro ⟨Hbd, Hh⟩
    iapply Hk
    isplitl [Hbd]; · iexact Hbd
    iexists x
    isplitr; · ipureintro; exact hx
    isplitl [Hh] <;> iassumption

/-! ## The proof data of the three pipelines -/

/-- Each pipeline's data at its region's entry contents; the projection's read with the windows `fgt` marks forgotten. -/
def rdats (fgt : Fin cfg2.W → Bool) : (p : Fin 3) → (c : Dev nD) → RDat τ (Elt F) Unit ℕ (UR sig nD τ) ℕ (Pipeline.pin (pcfgs (F := F)) adm p) c
  | ⟨0, _⟩ => fun c => (dat0 (V1 m) c).toR
  | ⟨1, _⟩ => fun c => (dat1 (V3 m) c).toR
  | ⟨2, _⟩ => fun c => (dat2 (V5 m) c).toRForget fgt

/-- The same data as exact data: what the library's lemmas about arrays held whole are stated over. -/
def pd : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

/-! ## The regions -/

-- the library's lemmas are stated over the pinned configuration: unification must unfold plain definitions in a type
set_option backward.isDefEq.respectTransparency.types false in
/-- Kernel region 0: entered with every unscoped buffer at the boundary's contents, left with its result array at what its
    pipeline's write-backs fold to and every other buffer as entered.  At entry the buffers behind the windows' arrays are
    dealt among the windows (several windows read one array); at exit they are collected again. -/
def reg0 (fgt : Fin cfg2.W → Bool) : Pipeline.RDat.RegionSeg (pcfgs (F := F)) adm (rdats m fgt) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose.toR
  hwaits := Pipeline.RDat.hwaits_of_owed_zero _ _ _ _ L lv 0 fun _ _ => rfl
  pre c := T (W1 m c) c
  post c := T (W2 m c) c
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (StableHlo.held (c : Thread nD τ) (Pipeline.ucRefs τ sig) (W1 m c) : sProp 𝕄)
        ⊢ iprop((rdats m fgt 0 c).arrays (rdats m fgt 0 c).A ∗ Pipeline.unscopedRest spec0 c (V1 m c)) := by
      show _ ⊢ iprop((dat0 (V1 m) c).arrays (dat0 (V1 m) c).A ∗ Pipeline.unscopedRest spec0 c (V1 m c))
      rw [← Pipeline.unscopedBufs_held c (W1 m c), Pipeline.unscopedBufs_split₀ cfgs 0 winFacts₀0.arr_unscoped c]
      exact sep_mono (arrays_split0 (V1 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m fgt 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dat0 (V1 m) c).arrays ((dat0 (V1 m) c).arrAt · cfg0.N) ∗ Pipeline.unscopedRest spec0 c (V1 m c))
        ⊢ (StableHlo.held (c : Thread nD τ) (Pipeline.ucRefs τ sig) (W2 m c) : sProp 𝕄) := by
      rw [← Pipeline.unscopedBufs_held c (W2 m c), Pipeline.unscopedBufs_split₀ cfgs 0 winFacts₀0.arr_unscoped c]
      refine sep_mono (arrays_join0 (V1 m) c _ (W2_self m c) (fun b hb => W2_of m c b hb)) (Entails.of_eq ?_)
      unfold Pipeline.unscopedRest
      exact bigSep_congr fun b hb => by
        have hne : b ≠ main_v4 := fun e => (Finset.mem_sdiff.mp hb).2 (e ▸ Finset.mem_image.mpr ⟨15, Finset.mem_univ _, rfl⟩)
        simp only [W2_of m c b hne]
    rw [show (rdats m fgt 0 c).arraysAt (Pipeline.pin (pcfgs (F := F)) adm 0).N
      = (dat0 (V1 m) c).arrays ((dat0 (V1 m) c).arrAt · cfg0.N) from (dat0 (V1 m) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

-- the library's lemmas are stated over the pinned configuration: unification must unfold plain definitions in a type
set_option backward.isDefEq.respectTransparency.types false in
/-- Kernel region 1: entered with every unscoped buffer at the boundary's contents, left with its result array at what its
    pipeline's write-backs fold to and every other buffer as entered.  At entry the buffers behind the windows' arrays are
    dealt among the windows (several windows read one array); at exit they are collected again. -/
def reg1 (fgt : Fin cfg2.W → Bool) : Pipeline.RDat.RegionSeg (pcfgs (F := F)) adm (rdats m fgt) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose.toR
  hwaits := Pipeline.RDat.hwaits_of_owed_zero _ _ _ _ L lv 1 fun _ _ => rfl
  pre c := T (W3 m c) c
  post c := T (W4 m c) c
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (StableHlo.held (c : Thread nD τ) (Pipeline.ucRefs τ sig) (W3 m c) : sProp 𝕄)
        ⊢ iprop((rdats m fgt 1 c).arrays (rdats m fgt 1 c).A ∗ Pipeline.unscopedRest spec1 c (V3 m c)) := by
      show _ ⊢ iprop((dat1 (V3 m) c).arrays (dat1 (V3 m) c).A ∗ Pipeline.unscopedRest spec1 c (V3 m c))
      rw [← Pipeline.unscopedBufs_held c (W3 m c), Pipeline.unscopedBufs_split₀ cfgs 1 winFacts₀1.arr_unscoped c]
      exact sep_mono (arrays_split1 (V3 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((dat1 (V3 m) c).arrays ((dat1 (V3 m) c).arrAt · cfg1.N) ∗ Pipeline.unscopedRest spec1 c (V3 m c))
        ⊢ (StableHlo.held (c : Thread nD τ) (Pipeline.ucRefs τ sig) (W4 m c) : sProp 𝕄) := by
      rw [← Pipeline.unscopedBufs_held c (W4 m c), Pipeline.unscopedBufs_split₀ cfgs 1 winFacts₀1.arr_unscoped c]
      refine sep_mono (arrays_join1 (V3 m) c _ (W4_self m c) (fun b hb => W4_of m c b hb)) (Entails.of_eq ?_)
      unfold Pipeline.unscopedRest
      exact bigSep_congr fun b hb => by
        have hne : b ≠ main_v7 := fun e => (Finset.mem_sdiff.mp hb).2 (e ▸ Finset.mem_image.mpr ⟨15, Finset.mem_univ _, rfl⟩)
        simp only [W4_of m c b hne]
    rw [show (rdats m fgt 1 c).arraysAt (Pipeline.pin (pcfgs (F := F)) adm 1).N
      = (dat1 (V3 m) c).arrays ((dat1 (V3 m) c).arrAt · cfg1.N) from (dat1 (V3 m) c).toR_arraysAt_eq cfg1.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## The projection region's exit -/

section Exit2
variable (V : (c : Dev nD) → (b : Ref sig .tc) → Buf (Elt F) ((c : Thread nD τ).loc b))

/-- An input array, its window not forgotten, is never written: whatever it may hold after every write-back is what it
    held at entry. -/
theorem kept2 (fgt : Fin cfg2.W → Bool) (c : Dev nD)
    (w : Fin cfg2.W) (hw : (cfg2.win w).isOut = false) (hf : fgt w = false)
    (G : Buf (Elt F) ((cfg2.win w).arr.view.loc (c : Thread nD τ))) (h : ((dat2 V c).toRForget fgt).ArrAt w cfg2.N G) :
    G = (dat2 V c).A w :=
  (((dat2 V c).toRForget_arrAt_iff hf cfg2.N G).mp h).trans ((dat2 V c).arrAt_in w hw cfg2.N)

/-- The four arrays after the region, the result's at some contents `x`. -/
def exitArr (c : Dev nD) (x : Buf (Elt F) ((cfg2.win 3).arr.view.loc (c : Thread nD τ))) :
    (w : Fin cfg2.W) → Buf (Elt F) ((cfg2.win w).arr.view.loc (c : Thread nD τ))
  | ⟨0, _⟩ => (dat2 V c).A 0
  | ⟨1, _⟩ => (dat2 V c).A 1
  | ⟨2, _⟩ => (dat2 V c).A 2
  | ⟨3, _⟩ => x

/-- After every write-back the three input arrays are as entered and the result array is at some contents, the named ones
    unless its window is forgotten. -/
theorem exit2_arrays (fgt : Fin cfg2.W → Bool) (hfgt : ∀ w : Fin cfg2.W, w ≠ 3 → fgt w = false) (c : Dev nD) :
    ((((dat2 V c).toRForget fgt).arraysAt cfg2.N) : sProp 𝕄)
      ⊢ iprop(∃ x : Buf (Elt F) ((cfg2.win 3).arr.view.loc (c : Thread nD τ)), ⌜fgt 3 = false → x = (dat2 V c).arrAt 3 cfg2.N⌝
          ∗ (dat2 V c).arrays (exitArr V c x)) := by
  unfold RDat.arraysAt Dat.arrays
  simp only [bigSep_W2, exitArr]
  iintro ⟨⟨%F0, %h0, H0⟩, ⟨%F1, %h1, H1⟩, ⟨%F2, %h2, H2⟩, ⟨%F3, %h3, H3⟩⟩
  have q0 := kept2 V fgt c 0 rfl (hfgt 0 (by decide)) F0 h0
  have q1 := kept2 V fgt c 1 rfl (hfgt 1 (by decide)) F1 h1
  have q2 := kept2 V fgt c 2 rfl (hfgt 2 (by decide)) F2 h2
  subst q0 q1 q2
  iexists F3
  isplitr
  · ipureintro; exact fun hf => ((dat2 V c).toRForget_arrAt_iff hf cfg2.N F3).mp h3
  isplitl [H0]; · iexact H0
  isplitl [H1]; · iexact H1
  isplitl [H2]; · iexact H2
  iexact H3

end Exit2

/-- What is known of the logits array after the projection region: the pipeline's named contents, unless its result
    window was forgotten. -/
abbrev Named (fgt : Fin cfg2.W → Bool) (c : Dev nD) (x : Logits (F := F) c) : Prop := fgt 3 = false → x = o9 m c

-- the library's lemmas are stated over the pinned configuration: unification must unfold plain definitions in a type
set_option backward.isDefEq.respectTransparency.types false in
/-- Kernel region 2 (the projection): its windows' arrays are distinct, each held whole.  It is entered at named contents
    and left with the logits array at SOME contents its write-backs may have produced — the named ones when the result window
    is not forgotten (`fgt 3 = false`); the input windows are never forgotten (`hfgt`). -/
def reg2 (fgt : Fin cfg2.W → Bool) (hfgt : ∀ w : Fin cfg2.W, w ≠ 3 → fgt w = false)
    (hb2 : ∀ c, BodyObligationLoose (dat2 (F := F) (V5 m) c) (defs₀ (F := F)) Variants.none () Set.univ fgt) :
    Pipeline.RDat.RegionSeg (pcfgs (F := F)) adm (rdats m fgt) () defs₀ 𝒱₀ L lv 2 where
  win := winFacts2.to₀
  block_pos := block_pos2
  stage_whole := stage_whole2
  K := PEmpty
  osem k := k.elim
  ho := Pipeline.OwnSemFacts.none _
  hbody c := (hb2 c).toRForget
  hwaits := Pipeline.RDat.hwaits_of_owed_zero _ _ _ _ L lv 2 fun _ _ => rfl
  pre c := T (W5 m c) c
  post c := TX (Named m fgt) (W6 m) c
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.RDat.arrays_of_unscopedBufs (p := 2) (pcfgs (F := F)) adm (rdats m fgt) winFacts2 arr_whole2 c
      ((rdats m fgt 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m fgt 2 c).Φ (Fin.last _) = Pipeline.ΦA spec2 c from rfl]; unfold Pipeline.ΦA
    iintro ⟨Hr, Hp⟩
    isplitl [Hp]; · iexact Hp
    isplitr; · iempintro
    iexact Hr
  hexit c := by
    -- the three input arrays are as entered; the result array is at some contents `x`
    have hA := exit2_arrays (V5 m) fgt hfgt c
    have hF : ∀ (x : Logits (F := F) c) (w : Fin cfg2.W), exitArr (V5 m) c x w = V6 m c x (Pipeline.arrRef spec2 w) := fun x w =>
      match w with
      | ⟨0, _⟩ => show (dat2 (V5 m) c).A 0 = W6 m c x main_v7 from (A_eq2 (V5 m) c 0).trans (W6_of m c x main_v7 (by decide)).symm
      | ⟨1, _⟩ => show (dat2 (V5 m) c).A 1 = W6 m c x main_arg10 from (A_eq2 (V5 m) c 1).trans (W6_of m c x main_arg10 (by decide)).symm
      | ⟨2, _⟩ => show (dat2 (V5 m) c).A 2 = W6 m c x main_v8 from (A_eq2 (V5 m) c 2).trans (W6_of m c x main_v8 (by decide)).symm
      | ⟨3, _⟩ => show x = W6 m c x main_v9 from (W6_self m c x).symm
    have hjoin : ∀ x : Logits (F := F) c,
        iprop((dat2 (V5 m) c).arrays (exitArr (V5 m) c x) ∗ Pipeline.unscopedRest spec2 c (V5 m c))
          ⊢ (StableHlo.held (c : Thread nD τ) (Pipeline.ucRefs τ sig) (W6 m c x) : sProp 𝕄) := fun x => by
      rw [← Pipeline.unscopedBufs_held c (W6 m c x)]
      exact Pipeline.unscopedBufs_of_arrays (p := 2) (pcfgs (F := F)) adm winFacts2 arr_whole2 c (pd m)
        ((pd m 2 c).share_full fun _ => rfl) (V5 m c) (V6 m c x) (exitArr (V5 m) c x) (hF x)
        (fun b hb => W6_of m c x b fun e => hb (e ▸ Finset.mem_image.mpr ⟨3, Finset.mem_univ _, rfl⟩))
    have hA' : ((rdats m fgt 2 c).arraysAt (Pipeline.pin (pcfgs (F := F)) adm 2).N : sProp 𝕄)
        ⊢ iprop(∃ x : Logits (F := F) c, ⌜Named m fgt c x⌝ ∗ (dat2 (V5 m) c).arrays (exitArr (V5 m) c x)) := hA
    iintro ⟨Ha, HO, HY, Hrest⟩
    ihave H := hA' $$ Ha
    icases H with ⟨%x, %hx, Ha⟩
    imodintro
    iexists x
    isplitr; · ipureintro; exact hx
    isplitl [Ha Hrest]
    · iapply (hjoin x); isplitl [Ha] <;> iassumption
    isplitl [HY]; · iexact HY
    unfold Pipeline.RDat.owesAt Pipeline.owesWithin
    icases HO with ⟨%W, -, HO⟩; iexists W; iexact HO

/-! ## @main as items, and the launch -/

/-- @main's eight items in order. -/
abbrev segs (fgt : Fin cfg2.W → Bool) (hfgt : ∀ w : Fin cfg2.W, w ≠ 3 → fgt w = false)
    (hb2 : ∀ c, BodyObligationLoose (dat2 (F := F) (V5 m) c) (defs₀ (F := F)) Variants.none () Set.univ fgt) :
    List (Pipeline.RDat.Seg (pcfgs (F := F)) adm (rdats m fgt) () defs₀ 𝒱₀ L lv) :=
  [ .host (hseg hostOps0 hostOps0_sub hostOps0_fresh (W0 m)),
    .region (reg0 m fgt),
    .host (hseg hostOps1 hostOps1_sub hostOps1_fresh (W2 m)),
    .region (reg1 m fgt),
    .host (hseg hostOps2 hostOps2_sub hostOps2_fresh (W4 m)),
    .region (reg2 m fgt hfgt hb2),
    .host (hsegX hostOps3 hostOps3_sub hostOps3_fresh (Named m fgt) (W6 m)),
    .host (hsegX hostOps3_1 hostOps3_1_sub hostOps3_1_fresh (Named m fgt) (W7 m)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one
set_option backward.isDefEq.respectTransparency.types false in
/-- THE RUN.  From any memory with zero counters every weakly fair execution of @main terminates, nothing faulting, and in
    every final state, on every core, for some contents `x` of the logits array — the named ones when the projection's result
    window is not forgotten — every unscoped buffer holds the fold's last contents at `x`. -/
theorem run_main (fgt : Fin cfg2.W → Bool) (hfgt : ∀ w : Fin cfg2.W, w ≠ 3 → fgt w = false)
    (hb2 : ∀ c, BodyObligationLoose (dat2 (F := F) (V5 m) c) (defs₀ (F := F)) Variants.none () Set.univ fgt) :
    θ_run defs (onTc (τ := τ) (main (F := F))) ⟨m, fun _ => 0, ρ⟩ (fun r => ∀ c : Dev nD, ∃ x : Logits (F := F) c,
      Named m fgt c x ∧ ∀ b ∈ Pipeline.ucRefs τ sig, r.2.mem ((c : Thread nD τ).1, b) = W8 m c x b) :=
  Pipeline.RDat.θ_run_regions_kit (pcfgs (F := F)) adm (rdats m fgt) () cellOf_inj emb₁ defs₀ 𝒱₀ L lv m ρ main (segs m fgt hfgt hb2)
    (fun c Q => by
      rewrite [main_chain c, Pipeline.RDat.Seg.run_eq_chain,
        show (segs m fgt hfgt hb2).map Pipeline.RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => T (W0 m c) c)
    (Tₙ := fun c => iprop(∃ x : Logits (F := F) c, ⌜Named m fgt c x⌝
      ∗ StableHlo.held (c : Thread nD τ) (Pipeline.ucRefs τ sig) (W8 m c x) ∗ ∃ r, prngReg c r))
    (hch := ⟨fun _ => .rfl, fun _ => .rfl, fun _ => .rfl, fun _ => .rfl, fun _ => .rfl, fun _ => .rfl, fun _ => .rfl, fun _ => .rfl, fun c => by
      show (TX (Named m fgt) (W8 m) c : sProp 𝕄) ⊢ _
      iintro ⟨%x, %hx, Hh, Hp, HO⟩
      isplitr [HO]
      · iexists x; isplitr; · ipureintro; exact hx
        isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ x : Logits (F := F) c, Named m fgt c x ∧ ∀ b ∈ Pipeline.ucRefs τ sig, s.mem (((c : Thread nD τ)).1, b) = W8 m c x b)
    (hfin := fun c s' => by
      iintro ⟨⟨%x, %hx, Hh, -⟩, HSI⟩
      unfold StableHlo.held
      ihave Hr := (pointsTo_read_all (Pipeline.ucRefs τ sig) (fun b => (((c : Thread nD τ)).1, b)) (W8 m c x) s') $$ [Hh HSI]
      · isplitl [Hh] <;> iassumption
      icases Hr with ⟨%h, HSI⟩
      imodintro
      isplitr
      · ipureintro; exact ⟨x, hx, h⟩
      · iexact HSI)
    (hQ := fun _ h => h)

/-! ## The frame -/

/-- Every argument array ends as launched: no host stretch writes it and it is no region's result array. -/
theorem run_frame (fgt : Fin cfg2.W → Bool) (hfgt : ∀ w : Fin cfg2.W, w ≠ 3 → fgt w = false)
    (hb2 : ∀ c, BodyObligationLoose (dat2 (F := F) (V5 m) c) (defs₀ (F := F)) Variants.none () Set.univ fgt) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    obtain ⟨x, -, hb⟩ := h c
    exact ⟨(hb _ (mem_uc main_arg0 (by decide))).trans (W8_kept m c x main_arg0 (by decide) (by decide) (by decide) (by decide) (by decide) (by decide) (by decide) (by decide)),
      (hb _ (mem_uc main_arg1 (by decide))).trans (W8_kept m c x main_arg1 (by decide) (by decide) (by decide) (by decide) (by decide) (by decide) (by decide) (by decide)),
      (hb _ (mem_uc main_arg2 (by decide))).trans (W8_kept m c x main_arg2 (by decide) (by decide) (by decide) (by decide) (by decide) (by decide) (by decide) (by decide)),
      (hb _ (mem_uc main_arg3 (by decide))).trans (W8_kept m c x main_arg3 (by decide) (by decide) (by decide) (by decide) (by decide) (by decide) (by decide) (by decide)),
      (hb _ (mem_uc main_arg4 (by decide))).trans (W8_kept m c x main_arg4 (by decide) (by decide) (by decide) (by decide) (by decide) (by decide) (by decide) (by decide)),
      (hb _ (mem_uc main_arg5 (by decide))).trans (W8_kept m c x main_arg5 (by decide) (by decide) (by decide) (by decide) (by decide) (by decide) (by decide) (by decide)),
      (hb _ (mem_uc main_arg6 (by decide))).trans (W8_kept m c x main_arg6 (by decide) (by decide) (by decide) (by decide) (by decide) (by decide) (by decide) (by decide)),
      (hb _ (mem_uc main_arg7 (by decide))).trans (W8_kept m c x main_arg7 (by decide) (by decide) (by decide) (by decide) (by decide) (by decide) (by decide) (by decide)),
      (hb _ (mem_uc main_arg8 (by decide))).trans (W8_kept m c x main_arg8 (by decide) (by decide) (by decide) (by decide) (by decide) (by decide) (by decide) (by decide)),
      (hb _ (mem_uc main_arg9 (by decide))).trans (W8_kept m c x main_arg9 (by decide) (by decide) (by decide) (by decide) (by decide) (by decide) (by decide) (by decide)),
      (hb _ (mem_uc main_arg10 (by decide))).trans (W8_kept m c x main_arg10 (by decide) (by decide) (by decide) (by decide) (by decide) (by decide) (by decide) (by decide)),
      (hb _ (mem_uc main_arg11 (by decide))).trans (W8_kept m c x main_arg11 (by decide) (by decide) (by decide) (by decide) (by decide) (by decide) (by decide) (by decide))⟩)
    (run_main m ρ fgt hfgt hb2)

end Cert.KernelIdeal.Hand

end
-- ==== Proof.KI.R2Exact.lean ====
/-
  The final projection's body obligation over the extended reals, with nothing forgotten.

  There a logit is  (Σ_k relu(row)[k] · W[j,k]) + b[j] : it reads row j of the weight buffer and entry j of the bias
  buffer and nothing else of either.  At the last grid point only the first 81 weight rows and bias entries were
  fetched, and only the first 81 logits are written back; those logits depend on fetched words alone, so they are the
  ones the padded blocks give, whatever the buffers hold beyond.
-/
import proofs.«157188_j18528488915578_1_alg».proof.Proof.Gen.KernelIdeal.Launch
import proofs.«157188_j18528488915578_1_alg».proof.Proof.Gen.KernelIdeal.Skeleton
import proofs.«157188_j18528488915578_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«157188_j18528488915578_1_alg».proof.Proof.KI.R2Defs
import proofs.«157188_j18528488915578_1_alg».proof.Proof.KI.R2Body
import proofs.«157188_j18528488915578_1_alg».proof.Proof.KI.R2Obl
import Idealize.ShloMosaic.PureOps.Ideal.Laws
import Idealize.ShloMosaic.Lib.ValueIdx
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

local notation "𝕄" => MT nD τ sig Unit (Elt Ideal) ℕ (UR sig nD τ) ℕ

variable (V : (c : Dev nD) → (b : Ref sig .tc) → Buf (Elt Ideal) ((c : Thread nD τ).loc b))

/-- The weight operand's index at result column `J` and contraction position `k` lies in weight row `J 1`. -/
theorem rhs_row (J : S1x512.Idx) (k : dot_S1x4096_S512x4096_S1x512_1_1_0_0_n_n.contr.Idx) :
    (dot_S1x4096_S512x4096_S1x512_1_1_0_0_n_n.rhsIdx J k 0).val = (J 1).val := rfl

/-- Column `J` of the body's arithmetic reads the weights' row `J 1` and the bias's entry `J` only. -/
theorem k2_pay1_col (x0 : Vec Ideal S1x4096 .f32) (x1 x1' : Vec Ideal S512x4096 .f32) (x2 x2' : Vec Ideal S1x512 .f32)
    (J : S1x512.Idx) (h1 : ∀ I : S512x4096.Idx, (I 0).val = (J 1).val → x1 I = x1' I) (h2 : x2 J = x2' J) :
    k2_pay1 x0 x1 x2 J = k2_pay1 x0 x1' x2' J := by
  unfold k2_pay1
  show FloatOps.addf (matmul _ _ _ _ _ J) (shapeCast _ _ _ J) = FloatOps.addf (matmul _ _ _ _ _ J) (shapeCast _ _ _ J)
  refine congrArg₂ _ ?_ ?_
  · refine (Ideal.matmul_constant_zero_apply dot_S1x4096_S512x4096_S1x512_1_1_0_0_n_n none _ _ J).trans ?_
    refine Eq.trans ?_ (Ideal.matmul_constant_zero_apply dot_S1x4096_S512x4096_S1x512_1_1_0_0_n_n none _ _ J).symm
    refine Finset.sum_congr rfl fun k _ => ?_
    congr 1
    exact h1 _ (rhs_row J k)
  · rw [shapeCast_self, shapeCast_self]; exact h2

theorem hz2 : (![0, 0] : Fin 2 → Nat) = fun _ => 0 := funext fun a => by fin_cases a <;> rfl

/-- The body's one whole store leaves its payload, computed from the three buffers read whole. -/
theorem out2_3_eq (x0 : Vec Ideal S1x4096 .f32) (x1 : Vec Ideal S512x4096 .f32) (x2 : Vec Ideal S1x512 .f32) :
    out2_3 x0 x1 x2 = k2_pay1 x0 x1 x2 := by
  unfold out2_3
  rw [View.canon_unit_zero (S := S1x512) hz2]
  simp only [View.ld_unit_zero (S := S1x4096) hz2, View.ld_unit_zero (S := S512x4096) hz2, View.ld_unit_zero (S := S1x512) hz2]

/-- How the three clipped windows are cut at a grid point: the weight block loses rows, the bias and result blocks
    lose columns, all by the same count; nothing else is cut. -/
theorem xsize_facts2 : ∀ t : Fin cfg2.N,
    win2_1.xsize (grid2.coords t) 0 = win2_3.xsize (grid2.coords t) 1 ∧ win2_1.xsize (grid2.coords t) 1 = 4096
    ∧ win2_2.xsize (grid2.coords t) 0 = 1 ∧ win2_2.xsize (grid2.coords t) 1 = win2_3.xsize (grid2.coords t) 1 :=
  (by decide +kernel : ∀ t : Fin grid2.N, _)

/-- A weight row whose number is a column the result's transfer moves is a row the weights' transfer moved. -/
theorem moved2_1_of (t : Fin cfg2.N) (J : S1x512.Idx) (hJ : win2_3.moved (grid2.coords t) J = true)
    (I : S512x4096.Idx) (hI : (I 0).val = (J 1).val) : win2_1.moved (grid2.coords t) I = true := by
  rw [Window.moved_iff] at hJ ⊢
  obtain ⟨f10, f11, -, -⟩ := xsize_facts2 t
  intro a
  match a with
  | ⟨0, _⟩ =>
    have h := hJ 1
    change (I 0).val < win2_1.xsize (grid2.coords t) 0
    change (J 1).val < win2_3.xsize (grid2.coords t) 1 at h
    omega
  | ⟨1, _⟩ =>
    have h : (I 1).val < 4096 := (I 1).isLt
    change (I 1).val < win2_1.xsize (grid2.coords t) 1
    omega

/-- A column the result's transfer moves is a column the bias's transfer moved. -/
theorem moved2_2_of (t : Fin cfg2.N) (J : S1x512.Idx) (hJ : win2_3.moved (grid2.coords t) J = true) :
    win2_2.moved (grid2.coords t) J = true := by
  rw [Window.moved_iff] at hJ ⊢
  obtain ⟨-, -, f20, f21⟩ := xsize_facts2 t
  intro a
  match a with
  | ⟨0, _⟩ =>
    have h : (J 0).val < 1 := (J 0).isLt
    change (J 0).val < win2_2.xsize (grid2.coords t) 0
    omega
  | ⟨1, _⟩ =>
    have h := hJ 1
    change (J 1).val < win2_2.xsize (grid2.coords t) 1
    change (J 1).val < win2_3.xsize (grid2.coords t) 1 at h
    omega

/-- On the part of the result buffer that is written back, the body's store does not depend on what the weight and
    bias buffers hold beyond the fetched part. -/
theorem cut_out2_3 (t : Fin cfg2.N) (x0 : Vec Ideal S1x4096 .f32)
    (d1 d1' : S512x4096.Idx → Elt Ideal .f32) (g1 : (win2_1.xblock (grid2.coords t)).Idx → Elt Ideal .f32)
    (d2 d2' : S1x512.Idx → Elt Ideal .f32) (g2 : (win2_2.xblock (grid2.coords t)).Idx → Elt Ideal .f32) :
    win2_3.cut (grid2.coords t) (out2_3 x0 (win2_1.fill (grid2.coords t) d1 g1) (win2_2.fill (grid2.coords t) d2 g2))
      = win2_3.cut (grid2.coords t) (out2_3 x0 (win2_1.fill (grid2.coords t) d1' g1) (win2_2.fill (grid2.coords t) d2' g2)) := by
  funext j
  have hJ : win2_3.moved (grid2.coords t) (win2_3.xinj (grid2.coords t) j) = true := win2_3.moved_xinj _ j
  show out2_3 x0 _ _ (win2_3.xinj (grid2.coords t) j) = out2_3 x0 _ _ (win2_3.xinj (grid2.coords t) j)
  rw [out2_3_eq, out2_3_eq]
  refine k2_pay1_col x0 _ _ _ _ (win2_3.xinj (grid2.coords t) j) (fun I hI => ?_) ?_
  · have hm := moved2_1_of t _ hJ I hI
    unfold Window.fill; rw [dif_pos hm, dif_pos hm]
  · have hm := moved2_2_of t _ hJ
    unfold Window.fill; rw [dif_pos hm, dif_pos hm]

theorem body_obligation2_exact (c : Dev nD) :
    BodyObligationLoose (dat2 (F := Ideal) V c) (defs₀ (F := Ideal)) Variants.none () Set.univ := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩⟩
  rw [before2_0 V c t d0, before2_1 V c t d1, before2_2 V c t d2, after2_0, after2_1, after2_2, after2_3]
  iapply (sound_kernel2 (F := Ideal) c Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3)) (iblk2 V c 0 t)
    (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  have h1 : win2_1.cut (grid2.coords t) (wblk2 V c t) = iblk2 V c 1 t := win2_1.cut_fill _ _ _
  have h2 : win2_2.cut (grid2.coords t) (bblk2 V c t) = iblk2 V c 2 t := win2_2.cut_fill _ _ _
  -- the stored logits agree, on the columns written back, with those of the padded blocks
  have h3 : win2_3.cut (grid2.coords t) (out2_3 (iblk2 V c 0 t) (win2_1.fill (grid2.coords t) d1 (iblk2 V c 1 t))
        (win2_2.fill (grid2.coords t) d2 (iblk2 V c 2 t)))
      = win2_3.cut (grid2.coords t) (out2_3 (iblk2 V c 0 t) (wblk2 V c t) (bblk2 V c t)) :=
    cut_out2_3 t (iblk2 V c 0 t) d1 (fun _ => pad0) (iblk2 V c 1 t) d2 (fun _ => pad0) (iblk2 V c 2 t)
  isplitl [H1]
  · iexists d1
    change _ ⊢ owns (c : Thread nD τ) (st2_1 t) fullShare (win2_1.fill (grid2.coords t) d1 (win2_1.cut (grid2.coords t) (wblk2 V c t)))
    rw [h1]
  isplitl [H2]
  · iexists d2
    change _ ⊢ owns (c : Thread nD τ) (st2_2 t) fullShare (win2_2.fill (grid2.coords t) d2 (win2_2.cut (grid2.coords t) (bblk2 V c t)))
    rw [h2]
  iexists out2_3 (iblk2 V c 0 t) (win2_1.fill (grid2.coords t) d1 (iblk2 V c 1 t)) (win2_2.fill (grid2.coords t) d2 (iblk2 V c 2 t))
  change _ ⊢ owns (c : Thread nD τ) (st2_3 t) fullShare (win2_3.fill (grid2.coords t)
    (out2_3 (iblk2 V c 0 t) (win2_1.fill (grid2.coords t) d1 (iblk2 V c 1 t)) (win2_2.fill (grid2.coords t) d2 (iblk2 V c 2 t)))
    (win2_3.cut (grid2.coords t) (out2_3 (iblk2 V c 0 t) (wblk2 V c t) (bblk2 V c t))))
  rw [win2_3.fill_congr_cut (grid2.coords t) h3]

end Cert.KernelIdeal.Hand

end
-- ==== Proof.Spec.lean ====
/-
  What both programs compute, as plain functions on the extended reals.

  A GRU cell on a single row: with the six products of the input row x and the state row h against the r, z and n
  slices of the input and state weights (rows q, 4096 + q and 8192 + q of a 12288 × 4096 matrix), each with its bias,
      r = σ(i_r + h_r),  z = σ(i_z + h_z),  n = tanh(i_n + r · h_n),  h' = (1 − z) · n + z · h.
  Two such cells in sequence (the second fed the first's result as input AND as state), a rectified linear layer
  onto 50257 logits, and a log-softmax along the row.  The matrix–vector products are finite sums over the 4096
  contracted coordinates; σ is the logistic function, which on the extended reals IS 1 / (1 + e^(−x)).
-/
import Idealize.ShloMosaic.PureOps.Ideal
import Idealize.ShloMosaic.PureOps.Vector
import Idealize.ShloMosaic.Lib.ValueIdx

noncomputable section

namespace Cert.Spec

open Idealize.ShloMosaic Idealize.ShloMosaic.ValueIdx

/-- Row `r` of a matrix against a row vector: the sum over the 4096 contracted coordinates. -/
def mv {R : Nat} (x : Fin 4096 → EReal) (w : Fin R → Fin 4096 → EReal) (r : Fin R) : EReal :=
  ∑ k : Fin 4096, x k * w r k

/-- The rows of the three gate slices that belong to hidden coordinate `q`. -/
def rowR (q : Fin 4096) : Fin 12288 := ⟨q.val, by have := q.isLt; omega⟩
def rowZ (q : Fin 4096) : Fin 12288 := ⟨4096 + q.val, by have := q.isLt; omega⟩
def rowN (q : Fin 4096) : Fin 12288 := ⟨8192 + q.val, by have := q.isLt; omega⟩

/-- One coordinate of the GRU cell's new state. -/
def gruAt (x h : Fin 4096 → EReal) (wih whh : Fin 12288 → Fin 4096 → EReal) (bih bhh : Fin 12288 → EReal)
    (q : Fin 4096) : EReal :=
  let ir := mv x wih (rowR q) + bih (rowR q)
  let iz := mv x wih (rowZ q) + bih (rowZ q)
  let inn := mv x wih (rowN q) + bih (rowN q)
  let hr := mv h whh (rowR q) + bhh (rowR q)
  let hz := mv h whh (rowZ q) + bhh (rowZ q)
  let hn := mv h whh (rowN q) + bhh (rowN q)
  let r := Ideal.logistic (ir + hr)
  let z := Ideal.logistic (iz + hz)
  let n := Ideal.tanh (inn + r * hn)
  (Ideal.ofBits .f32 0x3F800000#32 - z) * n + z * h q

/-- One logit: the rectified state against a row of the output weights, plus its bias. -/
def logitAt (h : Fin 4096 → EReal) (w : Fin 50257 → Fin 4096 → EReal) (b : Fin 50257 → EReal) (j : Fin 50257) : EReal :=
  (∑ k : Fin 4096, max (h k) (Ideal.ofBits .f32 0x00000000#32) * w j k) + b j

/-! ## The arguments read as plain functions -/

abbrev S1x1x4096 : Shape := ⟨3, ![1, 1, 4096]⟩
abbrev S12288x4096 : Shape := ⟨2, ![12288, 4096]⟩
abbrev S12288 : Shape := ⟨1, ![12288]⟩
abbrev S50257x4096 : Shape := ⟨2, ![50257, 4096]⟩
abbrev S50257 : Shape := ⟨1, ![50257]⟩
abbrev S1x4096 : Shape := ⟨2, ![1, 4096]⟩
abbrev S1x50257 : Shape := ⟨2, ![1, 50257]⟩
abbrev S_ : Shape := ⟨0, ![]⟩
abbrev S1 : Shape := ⟨1, ![1]⟩
abbrev S1x1 : Shape := ⟨2, ![1, 1]⟩

def row3 (a : S1x1x4096.Idx → EReal) : Fin 4096 → EReal := fun k => a (ix3 (0 : Fin 1) (0 : Fin 1) k)
def mat {R : Nat} (w : (⟨2, ![R, 4096]⟩ : Shape).Idx → EReal) : Fin R → Fin 4096 → EReal := fun r k => w (ix2 r k)
def vec {R : Nat} (b : (⟨1, ![R]⟩ : Shape).Idx → EReal) : Fin R → EReal := fun r => b (ix1 r)

section Model

variable (input hidden : S1x1x4096.Idx → EReal) (wih1 whh1 : S12288x4096.Idx → EReal) (bih1 bhh1 : S12288.Idx → EReal)
  (wih2 whh2 : S12288x4096.Idx → EReal) (bih2 bhh2 : S12288.Idx → EReal) (wout : S50257x4096.Idx → EReal) (bout : S50257.Idx → EReal)

/-- The first cell's state. -/
def h1 : Fin 4096 → EReal := gruAt (row3 input) (row3 hidden) (mat wih1) (mat whh1) (vec bih1) (vec bhh1)
/-- The second cell's state: the first's result is both its input and its state. -/
def h2 : Fin 4096 → EReal :=
  gruAt (h1 input hidden wih1 whh1 bih1 bhh1) (h1 input hidden wih1 whh1 bih1 bhh1) (mat wih2) (mat whh2) (vec bih2) (vec bhh2)
/-- The logits. -/
def logits : Fin 50257 → EReal :=
  logitAt (h2 input hidden wih1 whh1 bih1 bhh1 wih2 whh2 bih2 bhh2) (mat wout) (vec bout)

/-- A row vector as a 1 × n array. -/
def asRow {n : Nat} (f : Fin n → EReal) : (⟨2, ![1, n]⟩ : Shape).Idx → EReal := fun i => f ⟨(i 1).val, (i 1).isLt⟩
/-- A row vector as a 1 × 1 × n array. -/
def asRow3 {n : Nat} (f : Fin n → EReal) : (⟨3, ![1, 1, n]⟩ : Shape).Idx → EReal := fun i => f ⟨(i 2).val, (i 2).isLt⟩

theorem asRow_ix2 {n : Nat} (f : Fin n → EReal) (q : Fin n) : asRow f (ix2 (0 : Fin 1) q) = f q := rfl
theorem asRow3_ix3 {n : Nat} (f : Fin n → EReal) (q : Fin n) : asRow3 f (ix3 (0 : Fin 1) (0 : Fin 1) q) = f q := rfl

/-- The second result of both programs: the second cell's state as a 1 × 1 × 4096 array. -/
def hiddenOut : S1x1x4096.Idx → EReal := asRow3 (h2 input hidden wih1 whh1 bih1 bhh1 wih2 whh2 bih2 bhh2)
/-- The logits as a 1 × 50257 array. -/
def logitsArr : S1x50257.Idx → EReal := asRow (logits input hidden wih1 whh1 bih1 bhh1 wih2 whh2 bih2 bhh2 wout bout)

end Model

/-! ## The shared tail: log-softmax along the row, as the host operations compose it

Both programs apply the same fifteen host operations to their logits; they are carried as this one function and never
opened.  The shape relations its operations ask for are arguments, so that each program supplies its own evidence. -/

section Tail

variable (hred : S1x50257.ReducesTo [1] S1) (hS : 0 < S_.numel)
  (b0 : S_.BroadcastsInDim S1 (![] : Fin 0 → Fin S1.rank))
  (b1 : S1.BroadcastsInDim S1x1 (![0] : Fin 1 → Fin S1x1.rank))
  (b2 : S1x1.BroadcastsInDim S1x50257 (![0, 1] : Fin 2 → Fin S1x50257.rank))

/-- The row less its maximum (the maximum taken against −∞ twice, as the host spells it). -/
def shifted (z : FVec Ideal S1x50257 .f32) : FVec Ideal S1x50257 .f32 :=
  subf z (broadcastInDim S1x50257 ![0, 1] b2 (broadcastInDim S1x1 ![0] b1
    (maximumf (broadcastInDim S1 ![] b0 (constant (F := Ideal) S_ .f32 0xFF800000#32))
      (Host.reduce FloatOps.maximumf z (constant (F := Ideal) S_ .f32 0xFF800000#32) hred hS))))

/-- Log-softmax along the row: the shifted row less the logarithm of the sum of its exponentials. -/
def logSoftmax (z : FVec Ideal S1x50257 .f32) : FVec Ideal S1x50257 .f32 :=
  subf (shifted hred hS b0 b1 b2 z) (broadcastInDim S1x50257 ![0, 1] b2 (Host.log (broadcastInDim S1x1 ![0] b1
    (Host.reduceAdd (Host.exp (shifted hred hS b0 b1 b2 z)) (constant (F := Ideal) S_ .f32 0x00000000#32) hred hS))))

end Tail

end Cert.Spec

end
-- ==== Proof.KI.R0Val.lean ====
/-
  The value of this region, a GRU cell, on the extended reals.

  Grid point t stores the 128 coordinates 128·t … 128·t + 127 of the new state.  Coordinate q of that store is the
  cell's formula on: the whole input row and the whole state row; row q of each of the six staged weight blocks, which
  are rows 128·t + q, 4096 + 128·t + q and 8192 + 128·t + q of the input weights and of the state weights; the same
  three entries of the two bias rows; and entry 128·t + q of the state row.  Every matrix product contracts the second
  axis of both operands into a zero accumulator, so at column q it is the finite sum  Σ_k l(0, k) · r(q, k);  a change
  of float format is the identity.  The 32 blocks tile the 1 × 4096 result, column j falling in block j / 128, so the
  array ends holding the cell's new state at every index.
-/
import proofs.«157188_j18528488915578_1_alg».proof.Proof.KI.R0Defs
import proofs.«157188_j18528488915578_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The zero offsets of a whole-buffer load or store. -/
theorem val0_hz : (![0, 0] : Fin 2 → Nat) = fun _ => 0 := funext fun a => by fin_cases a <;> rfl

/-! ## The matrix product at an index

The left operand is a row, the right a block of rows, and both are contracted along their second axis: the operand
indices at output column q and contraction coordinate k are (0, k) and (q, k). -/
/-- The left operand's free axis carries the output's first coordinate. -/
theorem val0_lhs_0 (i : S1x128.Idx) (k : dot_S1x4096_S128x4096_S1x128_1_1_0_0_n_n.contr.Idx) :
    (dot_S1x4096_S128x4096_S1x128_1_1_0_0_n_n.lhsIdx i k 0).val = (i 0).val := by
  unfold DotDims.lhsIdx
  rw [dif_neg (show ¬(0 : Fin S1x4096.rank) ∈ dot_S1x4096_S128x4096_S1x128_1_1_0_0_n_n.lhsBatch by decide), dif_pos (show (0 : Fin S1x4096.rank) ∈ dot_S1x4096_S128x4096_S1x128_1_1_0_0_n_n.lhsNonContracting by decide)]
  rfl
/-- Its contracted axis carries the contraction coordinate. -/
theorem val0_lhs_1 (i : S1x128.Idx) (k : dot_S1x4096_S128x4096_S1x128_1_1_0_0_n_n.contr.Idx) :
    (dot_S1x4096_S128x4096_S1x128_1_1_0_0_n_n.lhsIdx i k 1).val = (k ⟨0, by decide⟩).val :=
  dot_S1x4096_S128x4096_S1x128_1_1_0_0_n_n.lhsIdx_val_of_single rfl i k
/-- The right operand's free axis carries the output's second coordinate. -/
theorem val0_rhs_0 (i : S1x128.Idx) (k : dot_S1x4096_S128x4096_S1x128_1_1_0_0_n_n.contr.Idx) :
    (dot_S1x4096_S128x4096_S1x128_1_1_0_0_n_n.rhsIdx i k 0).val = (i 1).val := by
  unfold DotDims.rhsIdx
  rw [dif_neg (show ¬(0 : Fin S128x4096.rank) ∈ dot_S1x4096_S128x4096_S1x128_1_1_0_0_n_n.rhsBatch by decide), dif_pos (show (0 : Fin S128x4096.rank) ∈ dot_S1x4096_S128x4096_S1x128_1_1_0_0_n_n.rhsNonContracting by decide)]
  rfl
/-- Its contracted axis carries the contraction coordinate. -/
theorem val0_rhs_1 (i : S1x128.Idx) (k : dot_S1x4096_S128x4096_S1x128_1_1_0_0_n_n.contr.Idx) :
    (dot_S1x4096_S128x4096_S1x128_1_1_0_0_n_n.rhsIdx i k 1).val = (k ⟨0, by decide⟩).val :=
  dot_S1x4096_S128x4096_S1x128_1_1_0_0_n_n.rhsIdx_val_of_single rfl i k

/-- The product into the zero accumulator, at column `q`: the sum over the 4096 contracted coordinates, whatever the
    operands' formats. -/
theorem val0_matmul {φ₁ φ₂ : FTy} (l : FVec Ideal S1x4096 φ₁) (r : FVec Ideal S128x4096 φ₂) (q : Fin 128) :
    matmul dot_S1x4096_S128x4096_S1x128_1_1_0_0_n_n none l r (constant (F := Ideal) S1x128 .f32 0x00000000#32) (ix2 (0 : Fin 1) q)
      = ∑ k : Fin 4096, (l (ix2 (0 : Fin 1) k) : EReal) * (r (ix2 q k) : EReal) := by
  show FloatOps.matmul dot_S1x4096_S128x4096_S1x128_1_1_0_0_n_n none l r (constant (F := Ideal) S1x128 .f32 0x00000000#32) (ix2 (0 : Fin 1) q) = _
  rw [Ideal.matmul_constant_zero_apply, ← Equiv.sum_comp (contrEquiv1 dot_S1x4096_S128x4096_S1x128_1_1_0_0_n_n 4096 rfl rfl).symm]
  refine Finset.sum_congr rfl fun k _ => ?_
  have hk := contrEquiv1_symm_val dot_S1x4096_S128x4096_S1x128_1_1_0_0_n_n 4096 rfl rfl k
  have el : dot_S1x4096_S128x4096_S1x128_1_1_0_0_n_n.lhsIdx (ix2 (0 : Fin 1) q) ((contrEquiv1 dot_S1x4096_S128x4096_S1x128_1_1_0_0_n_n 4096 rfl rfl).symm k) = ix2 (0 : Fin 1) k := funext fun a => Fin.ext (by
    match a with
    | ⟨0, _⟩ => exact val0_lhs_0 _ _
    | ⟨1, _⟩ => exact (val0_lhs_1 _ _).trans hk)
  have er : dot_S1x4096_S128x4096_S1x128_1_1_0_0_n_n.rhsIdx (ix2 (0 : Fin 1) q) ((contrEquiv1 dot_S1x4096_S128x4096_S1x128_1_1_0_0_n_n 4096 rfl rfl).symm k) = ix2 q k := funext fun a => Fin.ext (by
    match a with
    | ⟨0, _⟩ => exact val0_rhs_0 _ _
    | ⟨1, _⟩ => exact (val0_rhs_1 _ _).trans hk)
  rw [el, er]

/-! ## The body's store at a coordinate -/

/-- The logistic function and the hyperbolic tangent of a vector, at an index, are those of the entry. -/
theorem val0_logistic_apply {s : Shape} {φ : FTy} (a : FVec Ideal s φ) (i : s.Idx) : logistic a i = Ideal.logistic (a i) := rfl
theorem val0_tanh_apply {s : Shape} {φ : FTy} (a : FVec Ideal s φ) (i : s.Idx) : tanh a i = Ideal.tanh (a i) := rfl

/-- One coordinate of what the body stores, from the blocks it loaded. -/
theorem val0_pay (x0 x1 : Vec Ideal S1x4096 .f32) (x2 : Vec Ideal S1x128 .f32) (x3 x4 x5 x6 x7 x8 : Vec Ideal S128x4096 .f32)
    (x9 x10 x11 x12 x13 x14 : Vec Ideal S1x128 .f32) (q : Fin 128)
    (x h : Fin 4096 → EReal) (wih whh : Fin 12288 → Fin 4096 → EReal) (bih bhh : Fin 12288 → EReal) (Q : Fin 4096)
    (e0 : ∀ k : Fin 4096, x0 (ix2 (0 : Fin 1) k) = x k) (e1 : ∀ k : Fin 4096, x1 (ix2 (0 : Fin 1) k) = h k)
    (e2 : x2 (ix2 (0 : Fin 1) q) = h Q)
    (e3 : ∀ k : Fin 4096, x3 (ix2 q k) = wih (Cert.Spec.rowR Q) k) (e4 : ∀ k : Fin 4096, x4 (ix2 q k) = wih (Cert.Spec.rowZ Q) k)
    (e5 : ∀ k : Fin 4096, x5 (ix2 q k) = wih (Cert.Spec.rowN Q) k)
    (e6 : ∀ k : Fin 4096, x6 (ix2 q k) = whh (Cert.Spec.rowR Q) k) (e7 : ∀ k : Fin 4096, x7 (ix2 q k) = whh (Cert.Spec.rowZ Q) k)
    (e8 : ∀ k : Fin 4096, x8 (ix2 q k) = whh (Cert.Spec.rowN Q) k)
    (e9 : x9 (ix2 (0 : Fin 1) q) = bih (Cert.Spec.rowR Q)) (e10 : x10 (ix2 (0 : Fin 1) q) = bih (Cert.Spec.rowZ Q))
    (e11 : x11 (ix2 (0 : Fin 1) q) = bih (Cert.Spec.rowN Q))
    (e12 : x12 (ix2 (0 : Fin 1) q) = bhh (Cert.Spec.rowR Q)) (e13 : x13 (ix2 (0 : Fin 1) q) = bhh (Cert.Spec.rowZ Q))
    (e14 : x14 (ix2 (0 : Fin 1) q) = bhh (Cert.Spec.rowN Q)) :
    k0_pay1 (k0_pay3 x1) (k0_pay4 x0 x3 x9) (k0_pay5 x0 x4 x10) (k0_pay6 x0 x5 x11) (k0_pay7 x1 x6 x12) (k0_pay8 x7)
      (constant (F := Ideal) S1x128 .f32 0x00000000#32) x13 x8 x14 x2 (ix2 (0 : Fin 1) q)
      = Cert.Spec.gruAt x h wih whh bih bhh Q := by
  unfold k0_pay1 k0_pay4 k0_pay5 k0_pay6 k0_pay7 k0_pay8 k0_pay3 k0_pay2
  simp only [shapeCast_self]
  simp only [addf_apply, mulf_apply, subf_apply, val0_logistic_apply, val0_tanh_apply, broadcast_apply, val0_matmul, truncf_apply]
  simp only [e0, e1, e2, e3, e4, e5, e6, e7, e8, e9, e10, e11, e12, e13, e14]
  rfl

variable (V : (c : Dev nD) → (b : Ref sig .tc) → Buf (Elt Ideal) ((c : Thread nD τ).loc b))

/-! ## Where each window's block sits at a point -/

theorem val0_idx_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem val0_idx_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem val0_idx_2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)
theorem val0_idx_3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem val0_idx_4 : ∀ t : Fin cfg0.N, win0_4.index t (0 : Fin 2) = 32 + t.val ∧ win0_4.index t (1 : Fin 2) = 0 :=
  (by decide +kernel : ∀ t : Fin grid0.N, win0_4.index t (0 : Fin 2) = 32 + t.val ∧ win0_4.index t (1 : Fin 2) = 0)
theorem val0_idx_5 : ∀ t : Fin cfg0.N, win0_5.index t (0 : Fin 2) = 64 + t.val ∧ win0_5.index t (1 : Fin 2) = 0 :=
  (by decide +kernel : ∀ t : Fin grid0.N, win0_5.index t (0 : Fin 2) = 64 + t.val ∧ win0_5.index t (1 : Fin 2) = 0)
theorem val0_idx_6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem val0_idx_7 : ∀ t : Fin cfg0.N, win0_7.index t (0 : Fin 2) = 32 + t.val ∧ win0_7.index t (1 : Fin 2) = 0 :=
  (by decide +kernel : ∀ t : Fin grid0.N, win0_7.index t (0 : Fin 2) = 32 + t.val ∧ win0_7.index t (1 : Fin 2) = 0)
theorem val0_idx_8 : ∀ t : Fin cfg0.N, win0_8.index t (0 : Fin 2) = 64 + t.val ∧ win0_8.index t (1 : Fin 2) = 0 :=
  (by decide +kernel : ∀ t : Fin grid0.N, win0_8.index t (0 : Fin 2) = 64 + t.val ∧ win0_8.index t (1 : Fin 2) = 0)
theorem val0_idx_9 : ∀ t : Fin cfg0.N, win0_9.index t (0 : Fin 2) = 0 ∧ win0_9.index t (1 : Fin 2) = t.val :=
  (by decide +kernel : ∀ t : Fin grid0.N, win0_9.index t (0 : Fin 2) = 0 ∧ win0_9.index t (1 : Fin 2) = t.val)
theorem val0_idx_10 : ∀ t : Fin cfg0.N, win0_10.index t (0 : Fin 2) = 0 ∧ win0_10.index t (1 : Fin 2) = 32 + t.val :=
  (by decide +kernel : ∀ t : Fin grid0.N, win0_10.index t (0 : Fin 2) = 0 ∧ win0_10.index t (1 : Fin 2) = 32 + t.val)
theorem val0_idx_11 : ∀ t : Fin cfg0.N, win0_11.index t (0 : Fin 2) = 0 ∧ win0_11.index t (1 : Fin 2) = 64 + t.val :=
  (by decide +kernel : ∀ t : Fin grid0.N, win0_11.index t (0 : Fin 2) = 0 ∧ win0_11.index t (1 : Fin 2) = 64 + t.val)
theorem val0_idx_12 : ∀ t : Fin cfg0.N, win0_12.index t (0 : Fin 2) = 0 ∧ win0_12.index t (1 : Fin 2) = t.val :=
  (by decide +kernel : ∀ t : Fin grid0.N, win0_12.index t (0 : Fin 2) = 0 ∧ win0_12.index t (1 : Fin 2) = t.val)
theorem val0_idx_13 : ∀ t : Fin cfg0.N, win0_13.index t (0 : Fin 2) = 0 ∧ win0_13.index t (1 : Fin 2) = 32 + t.val :=
  (by decide +kernel : ∀ t : Fin grid0.N, win0_13.index t (0 : Fin 2) = 0 ∧ win0_13.index t (1 : Fin 2) = 32 + t.val)
theorem val0_idx_14 : ∀ t : Fin cfg0.N, win0_14.index t (0 : Fin 2) = 0 ∧ win0_14.index t (1 : Fin 2) = 64 + t.val :=
  (by decide +kernel : ∀ t : Fin grid0.N, win0_14.index t (0 : Fin 2) = 0 ∧ win0_14.index t (1 : Fin 2) = 64 + t.val)
theorem val0_idx_15 : ∀ t : Fin cfg0.N, win0_15.index t (0 : Fin 2) = 0 ∧ win0_15.index t (1 : Fin 2) = t.val :=
  (by decide +kernel : ∀ t : Fin grid0.N, win0_15.index t (0 : Fin 2) = 0 ∧ win0_15.index t (1 : Fin 2) = t.val)

/-! ## Each input block read off its array -/

theorem val0_blk_0 (c : Dev nD) (t : Fin cfg0.N) (k : Fin 4096) :
    iblk0 V c 0 t (ix2 (0 : Fin 1) k) = V c (Pipeline.arrRef spec0 0) (ix2 (0 : Fin 1) k) := by
  show V c (Pipeline.arrRef spec0 0) (((cfg0.win 0).blk t).view.emb (ix2 (0 : Fin 1) k)) = _
  refine congrArg _ (funext fun a => Fin.ext ?_)
  obtain ⟨i0, i1⟩ := val0_idx_0 t
  match a with
  | ⟨0, _⟩ => show win0_0.index t (0 : Fin 2) * 1 + 1 * 0 = 0; omega
  | ⟨1, _⟩ => show win0_0.index t (1 : Fin 2) * 4096 + 1 * k.val = k.val; omega

theorem val0_blk_1 (c : Dev nD) (t : Fin cfg0.N) (k : Fin 4096) :
    iblk0 V c 1 t (ix2 (0 : Fin 1) k) = V c (Pipeline.arrRef spec0 1) (ix2 (0 : Fin 1) k) := by
  show V c (Pipeline.arrRef spec0 1) (((cfg0.win 1).blk t).view.emb (ix2 (0 : Fin 1) k)) = _
  refine congrArg _ (funext fun a => Fin.ext ?_)
  obtain ⟨i0, i1⟩ := val0_idx_1 t
  match a with
  | ⟨0, _⟩ => show win0_1.index t (0 : Fin 2) * 1 + 1 * 0 = 0; omega
  | ⟨1, _⟩ => show win0_1.index t (1 : Fin 2) * 4096 + 1 * k.val = k.val; omega

theorem val0_blk_2 (c : Dev nD) (t : Fin cfg0.N) (q : Fin 128) (r : Fin 4096) (hr : r.val = 128 * t.val + q.val) :
    iblk0 V c 2 t (ix2 (0 : Fin 1) q) = V c (Pipeline.arrRef spec0 1) (ix2 (0 : Fin 1) r) := by
  show V c (Pipeline.arrRef spec0 1) (((cfg0.win 2).blk t).view.emb (ix2 (0 : Fin 1) q)) = _
  refine congrArg _ (funext fun a => Fin.ext ?_)
  obtain ⟨i0, i1⟩ := val0_idx_2 t
  match a with
  | ⟨0, _⟩ => show win0_2.index t (0 : Fin 2) * 1 + 1 * 0 = 0; omega
  | ⟨1, _⟩ => show win0_2.index t (1 : Fin 2) * 128 + 1 * q.val = r.val; omega

theorem val0_blk_3 (c : Dev nD) (t : Fin cfg0.N) (q : Fin 128) (k : Fin 4096) (r : Fin 12288) (hr : r.val = 128 * t.val + q.val) :
    iblk0 V c 3 t (ix2 q k) = V c (Pipeline.arrRef spec0 3) (ix2 r k) := by
  show V c (Pipeline.arrRef spec0 3) (((cfg0.win 3).blk t).view.emb (ix2 q k)) = _
  refine congrArg _ (funext fun a => Fin.ext ?_)
  obtain ⟨i0, i1⟩ := val0_idx_3 t
  match a with
  | ⟨0, _⟩ => show win0_3.index t (0 : Fin 2) * 128 + 1 * q.val = r.val; omega
  | ⟨1, _⟩ => show win0_3.index t (1 : Fin 2) * 4096 + 1 * k.val = k.val; omega

theorem val0_blk_4 (c : Dev nD) (t : Fin cfg0.N) (q : Fin 128) (k : Fin 4096) (r : Fin 12288) (hr : r.val = 4096 + (128 * t.val + q.val)) :
    iblk0 V c 4 t (ix2 q k) = V c (Pipeline.arrRef spec0 3) (ix2 r k) := by
  show V c (Pipeline.arrRef spec0 3) (((cfg0.win 4).blk t).view.emb (ix2 q k)) = _
  refine congrArg _ (funext fun a => Fin.ext ?_)
  obtain ⟨i0, i1⟩ := val0_idx_4 t
  match a with
  | ⟨0, _⟩ => show win0_4.index t (0 : Fin 2) * 128 + 1 * q.val = r.val; omega
  | ⟨1, _⟩ => show win0_4.index t (1 : Fin 2) * 4096 + 1 * k.val = k.val; omega

theorem val0_blk_5 (c : Dev nD) (t : Fin cfg0.N) (q : Fin 128) (k : Fin 4096) (r : Fin 12288) (hr : r.val = 8192 + (128 * t.val + q.val)) :
    iblk0 V c 5 t (ix2 q k) = V c (Pipeline.arrRef spec0 3) (ix2 r k) := by
  show V c (Pipeline.arrRef spec0 3) (((cfg0.win 5).blk t).view.emb (ix2 q k)) = _
  refine congrArg _ (funext fun a => Fin.ext ?_)
  obtain ⟨i0, i1⟩ := val0_idx_5 t
  match a with
  | ⟨0, _⟩ => show win0_5.index t (0 : Fin 2) * 128 + 1 * q.val = r.val; omega
  | ⟨1, _⟩ => show win0_5.index t (1 : Fin 2) * 4096 + 1 * k.val = k.val; omega

theorem val0_blk_6 (c : Dev nD) (t : Fin cfg0.N) (q : Fin 128) (k : Fin 4096) (r : Fin 12288) (hr : r.val = 128 * t.val + q.val) :
    iblk0 V c 6 t (ix2 q k) = V c (Pipeline.arrRef spec0 6) (ix2 r k) := by
  show V c (Pipeline.arrRef spec0 6) (((cfg0.win 6).blk t).view.emb (ix2 q k)) = _
  refine congrArg _ (funext fun a => Fin.ext ?_)
  obtain ⟨i0, i1⟩ := val0_idx_6 t
  match a with
  | ⟨0, _⟩ => show win0_6.index t (0 : Fin 2) * 128 + 1 * q.val = r.val; omega
  | ⟨1, _⟩ => show win0_6.index t (1 : Fin 2) * 4096 + 1 * k.val = k.val; omega

theorem val0_blk_7 (c : Dev nD) (t : Fin cfg0.N) (q : Fin 128) (k : Fin 4096) (r : Fin 12288) (hr : r.val = 4096 + (128 * t.val + q.val)) :
    iblk0 V c 7 t (ix2 q k) = V c (Pipeline.arrRef spec0 6) (ix2 r k) := by
  show V c (Pipeline.arrRef spec0 6) (((cfg0.win 7).blk t).view.emb (ix2 q k)) = _
  refine congrArg _ (funext fun a => Fin.ext ?_)
  obtain ⟨i0, i1⟩ := val0_idx_7 t
  match a with
  | ⟨0, _⟩ => show win0_7.index t (0 : Fin 2) * 128 + 1 * q.val = r.val; omega
  | ⟨1, _⟩ => show win0_7.index t (1 : Fin 2) * 4096 + 1 * k.val = k.val; omega

theorem val0_blk_8 (c : Dev nD) (t : Fin cfg0.N) (q : Fin 128) (k : Fin 4096) (r : Fin 12288) (hr : r.val = 8192 + (128 * t.val + q.val)) :
    iblk0 V c 8 t (ix2 q k) = V c (Pipeline.arrRef spec0 6) (ix2 r k) := by
  show V c (Pipeline.arrRef spec0 6) (((cfg0.win 8).blk t).view.emb (ix2 q k)) = _
  refine congrArg _ (funext fun a => Fin.ext ?_)
  obtain ⟨i0, i1⟩ := val0_idx_8 t
  match a with
  | ⟨0, _⟩ => show win0_8.index t (0 : Fin 2) * 128 + 1 * q.val = r.val; omega
  | ⟨1, _⟩ => show win0_8.index t (1 : Fin 2) * 4096 + 1 * k.val = k.val; omega

theorem val0_blk_9 (c : Dev nD) (t : Fin cfg0.N) (q : Fin 128) (r : Fin 12288) (hr : r.val = 128 * t.val + q.val) :
    iblk0 V c 9 t (ix2 (0 : Fin 1) q) = V c (Pipeline.arrRef spec0 9) (ix2 (0 : Fin 1) r) := by
  show V c (Pipeline.arrRef spec0 9) (((cfg0.win 9).blk t).view.emb (ix2 (0 : Fin 1) q)) = _
  refine congrArg _ (funext fun a => Fin.ext ?_)
  obtain ⟨i0, i1⟩ := val0_idx_9 t
  match a with
  | ⟨0, _⟩ => show win0_9.index t (0 : Fin 2) * 1 + 1 * 0 = 0; omega
  | ⟨1, _⟩ => show win0_9.index t (1 : Fin 2) * 128 + 1 * q.val = r.val; omega

theorem val0_blk_10 (c : Dev nD) (t : Fin cfg0.N) (q : Fin 128) (r : Fin 12288) (hr : r.val = 4096 + (128 * t.val + q.val)) :
    iblk0 V c 10 t (ix2 (0 : Fin 1) q) = V c (Pipeline.arrRef spec0 9) (ix2 (0 : Fin 1) r) := by
  show V c (Pipeline.arrRef spec0 9) (((cfg0.win 10).blk t).view.emb (ix2 (0 : Fin 1) q)) = _
  refine congrArg _ (funext fun a => Fin.ext ?_)
  obtain ⟨i0, i1⟩ := val0_idx_10 t
  match a with
  | ⟨0, _⟩ => show win0_10.index t (0 : Fin 2) * 1 + 1 * 0 = 0; omega
  | ⟨1, _⟩ => show win0_10.index t (1 : Fin 2) * 128 + 1 * q.val = r.val; omega

theorem val0_blk_11 (c : Dev nD) (t : Fin cfg0.N) (q : Fin 128) (r : Fin 12288) (hr : r.val = 8192 + (128 * t.val + q.val)) :
    iblk0 V c 11 t (ix2 (0 : Fin 1) q) = V c (Pipeline.arrRef spec0 9) (ix2 (0 : Fin 1) r) := by
  show V c (Pipeline.arrRef spec0 9) (((cfg0.win 11).blk t).view.emb (ix2 (0 : Fin 1) q)) = _
  refine congrArg _ (funext fun a => Fin.ext ?_)
  obtain ⟨i0, i1⟩ := val0_idx_11 t
  match a with
  | ⟨0, _⟩ => show win0_11.index t (0 : Fin 2) * 1 + 1 * 0 = 0; omega
  | ⟨1, _⟩ => show win0_11.index t (1 : Fin 2) * 128 + 1 * q.val = r.val; omega

theorem val0_blk_12 (c : Dev nD) (t : Fin cfg0.N) (q : Fin 128) (r : Fin 12288) (hr : r.val = 128 * t.val + q.val) :
    iblk0 V c 12 t (ix2 (0 : Fin 1) q) = V c (Pipeline.arrRef spec0 12) (ix2 (0 : Fin 1) r) := by
  show V c (Pipeline.arrRef spec0 12) (((cfg0.win 12).blk t).view.emb (ix2 (0 : Fin 1) q)) = _
  refine congrArg _ (funext fun a => Fin.ext ?_)
  obtain ⟨i0, i1⟩ := val0_idx_12 t
  match a with
  | ⟨0, _⟩ => show win0_12.index t (0 : Fin 2) * 1 + 1 * 0 = 0; omega
  | ⟨1, _⟩ => show win0_12.index t (1 : Fin 2) * 128 + 1 * q.val = r.val; omega

theorem val0_blk_13 (c : Dev nD) (t : Fin cfg0.N) (q : Fin 128) (r : Fin 12288) (hr : r.val = 4096 + (128 * t.val + q.val)) :
    iblk0 V c 13 t (ix2 (0 : Fin 1) q) = V c (Pipeline.arrRef spec0 12) (ix2 (0 : Fin 1) r) := by
  show V c (Pipeline.arrRef spec0 12) (((cfg0.win 13).blk t).view.emb (ix2 (0 : Fin 1) q)) = _
  refine congrArg _ (funext fun a => Fin.ext ?_)
  obtain ⟨i0, i1⟩ := val0_idx_13 t
  match a with
  | ⟨0, _⟩ => show win0_13.index t (0 : Fin 2) * 1 + 1 * 0 = 0; omega
  | ⟨1, _⟩ => show win0_13.index t (1 : Fin 2) * 128 + 1 * q.val = r.val; omega

theorem val0_blk_14 (c : Dev nD) (t : Fin cfg0.N) (q : Fin 128) (r : Fin 12288) (hr : r.val = 8192 + (128 * t.val + q.val)) :
    iblk0 V c 14 t (ix2 (0 : Fin 1) q) = V c (Pipeline.arrRef spec0 12) (ix2 (0 : Fin 1) r) := by
  show V c (Pipeline.arrRef spec0 12) (((cfg0.win 14).blk t).view.emb (ix2 (0 : Fin 1) q)) = _
  refine congrArg _ (funext fun a => Fin.ext ?_)
  obtain ⟨i0, i1⟩ := val0_idx_14 t
  match a with
  | ⟨0, _⟩ => show win0_14.index t (0 : Fin 2) * 1 + 1 * 0 = 0; omega
  | ⟨1, _⟩ => show win0_14.index t (1 : Fin 2) * 128 + 1 * q.val = r.val; omega

/-! ## From the blocks to the array -/

/-- The array the result window ends holding: the cell's new state, coordinate by coordinate. -/
abbrev val0_G (c : Dev nD) : (⟨2, ![1, 4096]⟩ : Shape).Idx → EReal :=
  Cert.Spec.asRow (Cert.Spec.gruAt
    (fun k => V c (Pipeline.arrRef spec0 0) (ix2 (0 : Fin 1) k))
    (fun k => V c (Pipeline.arrRef spec0 1) (ix2 (0 : Fin 1) k))
    (Cert.Spec.mat (V c (Pipeline.arrRef spec0 3))) (Cert.Spec.mat (V c (Pipeline.arrRef spec0 6)))
    (fun r => V c (Pipeline.arrRef spec0 9) (ix2 (0 : Fin 1) r))
    (fun r => V c (Pipeline.arrRef spec0 12) (ix2 (0 : Fin 1) r)))

/-- What point `t` writes back is block `t` of that array. -/
theorem val0_flushed (c : Dev nD) (t : Fin cfg0.N) :
    (dat0 (F := Ideal) V c).flushed 15 t = ((cfg0.win 15).blk t).view.read (Elt Ideal) (val0_G V c) := by
  show (cfg0.win 15).cut (grid0.coords t) ((dat0 V c).after 15 t) = _
  rw [after0_15]
  unfold res0 out0_15
  rw [View.canon_unit_zero val0_hz]
  simp only [View.ld_unit_zero (S := S1x4096) val0_hz, View.ld_unit_zero (S := S128x4096) val0_hz, View.ld_unit_zero (S := S1x128) val0_hz]
  funext j
  have hj0 : (j 0).val < 1 := (j 0).isLt
  have hj1 : (j 1).val < 128 := (j 1).isLt
  have ht : t.val < 32 := t.isLt
  obtain ⟨i0, i1⟩ := val0_idx_15 t
  have ej : (cfg0.win 15).xinj (grid0.coords t) j = ix2 (0 : Fin 1) (⟨(j 1).val, hj1⟩ : Fin 128) :=
    funext fun a => Fin.ext (by
      match a with
      | ⟨0, _⟩ => show (j 0).val = 0; omega
      | ⟨1, _⟩ => rfl)
  have eG : ((cfg0.win 15).blk t).view.emb j = ix2 (0 : Fin 1) (⟨128 * t.val + (j 1).val, by omega⟩ : Fin 4096) :=
    funext fun a => Fin.ext (by
      match a with
      | ⟨0, _⟩ => show win0_15.index t (0 : Fin 2) * 1 + 1 * (j 0).val = 0; omega
      | ⟨1, _⟩ => show win0_15.index t (1 : Fin 2) * 128 + 1 * (j 1).val = 128 * t.val + (j 1).val; omega)
  refine (congrArg _ ej).trans ?_
  refine Eq.trans ?_ (congrArg (val0_G V c) eG).symm
  exact val0_pay (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t) (iblk0 V c 11 t) (iblk0 V c 12 t) (iblk0 V c 13 t) (iblk0 V c 14 t)
    (⟨(j 1).val, hj1⟩ : Fin 128)
    (fun k => V c (Pipeline.arrRef spec0 0) (ix2 (0 : Fin 1) k))
    (fun k => V c (Pipeline.arrRef spec0 1) (ix2 (0 : Fin 1) k))
    (Cert.Spec.mat (V c (Pipeline.arrRef spec0 3))) (Cert.Spec.mat (V c (Pipeline.arrRef spec0 6)))
    (fun r => V c (Pipeline.arrRef spec0 9) (ix2 (0 : Fin 1) r))
    (fun r => V c (Pipeline.arrRef spec0 12) (ix2 (0 : Fin 1) r))
    (⟨128 * t.val + (j 1).val, by omega⟩ : Fin 4096)
    (fun k => val0_blk_0 V c t k) (fun k => val0_blk_1 V c t k)
    (val0_blk_2 V c t ⟨(j 1).val, hj1⟩ _ rfl)
    (fun k => val0_blk_3 V c t ⟨(j 1).val, hj1⟩ k _ rfl) (fun k => val0_blk_4 V c t ⟨(j 1).val, hj1⟩ k _ rfl)
    (fun k => val0_blk_5 V c t ⟨(j 1).val, hj1⟩ k _ rfl)
    (fun k => val0_blk_6 V c t ⟨(j 1).val, hj1⟩ k _ rfl) (fun k => val0_blk_7 V c t ⟨(j 1).val, hj1⟩ k _ rfl)
    (fun k => val0_blk_8 V c t ⟨(j 1).val, hj1⟩ k _ rfl)
    (val0_blk_9 V c t ⟨(j 1).val, hj1⟩ _ rfl) (val0_blk_10 V c t ⟨(j 1).val, hj1⟩ _ rfl) (val0_blk_11 V c t ⟨(j 1).val, hj1⟩ _ rfl)
    (val0_blk_12 V c t ⟨(j 1).val, hj1⟩ _ rfl) (val0_blk_13 V c t ⟨(j 1).val, hj1⟩ _ rfl) (val0_blk_14 V c t ⟨(j 1).val, hj1⟩ _ rfl)

/-- An index of the array is in point `t`'s block iff each coordinate is in the block's range on its axis. -/
theorem val0_mem_blk (t : Fin cfg0.N) (i : (⟨2, ![1, 4096]⟩ : Shape).Idx) :
    i ∈ ((cfg0.win 15).blk t).view.set ↔ ∀ a : Fin 2, win0_15.index t a * S1x128.size a ≤ (i a).val ∧ (i a).val < win0_15.index t a * S1x128.size a + S1x128.size a := by
  show i ∈ ((View.whole (Pipeline.arrRef spec0 15)).slice (win0_15.rect t)).set ↔ _
  rw [View.set_slice_whole, Rect.mem_set_unit]
  exact Iff.rfl

/-- The value of this region: its result array ends holding the cell's new state. Column `j` is written by point `j / 128`. -/
theorem val0 (c : Dev nD) : (dat0 (F := Ideal) V c).arrAt 15 cfg0.N
      = Cert.Spec.asRow (Cert.Spec.gruAt
          (fun k => V c (Pipeline.arrRef spec0 0) (ValueIdx.ix2 (0 : Fin 1) k))
          (fun k => V c (Pipeline.arrRef spec0 1) (ValueIdx.ix2 (0 : Fin 1) k))
          (Cert.Spec.mat (V c (Pipeline.arrRef spec0 3))) (Cert.Spec.mat (V c (Pipeline.arrRef spec0 6)))
          (fun r => V c (Pipeline.arrRef spec0 9) (ValueIdx.ix2 (0 : Fin 1) r))
          (fun r => V c (Pipeline.arrRef spec0 12) (ValueIdx.ix2 (0 : Fin 1) r))) :=
  (dat0 V c).arrAt_eq_of_cover 15 (val0_G V c) (fun t _ => val0_flushed V c t) fun i => by
    have hi0 : (i 0).val < 1 := (i 0).isLt
    have hi1 : (i 1).val < 4096 := (i 1).isLt
    obtain ⟨t, ht⟩ : ∃ t : Fin cfg0.N, t.val = (i 1).val / 128 :=
      ⟨⟨(i 1).val / 128, by show (i 1).val / 128 < 32; omega⟩, rfl⟩
    obtain ⟨i0, i1⟩ := val0_idx_15 t
    refine ⟨t, flush0_15 t, ?_⟩
    rw [val0_mem_blk]
    intro a
    match a with
    | ⟨0, _⟩ => show win0_15.index t (0 : Fin 2) * 1 ≤ (i 0).val ∧ (i 0).val < win0_15.index t (0 : Fin 2) * 1 + 1; omega
    | ⟨1, _⟩ => show win0_15.index t (1 : Fin 2) * 128 ≤ (i 1).val ∧ (i 1).val < win0_15.index t (1 : Fin 2) * 128 + 128; omega

end Cert.KernelIdeal.Hand

end
-- ==== Proof.KI.R1Val.lean ====
/-
  The value of this region, a GRU cell, on the extended reals.

  Grid point t stores the 128 coordinates 128·t … 128·t + 127 of the new state.  Coordinate q of that store is the
  cell's formula on: the whole input row and the whole state row; row q of each of the six staged weight blocks, which
  are rows 128·t + q, 4096 + 128·t + q and 8192 + 128·t + q of the input weights and of the state weights; the same
  three entries of the two bias rows; and entry 128·t + q of the state row.  Every matrix product contracts the second
  axis of both operands into a zero accumulator, so at column q it is the finite sum  Σ_k l(0, k) · r(q, k);  a change
  of float format is the identity.  The 32 blocks tile the 1 × 4096 result, column j falling in block j / 128, so the
  array ends holding the cell's new state at every index.
-/
import proofs.«157188_j18528488915578_1_alg».proof.Proof.KI.R1Defs
import proofs.«157188_j18528488915578_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The zero offsets of a whole-buffer load or store. -/
theorem val1_hz : (![0, 0] : Fin 2 → Nat) = fun _ => 0 := funext fun a => by fin_cases a <;> rfl

/-! ## The matrix product at an index

The left operand is a row, the right a block of rows, and both are contracted along their second axis: the operand
indices at output column q and contraction coordinate k are (0, k) and (q, k). -/
/-- The left operand's free axis carries the output's first coordinate. -/
theorem val1_lhs_0 (i : S1x128.Idx) (k : dot_S1x4096_S128x4096_S1x128_1_1_0_0_n_n.contr.Idx) :
    (dot_S1x4096_S128x4096_S1x128_1_1_0_0_n_n.lhsIdx i k 0).val = (i 0).val := by
  unfold DotDims.lhsIdx
  rw [dif_neg (show ¬(0 : Fin S1x4096.rank) ∈ dot_S1x4096_S128x4096_S1x128_1_1_0_0_n_n.lhsBatch by decide), dif_pos (show (0 : Fin S1x4096.rank) ∈ dot_S1x4096_S128x4096_S1x128_1_1_0_0_n_n.lhsNonContracting by decide)]
  rfl
/-- Its contracted axis carries the contraction coordinate. -/
theorem val1_lhs_1 (i : S1x128.Idx) (k : dot_S1x4096_S128x4096_S1x128_1_1_0_0_n_n.contr.Idx) :
    (dot_S1x4096_S128x4096_S1x128_1_1_0_0_n_n.lhsIdx i k 1).val = (k ⟨0, by decide⟩).val :=
  dot_S1x4096_S128x4096_S1x128_1_1_0_0_n_n.lhsIdx_val_of_single rfl i k
/-- The right operand's free axis carries the output's second coordinate. -/
theorem val1_rhs_0 (i : S1x128.Idx) (k : dot_S1x4096_S128x4096_S1x128_1_1_0_0_n_n.contr.Idx) :
    (dot_S1x4096_S128x4096_S1x128_1_1_0_0_n_n.rhsIdx i k 0).val = (i 1).val := by
  unfold DotDims.rhsIdx
  rw [dif_neg (show ¬(0 : Fin S128x4096.rank) ∈ dot_S1x4096_S128x4096_S1x128_1_1_0_0_n_n.rhsBatch by decide), dif_pos (show (0 : Fin S128x4096.rank) ∈ dot_S1x4096_S128x4096_S1x128_1_1_0_0_n_n.rhsNonContracting by decide)]
  rfl
/-- Its contracted axis carries the contraction coordinate. -/
theorem val1_rhs_1 (i : S1x128.Idx) (k : dot_S1x4096_S128x4096_S1x128_1_1_0_0_n_n.contr.Idx) :
    (dot_S1x4096_S128x4096_S1x128_1_1_0_0_n_n.rhsIdx i k 1).val = (k ⟨0, by decide⟩).val :=
  dot_S1x4096_S128x4096_S1x128_1_1_0_0_n_n.rhsIdx_val_of_single rfl i k

/-- The product into the zero accumulator, at column `q`: the sum over the 4096 contracted coordinates, whatever the
    operands' formats. -/
theorem val1_matmul {φ₁ φ₂ : FTy} (l : FVec Ideal S1x4096 φ₁) (r : FVec Ideal S128x4096 φ₂) (q : Fin 128) :
    matmul dot_S1x4096_S128x4096_S1x128_1_1_0_0_n_n none l r (constant (F := Ideal) S1x128 .f32 0x00000000#32) (ix2 (0 : Fin 1) q)
      = ∑ k : Fin 4096, (l (ix2 (0 : Fin 1) k) : EReal) * (r (ix2 q k) : EReal) := by
  show FloatOps.matmul dot_S1x4096_S128x4096_S1x128_1_1_0_0_n_n none l r (constant (F := Ideal) S1x128 .f32 0x00000000#32) (ix2 (0 : Fin 1) q) = _
  rw [Ideal.matmul_constant_zero_apply, ← Equiv.sum_comp (contrEquiv1 dot_S1x4096_S128x4096_S1x128_1_1_0_0_n_n 4096 rfl rfl).symm]
  refine Finset.sum_congr rfl fun k _ => ?_
  have hk := contrEquiv1_symm_val dot_S1x4096_S128x4096_S1x128_1_1_0_0_n_n 4096 rfl rfl k
  have el : dot_S1x4096_S128x4096_S1x128_1_1_0_0_n_n.lhsIdx (ix2 (0 : Fin 1) q) ((contrEquiv1 dot_S1x4096_S128x4096_S1x128_1_1_0_0_n_n 4096 rfl rfl).symm k) = ix2 (0 : Fin 1) k := funext fun a => Fin.ext (by
    match a with
    | ⟨0, _⟩ => exact val1_lhs_0 _ _
    | ⟨1, _⟩ => exact (val1_lhs_1 _ _).trans hk)
  have er : dot_S1x4096_S128x4096_S1x128_1_1_0_0_n_n.rhsIdx (ix2 (0 : Fin 1) q) ((contrEquiv1 dot_S1x4096_S128x4096_S1x128_1_1_0_0_n_n 4096 rfl rfl).symm k) = ix2 q k := funext fun a => Fin.ext (by
    match a with
    | ⟨0, _⟩ => exact val1_rhs_0 _ _
    | ⟨1, _⟩ => exact (val1_rhs_1 _ _).trans hk)
  rw [el, er]

/-! ## The body's store at a coordinate -/

/-- The logistic function and the hyperbolic tangent of a vector, at an index, are those of the entry. -/
theorem val1_logistic_apply {s : Shape} {φ : FTy} (a : FVec Ideal s φ) (i : s.Idx) : logistic a i = Ideal.logistic (a i) := rfl
theorem val1_tanh_apply {s : Shape} {φ : FTy} (a : FVec Ideal s φ) (i : s.Idx) : tanh a i = Ideal.tanh (a i) := rfl

/-- One coordinate of what the body stores, from the blocks it loaded. -/
theorem val1_pay (x0 x1 : Vec Ideal S1x4096 .f32) (x2 : Vec Ideal S1x128 .f32) (x3 x4 x5 x6 x7 x8 : Vec Ideal S128x4096 .f32)
    (x9 x10 x11 x12 x13 x14 : Vec Ideal S1x128 .f32) (q : Fin 128)
    (x h : Fin 4096 → EReal) (wih whh : Fin 12288 → Fin 4096 → EReal) (bih bhh : Fin 12288 → EReal) (Q : Fin 4096)
    (e0 : ∀ k : Fin 4096, x0 (ix2 (0 : Fin 1) k) = x k) (e1 : ∀ k : Fin 4096, x1 (ix2 (0 : Fin 1) k) = h k)
    (e2 : x2 (ix2 (0 : Fin 1) q) = h Q)
    (e3 : ∀ k : Fin 4096, x3 (ix2 q k) = wih (Cert.Spec.rowR Q) k) (e4 : ∀ k : Fin 4096, x4 (ix2 q k) = wih (Cert.Spec.rowZ Q) k)
    (e5 : ∀ k : Fin 4096, x5 (ix2 q k) = wih (Cert.Spec.rowN Q) k)
    (e6 : ∀ k : Fin 4096, x6 (ix2 q k) = whh (Cert.Spec.rowR Q) k) (e7 : ∀ k : Fin 4096, x7 (ix2 q k) = whh (Cert.Spec.rowZ Q) k)
    (e8 : ∀ k : Fin 4096, x8 (ix2 q k) = whh (Cert.Spec.rowN Q) k)
    (e9 : x9 (ix2 (0 : Fin 1) q) = bih (Cert.Spec.rowR Q)) (e10 : x10 (ix2 (0 : Fin 1) q) = bih (Cert.Spec.rowZ Q))
    (e11 : x11 (ix2 (0 : Fin 1) q) = bih (Cert.Spec.rowN Q))
    (e12 : x12 (ix2 (0 : Fin 1) q) = bhh (Cert.Spec.rowR Q)) (e13 : x13 (ix2 (0 : Fin 1) q) = bhh (Cert.Spec.rowZ Q))
    (e14 : x14 (ix2 (0 : Fin 1) q) = bhh (Cert.Spec.rowN Q)) :
    k1_pay1 (k1_pay3 x1) (k1_pay4 x0 x3 x9) (k1_pay5 x0 x4 x10) (k1_pay6 x0 x5 x11) (k1_pay7 x1 x6 x12) (k1_pay8 x7)
      (constant (F := Ideal) S1x128 .f32 0x00000000#32) x13 x8 x14 x2 (ix2 (0 : Fin 1) q)
      = Cert.Spec.gruAt x h wih whh bih bhh Q := by
  unfold k1_pay1 k1_pay4 k1_pay5 k1_pay6 k1_pay7 k1_pay8 k1_pay3 k1_pay2
  simp only [shapeCast_self]
  simp only [addf_apply, mulf_apply, subf_apply, val1_logistic_apply, val1_tanh_apply, broadcast_apply, val1_matmul, truncf_apply]
  simp only [e0, e1, e2, e3, e4, e5, e6, e7, e8, e9, e10, e11, e12, e13, e14]
  rfl

variable (V : (c : Dev nD) → (b : Ref sig .tc) → Buf (Elt Ideal) ((c : Thread nD τ).loc b))

/-! ## Where each window's block sits at a point -/

theorem val1_idx_0 : ∀ t : Fin cfg1.N, win1_0.index t (0 : Fin 2) = 0 ∧ win1_0.index t (1 : Fin 2) = 0 :=
  (by decide +kernel : ∀ t : Fin grid1.N, win1_0.index t (0 : Fin 2) = 0 ∧ win1_0.index t (1 : Fin 2) = 0)
theorem val1_idx_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem val1_idx_2 : ∀ t : Fin cfg1.N, win1_2.index t (0 : Fin 2) = 0 ∧ win1_2.index t (1 : Fin 2) = t.val :=
  (by decide +kernel : ∀ t : Fin grid1.N, win1_2.index t (0 : Fin 2) = 0 ∧ win1_2.index t (1 : Fin 2) = t.val)
theorem val1_idx_3 : ∀ t : Fin cfg1.N, win1_3.index t (0 : Fin 2) = t.val ∧ win1_3.index t (1 : Fin 2) = 0 :=
  (by decide +kernel : ∀ t : Fin grid1.N, win1_3.index t (0 : Fin 2) = t.val ∧ win1_3.index t (1 : Fin 2) = 0)
theorem val1_idx_4 : ∀ t : Fin cfg1.N, win1_4.index t (0 : Fin 2) = 32 + t.val ∧ win1_4.index t (1 : Fin 2) = 0 :=
  (by decide +kernel : ∀ t : Fin grid1.N, win1_4.index t (0 : Fin 2) = 32 + t.val ∧ win1_4.index t (1 : Fin 2) = 0)
theorem val1_idx_5 : ∀ t : Fin cfg1.N, win1_5.index t (0 : Fin 2) = 64 + t.val ∧ win1_5.index t (1 : Fin 2) = 0 :=
  (by decide +kernel : ∀ t : Fin grid1.N, win1_5.index t (0 : Fin 2) = 64 + t.val ∧ win1_5.index t (1 : Fin 2) = 0)
theorem val1_idx_6 : ∀ t : Fin cfg1.N, win1_6.index t (0 : Fin 2) = t.val ∧ win1_6.index t (1 : Fin 2) = 0 :=
  (by decide +kernel : ∀ t : Fin grid1.N, win1_6.index t (0 : Fin 2) = t.val ∧ win1_6.index t (1 : Fin 2) = 0)
theorem val1_idx_7 : ∀ t : Fin cfg1.N, win1_7.index t (0 : Fin 2) = 32 + t.val ∧ win1_7.index t (1 : Fin 2) = 0 :=
  (by decide +kernel : ∀ t : Fin grid1.N, win1_7.index t (0 : Fin 2) = 32 + t.val ∧ win1_7.index t (1 : Fin 2) = 0)
theorem val1_idx_8 : ∀ t : Fin cfg1.N, win1_8.index t (0 : Fin 2) = 64 + t.val ∧ win1_8.index t (1 : Fin 2) = 0 :=
  (by decide +kernel : ∀ t : Fin grid1.N, win1_8.index t (0 : Fin 2) = 64 + t.val ∧ win1_8.index t (1 : Fin 2) = 0)
theorem val1_idx_9 : ∀ t : Fin cfg1.N, win1_9.index t (0 : Fin 2) = 0 ∧ win1_9.index t (1 : Fin 2) = t.val :=
  (by decide +kernel : ∀ t : Fin grid1.N, win1_9.index t (0 : Fin 2) = 0 ∧ win1_9.index t (1 : Fin 2) = t.val)
theorem val1_idx_10 : ∀ t : Fin cfg1.N, win1_10.index t (0 : Fin 2) = 0 ∧ win1_10.index t (1 : Fin 2) = 32 + t.val :=
  (by decide +kernel : ∀ t : Fin grid1.N, win1_10.index t (0 : Fin 2) = 0 ∧ win1_10.index t (1 : Fin 2) = 32 + t.val)
theorem val1_idx_11 : ∀ t : Fin cfg1.N, win1_11.index t (0 : Fin 2) = 0 ∧ win1_11.index t (1 : Fin 2) = 64 + t.val :=
  (by decide +kernel : ∀ t : Fin grid1.N, win1_11.index t (0 : Fin 2) = 0 ∧ win1_11.index t (1 : Fin 2) = 64 + t.val)
theorem val1_idx_12 : ∀ t : Fin cfg1.N, win1_12.index t (0 : Fin 2) = 0 ∧ win1_12.index t (1 : Fin 2) = t.val :=
  (by decide +kernel : ∀ t : Fin grid1.N, win1_12.index t (0 : Fin 2) = 0 ∧ win1_12.index t (1 : Fin 2) = t.val)
theorem val1_idx_13 : ∀ t : Fin cfg1.N, win1_13.index t (0 : Fin 2) = 0 ∧ win1_13.index t (1 : Fin 2) = 32 + t.val :=
  (by decide +kernel : ∀ t : Fin grid1.N, win1_13.index t (0 : Fin 2) = 0 ∧ win1_13.index t (1 : Fin 2) = 32 + t.val)
theorem val1_idx_14 : ∀ t : Fin cfg1.N, win1_14.index t (0 : Fin 2) = 0 ∧ win1_14.index t (1 : Fin 2) = 64 + t.val :=
  (by decide +kernel : ∀ t : Fin grid1.N, win1_14.index t (0 : Fin 2) = 0 ∧ win1_14.index t (1 : Fin 2) = 64 + t.val)
theorem val1_idx_15 : ∀ t : Fin cfg1.N, win1_15.index t (0 : Fin 2) = 0 ∧ win1_15.index t (1 : Fin 2) = t.val :=
  (by decide +kernel : ∀ t : Fin grid1.N, win1_15.index t (0 : Fin 2) = 0 ∧ win1_15.index t (1 : Fin 2) = t.val)

/-! ## Each input block read off its array -/

theorem val1_blk_0 (c : Dev nD) (t : Fin cfg1.N) (k : Fin 4096) :
    iblk1 V c 0 t (ix2 (0 : Fin 1) k) = V c (Pipeline.arrRef spec1 0) (ix2 (0 : Fin 1) k) := by
  show V c (Pipeline.arrRef spec1 0) (((cfg1.win 0).blk t).view.emb (ix2 (0 : Fin 1) k)) = _
  refine congrArg _ (funext fun a => Fin.ext ?_)
  obtain ⟨i0, i1⟩ := val1_idx_0 t
  match a with
  | ⟨0, _⟩ => show win1_0.index t (0 : Fin 2) * 1 + 1 * 0 = 0; omega
  | ⟨1, _⟩ => show win1_0.index t (1 : Fin 2) * 4096 + 1 * k.val = k.val; omega

theorem val1_blk_1 (c : Dev nD) (t : Fin cfg1.N) (k : Fin 4096) :
    iblk1 V c 1 t (ix2 (0 : Fin 1) k) = V c (Pipeline.arrRef spec1 1) (ix2 (0 : Fin 1) k) := by
  show V c (Pipeline.arrRef spec1 1) (((cfg1.win 1).blk t).view.emb (ix2 (0 : Fin 1) k)) = _
  refine congrArg _ (funext fun a => Fin.ext ?_)
  obtain ⟨i0, i1⟩ := val1_idx_1 t
  match a with
  | ⟨0, _⟩ => show win1_1.index t (0 : Fin 2) * 1 + 1 * 0 = 0; omega
  | ⟨1, _⟩ => show win1_1.index t (1 : Fin 2) * 4096 + 1 * k.val = k.val; omega

theorem val1_blk_2 (c : Dev nD) (t : Fin cfg1.N) (q : Fin 128) (r : Fin 4096) (hr : r.val = 128 * t.val + q.val) :
    iblk1 V c 2 t (ix2 (0 : Fin 1) q) = V c (Pipeline.arrRef spec1 1) (ix2 (0 : Fin 1) r) := by
  show V c (Pipeline.arrRef spec1 1) (((cfg1.win 2).blk t).view.emb (ix2 (0 : Fin 1) q)) = _
  refine congrArg _ (funext fun a => Fin.ext ?_)
  obtain ⟨i0, i1⟩ := val1_idx_2 t
  match a with
  | ⟨0, _⟩ => show win1_2.index t (0 : Fin 2) * 1 + 1 * 0 = 0; omega
  | ⟨1, _⟩ => show win1_2.index t (1 : Fin 2) * 128 + 1 * q.val = r.val; omega

theorem val1_blk_3 (c : Dev nD) (t : Fin cfg1.N) (q : Fin 128) (k : Fin 4096) (r : Fin 12288) (hr : r.val = 128 * t.val + q.val) :
    iblk1 V c 3 t (ix2 q k) = V c (Pipeline.arrRef spec1 3) (ix2 r k) := by
  show V c (Pipeline.arrRef spec1 3) (((cfg1.win 3).blk t).view.emb (ix2 q k)) = _
  refine congrArg _ (funext fun a => Fin.ext ?_)
  obtain ⟨i0, i1⟩ := val1_idx_3 t
  match a with
  | ⟨0, _⟩ => show win1_3.index t (0 : Fin 2) * 128 + 1 * q.val = r.val; omega
  | ⟨1, _⟩ => show win1_3.index t (1 : Fin 2) * 4096 + 1 * k.val = k.val; omega

theorem val1_blk_4 (c : Dev nD) (t : Fin cfg1.N) (q : Fin 128) (k : Fin 4096) (r : Fin 12288) (hr : r.val = 4096 + (128 * t.val + q.val)) :
    iblk1 V c 4 t (ix2 q k) = V c (Pipeline.arrRef spec1 3) (ix2 r k) := by
  show V c (Pipeline.arrRef spec1 3) (((cfg1.win 4).blk t).view.emb (ix2 q k)) = _
  refine congrArg _ (funext fun a => Fin.ext ?_)
  obtain ⟨i0, i1⟩ := val1_idx_4 t
  match a with
  | ⟨0, _⟩ => show win1_4.index t (0 : Fin 2) * 128 + 1 * q.val = r.val; omega
  | ⟨1, _⟩ => show win1_4.index t (1 : Fin 2) * 4096 + 1 * k.val = k.val; omega

theorem val1_blk_5 (c : Dev nD) (t : Fin cfg1.N) (q : Fin 128) (k : Fin 4096) (r : Fin 12288) (hr : r.val = 8192 + (128 * t.val + q.val)) :
    iblk1 V c 5 t (ix2 q k) = V c (Pipeline.arrRef spec1 3) (ix2 r k) := by
  show V c (Pipeline.arrRef spec1 3) (((cfg1.win 5).blk t).view.emb (ix2 q k)) = _
  refine congrArg _ (funext fun a => Fin.ext ?_)
  obtain ⟨i0, i1⟩ := val1_idx_5 t
  match a with
  | ⟨0, _⟩ => show win1_5.index t (0 : Fin 2) * 128 + 1 * q.val = r.val; omega
  | ⟨1, _⟩ => show win1_5.index t (1 : Fin 2) * 4096 + 1 * k.val = k.val; omega

theorem val1_blk_6 (c : Dev nD) (t : Fin cfg1.N) (q : Fin 128) (k : Fin 4096) (r : Fin 12288) (hr : r.val = 128 * t.val + q.val) :
    iblk1 V c 6 t (ix2 q k) = V c (Pipeline.arrRef spec1 6) (ix2 r k) := by
  show V c (Pipeline.arrRef spec1 6) (((cfg1.win 6).blk t).view.emb (ix2 q k)) = _
  refine congrArg _ (funext fun a => Fin.ext ?_)
  obtain ⟨i0, i1⟩ := val1_idx_6 t
  match a with
  | ⟨0, _⟩ => show win1_6.index t (0 : Fin 2) * 128 + 1 * q.val = r.val; omega
  | ⟨1, _⟩ => show win1_6.index t (1 : Fin 2) * 4096 + 1 * k.val = k.val; omega

theorem val1_blk_7 (c : Dev nD) (t : Fin cfg1.N) (q : Fin 128) (k : Fin 4096) (r : Fin 12288) (hr : r.val = 4096 + (128 * t.val + q.val)) :
    iblk1 V c 7 t (ix2 q k) = V c (Pipeline.arrRef spec1 6) (ix2 r k) := by
  show V c (Pipeline.arrRef spec1 6) (((cfg1.win 7).blk t).view.emb (ix2 q k)) = _
  refine congrArg _ (funext fun a => Fin.ext ?_)
  obtain ⟨i0, i1⟩ := val1_idx_7 t
  match a with
  | ⟨0, _⟩ => show win1_7.index t (0 : Fin 2) * 128 + 1 * q.val = r.val; omega
  | ⟨1, _⟩ => show win1_7.index t (1 : Fin 2) * 4096 + 1 * k.val = k.val; omega

theorem val1_blk_8 (c : Dev nD) (t : Fin cfg1.N) (q : Fin 128) (k : Fin 4096) (r : Fin 12288) (hr : r.val = 8192 + (128 * t.val + q.val)) :
    iblk1 V c 8 t (ix2 q k) = V c (Pipeline.arrRef spec1 6) (ix2 r k) := by
  show V c (Pipeline.arrRef spec1 6) (((cfg1.win 8).blk t).view.emb (ix2 q k)) = _
  refine congrArg _ (funext fun a => Fin.ext ?_)
  obtain ⟨i0, i1⟩ := val1_idx_8 t
  match a with
  | ⟨0, _⟩ => show win1_8.index t (0 : Fin 2) * 128 + 1 * q.val = r.val; omega
  | ⟨1, _⟩ => show win1_8.index t (1 : Fin 2) * 4096 + 1 * k.val = k.val; omega

theorem val1_blk_9 (c : Dev nD) (t : Fin cfg1.N) (q : Fin 128) (r : Fin 12288) (hr : r.val = 128 * t.val + q.val) :
    iblk1 V c 9 t (ix2 (0 : Fin 1) q) = V c (Pipeline.arrRef spec1 9) (ix2 (0 : Fin 1) r) := by
  show V c (Pipeline.arrRef spec1 9) (((cfg1.win 9).blk t).view.emb (ix2 (0 : Fin 1) q)) = _
  refine congrArg _ (funext fun a => Fin.ext ?_)
  obtain ⟨i0, i1⟩ := val1_idx_9 t
  match a with
  | ⟨0, _⟩ => show win1_9.index t (0 : Fin 2) * 1 + 1 * 0 = 0; omega
  | ⟨1, _⟩ => show win1_9.index t (1 : Fin 2) * 128 + 1 * q.val = r.val; omega

theorem val1_blk_10 (c : Dev nD) (t : Fin cfg1.N) (q : Fin 128) (r : Fin 12288) (hr : r.val = 4096 + (128 * t.val + q.val)) :
    iblk1 V c 10 t (ix2 (0 : Fin 1) q) = V c (Pipeline.arrRef spec1 9) (ix2 (0 : Fin 1) r) := by
  show V c (Pipeline.arrRef spec1 9) (((cfg1.win 10).blk t).view.emb (ix2 (0 : Fin 1) q)) = _
  refine congrArg _ (funext fun a => Fin.ext ?_)
  obtain ⟨i0, i1⟩ := val1_idx_10 t
  match a with
  | ⟨0, _⟩ => show win1_10.index t (0 : Fin 2) * 1 + 1 * 0 = 0; omega
  | ⟨1, _⟩ => show win1_10.index t (1 : Fin 2) * 128 + 1 * q.val = r.val; omega

theorem val1_blk_11 (c : Dev nD) (t : Fin cfg1.N) (q : Fin 128) (r : Fin 12288) (hr : r.val = 8192 + (128 * t.val + q.val)) :
    iblk1 V c 11 t (ix2 (0 : Fin 1) q) = V c (Pipeline.arrRef spec1 9) (ix2 (0 : Fin 1) r) := by
  show V c (Pipeline.arrRef spec1 9) (((cfg1.win 11).blk t).view.emb (ix2 (0 : Fin 1) q)) = _
  refine congrArg _ (funext fun a => Fin.ext ?_)
  obtain ⟨i0, i1⟩ := val1_idx_11 t
  match a with
  | ⟨0, _⟩ => show win1_11.index t (0 : Fin 2) * 1 + 1 * 0 = 0; omega
  | ⟨1, _⟩ => show win1_11.index t (1 : Fin 2) * 128 + 1 * q.val = r.val; omega

theorem val1_blk_12 (c : Dev nD) (t : Fin cfg1.N) (q : Fin 128) (r : Fin 12288) (hr : r.val = 128 * t.val + q.val) :
    iblk1 V c 12 t (ix2 (0 : Fin 1) q) = V c (Pipeline.arrRef spec1 12) (ix2 (0 : Fin 1) r) := by
  show V c (Pipeline.arrRef spec1 12) (((cfg1.win 12).blk t).view.emb (ix2 (0 : Fin 1) q)) = _
  refine congrArg _ (funext fun a => Fin.ext ?_)
  obtain ⟨i0, i1⟩ := val1_idx_12 t
  match a with
  | ⟨0, _⟩ => show win1_12.index t (0 : Fin 2) * 1 + 1 * 0 = 0; omega
  | ⟨1, _⟩ => show win1_12.index t (1 : Fin 2) * 128 + 1 * q.val = r.val; omega

theorem val1_blk_13 (c : Dev nD) (t : Fin cfg1.N) (q : Fin 128) (r : Fin 12288) (hr : r.val = 4096 + (128 * t.val + q.val)) :
    iblk1 V c 13 t (ix2 (0 : Fin 1) q) = V c (Pipeline.arrRef spec1 12) (ix2 (0 : Fin 1) r) := by
  show V c (Pipeline.arrRef spec1 12) (((cfg1.win 13).blk t).view.emb (ix2 (0 : Fin 1) q)) = _
  refine congrArg _ (funext fun a => Fin.ext ?_)
  obtain ⟨i0, i1⟩ := val1_idx_13 t
  match a with
  | ⟨0, _⟩ => show win1_13.index t (0 : Fin 2) * 1 + 1 * 0 = 0; omega
  | ⟨1, _⟩ => show win1_13.index t (1 : Fin 2) * 128 + 1 * q.val = r.val; omega

theorem val1_blk_14 (c : Dev nD) (t : Fin cfg1.N) (q : Fin 128) (r : Fin 12288) (hr : r.val = 8192 + (128 * t.val + q.val)) :
    iblk1 V c 14 t (ix2 (0 : Fin 1) q) = V c (Pipeline.arrRef spec1 12) (ix2 (0 : Fin 1) r) := by
  show V c (Pipeline.arrRef spec1 12) (((cfg1.win 14).blk t).view.emb (ix2 (0 : Fin 1) q)) = _
  refine congrArg _ (funext fun a => Fin.ext ?_)
  obtain ⟨i0, i1⟩ := val1_idx_14 t
  match a with
  | ⟨0, _⟩ => show win1_14.index t (0 : Fin 2) * 1 + 1 * 0 = 0; omega
  | ⟨1, _⟩ => show win1_14.index t (1 : Fin 2) * 128 + 1 * q.val = r.val; omega

/-! ## From the blocks to the array -/

/-- The array the result window ends holding: the cell's new state, coordinate by coordinate. -/
abbrev val1_G (c : Dev nD) : (⟨2, ![1, 4096]⟩ : Shape).Idx → EReal :=
  Cert.Spec.asRow (Cert.Spec.gruAt
    (fun k => V c (Pipeline.arrRef spec1 0) (ix2 (0 : Fin 1) k))
    (fun k => V c (Pipeline.arrRef spec1 1) (ix2 (0 : Fin 1) k))
    (Cert.Spec.mat (V c (Pipeline.arrRef spec1 3))) (Cert.Spec.mat (V c (Pipeline.arrRef spec1 6)))
    (fun r => V c (Pipeline.arrRef spec1 9) (ix2 (0 : Fin 1) r))
    (fun r => V c (Pipeline.arrRef spec1 12) (ix2 (0 : Fin 1) r)))

/-- What point `t` writes back is block `t` of that array. -/
theorem val1_flushed (c : Dev nD) (t : Fin cfg1.N) :
    (dat1 (F := Ideal) V c).flushed 15 t = ((cfg1.win 15).blk t).view.read (Elt Ideal) (val1_G V c) := by
  show (cfg1.win 15).cut (grid1.coords t) ((dat1 V c).after 15 t) = _
  rw [after1_15]
  unfold res1 out1_15
  rw [View.canon_unit_zero val1_hz]
  simp only [View.ld_unit_zero (S := S1x4096) val1_hz, View.ld_unit_zero (S := S128x4096) val1_hz, View.ld_unit_zero (S := S1x128) val1_hz]
  funext j
  have hj0 : (j 0).val < 1 := (j 0).isLt
  have hj1 : (j 1).val < 128 := (j 1).isLt
  have ht : t.val < 32 := t.isLt
  obtain ⟨i0, i1⟩ := val1_idx_15 t
  have ej : (cfg1.win 15).xinj (grid1.coords t) j = ix2 (0 : Fin 1) (⟨(j 1).val, hj1⟩ : Fin 128) :=
    funext fun a => Fin.ext (by
      match a with
      | ⟨0, _⟩ => show (j 0).val = 0; omega
      | ⟨1, _⟩ => rfl)
  have eG : ((cfg1.win 15).blk t).view.emb j = ix2 (0 : Fin 1) (⟨128 * t.val + (j 1).val, by omega⟩ : Fin 4096) :=
    funext fun a => Fin.ext (by
      match a with
      | ⟨0, _⟩ => show win1_15.index t (0 : Fin 2) * 1 + 1 * (j 0).val = 0; omega
      | ⟨1, _⟩ => show win1_15.index t (1 : Fin 2) * 128 + 1 * (j 1).val = 128 * t.val + (j 1).val; omega)
  refine (congrArg _ ej).trans ?_
  refine Eq.trans ?_ (congrArg (val1_G V c) eG).symm
  exact val1_pay (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t) (iblk1 V c 11 t) (iblk1 V c 12 t) (iblk1 V c 13 t) (iblk1 V c 14 t)
    (⟨(j 1).val, hj1⟩ : Fin 128)
    (fun k => V c (Pipeline.arrRef spec1 0) (ix2 (0 : Fin 1) k))
    (fun k => V c (Pipeline.arrRef spec1 1) (ix2 (0 : Fin 1) k))
    (Cert.Spec.mat (V c (Pipeline.arrRef spec1 3))) (Cert.Spec.mat (V c (Pipeline.arrRef spec1 6)))
    (fun r => V c (Pipeline.arrRef spec1 9) (ix2 (0 : Fin 1) r))
    (fun r => V c (Pipeline.arrRef spec1 12) (ix2 (0 : Fin 1) r))
    (⟨128 * t.val + (j 1).val, by omega⟩ : Fin 4096)
    (fun k => val1_blk_0 V c t k) (fun k => val1_blk_1 V c t k)
    (val1_blk_2 V c t ⟨(j 1).val, hj1⟩ _ rfl)
    (fun k => val1_blk_3 V c t ⟨(j 1).val, hj1⟩ k _ rfl) (fun k => val1_blk_4 V c t ⟨(j 1).val, hj1⟩ k _ rfl)
    (fun k => val1_blk_5 V c t ⟨(j 1).val, hj1⟩ k _ rfl)
    (fun k => val1_blk_6 V c t ⟨(j 1).val, hj1⟩ k _ rfl) (fun k => val1_blk_7 V c t ⟨(j 1).val, hj1⟩ k _ rfl)
    (fun k => val1_blk_8 V c t ⟨(j 1).val, hj1⟩ k _ rfl)
    (val1_blk_9 V c t ⟨(j 1).val, hj1⟩ _ rfl) (val1_blk_10 V c t ⟨(j 1).val, hj1⟩ _ rfl) (val1_blk_11 V c t ⟨(j 1).val, hj1⟩ _ rfl)
    (val1_blk_12 V c t ⟨(j 1).val, hj1⟩ _ rfl) (val1_blk_13 V c t ⟨(j 1).val, hj1⟩ _ rfl) (val1_blk_14 V c t ⟨(j 1).val, hj1⟩ _ rfl)

/-- An index of the array is in point `t`'s block iff each coordinate is in the block's range on its axis. -/
theorem val1_mem_blk (t : Fin cfg1.N) (i : (⟨2, ![1, 4096]⟩ : Shape).Idx) :
    i ∈ ((cfg1.win 15).blk t).view.set ↔ ∀ a : Fin 2, win1_15.index t a * S1x128.size a ≤ (i a).val ∧ (i a).val < win1_15.index t a * S1x128.size a + S1x128.size a := by
  show i ∈ ((View.whole (Pipeline.arrRef spec1 15)).slice (win1_15.rect t)).set ↔ _
  rw [View.set_slice_whole, Rect.mem_set_unit]
  exact Iff.rfl

/-- The value of this region: its result array ends holding the cell's new state. Column `j` is written by point `j / 128`. -/
theorem val1 (c : Dev nD) : (dat1 (F := Ideal) V c).arrAt 15 cfg1.N
      = Cert.Spec.asRow (Cert.Spec.gruAt
          (fun k => V c (Pipeline.arrRef spec1 0) (ValueIdx.ix2 (0 : Fin 1) k))
          (fun k => V c (Pipeline.arrRef spec1 1) (ValueIdx.ix2 (0 : Fin 1) k))
          (Cert.Spec.mat (V c (Pipeline.arrRef spec1 3))) (Cert.Spec.mat (V c (Pipeline.arrRef spec1 6)))
          (fun r => V c (Pipeline.arrRef spec1 9) (ValueIdx.ix2 (0 : Fin 1) r))
          (fun r => V c (Pipeline.arrRef spec1 12) (ValueIdx.ix2 (0 : Fin 1) r))) :=
  (dat1 V c).arrAt_eq_of_cover 15 (val1_G V c) (fun t _ => val1_flushed V c t) fun i => by
    have hi0 : (i 0).val < 1 := (i 0).isLt
    have hi1 : (i 1).val < 4096 := (i 1).isLt
    obtain ⟨t, ht⟩ : ∃ t : Fin cfg1.N, t.val = (i 1).val / 128 :=
      ⟨⟨(i 1).val / 128, by show (i 1).val / 128 < 32; omega⟩, rfl⟩
    obtain ⟨i0, i1⟩ := val1_idx_15 t
    refine ⟨t, flush1_15 t, ?_⟩
    rw [val1_mem_blk]
    intro a
    match a with
    | ⟨0, _⟩ => show win1_15.index t (0 : Fin 2) * 1 ≤ (i 0).val ∧ (i 0).val < win1_15.index t (0 : Fin 2) * 1 + 1; omega
    | ⟨1, _⟩ => show win1_15.index t (1 : Fin 2) * 128 ≤ (i 1).val ∧ (i 1).val < win1_15.index t (1 : Fin 2) * 128 + 128; omega

end Cert.KernelIdeal.Hand

end
-- ==== Proof.KI.R2Val.lean ====
/-
  The value of the final projection's region, over the extended reals.

  Every float operation is exact there and a change of float format is the identity, so the body's store at a grid point
  is, column by column, the rectified state row summed against ONE row of the staged weight block, plus the staged bias
  entry.  Point t stages rows 512·t … of the 50257 × 4096 weights and columns 512·t … of the bias, and writes columns
  512·t … of the 1 × 50257 result.  50257 = 98 · 512 + 81: at the last point only 81 rows (columns) move, and the staging
  words beyond them are filler; but a written-back column is a moved column, its sum runs over its own weight row only,
  and so the filler is never read.  Hence what each point writes back is the logits' function of the three arrays read
  through the point's block, the 99 blocks cover columns 0 … 50256 (column j lies in block j / 512), and the array the
  region leaves is that function.
-/
import proofs.«157188_j18528488915578_1_alg».proof.Proof.KI.R2Defs
import proofs.«157188_j18528488915578_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The projection's product at an index -/

/-- The left operand's row coordinate is the output's. -/
theorem lhs_proj_0 (i : S1x512.Idx) (q : dot_S1x4096_S512x4096_S1x512_1_1_0_0_n_n.contr.Idx) :
    (dot_S1x4096_S512x4096_S1x512_1_1_0_0_n_n.lhsIdx i q 0).val = (i 0).val := by
  unfold DotDims.lhsIdx
  rw [dif_neg (show ¬(0 : Fin S1x4096.rank) ∈ dot_S1x4096_S512x4096_S1x512_1_1_0_0_n_n.lhsBatch by decide), dif_pos (show (0 : Fin S1x4096.rank) ∈ dot_S1x4096_S512x4096_S1x512_1_1_0_0_n_n.lhsNonContracting by decide)]
  rfl
/-- Its column coordinate is the contracted one. -/
theorem lhs_proj_1 (i : S1x512.Idx) (q : dot_S1x4096_S512x4096_S1x512_1_1_0_0_n_n.contr.Idx) :
    (dot_S1x4096_S512x4096_S1x512_1_1_0_0_n_n.lhsIdx i q 1).val = (q ⟨0, by decide⟩).val :=
  dot_S1x4096_S512x4096_S1x512_1_1_0_0_n_n.lhsIdx_val_of_single rfl i q
/-- The right operand's row coordinate is the output's column. -/
theorem rhs_proj_0 (i : S1x512.Idx) (q : dot_S1x4096_S512x4096_S1x512_1_1_0_0_n_n.contr.Idx) :
    (dot_S1x4096_S512x4096_S1x512_1_1_0_0_n_n.rhsIdx i q 0).val = (i 1).val := by
  unfold DotDims.rhsIdx
  rw [dif_neg (show ¬(0 : Fin S512x4096.rank) ∈ dot_S1x4096_S512x4096_S1x512_1_1_0_0_n_n.rhsBatch by decide), dif_pos (show (0 : Fin S512x4096.rank) ∈ dot_S1x4096_S512x4096_S1x512_1_1_0_0_n_n.rhsNonContracting by decide)]
  rfl
/-- Its column coordinate is the contracted one. -/
theorem rhs_proj_1 (i : S1x512.Idx) (q : dot_S1x4096_S512x4096_S1x512_1_1_0_0_n_n.contr.Idx) :
    (dot_S1x4096_S512x4096_S1x512_1_1_0_0_n_n.rhsIdx i q 1).val = (q ⟨0, by decide⟩).val :=
  dot_S1x4096_S512x4096_S1x512_1_1_0_0_n_n.rhsIdx_val_of_single rfl i q

/-- The product into the zero accumulator, at column `q`: the row against the weight block's row `q`. -/
theorem proj_matmul_apply {φ₁ φ₂ : FTy} (l : FVec Ideal S1x4096 φ₁) (r : FVec Ideal S512x4096 φ₂) (q : Fin 512) :
    matmul dot_S1x4096_S512x4096_S1x512_1_1_0_0_n_n none l r (constant (F := Ideal) S1x512 .f32 0x00000000#32) (ix2 (0 : Fin 1) q)
      = ∑ k : Fin 4096, l (ix2 (0 : Fin 1) k) * r (ix2 q k) := by
  show FloatOps.matmul dot_S1x4096_S512x4096_S1x512_1_1_0_0_n_n none l r (constant (F := Ideal) S1x512 .f32 0x00000000#32) (ix2 (0 : Fin 1) q) = _
  rw [Ideal.matmul_constant_zero_apply, ← Equiv.sum_comp (contrEquiv1 dot_S1x4096_S512x4096_S1x512_1_1_0_0_n_n 4096 rfl rfl).symm]
  refine Finset.sum_congr rfl fun k _ => ?_
  have hk := contrEquiv1_symm_val dot_S1x4096_S512x4096_S1x512_1_1_0_0_n_n 4096 rfl rfl k
  have el : dot_S1x4096_S512x4096_S1x512_1_1_0_0_n_n.lhsIdx (ix2 (0 : Fin 1) q) ((contrEquiv1 dot_S1x4096_S512x4096_S1x512_1_1_0_0_n_n 4096 rfl rfl).symm k) = ix2 (0 : Fin 1) k := funext fun a => Fin.ext (by
    match a with
    | ⟨0, _⟩ => exact lhs_proj_0 _ _
    | ⟨1, _⟩ => exact (lhs_proj_1 _ _).trans hk)
  have er : dot_S1x4096_S512x4096_S1x512_1_1_0_0_n_n.rhsIdx (ix2 (0 : Fin 1) q) ((contrEquiv1 dot_S1x4096_S512x4096_S1x512_1_1_0_0_n_n 4096 rfl rfl).symm k) = ix2 q k := funext fun a => Fin.ext (by
    match a with
    | ⟨0, _⟩ => exact rhs_proj_0 _ _
    | ⟨1, _⟩ => exact (rhs_proj_1 _ _).trans hk)
  rw [el, er]

/-- The body's payload at column `q`: the rectified row against row `q` of the weight block, plus the bias block's entry. -/
theorem pay_apply (x0 : Vec Ideal S1x4096 .f32) (x1 : Vec Ideal S512x4096 .f32) (x2 : Vec Ideal S1x512 .f32) (q : Fin 512) :
    k2_pay1 (F := Ideal) x0 x1 x2 (ix2 (0 : Fin 1) q)
      = (∑ k : Fin 4096, max (x0 (ix2 (0 : Fin 1) k)) (Ideal.ofBits .f32 0x00000000#32) * x1 (ix2 q k)) + x2 (ix2 (0 : Fin 1) q) := by
  unfold k2_pay1
  rw [addf_apply, proj_matmul_apply, shapeCast_self x2, shapeCast_self x0]
  refine congrArg (· + x2 (ix2 (0 : Fin 1) q)) (Finset.sum_congr rfl fun k _ => ?_)
  rw [truncf_apply, truncf_apply, maximumf_apply, broadcast_apply]
  rfl

variable (V : (c : Dev nD) → (b : Ref sig .tc) → Buf (Elt Ideal) ((c : Thread nD τ).loc b))

/-! ## What a point writes back -/

/-- The offsets of a whole-buffer access are zero on both axes. -/
theorem zero_offsets : (![0, 0] : Fin 2 → Nat) = fun _ => 0 := funext fun a => by fin_cases a <;> rfl

/-- The logits as a function of the three arrays the region is entered with. -/
def logitRow (c : Dev nD) : S1x50257.Idx → Elt Ideal .f32 :=
  Cert.Spec.asRow (Cert.Spec.logitAt
    (fun k => V c (Pipeline.arrRef spec2 0) (ix2 (0 : Fin 1) k))
    (Cert.Spec.mat (V c (Pipeline.arrRef spec2 1)))
    (fun j => V c (Pipeline.arrRef spec2 2) (ix2 (0 : Fin 1) j)))

/-- The index maps over the 99 points: the state row's block never moves; at point `t` the weight block starts at row
    `512 · t`, the bias and result blocks at column `512 · t`; the three moving blocks are cut alike, to the columns
    below 50257. -/
theorem idx_facts : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val
    ∧ win2_1.xsize (grid2.coords t) (0 : Fin 2) = win2_3.xsize (grid2.coords t) (1 : Fin 2)
    ∧ win2_1.xsize (grid2.coords t) (1 : Fin 2) = 4096
    ∧ win2_2.xsize (grid2.coords t) (0 : Fin 2) = 1
    ∧ win2_2.xsize (grid2.coords t) (1 : Fin 2) = win2_3.xsize (grid2.coords t) (1 : Fin 2)
    ∧ win2_3.xsize (grid2.coords t) (0 : Fin 2) = 1
    ∧ t.val * 512 + win2_3.xsize (grid2.coords t) (1 : Fin 2) = min (t.val * 512 + 512) 50257 :=
  (by decide +kernel : ∀ t : Fin grid2.N, _)

/-- The state row's block is the whole row, at every point. -/
theorem row_read (c : Dev nD) (t : Fin cfg2.N) (k : Fin 4096) :
    iblk2 V c 0 t (ix2 (0 : Fin 1) k) = V c (Pipeline.arrRef spec2 0) (ix2 (0 : Fin 1) k) := by
  obtain ⟨e00, e01, -⟩ := idx_facts t
  show V c (Pipeline.arrRef spec2 0) (((cfg2.win 0).blk t).view.emb (ix2 (0 : Fin 1) k)) = _
  refine congrArg _ (funext fun a => Fin.ext ?_)
  match a with
  | ⟨0, _⟩ => show win2_0.index t (0 : Fin 2) * 1 + 1 * 0 = 0; omega
  | ⟨1, _⟩ => show win2_0.index t (1 : Fin 2) * 4096 + 1 * k.val = k.val; omega

/-- A moved row of the weight block is the matching row of the weights: the filler is never read there. -/
theorem weight_read (c : Dev nD) (t : Fin cfg2.N) (q : Fin 512) (k : Fin 4096) (r : Fin 50257)
    (hq : q.val < win2_1.xsize (grid2.coords t) (0 : Fin 2)) (hr : r.val = t.val * 512 + q.val) :
    wblk2 V c t (ix2 q k) = V c (Pipeline.arrRef spec2 1) (ix2 r k) := by
  obtain ⟨-, -, e10, e11, -, -, -, -, -, x11, -⟩ := idx_facts t
  have hm : win2_1.moved (grid2.coords t) (ix2 q k) = true := (win2_1.moved_iff _ _).mpr fun a => by
    match a with
    | ⟨0, _⟩ => exact hq
    | ⟨1, _⟩ => show k.val < win2_1.xsize (grid2.coords t) (1 : Fin 2); rw [x11]; exact k.isLt
  unfold wblk2 Window.fill
  rw [dif_pos hm]
  show V c (Pipeline.arrRef spec2 1) (((cfg2.win 1).blk t).view.emb _) = _
  refine congrArg _ (funext fun a => Fin.ext ?_)
  match a with
  | ⟨0, _⟩ => show win2_1.index t (0 : Fin 2) * 512 + 1 * q.val = r.val; omega
  | ⟨1, _⟩ => show win2_1.index t (1 : Fin 2) * 4096 + 1 * k.val = k.val; omega

/-- A moved column of the bias block is the matching bias entry. -/
theorem bias_read (c : Dev nD) (t : Fin cfg2.N) (q : Fin 512) (r : Fin 50257)
    (hq : q.val < win2_2.xsize (grid2.coords t) (1 : Fin 2)) (hr : r.val = t.val * 512 + q.val) :
    bblk2 V c t (ix2 (0 : Fin 1) q) = V c (Pipeline.arrRef spec2 2) (ix2 (0 : Fin 1) r) := by
  obtain ⟨-, -, -, -, e20, e21, -, -, -, -, x20, -⟩ := idx_facts t
  have hm : win2_2.moved (grid2.coords t) (ix2 (0 : Fin 1) q) = true := (win2_2.moved_iff _ _).mpr fun a => by
    match a with
    | ⟨0, _⟩ => show 0 < win2_2.xsize (grid2.coords t) (0 : Fin 2); rw [x20]; exact Nat.one_pos
    | ⟨1, _⟩ => exact hq
  unfold bblk2 Window.fill
  rw [dif_pos hm]
  show V c (Pipeline.arrRef spec2 2) (((cfg2.win 2).blk t).view.emb _) = _
  refine congrArg _ (funext fun a => Fin.ext ?_)
  match a with
  | ⟨0, _⟩ => show win2_2.index t (0 : Fin 2) * 1 + 1 * 0 = 0; omega
  | ⟨1, _⟩ => show win2_2.index t (1 : Fin 2) * 512 + 1 * q.val = r.val; omega

/-- What point `t` writes back — the moved columns of what the body stored — is the logits read through its block. -/
theorem flushed_eq (c : Dev nD) (t : Fin cfg2.N) :
    (dat2 (F := Ideal) V c).flushed 3 t = ((cfg2.win 3).blk t).view.read (Elt Ideal) (logitRow V c) := by
  show (cfg2.win 3).cut (cfg2.grid.coords t) ((dat2 V c).after 3 t) = _
  rw [after2_3]
  unfold out2_3
  rw [View.canon_unit_zero zero_offsets]
  simp only [View.ld_unit_zero (S := S1x4096) zero_offsets, View.ld_unit_zero (S := S512x4096) zero_offsets, View.ld_unit_zero (S := S1x512) zero_offsets]
  funext j
  obtain ⟨-, -, -, -, -, -, e30, e31, x10, -, -, x21, x30, hend⟩ := idx_facts t
  have hj0 : (j 0).val < win2_3.xsize (grid2.coords t) (0 : Fin 2) := (j 0).isLt
  have hj1 : (j 1).val < win2_3.xsize (grid2.coords t) (1 : Fin 2) := (j 1).isLt
  have hq : (j 1).val < 512 := lt_of_lt_of_le hj1 (win2_3.xsize_le _ _)
  have hr : t.val * 512 + (j 1).val < 50257 := by omega
  have hx : win2_3.xinj (grid2.coords t) j = ix2 (0 : Fin 1) (⟨(j 1).val, hq⟩ : Fin 512) := funext fun a => Fin.ext (by
    match a with
    | ⟨0, _⟩ => show (j 0).val = 0; omega
    | ⟨1, _⟩ => rfl)
  show k2_pay1 (iblk2 V c 0 t) (wblk2 V c t) (bblk2 V c t) (win2_3.xinj (grid2.coords t) j)
    = logitRow V c (((cfg2.win 3).blk t).view.emb j)
  rw [hx]
  refine (pay_apply (iblk2 V c 0 t) (wblk2 V c t) (bblk2 V c t) ⟨(j 1).val, hq⟩).trans ?_
  have hrow : logitRow V c (((cfg2.win 3).blk t).view.emb j)
      = Cert.Spec.logitAt (fun k => V c (Pipeline.arrRef spec2 0) (ix2 (0 : Fin 1) k)) (Cert.Spec.mat (V c (Pipeline.arrRef spec2 1)))
          (fun j => V c (Pipeline.arrRef spec2 2) (ix2 (0 : Fin 1) j)) (⟨t.val * 512 + (j 1).val, hr⟩ : Fin 50257) := by
    unfold logitRow Cert.Spec.asRow
    refine congrArg (Cert.Spec.logitAt _ _ _) (Fin.ext ?_)
    show win2_3.index t (1 : Fin 2) * 512 + 1 * (j 1).val = t.val * 512 + (j 1).val
    omega
  rw [hrow]
  unfold Cert.Spec.logitAt
  refine congrArg₂ (· + ·) (Finset.sum_congr rfl fun k _ => ?_) ?_
  · rw [row_read V c t k, weight_read V c t ⟨(j 1).val, hq⟩ k ⟨t.val * 512 + (j 1).val, hr⟩ (by rw [x10]; exact hj1) rfl]
    rfl
  · exact bias_read V c t ⟨(j 1).val, hq⟩ ⟨_, hr⟩ (by rw [x21]; exact hj1) rfl

/-! ## From the blocks to the array -/

/-- A column is in point `t`'s block iff it is among the block's columns below the array's end. -/
theorem mem_blk (t : Fin cfg2.N) (i : S1x50257.Idx) :
    i ∈ ((cfg2.win 3).blk t).view.set ↔ ∀ a : Fin 2, win2_3.index t a * S1x512.size a ≤ (i a).val
      ∧ (i a).val < win2_3.index t a * S1x512.size a + win2_3.xsize (grid2.coords t) a := by
  show i ∈ ((View.whole main_v9).slice (win2_3.rect t)).set ↔ _
  rw [View.set_slice_whole, Rect.mem_set_unit]
  exact Iff.rfl

/-- Column `j` lies in the block of point `j / 512`, which writes back: the 99 blocks cover the row. -/
theorem cover (i : S1x50257.Idx) :
    ∃ t : Fin cfg2.N, (cfg2.win 3).flush t = true ∧ i ∈ ((cfg2.win 3).blk t).view.set := by
  have hi0 : (i 0).val < 1 := (i 0).isLt
  have hi1 : (i 1).val < 50257 := (i 1).isLt
  have hlt : (i 1).val / 512 < cfg2.N := by show (i 1).val / 512 < 99; omega
  obtain ⟨-, -, -, -, -, -, e30, e31, -, -, -, -, x30, hend⟩ := idx_facts ⟨(i 1).val / 512, hlt⟩
  refine ⟨⟨(i 1).val / 512, hlt⟩, flush2_3 _, ?_⟩
  rw [mem_blk]
  intro a
  match a with
  | ⟨0, _⟩ =>
    show win2_3.index ⟨(i 1).val / 512, hlt⟩ (0 : Fin 2) * 1 ≤ (i 0).val
      ∧ (i 0).val < win2_3.index ⟨(i 1).val / 512, hlt⟩ (0 : Fin 2) * 1 + win2_3.xsize (grid2.coords ⟨(i 1).val / 512, hlt⟩) (0 : Fin 2)
    omega
  | ⟨1, _⟩ =>
    show win2_3.index ⟨(i 1).val / 512, hlt⟩ (1 : Fin 2) * 512 ≤ (i 1).val
      ∧ (i 1).val < win2_3.index ⟨(i 1).val / 512, hlt⟩ (1 : Fin 2) * 512 + win2_3.xsize (grid2.coords ⟨(i 1).val / 512, hlt⟩) (1 : Fin 2)
    have ht : (⟨(i 1).val / 512, hlt⟩ : Fin cfg2.N).val = (i 1).val / 512 := rfl
    omega

/-- The result array after the region: the logits of the state row, the output weights and the bias the region is
    entered with, column by column. -/
theorem val2 (c : Dev nD) : (dat2 (F := Ideal) V c).arrAt 3 cfg2.N
    = Cert.Spec.asRow (Cert.Spec.logitAt
        (fun k => V c (Pipeline.arrRef spec2 0) (ValueIdx.ix2 (0 : Fin 1) k))
        (Cert.Spec.mat (V c (Pipeline.arrRef spec2 1)))
        (fun j => V c (Pipeline.arrRef spec2 2) (ValueIdx.ix2 (0 : Fin 1) j))) :=
  (dat2 (F := Ideal) V c).arrAt_eq_of_cover 3 (logitRow V c) (fun t _ => flushed_eq V c t) cover

end Cert.KernelIdeal.Hand

end
-- ==== Proof.KI.KValue.lean ====
/-
  The idealized kernel's two results as the model's functions of the twelve arguments.

  The fold of contents through @main is read back item by item: the host reshapes move words without changing them (a
  1 × 1 × 4096 row read as 1 × 4096, a 12288-vector as a 1 × 12288 row); the first region leaves the first cell's state
  computed from them, the second region the second cell's from the first's (as input and as state), the projection
  region the logits; the shared log-softmax tail is applied to the logits as one function, and the second result is the
  second cell's state reshaped.
-/
import proofs.«157188_j18528488915578_1_alg».proof.Proof.Gen.KernelIdeal.Launch
import proofs.«157188_j18528488915578_1_alg».proof.Proof.Gen.KernelIdeal.Skeleton
import proofs.«157188_j18528488915578_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«157188_j18528488915578_1_alg».proof.Proof.Gen.KernelIdeal.Regions
import proofs.«157188_j18528488915578_1_alg».proof.Proof.KI.Fold
import proofs.«157188_j18528488915578_1_alg».proof.Proof.KI.R0Val
import proofs.«157188_j18528488915578_1_alg».proof.Proof.KI.R1Val
import proofs.«157188_j18528488915578_1_alg».proof.Proof.KI.R2Val
import proofs.«157188_j18528488915578_1_alg».proof.Proof.Spec
import Idealize.ShloMosaic.Lib.ValueIdx
import Idealize.ShloMosaic.Lib.ValueLayout
import Idealize.ShloMosaic.Lib.Pipeline.Value
import Idealize.ShloMosaic.Lib.StableHlo.Run
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

/-! ## Reshapes read at an index -/

/-- A 1 × 1 × n array read as a 1 × n row. -/
theorem cast_row3 {α : Type} {n : Nat} (x : (⟨3, ![1, 1, n]⟩ : Shape).Idx → α) (h : (⟨3, ![1, 1, n]⟩ : Shape).ShapeCasts ⟨2, ![1, n]⟩)
    (k : Fin n) : shapeCast ⟨2, ![1, n]⟩ x h (ix2 (0 : Fin 1) k) = x (ix3 (0 : Fin 1) (0 : Fin 1) k) :=
  shapeCast_apply x h _ _ (by
    rewrite [Shape.rowMajor_val_three, Shape.rowMajor_val_two]
    show ((0 : Nat) * 1 + 0) * n + k.val = (0 : Nat) * n + k.val
    omega)

/-- An n-vector read as a 1 × n row. -/
theorem cast_vec {α : Type} {n : Nat} (x : (⟨1, ![n]⟩ : Shape).Idx → α) (h : (⟨1, ![n]⟩ : Shape).ShapeCasts ⟨2, ![1, n]⟩)
    (k : Fin n) : shapeCast ⟨2, ![1, n]⟩ x h (ix2 (0 : Fin 1) k) = x (ix1 k) :=
  shapeCast_apply x h _ _ (by
    rewrite [Shape.rowMajor_val_one, Shape.rowMajor_val_two]
    show k.val = (0 : Nat) * n + k.val
    omega)

/-- A 1 × n row read as a 1 × 1 × n array is the row vector as such an array. -/
theorem cast_asRow {n : Nat} (f : Fin n → EReal) (h : (⟨2, ![1, n]⟩ : Shape).ShapeCasts ⟨3, ![1, 1, n]⟩) :
    shapeCast ⟨3, ![1, 1, n]⟩ (Cert.Spec.asRow f) h = Cert.Spec.asRow3 f := by
  funext i
  refine (shapeCast_apply (Cert.Spec.asRow f) h i (ix2 (0 : Fin 1) ⟨(i 2).val, (i 2).isLt⟩) (by
    rewrite [Shape.rowMajor_val_three, Shape.rowMajor_val_two]
    have h0 : (i 0).val < 1 := (i 0).isLt
    have h1 : (i 1).val < 1 := (i 1).isLt
    show (0 : Nat) * n + (i 2).val = ((i 0).val * 1 + (i 1).val) * n + (i 2).val
    have e0 : (i 0).val = 0 := by omega
    have e1 : (i 1).val = 0 := by omega
    rw [e0, e1])).trans ?_
  rfl

/-! ## The log-softmax tail, in any number system -/

/-- Contents carried to a buffer's own type and back are unchanged. -/
theorem ofBuf_toBuf {Val : EltTy → Type} {T : BufTy} (x : StableHlo.TRef sig T) (v : T.Contents Val) : x.ofBuf (x.toBuf v) = v := by
  obtain ⟨r, h, _, _⟩ := x
  subst h
  rfl

section TailF
variable {F : FTy → Type} [FloatOps F]

/-- The shared tail's operations composed, over any float instance (the model's `logSoftmax` is this at the extended reals). -/
def lsmF (z : FVec F S1x50257 .f32) : FVec F S1x50257 .f32 :=
  subf (subf z (broadcastInDim S1x50257 ![0, 1] bcast_S1x1_S1x50257_0_1 (broadcastInDim S1x1 ![0] bcast_S1_S1x1_0
      (maximumf (broadcastInDim S1 ![] bcast_S_S1 (constant (F := F) S_ .f32 0xFF800000#32))
        (Host.reduce FloatOps.maximumf z (constant (F := F) S_ .f32 0xFF800000#32) reducesTo_S1x50257_S1_d1 h_S_)))))
    (broadcastInDim S1x50257 ![0, 1] bcast_S1x1_S1x50257_0_1 (Host.log (broadcastInDim S1x1 ![0] bcast_S1_S1x1_0
      (Host.reduceAdd (Host.exp (subf z (broadcastInDim S1x50257 ![0, 1] bcast_S1x1_S1x50257_0_1 (broadcastInDim S1x1 ![0] bcast_S1_S1x1_0
          (maximumf (broadcastInDim S1 ![] bcast_S_S1 (constant (F := F) S_ .f32 0xFF800000#32))
            (Host.reduce FloatOps.maximumf z (constant (F := F) S_ .f32 0xFF800000#32) reducesTo_S1x50257_S1_d1 h_S_))))))
        (constant (F := F) S_ .f32 0x00000000#32) reducesTo_S1x50257_S1_d1 h_S_))))

set_option maxRecDepth 131072 in
/-- The fourth host stretch leaves, in the first result's buffer, the tail of whatever the logits array holds. -/
theorem after3_v10F (W : Valuation τ sig (Elt F)) : StableHlo.after hostOps3 W main_v10 = lsmF (W main_v9) := by
  after_results
  simp only [ofBuf_toBuf]
  rfl

end TailF

/-- At the extended reals the composed tail is the model's log-softmax. -/
theorem lsmF_ideal (z : FVec Ideal S1x50257 .f32) :
    lsmF (F := Ideal) z = Cert.Spec.logSoftmax reducesTo_S1x50257_S1_d1 h_S_ bcast_S_S1 bcast_S1_S1x1_0 bcast_S1x1_S1x50257_0_1 z := rfl

/-! ## The host stretches' results -/

/-- The first stretch: the two rows and the first cell's bias vectors, reshaped. -/
theorem W1_v0 (c : Dev nD) : W1 m c main_v0 = shapeCast S1x4096 (m ((c : Thread nD τ).loc main_arg0)) shapeCasts_S1x1x4096_S1x4096 := by
  show StableHlo.after hostOps0 (fun b => m (c, b)) (Proc.devRef .tc main_v0) = _
  after_results; rfl
theorem W1_v1 (c : Dev nD) : W1 m c main_v1 = shapeCast S1x4096 (m ((c : Thread nD τ).loc main_arg1)) shapeCasts_S1x1x4096_S1x4096 := by
  show StableHlo.after hostOps0 (fun b => m (c, b)) (Proc.devRef .tc main_v1) = _
  after_results; rfl
theorem W1_v2 (c : Dev nD) : W1 m c main_v2 = shapeCast S1x12288 (m ((c : Thread nD τ).loc main_arg4)) shapeCasts_S12288_S1x12288 := by
  show StableHlo.after hostOps0 (fun b => m (c, b)) (Proc.devRef .tc main_v2) = _
  after_results; rfl
theorem W1_v3 (c : Dev nD) : W1 m c main_v3 = shapeCast S1x12288 (m ((c : Thread nD τ).loc main_arg5)) shapeCasts_S12288_S1x12288 := by
  show StableHlo.after hostOps0 (fun b => m (c, b)) (Proc.devRef .tc main_v3) = _
  after_results; rfl

/-- The second stretch reshapes the second cell's bias vectors, whatever the buffers held before it. -/
theorem after1_v5 (W : Valuation τ sig (Elt Ideal)) : StableHlo.after hostOps1 W main_v5 = shapeCast S1x12288 (W main_arg8) shapeCasts_S12288_S1x12288 := by
  after_results; rfl
theorem after1_v6 (W : Valuation τ sig (Elt Ideal)) : StableHlo.after hostOps1 W main_v6 = shapeCast S1x12288 (W main_arg9) shapeCasts_S12288_S1x12288 := by
  after_results; rfl
/-- The third reshapes the output bias. -/
theorem after2_v8 (W : Valuation τ sig (Elt Ideal)) : StableHlo.after hostOps2 W main_v8 = shapeCast S1x50257 (W main_arg11) shapeCasts_S50257_S1x50257 := by
  after_results; rfl
/-- The fourth is the log-softmax of whatever the logits array holds, as one function. -/
theorem after3_v10 (W : Valuation τ sig (Elt Ideal)) : StableHlo.after hostOps3 W main_v10
    = Cert.Spec.logSoftmax reducesTo_S1x50257_S1_d1 h_S_ bcast_S_S1 bcast_S1_S1x1_0 bcast_S1x1_S1x50257_0_1 (W main_v9) :=
  (after3_v10F W).trans (lsmF_ideal _)
/-- The last reshapes the second cell's state. -/
theorem after31_v11 (W : Valuation τ sig (Elt Ideal)) : StableHlo.after hostOps3_1 W main_v11 = shapeCast S1x1x4096 (W main_v7) shapeCasts_S1x4096_S1x1x4096 := by
  after_results; rfl

/-! ## The regions' results -/

section
variable (c : Dev nD)

set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)

/-- The first region leaves the first cell's state. -/
theorem o4_eq : o4 m c = Cert.Spec.asRow (Cert.Spec.h1 a0 a1 a2 a3 a4 a5) := by
  have e0 : (fun k => V1 m c (Pipeline.arrRef spec0 0) (ix2 (0 : Fin 1) k)) = Cert.Spec.row3 a0 := by
    funext k; show W1 m c main_v0 (ix2 (0 : Fin 1) k) = _; rw [W1_v0]; exact cast_row3 _ _ k
  have e1 : (fun k => V1 m c (Pipeline.arrRef spec0 1) (ix2 (0 : Fin 1) k)) = Cert.Spec.row3 a1 := by
    funext k; show W1 m c main_v1 (ix2 (0 : Fin 1) k) = _; rw [W1_v1]; exact cast_row3 _ _ k
  have e3 : Cert.Spec.mat (V1 m c (Pipeline.arrRef spec0 3)) = Cert.Spec.mat a2 := by
    show Cert.Spec.mat (W1 m c main_arg2) = _; rw [W1_of m c main_arg2 (by decide)] <;> rfl
  have e6 : Cert.Spec.mat (V1 m c (Pipeline.arrRef spec0 6)) = Cert.Spec.mat a3 := by
    show Cert.Spec.mat (W1 m c main_arg3) = _; rw [W1_of m c main_arg3 (by decide)] <;> rfl
  have e9 : (fun r => V1 m c (Pipeline.arrRef spec0 9) (ix2 (0 : Fin 1) r)) = Cert.Spec.vec a4 := by
    funext r; show W1 m c main_v2 (ix2 (0 : Fin 1) r) = _; rw [W1_v2]; exact cast_vec _ _ r
  have e12 : (fun r => V1 m c (Pipeline.arrRef spec0 12) (ix2 (0 : Fin 1) r)) = Cert.Spec.vec a5 := by
    funext r; show W1 m c main_v3 (ix2 (0 : Fin 1) r) = _; rw [W1_v3]; exact cast_vec _ _ r
  unfold o4
  rw [val0 (V1 m) c, e0, e1, e3, e6, e9, e12]
  rfl

/-- An argument array no item before the second region writes. -/
theorem W3_arg (r : Ref sig .tc) (h0 : r ∉ hostOps0_W) (h1 : r ∉ hostOps1_W) (g : r ≠ main_v4) : W3 m c r = m ((c : Thread nD τ).loc r) :=
  (W3_of m c r h1).trans <| (W2_of m c r g).trans <| (W1_of m c r h0).trans rfl

/-- The second region leaves the second cell's state. -/
theorem o7_eq : o7 m c = Cert.Spec.asRow (Cert.Spec.h2 a0 a1 a2 a3 a4 a5 a6 a7 a8 a9) := by
  have e0 : (fun k => V3 m c (Pipeline.arrRef spec1 0) (ix2 (0 : Fin 1) k)) = Cert.Spec.h1 a0 a1 a2 a3 a4 a5 := by
    funext k; show W3 m c main_v4 (ix2 (0 : Fin 1) k) = _
    rw [W3_of m c main_v4 (by decide), W2_self, o4_eq]; rfl
  have e1 : (fun k => V3 m c (Pipeline.arrRef spec1 1) (ix2 (0 : Fin 1) k)) = Cert.Spec.h1 a0 a1 a2 a3 a4 a5 := by
    funext k; show W3 m c main_v4 (ix2 (0 : Fin 1) k) = _
    rw [W3_of m c main_v4 (by decide), W2_self, o4_eq]; rfl
  have e3 : Cert.Spec.mat (V3 m c (Pipeline.arrRef spec1 3)) = Cert.Spec.mat a6 := by
    show Cert.Spec.mat (W3 m c main_arg6) = _; rw [W3_arg m c main_arg6 (by decide) (by decide) (by decide)] <;> rfl
  have e6 : Cert.Spec.mat (V3 m c (Pipeline.arrRef spec1 6)) = Cert.Spec.mat a7 := by
    show Cert.Spec.mat (W3 m c main_arg7) = _; rw [W3_arg m c main_arg7 (by decide) (by decide) (by decide)] <;> rfl
  have e9 : (fun r => V3 m c (Pipeline.arrRef spec1 9) (ix2 (0 : Fin 1) r)) = Cert.Spec.vec a8 := by
    funext r; show W3 m c main_v5 (ix2 (0 : Fin 1) r) = _
    rw [show W3 m c main_v5 = StableHlo.after hostOps1 (W2 m c) main_v5 from rfl, after1_v5,
      W2_of m c main_arg8 (by decide), W1_of m c main_arg8 (by decide)]; exact cast_vec _ _ r
  have e12 : (fun r => V3 m c (Pipeline.arrRef spec1 12) (ix2 (0 : Fin 1) r)) = Cert.Spec.vec a9 := by
    funext r; show W3 m c main_v6 (ix2 (0 : Fin 1) r) = _
    rw [show W3 m c main_v6 = StableHlo.after hostOps1 (W2 m c) main_v6 from rfl, after1_v6,
      W2_of m c main_arg9 (by decide), W1_of m c main_arg9 (by decide)]; exact cast_vec _ _ r
  unfold o7
  rw [val1 (V3 m) c]
  simp only [e0, e1, e3, e6, e9, e12] <;> rfl

/-- An argument array no item before the third region writes. -/
theorem W5_arg (r : Ref sig .tc) (h0 : r ∉ hostOps0_W) (h1 : r ∉ hostOps1_W) (h2 : r ∉ hostOps2_W) (g4 : r ≠ main_v4) (g7 : r ≠ main_v7) :
    W5 m c r = m ((c : Thread nD τ).loc r) :=
  (W5_of m c r h2).trans <| (W4_of m c r g7).trans <| (W3_arg m c r h0 h1 g4)

/-- The projection's pipeline names the logits. -/
theorem o9_eq : o9 m c = Cert.Spec.logitsArr a0 a1 a2 a3 a4 a5 a6 a7 a8 a9 a10 a11 := by
  have e0 : (fun k => V5 m c (Pipeline.arrRef spec2 0) (ix2 (0 : Fin 1) k)) = Cert.Spec.h2 a0 a1 a2 a3 a4 a5 a6 a7 a8 a9 := by
    funext k; show W5 m c main_v7 (ix2 (0 : Fin 1) k) = _
    rw [W5_of m c main_v7 (by decide), W4_self, o7_eq]; rfl
  have e1 : Cert.Spec.mat (V5 m c (Pipeline.arrRef spec2 1)) = Cert.Spec.mat a10 := by
    show Cert.Spec.mat (W5 m c main_arg10) = _
    rw [W5_arg m c main_arg10 (by decide) (by decide) (by decide) (by decide) (by decide)] <;> rfl
  have e2 : (fun j => V5 m c (Pipeline.arrRef spec2 2) (ix2 (0 : Fin 1) j)) = Cert.Spec.vec a11 := by
    funext j; show W5 m c main_v8 (ix2 (0 : Fin 1) j) = _
    rw [show W5 m c main_v8 = StableHlo.after hostOps2 (W4 m c) main_v8 from rfl, after2_v8,
      W4_of m c main_arg11 (by decide), W3_arg m c main_arg11 (by decide) (by decide) (by decide)]; exact cast_vec _ _ j
  unfold o9
  rw [val2 (V5 m) c, e0, e1, e2]
  rfl

/-! ## The two results -/

/-- The first result: the log-softmax of whatever the logits array holds. -/
theorem W8_v10 (x) : W8 m c x main_v10
    = Cert.Spec.logSoftmax reducesTo_S1x50257_S1_d1 h_S_ bcast_S_S1 bcast_S1_S1x1_0 bcast_S1x1_S1x50257_0_1 x := by
  rw [W8_of m c x main_v10 (by decide), show W7 m c x main_v10 = StableHlo.after hostOps3 (W6 m c x) main_v10 from rfl, after3_v10, W6_self]

/-- The second result: the second cell's state, whatever the logits array holds. -/
theorem W8_v11 (x) : W8 m c x main_v11 = Cert.Spec.hiddenOut a0 a1 a2 a3 a4 a5 a6 a7 a8 a9 := by
  rw [show W8 m c x main_v11 = StableHlo.after hostOps3_1 (W7 m c x) main_v11 from rfl, after31_v11,
    W7_of m c x main_v7 (by decide), W6_of m c x main_v7 (by decide), W5_of m c main_v7 (by decide), W4_self, o7_eq]
  exact cast_asRow _ _

end

end Cert.KernelIdeal.Hand

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.RefValue.lean ====
/-
  The reference program's two results, read index by index, are the model's functions of the twelve arguments.

  Every array of the reference is a single row, so an index is (0, q).  Read at such an index: a reshaped argument is
  the argument's row; a transposed weight at (k, j) is the weight at (j, k); a matrix product plus its broadcast bias
  at (0, j) is  Σ_k x(k) · w(j, k) + b(j);  the three slices of a gate row at (0, q) are that row at q, 4096 + q and
  8192 + q; and the host's  1 / (1 + e^(−x))  is the logistic function on the extended reals, since the word of 1.0 is 1.
  With these the forty-odd pointwise operations of a cell compose to the model's cell, twice; the rectified product
  with the output weights gives the logits; and the last fifteen operations are the model's log-softmax of the logits
  as they stand, never opened.
-/
import proofs.«157188_j18528488915578_1_alg».proof.Proof.RefRun
import proofs.«157188_j18528488915578_1_alg».proof.Proof.RefRead
import proofs.«157188_j18528488915578_1_alg».proof.Proof.Spec
import proofs.«157188_j18528488915578_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-! ## The literal 1.0 and the logistic function -/

/-- The single-precision word of 1.0 denotes the extended real 1. -/
theorem one_word : Ideal.ofBits .f32 0x3F800000#32 = 1 := IdealRules.sign_bit.ideal_onePat .f32

/-- The host's spelling of the logistic function, with the literal 1.0 as a word, is the logistic function. -/
theorem logistic_spelt (x : EReal) :
    Ideal.div (Ideal.ofBits .f32 0x3F800000#32) (Ideal.ofBits .f32 0x3F800000#32 + Ideal.exp (-x)) = Ideal.logistic x := by
  rw [one_word]; rfl

variable (x0 x1 : (⟨S1x1x4096, .f32⟩ : BufTy).Contents (Elt Ideal))
  (x2 x3 : (⟨S12288x4096, .f32⟩ : BufTy).Contents (Elt Ideal))
  (x4 x5 : (⟨S12288, .f32⟩ : BufTy).Contents (Elt Ideal))
  (x6 x7 : (⟨S12288x4096, .f32⟩ : BufTy).Contents (Elt Ideal))
  (x8 x9 : (⟨S12288, .f32⟩ : BufTy).Contents (Elt Ideal))
  (x10 : (⟨S50257x4096, .f32⟩ : BufTy).Contents (Elt Ideal))
  (x11 : (⟨S50257, .f32⟩ : BufTy).Contents (Elt Ideal))

/-! ## The arguments as the products read them -/

/-- The reshaped input at (0, k) is the input row at k. -/
theorem v0_at (k : Fin 4096) : val_main_v0 (F := Ideal) x0 (ix2 (0 : Fin 1) k) = Cert.Spec.row3 x0 k := by
  rw [val_main_v0_apply]
  show x0 _ = x0 (ix3 (0 : Fin 1) (0 : Fin 1) k)
  refine congrArg x0 (funext fun a => Fin.ext ?_)
  match a with
  | ⟨0, _⟩ => rfl
  | ⟨1, _⟩ => rfl
  | ⟨2, _⟩ => show ((0 : Nat) * 4096 + k.val) % 4096 = k.val; have := k.isLt; omega

/-- The reshaped state at (0, k) is the state row at k. -/
theorem v1_at (k : Fin 4096) : val_main_v1 (F := Ideal) x1 (ix2 (0 : Fin 1) k) = Cert.Spec.row3 x1 k := by
  rw [val_main_v1_apply]
  show x1 _ = x1 (ix3 (0 : Fin 1) (0 : Fin 1) k)
  refine congrArg x1 (funext fun a => Fin.ext ?_)
  match a with
  | ⟨0, _⟩ => rfl
  | ⟨1, _⟩ => rfl
  | ⟨2, _⟩ => show ((0 : Nat) * 4096 + k.val) % 4096 = k.val; have := k.isLt; omega

/-- A transposed weight at (k, j) is the weight at (j, k). -/
theorem v2_at (k : Fin 4096) (j : Fin 12288) : val_main_v2 (F := Ideal) x2 (ix2 k j) = Cert.Spec.mat x2 j k := by
  rw [val_main_v2_apply]
  show x2 _ = x2 (ix2 j k)
  refine congrArg x2 (funext fun a => Fin.ext ?_)
  match a with
  | ⟨0, _⟩ => rfl
  | ⟨1, _⟩ => rfl

/-- The same for the first cell's state weight. -/
theorem v6_at (k : Fin 4096) (j : Fin 12288) : val_main_v6 (F := Ideal) x3 (ix2 k j) = Cert.Spec.mat x3 j k := by
  rw [val_main_v6_apply]
  show x3 _ = x3 (ix2 j k)
  refine congrArg x3 (funext fun a => Fin.ext ?_)
  match a with
  | ⟨0, _⟩ => rfl
  | ⟨1, _⟩ => rfl

/-- The same for the second cell's input weight. -/
theorem v38_at (k : Fin 4096) (j : Fin 12288) : val_main_v38 (F := Ideal) x6 (ix2 k j) = Cert.Spec.mat x6 j k := by
  rw [val_main_v38_apply]
  show x6 _ = x6 (ix2 j k)
  refine congrArg x6 (funext fun a => Fin.ext ?_)
  match a with
  | ⟨0, _⟩ => rfl
  | ⟨1, _⟩ => rfl

/-- The same for the second cell's state weight. -/
theorem v42_at (k : Fin 4096) (j : Fin 12288) : val_main_v42 (F := Ideal) x7 (ix2 k j) = Cert.Spec.mat x7 j k := by
  rw [val_main_v42_apply]
  show x7 _ = x7 (ix2 j k)
  refine congrArg x7 (funext fun a => Fin.ext ?_)
  match a with
  | ⟨0, _⟩ => rfl
  | ⟨1, _⟩ => rfl

/-- The same for the output weight. -/
theorem v75_at (k : Fin 4096) (j : Fin 50257) : val_main_v75 (F := Ideal) x10 (ix2 k j) = Cert.Spec.mat x10 j k := by
  rw [val_main_v75_apply]
  show x10 _ = x10 (ix2 j k)
  refine congrArg x10 (funext fun a => Fin.ext ?_)
  match a with
  | ⟨0, _⟩ => rfl
  | ⟨1, _⟩ => rfl

/-- A bias broadcast along the single row, at (0, j), is the bias at j. -/
theorem v4_at (j : Fin 12288) : val_main_v4 (F := Ideal) x4 (ix2 (0 : Fin 1) j) = Cert.Spec.vec x4 j := by
  rw [val_main_v4_apply]
  show x4 _ = x4 (ix1 j)
  refine congrArg x4 (funext fun a => Fin.ext ?_)
  match a with
  | ⟨0, _⟩ => rfl

/-- The same for the first cell's state bias. -/
theorem v8_at (j : Fin 12288) : val_main_v8 (F := Ideal) x5 (ix2 (0 : Fin 1) j) = Cert.Spec.vec x5 j := by
  rw [val_main_v8_apply]
  show x5 _ = x5 (ix1 j)
  refine congrArg x5 (funext fun a => Fin.ext ?_)
  match a with
  | ⟨0, _⟩ => rfl

/-- The same for the second cell's input bias. -/
theorem v40_at (j : Fin 12288) : val_main_v40 (F := Ideal) x8 (ix2 (0 : Fin 1) j) = Cert.Spec.vec x8 j := by
  rw [val_main_v40_apply]
  show x8 _ = x8 (ix1 j)
  refine congrArg x8 (funext fun a => Fin.ext ?_)
  match a with
  | ⟨0, _⟩ => rfl

/-- The same for the second cell's state bias. -/
theorem v44_at (j : Fin 12288) : val_main_v44 (F := Ideal) x9 (ix2 (0 : Fin 1) j) = Cert.Spec.vec x9 j := by
  rw [val_main_v44_apply]
  show x9 _ = x9 (ix1 j)
  refine congrArg x9 (funext fun a => Fin.ext ?_)
  match a with
  | ⟨0, _⟩ => rfl

/-- The same for the output bias. -/
theorem v77_at (j : Fin 50257) : val_main_v77 (F := Ideal) x11 (ix2 (0 : Fin 1) j) = Cert.Spec.vec x11 j := by
  rw [val_main_v77_apply]
  show x11 _ = x11 (ix1 j)
  refine congrArg x11 (funext fun a => Fin.ext ?_)
  match a with
  | ⟨0, _⟩ => rfl

/-! ## The first cell -/

/-- The input's gate row at (0, j): the input row against row j of the input weight, plus the bias. -/
theorem v5_at (j : Fin 12288) : val_main_v5 (F := Ideal) x0 x2 x4 (ix2 (0 : Fin 1) j)
    = Cert.Spec.mv (Cert.Spec.row3 x0) (Cert.Spec.mat x2) j + Cert.Spec.vec x4 j := by
  rw [val_main_v5_apply, val_main_v3_apply, v4_at, Ideal.addf_def]
  show _ = (∑ k : Fin 4096, (Cert.Spec.row3 x0) k * Cert.Spec.mat x2 j k) + Cert.Spec.vec x4 j
  refine congrArg (· + Cert.Spec.vec x4 j) (Finset.sum_congr rfl fun k _ => ?_)
  have hl : lidx_main_v3 (ix2 (0 : Fin 1) j) k = ix2 (0 : Fin 1) k :=
    funext fun a => Fin.ext (by match a with | ⟨0, _⟩ => rfl | ⟨1, _⟩ => rfl)
  have hr : ridx_main_v3 (ix2 (0 : Fin 1) j) k = ix2 k j :=
    funext fun a => Fin.ext (by match a with | ⟨0, _⟩ => rfl | ⟨1, _⟩ => rfl)
  rw [hl, hr, v0_at, v2_at]

/-- The state's gate row at (0, j). -/
theorem v9_at (j : Fin 12288) : val_main_v9 (F := Ideal) x1 x3 x5 (ix2 (0 : Fin 1) j)
    = Cert.Spec.mv (Cert.Spec.row3 x1) (Cert.Spec.mat x3) j + Cert.Spec.vec x5 j := by
  rw [val_main_v9_apply, val_main_v7_apply, v8_at, Ideal.addf_def]
  show _ = (∑ k : Fin 4096, (Cert.Spec.row3 x1) k * Cert.Spec.mat x3 j k) + Cert.Spec.vec x5 j
  refine congrArg (· + Cert.Spec.vec x5 j) (Finset.sum_congr rfl fun k _ => ?_)
  have hl : lidx_main_v7 (ix2 (0 : Fin 1) j) k = ix2 (0 : Fin 1) k :=
    funext fun a => Fin.ext (by match a with | ⟨0, _⟩ => rfl | ⟨1, _⟩ => rfl)
  have hr : ridx_main_v7 (ix2 (0 : Fin 1) j) k = ix2 k j :=
    funext fun a => Fin.ext (by match a with | ⟨0, _⟩ => rfl | ⟨1, _⟩ => rfl)
  rw [hl, hr, v1_at, v6_at]

/-- The first slice of a gate row at (0, q) reads the row at q. -/
theorem slice_v10 (q : Fin 4096) : idx_main_v10 (ix2 (0 : Fin 1) q) = ix2 (0 : Fin 1) (Cert.Spec.rowR q) :=
  funext fun a => Fin.ext (by match a with | ⟨0, _⟩ => rfl | ⟨1, _⟩ => rfl)

/-- The second slice reads it at 4096 + q. -/
theorem slice_v11 (q : Fin 4096) : idx_main_v11 (ix2 (0 : Fin 1) q) = ix2 (0 : Fin 1) (Cert.Spec.rowZ q) :=
  funext fun a => Fin.ext (by match a with | ⟨0, _⟩ => rfl | ⟨1, _⟩ => rfl)

/-- The third slice reads it at 8192 + q. -/
theorem slice_v12 (q : Fin 4096) : idx_main_v12 (ix2 (0 : Fin 1) q) = ix2 (0 : Fin 1) (Cert.Spec.rowN q) :=
  funext fun a => Fin.ext (by match a with | ⟨0, _⟩ => rfl | ⟨1, _⟩ => rfl)

/-- The state's first slice. -/
theorem slice_v13 (q : Fin 4096) : idx_main_v13 (ix2 (0 : Fin 1) q) = ix2 (0 : Fin 1) (Cert.Spec.rowR q) :=
  funext fun a => Fin.ext (by match a with | ⟨0, _⟩ => rfl | ⟨1, _⟩ => rfl)

/-- The state's second slice. -/
theorem slice_v14 (q : Fin 4096) : idx_main_v14 (ix2 (0 : Fin 1) q) = ix2 (0 : Fin 1) (Cert.Spec.rowZ q) :=
  funext fun a => Fin.ext (by match a with | ⟨0, _⟩ => rfl | ⟨1, _⟩ => rfl)

/-- The state's third slice. -/
theorem slice_v15 (q : Fin 4096) : idx_main_v15 (ix2 (0 : Fin 1) q) = ix2 (0 : Fin 1) (Cert.Spec.rowN q) :=
  funext fun a => Fin.ext (by match a with | ⟨0, _⟩ => rfl | ⟨1, _⟩ => rfl)

theorem v10_at (q : Fin 4096) : val_main_v10 (F := Ideal) x0 x2 x4 (ix2 (0 : Fin 1) q)
    = Cert.Spec.mv (Cert.Spec.row3 x0) (Cert.Spec.mat x2) (Cert.Spec.rowR q) + Cert.Spec.vec x4 (Cert.Spec.rowR q) :=
  ((val_main_v10_apply x0 x2 x4 _).trans (congrArg (val_main_v5 (F := Ideal) x0 x2 x4) (slice_v10 q))).trans (v5_at x0 x2 x4 _)

theorem v11_at (q : Fin 4096) : val_main_v11 (F := Ideal) x0 x2 x4 (ix2 (0 : Fin 1) q)
    = Cert.Spec.mv (Cert.Spec.row3 x0) (Cert.Spec.mat x2) (Cert.Spec.rowZ q) + Cert.Spec.vec x4 (Cert.Spec.rowZ q) :=
  ((val_main_v11_apply x0 x2 x4 _).trans (congrArg (val_main_v5 (F := Ideal) x0 x2 x4) (slice_v11 q))).trans (v5_at x0 x2 x4 _)

theorem v12_at (q : Fin 4096) : val_main_v12 (F := Ideal) x0 x2 x4 (ix2 (0 : Fin 1) q)
    = Cert.Spec.mv (Cert.Spec.row3 x0) (Cert.Spec.mat x2) (Cert.Spec.rowN q) + Cert.Spec.vec x4 (Cert.Spec.rowN q) :=
  ((val_main_v12_apply x0 x2 x4 _).trans (congrArg (val_main_v5 (F := Ideal) x0 x2 x4) (slice_v12 q))).trans (v5_at x0 x2 x4 _)

theorem v13_at (q : Fin 4096) : val_main_v13 (F := Ideal) x1 x3 x5 (ix2 (0 : Fin 1) q)
    = Cert.Spec.mv (Cert.Spec.row3 x1) (Cert.Spec.mat x3) (Cert.Spec.rowR q) + Cert.Spec.vec x5 (Cert.Spec.rowR q) :=
  ((val_main_v13_apply x1 x3 x5 _).trans (congrArg (val_main_v9 (F := Ideal) x1 x3 x5) (slice_v13 q))).trans (v9_at x1 x3 x5 _)

theorem v14_at (q : Fin 4096) : val_main_v14 (F := Ideal) x1 x3 x5 (ix2 (0 : Fin 1) q)
    = Cert.Spec.mv (Cert.Spec.row3 x1) (Cert.Spec.mat x3) (Cert.Spec.rowZ q) + Cert.Spec.vec x5 (Cert.Spec.rowZ q) :=
  ((val_main_v14_apply x1 x3 x5 _).trans (congrArg (val_main_v9 (F := Ideal) x1 x3 x5) (slice_v14 q))).trans (v9_at x1 x3 x5 _)

theorem v15_at (q : Fin 4096) : val_main_v15 (F := Ideal) x1 x3 x5 (ix2 (0 : Fin 1) q)
    = Cert.Spec.mv (Cert.Spec.row3 x1) (Cert.Spec.mat x3) (Cert.Spec.rowN q) + Cert.Spec.vec x5 (Cert.Spec.rowN q) :=
  ((val_main_v15_apply x1 x3 x5 _).trans (congrArg (val_main_v9 (F := Ideal) x1 x3 x5) (slice_v15 q))).trans (v9_at x1 x3 x5 _)

/-- The first cell's row at (0, q) is the model's first state at q. -/
theorem v37_at (q : Fin 4096) : val_main_v37 (F := Ideal) x0 x1 x2 x3 x4 x5 (ix2 (0 : Fin 1) q) = Cert.Spec.h1 x0 x1 x2 x3 x4 x5 q := by
  simp only [val_main_v37_apply, val_main_v35_apply, val_main_v36_apply, val_main_v34_apply, val_main_v33_apply, val_main_cst_3_apply, val_main_v32_apply, val_main_v31_apply, val_main_v30_apply, val_main_v29_apply, val_main_v28_apply, val_main_cst_2_apply, val_main_v27_apply, val_main_v26_apply, val_main_cst_1_apply, val_main_v25_apply, val_main_v24_apply, val_main_v23_apply, val_main_v22_apply, val_main_v21_apply, val_main_cst_0_apply, val_main_v20_apply, val_main_v19_apply, val_main_cst_apply, val_main_v18_apply, val_main_v17_apply, val_main_v16_apply,
    v10_at, v11_at, v12_at, v13_at, v14_at, v15_at, v1_at]
  simp only [Ideal.addf_def, Ideal.subf_def, Ideal.mulf_def, Ideal.hostDivf_def, Ideal.hostUnary_exp_def,
    Ideal.hostUnary_tanh_def, Ideal.hostNegf_def, Ideal.negf_def, Ideal.ofBits_def, logistic_spelt, Cert.Spec.h1, Cert.Spec.gruAt]

/-- The first cell's row is the model's first state laid as a row. -/
theorem v37_eq : val_main_v37 (F := Ideal) x0 x1 x2 x3 x4 x5 = Cert.Spec.asRow (Cert.Spec.h1 x0 x1 x2 x3 x4 x5) := by
  funext i
  obtain ⟨p, q, rfl⟩ : ∃ (p : Fin 1) (q : Fin 4096), i = ix2 p q := ⟨i 0, i 1, eq_ix2 i⟩
  obtain rfl : p = 0 := Subsingleton.elim _ _
  exact v37_at x0 x1 x2 x3 x4 x5 q

/-! ## The second cell: the first state is its input and its state -/

/-- The second cell's input gate row at (0, j): the first state against row j of the weight, plus the bias. -/
theorem v41_at (j : Fin 12288) : val_main_v41 (F := Ideal) x0 x1 x2 x3 x4 x5 x6 x8 (ix2 (0 : Fin 1) j)
    = Cert.Spec.mv (Cert.Spec.h1 x0 x1 x2 x3 x4 x5) (Cert.Spec.mat x6) j + Cert.Spec.vec x8 j := by
  rw [val_main_v41_apply, val_main_v39_apply, v40_at, Ideal.addf_def]
  show _ = (∑ k : Fin 4096, (Cert.Spec.h1 x0 x1 x2 x3 x4 x5) k * Cert.Spec.mat x6 j k) + Cert.Spec.vec x8 j
  refine congrArg (· + Cert.Spec.vec x8 j) (Finset.sum_congr rfl fun k _ => ?_)
  have hl : lidx_main_v39 (ix2 (0 : Fin 1) j) k = ix2 (0 : Fin 1) k :=
    funext fun a => Fin.ext (by match a with | ⟨0, _⟩ => rfl | ⟨1, _⟩ => rfl)
  have hr : ridx_main_v39 (ix2 (0 : Fin 1) j) k = ix2 k j :=
    funext fun a => Fin.ext (by match a with | ⟨0, _⟩ => rfl | ⟨1, _⟩ => rfl)
  rw [hl, hr, v37_at, v38_at]

/-- The second cell's state gate row at (0, j). -/
theorem v45_at (j : Fin 12288) : val_main_v45 (F := Ideal) x0 x1 x2 x3 x4 x5 x7 x9 (ix2 (0 : Fin 1) j)
    = Cert.Spec.mv (Cert.Spec.h1 x0 x1 x2 x3 x4 x5) (Cert.Spec.mat x7) j + Cert.Spec.vec x9 j := by
  rw [val_main_v45_apply, val_main_v43_apply, v44_at, Ideal.addf_def]
  show _ = (∑ k : Fin 4096, (Cert.Spec.h1 x0 x1 x2 x3 x4 x5) k * Cert.Spec.mat x7 j k) + Cert.Spec.vec x9 j
  refine congrArg (· + Cert.Spec.vec x9 j) (Finset.sum_congr rfl fun k _ => ?_)
  have hl : lidx_main_v43 (ix2 (0 : Fin 1) j) k = ix2 (0 : Fin 1) k :=
    funext fun a => Fin.ext (by match a with | ⟨0, _⟩ => rfl | ⟨1, _⟩ => rfl)
  have hr : ridx_main_v43 (ix2 (0 : Fin 1) j) k = ix2 k j :=
    funext fun a => Fin.ext (by match a with | ⟨0, _⟩ => rfl | ⟨1, _⟩ => rfl)
  rw [hl, hr, v37_at, v42_at]

/-- The slices of the second cell's input gate row. -/
theorem slice_v46 (q : Fin 4096) : idx_main_v46 (ix2 (0 : Fin 1) q) = ix2 (0 : Fin 1) (Cert.Spec.rowR q) :=
  funext fun a => Fin.ext (by match a with | ⟨0, _⟩ => rfl | ⟨1, _⟩ => rfl)

/-- Its second slice. -/
theorem slice_v47 (q : Fin 4096) : idx_main_v47 (ix2 (0 : Fin 1) q) = ix2 (0 : Fin 1) (Cert.Spec.rowZ q) :=
  funext fun a => Fin.ext (by match a with | ⟨0, _⟩ => rfl | ⟨1, _⟩ => rfl)

/-- Its third slice. -/
theorem slice_v48 (q : Fin 4096) : idx_main_v48 (ix2 (0 : Fin 1) q) = ix2 (0 : Fin 1) (Cert.Spec.rowN q) :=
  funext fun a => Fin.ext (by match a with | ⟨0, _⟩ => rfl | ⟨1, _⟩ => rfl)

/-- The slices of the second cell's state gate row. -/
theorem slice_v49 (q : Fin 4096) : idx_main_v49 (ix2 (0 : Fin 1) q) = ix2 (0 : Fin 1) (Cert.Spec.rowR q) :=
  funext fun a => Fin.ext (by match a with | ⟨0, _⟩ => rfl | ⟨1, _⟩ => rfl)

/-- Its second slice. -/
theorem slice_v50 (q : Fin 4096) : idx_main_v50 (ix2 (0 : Fin 1) q) = ix2 (0 : Fin 1) (Cert.Spec.rowZ q) :=
  funext fun a => Fin.ext (by match a with | ⟨0, _⟩ => rfl | ⟨1, _⟩ => rfl)

/-- Its third slice. -/
theorem slice_v51 (q : Fin 4096) : idx_main_v51 (ix2 (0 : Fin 1) q) = ix2 (0 : Fin 1) (Cert.Spec.rowN q) :=
  funext fun a => Fin.ext (by match a with | ⟨0, _⟩ => rfl | ⟨1, _⟩ => rfl)

theorem v46_at (q : Fin 4096) : val_main_v46 (F := Ideal) x0 x1 x2 x3 x4 x5 x6 x8 (ix2 (0 : Fin 1) q)
    = Cert.Spec.mv (Cert.Spec.h1 x0 x1 x2 x3 x4 x5) (Cert.Spec.mat x6) (Cert.Spec.rowR q) + Cert.Spec.vec x8 (Cert.Spec.rowR q) :=
  ((val_main_v46_apply x0 x1 x2 x3 x4 x5 x6 x8 _).trans (congrArg (val_main_v41 (F := Ideal) x0 x1 x2 x3 x4 x5 x6 x8) (slice_v46 q))).trans (v41_at x0 x1 x2 x3 x4 x5 x6 x8 _)

theorem v47_at (q : Fin 4096) : val_main_v47 (F := Ideal) x0 x1 x2 x3 x4 x5 x6 x8 (ix2 (0 : Fin 1) q)
    = Cert.Spec.mv (Cert.Spec.h1 x0 x1 x2 x3 x4 x5) (Cert.Spec.mat x6) (Cert.Spec.rowZ q) + Cert.Spec.vec x8 (Cert.Spec.rowZ q) :=
  ((val_main_v47_apply x0 x1 x2 x3 x4 x5 x6 x8 _).trans (congrArg (val_main_v41 (F := Ideal) x0 x1 x2 x3 x4 x5 x6 x8) (slice_v47 q))).trans (v41_at x0 x1 x2 x3 x4 x5 x6 x8 _)

theorem v48_at (q : Fin 4096) : val_main_v48 (F := Ideal) x0 x1 x2 x3 x4 x5 x6 x8 (ix2 (0 : Fin 1) q)
    = Cert.Spec.mv (Cert.Spec.h1 x0 x1 x2 x3 x4 x5) (Cert.Spec.mat x6) (Cert.Spec.rowN q) + Cert.Spec.vec x8 (Cert.Spec.rowN q) :=
  ((val_main_v48_apply x0 x1 x2 x3 x4 x5 x6 x8 _).trans (congrArg (val_main_v41 (F := Ideal) x0 x1 x2 x3 x4 x5 x6 x8) (slice_v48 q))).trans (v41_at x0 x1 x2 x3 x4 x5 x6 x8 _)

theorem v49_at (q : Fin 4096) : val_main_v49 (F := Ideal) x0 x1 x2 x3 x4 x5 x7 x9 (ix2 (0 : Fin 1) q)
    = Cert.Spec.mv (Cert.Spec.h1 x0 x1 x2 x3 x4 x5) (Cert.Spec.mat x7) (Cert.Spec.rowR q) + Cert.Spec.vec x9 (Cert.Spec.rowR q) :=
  ((val_main_v49_apply x0 x1 x2 x3 x4 x5 x7 x9 _).trans (congrArg (val_main_v45 (F := Ideal) x0 x1 x2 x3 x4 x5 x7 x9) (slice_v49 q))).trans (v45_at x0 x1 x2 x3 x4 x5 x7 x9 _)

theorem v50_at (q : Fin 4096) : val_main_v50 (F := Ideal) x0 x1 x2 x3 x4 x5 x7 x9 (ix2 (0 : Fin 1) q)
    = Cert.Spec.mv (Cert.Spec.h1 x0 x1 x2 x3 x4 x5) (Cert.Spec.mat x7) (Cert.Spec.rowZ q) + Cert.Spec.vec x9 (Cert.Spec.rowZ q) :=
  ((val_main_v50_apply x0 x1 x2 x3 x4 x5 x7 x9 _).trans (congrArg (val_main_v45 (F := Ideal) x0 x1 x2 x3 x4 x5 x7 x9) (slice_v50 q))).trans (v45_at x0 x1 x2 x3 x4 x5 x7 x9 _)

theorem v51_at (q : Fin 4096) : val_main_v51 (F := Ideal) x0 x1 x2 x3 x4 x5 x7 x9 (ix2 (0 : Fin 1) q)
    = Cert.Spec.mv (Cert.Spec.h1 x0 x1 x2 x3 x4 x5) (Cert.Spec.mat x7) (Cert.Spec.rowN q) + Cert.Spec.vec x9 (Cert.Spec.rowN q) :=
  ((val_main_v51_apply x0 x1 x2 x3 x4 x5 x7 x9 _).trans (congrArg (val_main_v45 (F := Ideal) x0 x1 x2 x3 x4 x5 x7 x9) (slice_v51 q))).trans (v45_at x0 x1 x2 x3 x4 x5 x7 x9 _)

/-- The second cell's row at (0, q) is the model's second state at q. -/
theorem v73_at (q : Fin 4096) : val_main_v73 (F := Ideal) x0 x1 x2 x3 x4 x5 x6 x7 x8 x9 (ix2 (0 : Fin 1) q) = Cert.Spec.h2 x0 x1 x2 x3 x4 x5 x6 x7 x8 x9 q := by
  simp only [val_main_v73_apply, val_main_v71_apply, val_main_v72_apply, val_main_v70_apply, val_main_v69_apply, val_main_cst_8_apply, val_main_v68_apply, val_main_v67_apply, val_main_v66_apply, val_main_v65_apply, val_main_v64_apply, val_main_cst_7_apply, val_main_v63_apply, val_main_v62_apply, val_main_cst_6_apply, val_main_v61_apply, val_main_v60_apply, val_main_v59_apply, val_main_v58_apply, val_main_v57_apply, val_main_cst_5_apply, val_main_v56_apply, val_main_v55_apply, val_main_cst_4_apply, val_main_v54_apply, val_main_v53_apply, val_main_v52_apply,
    v46_at, v47_at, v48_at, v49_at, v50_at, v51_at, v37_at]
  simp only [Ideal.addf_def, Ideal.subf_def, Ideal.mulf_def, Ideal.hostDivf_def, Ideal.hostUnary_exp_def,
    Ideal.hostUnary_tanh_def, Ideal.hostNegf_def, Ideal.negf_def, Ideal.ofBits_def, logistic_spelt, Cert.Spec.h2, Cert.Spec.gruAt]

/-- The second cell's row is the model's second state laid as a row. -/
theorem v73_eq : val_main_v73 (F := Ideal) x0 x1 x2 x3 x4 x5 x6 x7 x8 x9 = Cert.Spec.asRow (Cert.Spec.h2 x0 x1 x2 x3 x4 x5 x6 x7 x8 x9) := by
  funext i
  obtain ⟨p, q, rfl⟩ : ∃ (p : Fin 1) (q : Fin 4096), i = ix2 p q := ⟨i 0, i 1, eq_ix2 i⟩
  obtain rfl : p = 0 := Subsingleton.elim _ _
  exact v73_at x0 x1 x2 x3 x4 x5 x6 x7 x8 x9 q

/-! ## The second result: the second state as a 1 × 1 × 4096 array -/

theorem v80_eq : val_main_v80 (F := Ideal) x0 x1 x2 x3 x4 x5 x6 x7 x8 x9 = Cert.Spec.hiddenOut x0 x1 x2 x3 x4 x5 x6 x7 x8 x9 := by
  funext i
  obtain ⟨a, b, q, rfl⟩ : ∃ (a b : Fin 1) (q : Fin 4096), i = ix3 a b q := ⟨i 0, i 1, i 2, eq_ix3 i⟩
  obtain rfl : a = 0 := Subsingleton.elim _ _
  obtain rfl : b = 0 := Subsingleton.elim _ _
  rw [val_main_v80_apply]
  have hi : idx_main_v80 (ix3 (0 : Fin 1) (0 : Fin 1) q) = ix2 (0 : Fin 1) q :=
    funext fun a => Fin.ext (by
      match a with
      | ⟨0, _⟩ => rfl
      | ⟨1, _⟩ => show (((0 : Nat) * 1 + 0) * 4096 + q.val) % 4096 = q.val; have := q.isLt; omega)
  rw [hi, v73_at]
  rfl

/-! ## The logits -/

/-- The rectified second state at (0, k). -/
theorem v74_at (k : Fin 4096) : val_main_v74 (F := Ideal) x0 x1 x2 x3 x4 x5 x6 x7 x8 x9 (ix2 (0 : Fin 1) k)
    = max (Cert.Spec.h2 x0 x1 x2 x3 x4 x5 x6 x7 x8 x9 k) (Ideal.ofBits .f32 0x00000000#32) := by
  rw [val_main_v74_apply, val_main_call0_v0_apply, val_main_call0_cst_apply, v73_at, Ideal.maximumf_def, Ideal.ofBits_def]

/-- The logits' row at (0, j) is the model's logit j. -/
theorem v78_at (j : Fin 50257) : val_main_v78 (F := Ideal) x0 x1 x2 x3 x4 x5 x6 x7 x8 x9 x10 x11 (ix2 (0 : Fin 1) j) = Cert.Spec.logits x0 x1 x2 x3 x4 x5 x6 x7 x8 x9 x10 x11 j := by
  rw [val_main_v78_apply, val_main_v76_apply, v77_at, Ideal.addf_def]
  show _ = (∑ k : Fin 4096, max (Cert.Spec.h2 x0 x1 x2 x3 x4 x5 x6 x7 x8 x9 k) (Ideal.ofBits .f32 0x00000000#32) * Cert.Spec.mat x10 j k) + Cert.Spec.vec x11 j
  refine congrArg (· + Cert.Spec.vec x11 j) (Finset.sum_congr rfl fun k _ => ?_)
  have hl : lidx_main_v76 (ix2 (0 : Fin 1) j) k = ix2 (0 : Fin 1) k :=
    funext fun a => Fin.ext (by match a with | ⟨0, _⟩ => rfl | ⟨1, _⟩ => rfl)
  have hr : ridx_main_v76 (ix2 (0 : Fin 1) j) k = ix2 k j :=
    funext fun a => Fin.ext (by match a with | ⟨0, _⟩ => rfl | ⟨1, _⟩ => rfl)
  rw [hl, hr, v74_at, v75_at]

/-- The logits' row is the model's logits laid as a row. -/
theorem v78_eq : val_main_v78 (F := Ideal) x0 x1 x2 x3 x4 x5 x6 x7 x8 x9 x10 x11 = Cert.Spec.logitsArr x0 x1 x2 x3 x4 x5 x6 x7 x8 x9 x10 x11 := by
  funext i
  obtain ⟨p, j, rfl⟩ : ∃ (p : Fin 1) (j : Fin 50257), i = ix2 p j := ⟨i 0, i 1, eq_ix2 i⟩
  obtain rfl : p = 0 := Subsingleton.elim _ _
  exact v78_at x0 x1 x2 x3 x4 x5 x6 x7 x8 x9 x10 x11 j

/-! ## The first result: the shared log-softmax of the logits -/

/-- The reference's last fifteen operations are, as they stand, the model's log-softmax applied to its logits' row. -/
theorem tail_eq : val_main_v79 (F := Ideal) x0 x1 x2 x3 x4 x5 x6 x7 x8 x9 x10 x11
    = Cert.Spec.logSoftmax reducesTo_S1x50257_S1_d1 h_S_ bcast_S_S1 bcast_S1_S1x1_0 bcast_S1x1_S1x50257_0_1
        (val_main_v78 (F := Ideal) x0 x1 x2 x3 x4 x5 x6 x7 x8 x9 x10 x11) := rfl

/-! ## The two results as stages -/

/-- The last stage of the second result is the model's second state. -/
theorem stage_out1 : val_main_v80 (F := Ideal) x0 x1 x2 x3 x4 x5 x6 x7 x8 x9 = Cert.Spec.hiddenOut x0 x1 x2 x3 x4 x5 x6 x7 x8 x9 := v80_eq x0 x1 x2 x3 x4 x5 x6 x7 x8 x9

/-- The last stage of the first result is the model's log-softmax of the model's logits. -/
theorem stage_out0 : val_main_v79 (F := Ideal) x0 x1 x2 x3 x4 x5 x6 x7 x8 x9 x10 x11
    = Cert.Spec.logSoftmax reducesTo_S1x50257_S1_d1 h_S_ bcast_S_S1 bcast_S1_S1x1_0 bcast_S1x1_S1x50257_0_1
        (Cert.Spec.logitsArr x0 x1 x2 x3 x4 x5 x6 x7 x8 x9 x10 x11) :=
  (tail_eq x0 x1 x2 x3 x4 x5 x6 x7 x8 x9 x10 x11).trans
    (congrArg (Cert.Spec.logSoftmax reducesTo_S1x50257_S1_d1 h_S_ bcast_S_S1 bcast_S1_S1x1_0 bcast_S1x1_S1x50257_0_1)
      (v78_eq x0 x1 x2 x3 x4 x5 x6 x7 x8 x9 x10 x11))

/-! ## The two results of the run -/

/-- The run's second result is the model's second state. -/
theorem ref_out1 (m : (ℓ : Loc nD τ sig) → Buf (Elt Ideal) ℓ) (c : Dev nD) :
    Cert.ReferenceIdeal.ValueP.res_out1 (F := Ideal) m c
      = Cert.Spec.hiddenOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (val_main_v80_eq (F := Ideal) m c).trans (stage_out1 _ _ _ _ _ _ _ _ _ _)

/-- The run's first result is the model's log-softmax of the model's logits. -/
theorem ref_out0 (m : (ℓ : Loc nD τ sig) → Buf (Elt Ideal) ℓ) (c : Dev nD) :
    Cert.ReferenceIdeal.ValueP.res_out0 (F := Ideal) m c
      = Cert.Spec.logSoftmax reducesTo_S1x50257_S1_d1 h_S_ bcast_S_S1 bcast_S1_S1x1_0 bcast_S1x1_S1x50257_0_1
          (Cert.Spec.logitsArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :=
  (val_main_v79_eq (F := Ideal) m c).trans (stage_out0 _ _ _ _ _ _ _ _ _ _ _ _)

end Cert.RefValue

end
-- ==== Proof.lean ====
/-
  A two-layer GRU step followed by a rectified linear layer and a log-softmax: the kernel program against the reference.

  Both programs compute, over the extended reals, the same functions of the twelve arguments (proof/Proof/Spec.lean): each GRU
  cell's state coordinate by coordinate from six matrix–vector products (finite sums over the contracted axis, the same
  products in the same order on both sides; the kernel tiles the hidden axis into 32 blocks of 128, the reference takes
  whole 12288-rows and slices them), the logistic function (the kernel's one operation IS the reference's
  1 / (1 + e^(−x)) there), tanh, and the gating; the logits as the rectified state against the output weights (the
  kernel in 99 blocks of 512, the last one reaching past the array: a logit is a sum over its own weight row, so the
  overhanging rows reach no logit that is kept); and the same log-softmax applied to equal logits.  No law beyond
  reindexing the sums is used, so the finiteness of the inputs is never opened.

  The frames: each program terminates, faults nowhere and leaves its arguments as launched.  For the two kernel programs
  that is the run of three pipelined regions among host operations; at the word level what the last region leaves in the
  logits array is not named (the word-level product reads the whole weight tile, overhanging rows included), and the host
  operations after it run at whatever it holds.
-/
import proofs.«157188_j18528488915578_1_alg».proof.Defs
import proofs.«157188_j18528488915578_1_alg».proof.Proof.Gen.Kernel
import proofs.«157188_j18528488915578_1_alg».proof.Proof.Gen.KernelIdeal
import proofs.«157188_j18528488915578_1_alg».proof.Proof.Gen.ReferenceIdeal
import proofs.«157188_j18528488915578_1_alg».proof.Proof.Gen.Pre_finite_inputs
import proofs.«157188_j18528488915578_1_alg».proof.Proof.K.Run
import proofs.«157188_j18528488915578_1_alg».proof.Proof.KI.Run
import proofs.«157188_j18528488915578_1_alg».proof.Proof.KI.R2Exact
import proofs.«157188_j18528488915578_1_alg».proof.Proof.KI.KValue
import proofs.«157188_j18528488915578_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments: the projection's result window forgotten. -/
theorem frame_kernel : Cert.frame_Kernel := fun m ρ _ =>
  Cert.Kernel.Hand.run_frame (F := Bits) m ρ Cert.Kernel.Hand.fgt3 (by decide) (fun c => Cert.Kernel.Hand.body_obligation2_forget _ c)

/-- So does the idealized one. -/
theorem frame_kernelIdeal : Cert.frame_KernelIdeal := fun m ρ _ =>
  Cert.KernelIdeal.Hand.run_frame (F := Ideal) m ρ Cert.KernelIdeal.Hand.fgt3 (by decide) (fun c => Cert.KernelIdeal.Hand.body_obligation2_forget _ c)

/-- The reference is host operations only: its run with the results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- Over the extended reals both programs end with the model's two functions of the arguments: the kernel by its run with
    nothing forgotten (the logits array at the pipeline's named contents), the reference by its run read operation by
    operation; the log-softmax is one function applied to equal logits on both sides. -/
theorem algebraic : Cert.algebraic_KernelIdeal_ReferenceIdeal := by
  intro m ρ m' ρ' _ hagree
  refine ⟨fun c => Cert.Spec.logSoftmax Cert.KernelIdeal.Gen.reducesTo_S1x50257_S1_d1 Cert.KernelIdeal.Gen.h_S_ Cert.KernelIdeal.Gen.bcast_S_S1 Cert.KernelIdeal.Gen.bcast_S1_S1x1_0 Cert.KernelIdeal.Gen.bcast_S1x1_S1x50257_0_1
      (Cert.Spec.logitsArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))),
    fun c => Cert.Spec.hiddenOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_)
      (Cert.KernelIdeal.Hand.run_main (F := Ideal) m ρ (fun _ => false) (fun _ _ => rfl) (fun c => Cert.KernelIdeal.Hand.body_obligation2_exact _ c))
    obtain ⟨x, hx, hb⟩ := h c
    have hx' : x = Cert.KernelIdeal.Hand.o9 m c := hx rfl
    refine ⟨?_, ?_, (hb _ (Cert.KernelIdeal.Hand.mem_uc Cert.KernelIdeal.main_arg0 (by decide))).trans (Cert.KernelIdeal.Hand.W8_kept m c x Cert.KernelIdeal.main_arg0 (by decide) (by decide) (by decide) (by decide) (by decide) (by decide) (by decide) (by decide)),
      (hb _ (Cert.KernelIdeal.Hand.mem_uc Cert.KernelIdeal.main_arg1 (by decide))).trans (Cert.KernelIdeal.Hand.W8_kept m c x Cert.KernelIdeal.main_arg1 (by decide) (by decide) (by decide) (by decide) (by decide) (by decide) (by decide) (by decide)),
      (hb _ (Cert.KernelIdeal.Hand.mem_uc Cert.KernelIdeal.main_arg2 (by decide))).trans (Cert.KernelIdeal.Hand.W8_kept m c x Cert.KernelIdeal.main_arg2 (by decide) (by decide) (by decide) (by decide) (by decide) (by decide) (by decide) (by decide)),
      (hb _ (Cert.KernelIdeal.Hand.mem_uc Cert.KernelIdeal.main_arg3 (by decide))).trans (Cert.KernelIdeal.Hand.W8_kept m c x Cert.KernelIdeal.main_arg3 (by decide) (by decide) (by decide) (by decide) (by decide) (by decide) (by decide) (by decide)),
      (hb _ (Cert.KernelIdeal.Hand.mem_uc Cert.KernelIdeal.main_arg4 (by decide))).trans (Cert.KernelIdeal.Hand.W8_kept m c x Cert.KernelIdeal.main_arg4 (by decide) (by decide) (by decide) (by decide) (by decide) (by decide) (by decide) (by decide)),
      (hb _ (Cert.KernelIdeal.Hand.mem_uc Cert.KernelIdeal.main_arg5 (by decide))).trans (Cert.KernelIdeal.Hand.W8_kept m c x Cert.KernelIdeal.main_arg5 (by decide) (by decide) (by decide) (by decide) (by decide) (by decide) (by decide) (by decide)),
      (hb _ (Cert.KernelIdeal.Hand.mem_uc Cert.KernelIdeal.main_arg6 (by decide))).trans (Cert.KernelIdeal.Hand.W8_kept m c x Cert.KernelIdeal.main_arg6 (by decide) (by decide) (by decide) (by decide) (by decide) (by decide) (by decide) (by decide)),
      (hb _ (Cert.KernelIdeal.Hand.mem_uc Cert.KernelIdeal.main_arg7 (by decide))).trans (Cert.KernelIdeal.Hand.W8_kept m c x Cert.KernelIdeal.main_arg7 (by decide) (by decide) (by decide) (by decide) (by decide) (by decide) (by decide) (by decide)),
      (hb _ (Cert.KernelIdeal.Hand.mem_uc Cert.KernelIdeal.main_arg8 (by decide))).trans (Cert.KernelIdeal.Hand.W8_kept m c x Cert.KernelIdeal.main_arg8 (by decide) (by decide) (by decide) (by decide) (by decide) (by decide) (by decide) (by decide)),
      (hb _ (Cert.KernelIdeal.Hand.mem_uc Cert.KernelIdeal.main_arg9 (by decide))).trans (Cert.KernelIdeal.Hand.W8_kept m c x Cert.KernelIdeal.main_arg9 (by decide) (by decide) (by decide) (by decide) (by decide) (by decide) (by decide) (by decide)),
      (hb _ (Cert.KernelIdeal.Hand.mem_uc Cert.KernelIdeal.main_arg10 (by decide))).trans (Cert.KernelIdeal.Hand.W8_kept m c x Cert.KernelIdeal.main_arg10 (by decide) (by decide) (by decide) (by decide) (by decide) (by decide) (by decide) (by decide)),
      (hb _ (Cert.KernelIdeal.Hand.mem_uc Cert.KernelIdeal.main_arg11 (by decide))).trans (Cert.KernelIdeal.Hand.W8_kept m c x Cert.KernelIdeal.main_arg11 (by decide) (by decide) (by decide) (by decide) (by decide) (by decide) (by decide) (by decide))⟩
    · exact (hb _ (Cert.KernelIdeal.Hand.mem_uc Cert.KernelIdeal.main_v10 (by decide))).trans ((Cert.KernelIdeal.Hand.W8_v10 m c x).trans (by rw [hx', Cert.KernelIdeal.Hand.o9_eq]))
    · exact (hb _ (Cert.KernelIdeal.Hand.mem_uc Cert.KernelIdeal.main_v11 (by decide))).trans (Cert.KernelIdeal.Hand.W8_v11 m c x)
  · refine (θ_run Cert.ReferenceIdeal.defs _ _).mono (fun r h c => ?_) (Cert.ReferenceIdeal.ValueP.run (F := Ideal) m' ρ')
    have hg := hagree c
    have e0 := Cert.RefValue.ref_out0 m' c
    have e1 := Cert.RefValue.ref_out1 m' c
    rw [hg.1, hg.2.1, hg.2.2.1, hg.2.2.2.1, hg.2.2.2.2.1, hg.2.2.2.2.2.1, hg.2.2.2.2.2.2.1, hg.2.2.2.2.2.2.2.1, hg.2.2.2.2.2.2.2.2.1, hg.2.2.2.2.2.2.2.2.2.1, hg.2.2.2.2.2.2.2.2.2.2.1, hg.2.2.2.2.2.2.2.2.2.2.2] at e0
    rw [hg.1, hg.2.1, hg.2.2.1, hg.2.2.2.1, hg.2.2.2.2.1, hg.2.2.2.2.2.1, hg.2.2.2.2.2.2.1, hg.2.2.2.2.2.2.2.1, hg.2.2.2.2.2.2.2.2.1, hg.2.2.2.2.2.2.2.2.2.1] at e1
    exact ⟨(h c).1.trans e0, (h c).2.1.trans e1, (h c).2.2⟩

/-- The certificate: the three frames, the (empty) ledger of idealization rewrites, and the equality of results. -/
theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
